-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v160) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S16384x128 : Shape := ⟨2, ![16384, 128]⟩
abbrev S16384x50 : Shape := ⟨2, ![16384, 50]⟩
abbrev S91718x128 : Shape := ⟨2, ![91718, 128]⟩
abbrev S11x128 : Shape := ⟨2, ![11, 128]⟩
abbrev S128x128 : Shape := ⟨2, ![128, 128]⟩
abbrev S128 : Shape := ⟨1, ![128]⟩
abbrev S6x3 : Shape := ⟨2, ![6, 3]⟩
abbrev S3 : Shape := ⟨1, ![3]⟩
abbrev S3x6 : Shape := ⟨2, ![3, 6]⟩
abbrev S6 : Shape := ⟨1, ![6]⟩
abbrev S2688x512 : Shape := ⟨2, ![2688, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S91718x128 : S_.BroadcastsInDim S91718x128 (![] : Fin 0 → Fin S91718x128.rank)
  reducesTo_S91718x128_S_d0_1 : S91718x128.ReducesTo [0, 1] S_
  bcast_S_S11x128 : S_.BroadcastsInDim S11x128 (![] : Fin 0 → Fin S11x128.rank)
  reducesTo_S11x128_S_d0_1 : S11x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S6x3 : S_.BroadcastsInDim S6x3 (![] : Fin 0 → Fin S6x3.rank)
  reducesTo_S6x3_S_d0_1 : S6x3.ReducesTo [0, 1] S_
  bcast_S_S3 : S_.BroadcastsInDim S3 (![] : Fin 0 → Fin S3.rank)
  reducesTo_S3_S_d0 : S3.ReducesTo [0] S_
  bcast_S_S3x6 : S_.BroadcastsInDim S3x6 (![] : Fin 0 → Fin S3x6.rank)
  reducesTo_S3x6_S_d0_1 : S3x6.ReducesTo [0, 1] S_
  bcast_S_S6 : S_.BroadcastsInDim S6 (![] : Fin 0 → Fin S6.rank)
  reducesTo_S6_S_d0 : S6.ReducesTo [0] S_
  bcast_S_S2688x512 : S_.BroadcastsInDim S2688x512 (![] : Fin 0 → Fin S2688x512.rank)
  reducesTo_S2688x512_S_d0_1 : S2688x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_
  bcast_S_S16384 : S_.BroadcastsInDim S16384 (![] : Fin 0 → Fin S16384.rank)
  reducesTo_S16384_S_d0 : S16384.ReducesTo [0] S_

variable [Facts]

def fn_part8 {F : FTy → Type} [FloatOps F] (main_arg3 : IVec S16384 32) (main_arg21 : FVec F S512 .f32) (main_arg27 : FVec F S256 .f32) (main_v135 : IVec S_ 1) (main_c_53 : IVec S_ 32) : IVec S_ 1 :=
  let main_v136 : IVec S16384 32 := broadcastInDim S16384 ![] bcast_S_S16384 main_c_53
  let main_v137 : IVec S16384 1 := cmpi .sge main_arg3 main_v136
  let main_c_54 : IVec S_ 32 := constantI S_ 32 11#32
  let main_v138 : IVec S16384 32 := broadcastInDim S16384 ![] bcast_S_S16384 main_c_54
  let main_v139 : IVec S16384 1 := cmpi .slt main_arg3 main_v138
  let main_v140 : IVec S16384 1 := andi main_v137 main_v139
  let main_c_55 : IVec S_ 1 := constantI S_ 1 1#1
  let main_v141 : IVec S_ 1 := (fun x v => Host.reduce IntOp.andi x v reducesTo_S16384_S_d0 h_S_) main_v140 main_c_55
  let main_v142 : IVec S_ 1 := andi main_v135 main_v141
  let main_cst_56 : FVec F S_ .f32 := constant S_ .f32 0x00000000#32
  let main_v143 : FVec F S512 .f32 := broadcastInDim S512 ![] bcast_S_S512 main_cst_56
  let main_v144 : IVec S512 1 := cmpf .oge main_arg21 main_v143
  let main_c_57 : IVec S_ 1 := constantI S_ 1 1#1
  let main_v145 : IVec S_ 1 := (fun x v => Host.reduce IntOp.andi x v reducesTo_S512_S_d0 h_S_) main_v144 main_c_57
  let main_v146 : IVec S_ 1 := andi main_v142 main_v145
  let main_cst_58 : FVec F S_ .f32 := constant S_ .f32 0x00000000#32
  let main_v147 : FVec F S256 .f32 := broadcastInDim S256 ![] bcast_S_S256 main_cst_58
  let main_v148 : IVec S256 1 := cmpf .oge main_arg27 main_v147
  let main_c_59 : IVec S_ 1 := constantI S_ 1 1#1
  let main_v149 : IVec S_ 1 := (fun x v => Host.reduce IntOp.andi x v reducesTo_S256_S_d0 h_S_) main_v148 main_c_59
  let main_v150 : IVec S_ 1 := andi main_v146 main_v149
  main_v150

def fn_part7 {F : FTy → Type} [FloatOps F] (main_arg2 : IVec S16384 32) (main_arg3 : IVec S16384 32) (main_arg21 : FVec F S512 .f32) (main_arg27 : FVec F S256 .f32) (main_arg29 : FVec F S1 .f32) (main_v118 : IVec S_ 1) (main_v119 : FVec F S256x1 .f32) : IVec S_ 1 :=
  let main_cst_46 : FVec F S_ .f32 := constant S_ .f32 0x7F800000#32
  let main_v120 : FVec F S256x1 .f32 := broadcastInDim S256x1 ![] bcast_S_S256x1 main_cst_46
  let main_v121 : IVec S256x1 1 := cmpf .olt main_v119 main_v120
  let main_c_47 : IVec S_ 1 := constantI S_ 1 1#1
  let main_v122 : IVec S_ 1 := (fun x v => Host.reduce IntOp.andi x v reducesTo_S256x1_S_d0_1 h_S_) main_v121 main_c_47
  let main_v123 : IVec S_ 1 := andi main_v118 main_v122
  let main_v124 : FVec F S1 .f32 := Host.absf main_arg29
  let main_cst_48 : FVec F S_ .f32 := constant S_ .f32 0x7F800000#32
  let main_v125 : FVec F S1 .f32 := broadcastInDim S1 ![] bcast_S_S1 main_cst_48
  let main_v126 : IVec S1 1 := cmpf .olt main_v124 main_v125
  let main_c_49 : IVec S_ 1 := constantI S_ 1 1#1
  let main_v127 : IVec S_ 1 := (fun x v => Host.reduce IntOp.andi x v reducesTo_S1_S_d0 h_S_) main_v126 main_c_49
  let main_v128 : IVec S_ 1 := andi main_v123 main_v127
  let main_c_50 : IVec S_ 32 := constantI S_ 32 0#32
  let main_v129 : IVec S16384 32 := broadcastInDim S16384 ![] bcast_S_S16384 main_c_50
  let main_v130 : IVec S16384 1 := cmpi .sge main_arg2 main_v129
  let main_c_51 : IVec S_ 32 := constantI S_ 32 11#32
  let main_v131 : IVec S16384 32 := broadcastInDim S16384 ![] bcast_S_S16384 main_c_51
  let main_v132 : IVec S16384 1 := cmpi .slt main_arg2 main_v131
  let main_v133 : IVec S16384 1 := andi main_v130 main_v132
  let main_c_52 : IVec S_ 1 := constantI S_ 1 1#1
  let main_v134 : IVec S_ 1 := (fun x v => Host.reduce IntOp.andi x v reducesTo_S16384_S_d0 h_S_) main_v133 main_c_52
  let main_v135 : IVec S_ 1 := andi main_v128 main_v134
  let main_c_53 : IVec S_ 32 := constantI S_ 32 0#32
  fn_part8 (F := F) main_arg3 main_arg21 main_arg27 main_v135 main_c_53

def fn_part6 {F : FTy → Type} [FloatOps F] (main_arg2 : IVec S16384 32) (main_arg3 : IVec S16384 32) (main_arg21 : FVec F S512 .f32) (main_arg25 : FVec F S256 .f32) (main_arg26 : FVec F S256 .f32) (main_arg27 : FVec F S256 .f32) (main_arg28 : FVec F S256x1 .f32) (main_arg29 : FVec F S1 .f32) (main_v98 : IVec S_ 1) (main_v101 : IVec S256 1) (main_c_39 : IVec S_ 1) : IVec S_ 1 :=
  let main_v102 : IVec S_ 1 := (fun x v => Host.reduce IntOp.andi x v reducesTo_S256_S_d0 h_S_) main_v101 main_c_39
  let main_v103 : IVec S_ 1 := andi main_v98 main_v102
  let main_v104 : FVec F S256 .f32 := Host.absf main_arg25
  let main_cst_40 : FVec F S_ .f32 := constant S_ .f32 0x7F800000#32
  let main_v105 : FVec F S256 .f32 := broadcastInDim S256 ![] bcast_S_S256 main_cst_40
  let main_v106 : IVec S256 1 := cmpf .olt main_v104 main_v105
  let main_c_41 : IVec S_ 1 := constantI S_ 1 1#1
  let main_v107 : IVec S_ 1 := (fun x v => Host.reduce IntOp.andi x v reducesTo_S256_S_d0 h_S_) main_v106 main_c_41
  let main_v108 : IVec S_ 1 := andi main_v103 main_v107
  let main_v109 : FVec F S256 .f32 := Host.absf main_arg26
  let main_cst_42 : FVec F S_ .f32 := constant S_ .f32 0x7F800000#32
  let main_v110 : FVec F S256 .f32 := broadcastInDim S256 ![] bcast_S_S256 main_cst_42
  let main_v111 : IVec S256 1 := cmpf .olt main_v109 main_v110
  let main_c_43 : IVec S_ 1 := constantI S_ 1 1#1
  let main_v112 : IVec S_ 1 := (fun x v => Host.reduce IntOp.andi x v reducesTo_S256_S_d0 h_S_) main_v111 main_c_43
  let main_v113 : IVec S_ 1 := andi main_v108 main_v112
  let main_v114 : FVec F S256 .f32 := Host.absf main_arg27
  let main_cst_44 : FVec F S_ .f32 := constant S_ .f32 0x7F800000#32
  let main_v115 : FVec F S256 .f32 := broadcastInDim S256 ![] bcast_S_S256 main_cst_44
  let main_v116 : IVec S256 1 := cmpf .olt main_v114 main_v115
  let main_c_45 : IVec S_ 1 := constantI S_ 1 1#1
  let main_v117 : IVec S_ 1 := (fun x v => Host.reduce IntOp.andi x v reducesTo_S256_S_d0 h_S_) main_v116 main_c_45
  let main_v118 : IVec S_ 1 := andi main_v113 main_v117
  let main_v119 : FVec F S256x1 .f32 := Host.absf main_arg28
  fn_part7 (F := F) main_arg2 main_arg3 main_arg21 main_arg27 main_arg29 main_v118 main_v119

def fn_part5 {F : FTy → Type} [FloatOps F] (main_arg2 : IVec S16384 32) (main_arg3 : IVec S16384 32) (main_arg21 : FVec F S512 .f32) (main_arg22 : FVec F S512x256 .f32) (main_arg23 : FVec F S256 .f32) (main_arg24 : FVec F S256 .f32) (main_arg25 : FVec F S256 .f32) (main_arg26 : FVec F S256 .f32) (main_arg27 : FVec F S256 .f32) (main_arg28 : FVec F S256x1 .f32) (main_arg29 : FVec F S1 .f32) (main_v83 : IVec S_ 1) (main_v84 : FVec F S512 .f32) (main_cst_32 : FVec F S_ .f32) : IVec S_ 1 :=
  let main_v85 : FVec F S512 .f32 := broadcastInDim S512 ![] bcast_S_S512 main_cst_32
  let main_v86 : IVec S512 1 := cmpf .olt main_v84 main_v85
  let main_c_33 : IVec S_ 1 := constantI S_ 1 1#1
  let main_v87 : IVec S_ 1 := (fun x v => Host.reduce IntOp.andi x v reducesTo_S512_S_d0 h_S_) main_v86 main_c_33
  let main_v88 : IVec S_ 1 := andi main_v83 main_v87
  let main_v89 : FVec F S512x256 .f32 := Host.absf main_arg22
  let main_cst_34 : FVec F S_ .f32 := constant S_ .f32 0x7F800000#32
  let main_v90 : FVec F S512x256 .f32 := broadcastInDim S512x256 ![] bcast_S_S512x256 main_cst_34
  let main_v91 : IVec S512x256 1 := cmpf .olt main_v89 main_v90
  let main_c_35 : IVec S_ 1 := constantI S_ 1 1#1
  let main_v92 : IVec S_ 1 := (fun x v => Host.reduce IntOp.andi x v reducesTo_S512x256_S_d0_1 h_S_) main_v91 main_c_35
  let main_v93 : IVec S_ 1 := andi main_v88 main_v92
  let main_v94 : FVec F S256 .f32 := Host.absf main_arg23
  let main_cst_36 : FVec F S_ .f32 := constant S_ .f32 0x7F800000#32
  let main_v95 : FVec F S256 .f32 := broadcastInDim S256 ![] bcast_S_S256 main_cst_36
  let main_v96 : IVec S256 1 := cmpf .olt main_v94 main_v95
  let main_c_37 : IVec S_ 1 := constantI S_ 1 1#1
  let main_v97 : IVec S_ 1 := (fun x v => Host.reduce IntOp.andi x v reducesTo_S256_S_d0 h_S_) main_v96 main_c_37
  let main_v98 : IVec S_ 1 := andi main_v93 main_v97
  let main_v99 : FVec F S256 .f32 := Host.absf main_arg24
  let main_cst_38 : FVec F S_ .f32 := constant S_ .f32 0x7F800000#32
  let main_v100 : FVec F S256 .f32 := broadcastInDim S256 ![] bcast_S_S256 main_cst_38
  let main_v101 : IVec S256 1 := cmpf .olt main_v99 main_v100
  let main_c_39 : IVec S_ 1 := constantI S_ 1 1#1
  fn_part6 (F := F) main_arg2 main_arg3 main_arg21 main_arg25 main_arg26 main_arg27 main_arg28 main_arg29 main_v98 main_v101 main_c_39

def fn_part4 {F : FTy → Type} [FloatOps F] (main_arg2 : IVec S16384 32) (main_arg3 : IVec S16384 32) (main_arg18 : FVec F S512 .f32) (main_arg19 : FVec F S512 .f32) (main_arg20 : FVec F S512 .f32) (main_arg21 : FVec F S512 .f32) (main_arg22 : FVec F S512x256 .f32) (main_arg23 : FVec F S256 .f32) (main_arg24 : FVec F S256 .f32) (main_arg25 : FVec F S256 .f32) (main_arg26 : FVec F S256 .f32) (main_arg27 : FVec F S256 .f32) (main_arg28 : FVec F S256x1 .f32) (main_arg29 : FVec F S1 .f32) (main_v63 : IVec S_ 1) (main_v67 : IVec S_ 1) : IVec S_ 1 :=
  let main_v68 : IVec S_ 1 := andi main_v63 main_v67
  let main_v69 : FVec F S512 .f32 := Host.absf main_arg18
  let main_cst_26 : FVec F S_ .f32 := constant S_ .f32 0x7F800000#32
  let main_v70 : FVec F S512 .f32 := broadcastInDim S512 ![] bcast_S_S512 main_cst_26
  let main_v71 : IVec S512 1 := cmpf .olt main_v69 main_v70
  let main_c_27 : IVec S_ 1 := constantI S_ 1 1#1
  let main_v72 : IVec S_ 1 := (fun x v => Host.reduce IntOp.andi x v reducesTo_S512_S_d0 h_S_) main_v71 main_c_27
  let main_v73 : IVec S_ 1 := andi main_v68 main_v72
  let main_v74 : FVec F S512 .f32 := Host.absf main_arg19
  let main_cst_28 : FVec F S_ .f32 := constant S_ .f32 0x7F800000#32
  let main_v75 : FVec F S512 .f32 := broadcastInDim S512 ![] bcast_S_S512 main_cst_28
  let main_v76 : IVec S512 1 := cmpf .olt main_v74 main_v75
  let main_c_29 : IVec S_ 1 := constantI S_ 1 1#1
  let main_v77 : IVec S_ 1 := (fun x v => Host.reduce IntOp.andi x v reducesTo_S512_S_d0 h_S_) main_v76 main_c_29
  let main_v78 : IVec S_ 1 := andi main_v73 main_v77
  let main_v79 : FVec F S512 .f32 := Host.absf main_arg20
  let main_cst_30 : FVec F S_ .f32 := constant S_ .f32 0x7F800000#32
  let main_v80 : FVec F S512 .f32 := broadcastInDim S512 ![] bcast_S_S512 main_cst_30
  let main_v81 : IVec S512 1 := cmpf .olt main_v79 main_v80
  let main_c_31 : IVec S_ 1 := constantI S_ 1 1#1
  let main_v82 : IVec S_ 1 := (fun x v => Host.reduce IntOp.andi x v reducesTo_S512_S_d0 h_S_) main_v81 main_c_31
  let main_v83 : IVec S_ 1 := andi main_v78 main_v82
  let main_v84 : FVec F S512 .f32 := Host.absf main_arg21
  let main_cst_32 : FVec F S_ .f32 := constant S_ .f32 0x7F800000#32
  fn_part5 (F := F) main_arg2 main_arg3 main_arg21 main_arg22 main_arg23 main_arg24 main_arg25 main_arg26 main_arg27 main_arg28 main_arg29 main_v83 main_v84 main_cst_32

def fn_part3 {F : FTy → Type} [FloatOps F] (main_arg2 : IVec S16384 32) (main_arg3 : IVec S16384 32) (main_arg15 : FVec F S128x128 .f32) (main_arg16 : FVec F S2688x512 .f32) (main_arg17 : FVec F S512 .f32) (main_arg18 : FVec F S512 .f32) (main_arg19 : FVec F S512 .f32) (main_arg20 : FVec F S512 .f32) (main_arg21 : FVec F S512 .f32) (main_arg22 : FVec F S512x256 .f32) (main_arg23 : FVec F S256 .f32) (main_arg24 : FVec F S256 .f32) (main_arg25 : FVec F S256 .f32) (main_arg26 : FVec F S256 .f32) (main_arg27 : FVec F S256 .f32) (main_arg28 : FVec F S256x1 .f32) (main_arg29 : FVec F S1 .f32) (main_v48 : IVec S_ 1) (main_v49 : FVec F S6 .f32) (main_v50 : FVec F S6 .f32) : IVec S_ 1 :=
  let main_v51 : IVec S6 1 := cmpf .olt main_v49 main_v50
  let main_c_19 : IVec S_ 1 := constantI S_ 1 1#1
  let main_v52 : IVec S_ 1 := (fun x v => Host.reduce IntOp.andi x v reducesTo_S6_S_d0 h_S_) main_v51 main_c_19
  let main_v53 : IVec S_ 1 := andi main_v48 main_v52
  let main_v54 : FVec F S128x128 .f32 := Host.absf main_arg15
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S2688x512 .f32 := Host.absf main_arg16
  let main_cst_22 : FVec F S_ .f32 := constant S_ .f32 0x7F800000#32
  let main_v60 : FVec F S2688x512 .f32 := broadcastInDim S2688x512 ![] bcast_S_S2688x512 main_cst_22
  let main_v61 : IVec S2688x512 1 := cmpf .olt main_v59 main_v60
  let main_c_23 : IVec S_ 1 := constantI S_ 1 1#1
  let main_v62 : IVec S_ 1 := (fun x v => Host.reduce IntOp.andi x v reducesTo_S2688x512_S_d0_1 h_S_) main_v61 main_c_23
  let main_v63 : IVec S_ 1 := andi main_v58 main_v62
  let main_v64 : FVec F S512 .f32 := Host.absf main_arg17
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg2 main_arg3 main_arg18 main_arg19 main_arg20 main_arg21 main_arg22 main_arg23 main_arg24 main_arg25 main_arg26 main_arg27 main_arg28 main_arg29 main_v63 main_v67

def fn_part2 {F : FTy → Type} [FloatOps F] (main_arg2 : IVec S16384 32) (main_arg3 : IVec S16384 32) (main_arg11 : FVec F S6x3 .f32) (main_arg12 : FVec F S3 .f32) (main_arg13 : FVec F S3x6 .f32) (main_arg14 : FVec F S6 .f32) (main_arg15 : FVec F S128x128 .f32) (main_arg16 : FVec F S2688x512 .f32) (main_arg17 : FVec F S512 .f32) (main_arg18 : FVec F S512 .f32) (main_arg19 : FVec F S512 .f32) (main_arg20 : FVec F S512 .f32) (main_arg21 : FVec F S512 .f32) (main_arg22 : FVec F S512x256 .f32) (main_arg23 : FVec F S256 .f32) (main_arg24 : FVec F S256 .f32) (main_arg25 : FVec F S256 .f32) (main_arg26 : FVec F S256 .f32) (main_arg27 : FVec F S256 .f32) (main_arg28 : FVec F S256x1 .f32) (main_arg29 : FVec F S1 .f32) (main_v33 : IVec S_ 1) : IVec S_ 1 :=
  let main_v34 : FVec F S6x3 .f32 := Host.absf main_arg11
  let main_cst_12 : FVec F S_ .f32 := constant S_ .f32 0x7F800000#32
  let main_v35 : FVec F S6x3 .f32 := broadcastInDim S6x3 ![] bcast_S_S6x3 main_cst_12
  let main_v36 : IVec S6x3 1 := cmpf .olt main_v34 main_v35
  let main_c_13 : IVec S_ 1 := constantI S_ 1 1#1
  let main_v37 : IVec S_ 1 := (fun x v => Host.reduce IntOp.andi x v reducesTo_S6x3_S_d0_1 h_S_) main_v36 main_c_13
  let main_v38 : IVec S_ 1 := andi main_v33 main_v37
  let main_v39 : FVec F S3 .f32 := Host.absf main_arg12
  let main_cst_14 : FVec F S_ .f32 := constant S_ .f32 0x7F800000#32
  let main_v40 : FVec F S3 .f32 := broadcastInDim S3 ![] bcast_S_S3 main_cst_14
  let main_v41 : IVec S3 1 := cmpf .olt main_v39 main_v40
  let main_c_15 : IVec S_ 1 := constantI S_ 1 1#1
  let main_v42 : IVec S_ 1 := (fun x v => Host.reduce IntOp.andi x v reducesTo_S3_S_d0 h_S_) main_v41 main_c_15
  let main_v43 : IVec S_ 1 := andi main_v38 main_v42
  let main_v44 : FVec F S3x6 .f32 := Host.absf main_arg13
  let main_cst_16 : FVec F S_ .f32 := constant S_ .f32 0x7F800000#32
  let main_v45 : FVec F S3x6 .f32 := broadcastInDim S3x6 ![] bcast_S_S3x6 main_cst_16
  let main_v46 : IVec S3x6 1 := cmpf .olt main_v44 main_v45
  let main_c_17 : IVec S_ 1 := constantI S_ 1 1#1
  let main_v47 : IVec S_ 1 := (fun x v => Host.reduce IntOp.andi x v reducesTo_S3x6_S_d0_1 h_S_) main_v46 main_c_17
  let main_v48 : IVec S_ 1 := andi main_v43 main_v47
  let main_v49 : FVec F S6 .f32 := Host.absf main_arg14
  let main_cst_18 : FVec F S_ .f32 := constant S_ .f32 0x7F800000#32
  let main_v50 : FVec F S6 .f32 := broadcastInDim S6 ![] bcast_S_S6 main_cst_18
  fn_part3 (F := F) main_arg2 main_arg3 main_arg15 main_arg16 main_arg17 main_arg18 main_arg19 main_arg20 main_arg21 main_arg22 main_arg23 main_arg24 main_arg25 main_arg26 main_arg27 main_arg28 main_arg29 main_v48 main_v49 main_v50

def fn_part1 {F : FTy → Type} [FloatOps F] (main_arg2 : IVec S16384 32) (main_arg3 : IVec S16384 32) (main_arg8 : FVec F S128 .f32) (main_arg9 : FVec F S128 .f32) (main_arg10 : FVec F S128 .f32) (main_arg11 : FVec F S6x3 .f32) (main_arg12 : FVec F S3 .f32) (main_arg13 : FVec F S3x6 .f32) (main_arg14 : FVec F S6 .f32) (main_arg15 : FVec F S128x128 .f32) (main_arg16 : FVec F S2688x512 .f32) (main_arg17 : FVec F S512 .f32) (main_arg18 : FVec F S512 .f32) (main_arg19 : FVec F S512 .f32) (main_arg20 : FVec F S512 .f32) (main_arg21 : FVec F S512 .f32) (main_arg22 : FVec F S512x256 .f32) (main_arg23 : FVec F S256 .f32) (main_arg24 : FVec F S256 .f32) (main_arg25 : FVec F S256 .f32) (main_arg26 : FVec F S256 .f32) (main_arg27 : FVec F S256 .f32) (main_arg28 : FVec F S256x1 .f32) (main_arg29 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg8
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg9
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg10
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg2 main_arg3 main_arg11 main_arg12 main_arg13 main_arg14 main_arg15 main_arg16 main_arg17 main_arg18 main_arg19 main_arg20 main_arg21 main_arg22 main_arg23 main_arg24 main_arg25 main_arg26 main_arg27 main_arg28 main_arg29 main_v33

def fn {F : FTy → Type} [FloatOps F] (main_arg0 : IVec S16384 32) (main_arg1 : FVec F S16384x128 .f32) (main_arg2 : IVec S16384 32) (main_arg3 : IVec S16384 32) (main_arg4 : IVec S16384x50 32) (main_arg5 : FVec F S91718x128 .f32) (main_arg6 : FVec F S11x128 .f32) (main_arg7 : FVec F S128x128 .f32) (main_arg8 : FVec F S128 .f32) (main_arg9 : FVec F S128 .f32) (main_arg10 : FVec F S128 .f32) (main_arg11 : FVec F S6x3 .f32) (main_arg12 : FVec F S3 .f32) (main_arg13 : FVec F S3x6 .f32) (main_arg14 : FVec F S6 .f32) (main_arg15 : FVec F S128x128 .f32) (main_arg16 : FVec F S2688x512 .f32) (main_arg17 : FVec F S512 .f32) (main_arg18 : FVec F S512 .f32) (main_arg19 : FVec F S512 .f32) (main_arg20 : FVec F S512 .f32) (main_arg21 : FVec F S512 .f32) (main_arg22 : FVec F S512x256 .f32) (main_arg23 : FVec F S256 .f32) (main_arg24 : FVec F S256 .f32) (main_arg25 : FVec F S256 .f32) (main_arg26 : FVec F S256 .f32) (main_arg27 : FVec F S256 .f32) (main_arg28 : FVec F S256x1 .f32) (main_arg29 : FVec F S1 .f32) : IVec S_ 1 :=
  let main_v0 : FVec F S16384x128 .f32 := Host.absf main_arg1
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S91718x128 .f32 := Host.absf main_arg5
  let main_cst_0 : FVec F S_ .f32 := constant S_ .f32 0x7F800000#32
  let main_v5 : FVec F S91718x128 .f32 := broadcastInDim S91718x128 ![] bcast_S_S91718x128 main_cst_0
  let main_v6 : IVec S91718x128 1 := cmpf .olt main_v4 main_v5
  let main_c_1 : IVec S_ 1 := constantI S_ 1 1#1
  let main_v7 : IVec S_ 1 := (fun x v => Host.reduce IntOp.andi x v reducesTo_S91718x128_S_d0_1 h_S_) main_v6 main_c_1
  let main_v8 : IVec S_ 1 := andi main_v3 main_v7
  let main_v9 : FVec F S11x128 .f32 := Host.absf main_arg6
  let main_cst_2 : FVec F S_ .f32 := constant S_ .f32 0x7F800000#32
  let main_v10 : FVec F S11x128 .f32 := broadcastInDim S11x128 ![] bcast_S_S11x128 main_cst_2
  let main_v11 : IVec S11x128 1 := cmpf .olt main_v9 main_v10
  let main_c_3 : IVec S_ 1 := constantI S_ 1 1#1
  let main_v12 : IVec S_ 1 := (fun x v => Host.reduce IntOp.andi x v reducesTo_S11x128_S_d0_1 h_S_) main_v11 main_c_3
  let main_v13 : IVec S_ 1 := andi main_v8 main_v12
  let main_v14 : FVec F S128x128 .f32 := Host.absf main_arg7
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg2 main_arg3 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_v13 main_v16
-- ==== Kernel.lean ====
abbrev S16384 : Shape := ⟨1, ![16384]⟩
abbrev S16384x128 : Shape := ⟨2, ![16384, 128]⟩
abbrev S16384x50 : Shape := ⟨2, ![16384, 50]⟩
abbrev S91718x128 : Shape := ⟨2, ![91718, 128]⟩
abbrev S11x128 : Shape := ⟨2, ![11, 128]⟩
abbrev S128x128 : Shape := ⟨2, ![128, 128]⟩
abbrev S128 : Shape := ⟨1, ![128]⟩
abbrev S6x3 : Shape := ⟨2, ![6, 3]⟩
abbrev S3 : Shape := ⟨1, ![3]⟩
abbrev S3x6 : Shape := ⟨2, ![3, 6]⟩
abbrev S6 : Shape := ⟨1, ![6]⟩
abbrev S2688x512 : Shape := ⟨2, ![2688, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S_ : Shape := ⟨0, ![]⟩
abbrev S16384x1 : Shape := ⟨2, ![16384, 1]⟩
abbrev S16384x50x1 : Shape := ⟨3, ![16384, 50, 1]⟩
abbrev S16384x50x128 : Shape := ⟨3, ![16384, 50, 128]⟩
abbrev S1024x128 : Shape := ⟨2, ![1024, 128]⟩
abbrev S1024 : Shape := ⟨1, ![1024]⟩
abbrev S1024x1 : Shape := ⟨2, ![1024, 1]⟩
abbrev S1024x2688 : Shape := ⟨2, ![1024, 2688]⟩
abbrev S1x128 : Shape := ⟨2, ![1, 128]⟩
abbrev S1024x11 : Shape := ⟨2, ![1024, 11]⟩
abbrev S1024x6 : Shape := ⟨2, ![1024, 6]⟩
abbrev S1024x3 : Shape := ⟨2, ![1024, 3]⟩
abbrev S1x3 : Shape := ⟨2, ![1, 3]⟩
abbrev S1x6 : Shape := ⟨2, ![1, 6]⟩
abbrev S1024x512 : Shape := ⟨2, ![1024, 512]⟩
abbrev S1x512 : Shape := ⟨2, ![1, 512]⟩
abbrev S1024x256 : Shape := ⟨2, ![1024, 256]⟩
abbrev S1x256 : Shape := ⟨2, ![1, 256]⟩
abbrev S1x1 : Shape := ⟨2, ![1, 1]⟩

abbrev nBuf : Space → Nat
  | .hbm => 78
  | .vmem => 37
  | .smem => 0
  | _ => 0

abbrev bufTy : (tb : Table) → Fin (tcTables nBuf tb) → BufTy
  | .hbm, ⟨0, _⟩ => ⟨S16384, .i32⟩
  | .hbm, ⟨1, _⟩ => ⟨S16384x128, .f32⟩
  | .hbm, ⟨2, _⟩ => ⟨S16384, .i32⟩
  | .hbm, ⟨3, _⟩ => ⟨S16384, .i32⟩
  | .hbm, ⟨4, _⟩ => ⟨S16384x50, .i32⟩
  | .hbm, ⟨5, _⟩ => ⟨S91718x128, .f32⟩
  | .hbm, ⟨6, _⟩ => ⟨S11x128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S6x3, .f32⟩
  | .hbm, ⟨12, _⟩ => ⟨S3, .f32⟩
  | .hbm, ⟨13, _⟩ => ⟨S3x6, .f32⟩
  | .hbm, ⟨14, _⟩ => ⟨S6, .f32⟩
  | .hbm, ⟨15, _⟩ => ⟨S128x128, .f32⟩
  | .hbm, ⟨16, _⟩ => ⟨S2688x512, .f32⟩
  | .hbm, ⟨17, _⟩ => ⟨S512, .f32⟩
  | .hbm, ⟨18, _⟩ => ⟨S512, .f32⟩
  | .hbm, ⟨19, _⟩ => ⟨S512, .f32⟩
  | .hbm, ⟨20, _⟩ => ⟨S512, .f32⟩
  | .hbm, ⟨21, _⟩ => ⟨S512, .f32⟩
  | .hbm, ⟨22, _⟩ => ⟨S512x256, .f32⟩
  | .hbm, ⟨23, _⟩ => ⟨S256, .f32⟩
  | .hbm, ⟨24, _⟩ => ⟨S256, .f32⟩
  | .hbm, ⟨25, _⟩ => ⟨S256, .f32⟩
  | .hbm, ⟨26, _⟩ => ⟨S256, .f32⟩
  | .hbm, ⟨27, _⟩ => ⟨S256, .f32⟩
  | .hbm, ⟨28, _⟩ => ⟨S256x1, .f32⟩
  | .hbm, ⟨29, _⟩ => ⟨S1, .f32⟩
  | .hbm, ⟨30, _⟩ => ⟨S_, .i32⟩
  | .hbm, ⟨31, _⟩ => ⟨S1, .i32⟩
  | .hbm, ⟨32, _⟩ => ⟨S_, .f32⟩
  | .hbm, ⟨33, _⟩ => ⟨S128, .f32⟩
  | .hbm, ⟨34, _⟩ => ⟨S91718x128, .f32⟩
  | .hbm, ⟨35, _⟩ => ⟨S_, .i32⟩
  | .hbm, ⟨36, _⟩ => ⟨S16384, .i32⟩
  | .hbm, ⟨37, _⟩ => ⟨S16384, .i1⟩
  | .hbm, ⟨38, _⟩ => ⟨S_, .i32⟩
  | .hbm, ⟨39, _⟩ => ⟨S16384, .i32⟩
  | .hbm, ⟨40, _⟩ => ⟨S16384, .i32⟩
  | .hbm, ⟨41, _⟩ => ⟨S16384, .i32⟩
  | .hbm, ⟨42, _⟩ => ⟨S16384x1, .i32⟩
  | .hbm, ⟨43, _⟩ => ⟨S16384x128, .f32⟩
  | .hbm, ⟨44, _⟩ => ⟨S_, .i32⟩
  | .hbm, ⟨45, _⟩ => ⟨S16384x50, .i32⟩
  | .hbm, ⟨46, _⟩ => ⟨S16384x50, .i1⟩
  | .hbm, ⟨47, _⟩ => ⟨S_, .i32⟩
  | .hbm, ⟨48, _⟩ => ⟨S16384x50, .i32⟩
  | .hbm, ⟨49, _⟩ => ⟨S16384x50, .i32⟩
  | .hbm, ⟨50, _⟩ => ⟨S16384x50, .i32⟩
  | .hbm, ⟨51, _⟩ => ⟨S16384x50x1, .i32⟩
  | .hbm, ⟨52, _⟩ => ⟨S16384x50x128, .f32⟩
  | .hbm, ⟨53, _⟩ => ⟨S_, .i32⟩
  | .hbm, ⟨54, _⟩ => ⟨S16384x50, .i32⟩
  | .hbm, ⟨55, _⟩ => ⟨S16384x50, .i1⟩
  | .hbm, ⟨56, _⟩ => ⟨S16384x50, .f32⟩
  | .hbm, ⟨57, _⟩ => ⟨S16384x50x1, .f32⟩
  | .hbm, ⟨58, _⟩ => ⟨S16384x50x128, .f32⟩
  | .hbm, ⟨59, _⟩ => ⟨S16384x50x128, .f32⟩
  | .hbm, ⟨60, _⟩ => ⟨S_, .f32⟩
  | .hbm, ⟨61, _⟩ => ⟨S16384x128, .f32⟩
  | .hbm, ⟨62, _⟩ => ⟨S_, .f32⟩
  | .hbm, ⟨63, _⟩ => ⟨S16384, .f32⟩
  | .hbm, ⟨64, _⟩ => ⟨S16384x1, .f32⟩
  | .hbm, ⟨65, _⟩ => ⟨S_, .f32⟩
  | .hbm, ⟨66, _⟩ => ⟨S16384x1, .f32⟩
  | .hbm, ⟨67, _⟩ => ⟨S16384x1, .f32⟩
  | .hbm, ⟨68, _⟩ => ⟨S16384x128, .f32⟩
  | .hbm, ⟨69, _⟩ => ⟨S16384x128, .f32⟩
  | .hbm, ⟨70, _⟩ => ⟨S11x128, .bf16⟩
  | .hbm, ⟨71, _⟩ => ⟨S128x128, .bf16⟩
  | .hbm, ⟨72, _⟩ => ⟨S128x128, .bf16⟩
  | .hbm, ⟨73, _⟩ => ⟨S2688x512, .bf16⟩
  | .hbm, ⟨74, _⟩ => ⟨S512x256, .bf16⟩
  | .hbm, ⟨75, _⟩ => ⟨S256x1, .bf16⟩
  | .hbm, ⟨76, _⟩ => ⟨S16384x1, .f32⟩
  | .hbm, ⟨77, _⟩ => ⟨S16384, .f32⟩
  | .local _ .vmem, ⟨0, _⟩ => ⟨S1024x128, .f32⟩
  | .local _ .vmem, ⟨1, _⟩ => ⟨S1024x128, .f32⟩
  | .local _ .vmem, ⟨2, _⟩ => ⟨S1024, .i32⟩
  | .local _ .vmem, ⟨3, _⟩ => ⟨S1024, .i32⟩
  | .local _ .vmem, ⟨4, _⟩ => ⟨S1024, .i32⟩
  | .local _ .vmem, ⟨5, _⟩ => ⟨S1024, .i32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S11x128, .bf16⟩
  | .local _ .vmem, ⟨11, _⟩ => ⟨S128x128, .bf16⟩
  | .local _ .vmem, ⟨12, _⟩ => ⟨S128, .f32⟩
  | .local _ .vmem, ⟨13, _⟩ => ⟨S128, .f32⟩
  | .local _ .vmem, ⟨14, _⟩ => ⟨S128, .f32⟩
  | .local _ .vmem, ⟨15, _⟩ => ⟨S6x3, .f32⟩
  | .local _ .vmem, ⟨16, _⟩ => ⟨S3, .f32⟩
  | .local _ .vmem, ⟨17, _⟩ => ⟨S3x6, .f32⟩
  | .local _ .vmem, ⟨18, _⟩ => ⟨S6, .f32⟩
  | .local _ .vmem, ⟨19, _⟩ => ⟨S128x128, .bf16⟩
  | .local _ .vmem, ⟨20, _⟩ => ⟨S2688x512, .bf16⟩
  | .local _ .vmem, ⟨21, _⟩ => ⟨S512, .f32⟩
  | .local _ .vmem, ⟨22, _⟩ => ⟨S512, .f32⟩
  | .local _ .vmem, ⟨23, _⟩ => ⟨S512, .f32⟩
  | .local _ .vmem, ⟨24, _⟩ => ⟨S512, .f32⟩
  | .local _ .vmem, ⟨25, _⟩ => ⟨S512, .f32⟩
  | .local _ .vmem, ⟨26, _⟩ => ⟨S512x256, .bf16⟩
  | .local _ .vmem, ⟨27, _⟩ => ⟨S256, .f32⟩
  | .local _ .vmem, ⟨28, _⟩ => ⟨S256, .f32⟩
  | .local _ .vmem, ⟨29, _⟩ => ⟨S256, .f32⟩
  | .local _ .vmem, ⟨30, _⟩ => ⟨S256, .f32⟩
  | .local _ .vmem, ⟨31, _⟩ => ⟨S256, .f32⟩
  | .local _ .vmem, ⟨32, _⟩ => ⟨S256x1, .bf16⟩
  | .local _ .vmem, ⟨33, _⟩ => ⟨S1, .f32⟩
  | .local _ .vmem, ⟨34, _⟩ => ⟨S1024x1, .f32⟩
  | .local _ .vmem, ⟨35, _⟩ => ⟨S1024x1, .f32⟩
  | .local _ .vmem, ⟨36, _⟩ => ⟨S1024x2688, .bf16⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_c : Ref sig .tc := ⟨.hbm, 30, rfl⟩
abbrev main_v0 : Ref sig .tc := ⟨.hbm, 31, rfl⟩
abbrev main_cst : Ref sig .tc := ⟨.hbm, 32, rfl⟩
abbrev main_v1 : Ref sig .tc := ⟨.hbm, 33, rfl⟩
abbrev main_v2 : Ref sig .tc := ⟨.hbm, 34, rfl⟩
abbrev main_c_0 : Ref sig .tc := ⟨.hbm, 35, rfl⟩
abbrev main_v3 : Ref sig .tc := ⟨.hbm, 36, rfl⟩
abbrev main_v4 : Ref sig .tc := ⟨.hbm, 37, rfl⟩
abbrev main_c_1 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_c_2 : Ref sig .tc := ⟨.hbm, 44, rfl⟩
abbrev main_v10 : Ref sig .tc := ⟨.hbm, 45, rfl⟩
abbrev main_v11 : Ref sig .tc := ⟨.hbm, 46, rfl⟩
abbrev main_c_3 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_c_4 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_cst_5 : Ref sig .tc := ⟨.hbm, 60, rfl⟩
abbrev main_v23 : Ref sig .tc := ⟨.hbm, 61, rfl⟩
abbrev main_cst_6 : Ref sig .tc := ⟨.hbm, 62, rfl⟩
abbrev main_v24 : Ref sig .tc := ⟨.hbm, 63, rfl⟩
abbrev main_v25 : Ref sig .tc := ⟨.hbm, 64, rfl⟩
abbrev main_cst_7 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg18_0 : Ref sig .tc := ⟨.vmem, 23, rfl⟩
abbrev cc0_stg19_0 : Ref sig .tc := ⟨.vmem, 24, rfl⟩
abbrev cc0_stg20_0 : Ref sig .tc := ⟨.vmem, 25, rfl⟩
abbrev cc0_stg21_0 : Ref sig .tc := ⟨.vmem, 26, rfl⟩
abbrev cc0_stg22_0 : Ref sig .tc := ⟨.vmem, 27, rfl⟩
abbrev cc0_stg23_0 : Ref sig .tc := ⟨.vmem, 28, rfl⟩
abbrev cc0_stg24_0 : Ref sig .tc := ⟨.vmem, 29, rfl⟩
abbrev cc0_stg25_0 : Ref sig .tc := ⟨.vmem, 30, rfl⟩
abbrev cc0_stg26_0 : Ref sig .tc := ⟨.vmem, 31, rfl⟩
abbrev cc0_stg27_0 : Ref sig .tc := ⟨.vmem, 32, rfl⟩
abbrev cc0_stg28_0 : Ref sig .tc := ⟨.vmem, 33, rfl⟩
abbrev cc0_stg29_0 : Ref sig .tc := ⟨.vmem, 34, rfl⟩
abbrev cc0_stg29_1 : Ref sig .tc := ⟨.vmem, 35, rfl⟩
abbrev cc0_scratch0 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem18_0 : DmaSem sig := 23
abbrev cc0_sem19_0 : DmaSem sig := 24
abbrev cc0_sem20_0 : DmaSem sig := 25
abbrev cc0_sem21_0 : DmaSem sig := 26
abbrev cc0_sem22_0 : DmaSem sig := 27
abbrev cc0_sem23_0 : DmaSem sig := 28
abbrev cc0_sem24_0 : DmaSem sig := 29
abbrev cc0_sem25_0 : DmaSem sig := 30
abbrev cc0_sem26_0 : DmaSem sig := 31
abbrev cc0_sem27_0 : DmaSem sig := 32
abbrev cc0_sem28_0 : DmaSem sig := 33
abbrev cc0_sem29_0 : DmaSem sig := 34
abbrev cc0_sem29_1 : DmaSem sig := 35

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_18 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_19 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_20 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_23 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_24 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_25 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_26 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_29 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S11x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S6x3 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S3 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S3x6 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S6 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2688x512 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S512x256 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S256 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S256 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S256 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S256 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S256 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S256x1 .bf16 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S1 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 2 → Memref sig .tc .vmem S1024x1 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

class Facts₀ : Prop where
  bcast_S_S1 : S_.BroadcastsInDim S1 (![] : Fin 0 → Fin S1.rank)
  bcast_S_S128 : S_.BroadcastsInDim S128 (![] : Fin 0 → Fin S128.rank)
  bcast_S_S16384 : S_.BroadcastsInDim S16384 (![] : Fin 0 → Fin S16384.rank)
  bcast_S16384_S16384x1_0 : S16384.BroadcastsInDim S16384x1 (![0] : Fin 1 → Fin S16384x1.rank)
  bcast_S_S16384x50 : S_.BroadcastsInDim S16384x50 (![] : Fin 0 → Fin S16384x50.rank)
  bcast_S16384x50_S16384x50x1_0_1 : S16384x50.BroadcastsInDim S16384x50x1 (![0, 1] : Fin 2 → Fin S16384x50x1.rank)
  bcast_S16384x50x1_S16384x50x128_0_1_2 : S16384x50x1.BroadcastsInDim S16384x50x128 (![0, 1, 2] : Fin 3 → Fin S16384x50x128.rank)
  reducesTo_S16384x50x128_S16384x128_d1 : S16384x50x128.ReducesTo [1] S16384x128
  h_S_ : 0 < S_.numel
  reducesTo_S16384x50_S16384_d1 : S16384x50.ReducesTo [1] S16384
  bcast_S_S16384x1 : S_.BroadcastsInDim S16384x1 (![] : Fin 0 → Fin S16384x1.rank)
  bcast_S16384x1_S16384x128_0_1 : S16384x1.BroadcastsInDim S16384x128 (![0, 1] : Fin 2 → Fin S16384x128.rank)
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S1024x128 : S1x128.Broadcasts S1024x128
  reduces_S1024x128_S1024 : S1024x128.Reduces [1] S1024
  shapeCasts_S1024_S1024x1 : S1024.ShapeCasts S1024x1
  broadcasts_S1024x1_S1024x128 : S1024x1.Broadcasts S1024x128
  inb_S11x128_S11x128_0_0 : ∀ a, (![0, 0] : Fin 2 → Nat) a + S11x128.size a ≤ S11x128.size a
  h_S11x128 : 0 < S11x128.numel
  shapeCasts_S11x128_S11x128 : S11x128.ShapeCasts S11x128
  iota_S1024x11_d1_w32 : S1024x11.Iotas .tc 32 [1]
  inb_S1024_S1024_0 : ∀ a, (![0] : Fin 1 → Nat) a + S1024.size a ≤ S1024.size a
  h_S1024 : 0 < S1024.numel
  broadcasts_S1024x1_S1024x11 : S1024x1.Broadcasts S1024x11
  natLt_1_32 : 1 < 32
  shapeCasts_S1024x128_S1024x128 : S1024x128.ShapeCasts S1024x128
  concatenates_S1024x1_S1024x1_S1024x1_S1024x1_S1024x1_S1024x1_S1024x6_d1 : Shape.Concatenates [S1024x1, S1024x1, S1024x1, S1024x1, S1024x1, S1024x1] S1024x6 1
  inb_S6x3_S6x3_0_0 : ∀ a, (![0, 0] : Fin 2 → Nat) a + S6x3.size a ≤ S6x3.size a
  h_S6x3 : 0 < S6x3.numel
  inb_S3_S3_0 : ∀ a, (![0] : Fin 1 → Nat) a + S3.size a ≤ S3.size a
  h_S3 : 0 < S3.numel
  shapeCasts_S3_S1x3 : S3.ShapeCasts S1x3
  broadcasts_S1x3_S1024x3 : S1x3.Broadcasts S1024x3
  inb_S3x6_S3x6_0_0 : ∀ a, (![0, 0] : Fin 2 → Nat) a + S3x6.size a ≤ S3x6.size a
  h_S3x6 : 0 < S3x6.numel
  inb_S6_S6_0 : ∀ a, (![0] : Fin 1 → Nat) a + S6.size a ≤ S6.size a
  h_S6 : 0 < S6.numel
  shapeCasts_S6_S1x6 : S6.ShapeCasts S1x6
  broadcasts_S1x6_S1024x6 : S1x6.Broadcasts S1024x6
  slices_S1024x6_o0_0_S1024x1 : S1024x6.Slices ![0, 0] S1024x1
  slices_S1024x6_o0_1_S1024x1 : S1024x6.Slices ![0, 1] S1024x1
  slices_S1024x6_o0_2_S1024x1 : S1024x6.Slices ![0, 2] S1024x1
  slices_S1024x6_o0_3_S1024x1 : S1024x6.Slices ![0, 3] S1024x1
  slices_S1024x6_o0_4_S1024x1 : S1024x6.Slices ![0, 4] S1024x1
  slices_S1024x6_o0_5_S1024x1 : S1024x6.Slices ![0, 5] S1024x1
  inb_S1024x2688_S1024x128_0_0 : ∀ a, (![0, 0] : Fin 2 → Nat) a + S1024x128.size a ≤ S1024x2688.size a
  packedbf16_S1024x2688_S1024x128_0_0 : (Rect.unit (s := S1024x2688) ![0, 0] S1024x128.size inb_S1024x2688_S1024x128_0_0).PackedRows (EltTy.packing .bf16)
  inb_S1024x2688_S1024x128_0_128 : ∀ a, (![0, 128] : Fin 2 → Nat) a + S1024x128.size a ≤ S1024x2688.size a
  packedbf16_S1024x2688_S1024x128_0_128 : (Rect.unit (s := S1024x2688) ![0, 128] S1024x128.size inb_S1024x2688_S1024x128_0_128).PackedRows (EltTy.packing .bf16)
  inb_S1024x2688_S1024x128_0_256 : ∀ a, (![0, 256] : Fin 2 → Nat) a + S1024x128.size a ≤ S1024x2688.size a
  packedbf16_S1024x2688_S1024x128_0_256 : (Rect.unit (s := S1024x2688) ![0, 256] S1024x128.size inb_S1024x2688_S1024x128_0_256).PackedRows (EltTy.packing .bf16)
  inb_S1024x2688_S1024x128_0_384 : ∀ a, (![0, 384] : Fin 2 → Nat) a + S1024x128.size a ≤ S1024x2688.size a
  packedbf16_S1024x2688_S1024x128_0_384 : (Rect.unit (s := S1024x2688) ![0, 384] S1024x128.size inb_S1024x2688_S1024x128_0_384).PackedRows (EltTy.packing .bf16)
  inb_S1024x2688_S1024x128_0_512 : ∀ a, (![0, 512] : Fin 2 → Nat) a + S1024x128.size a ≤ S1024x2688.size a
  packedbf16_S1024x2688_S1024x128_0_512 : (Rect.unit (s := S1024x2688) ![0, 512] S1024x128.size inb_S1024x2688_S1024x128_0_512).PackedRows (EltTy.packing .bf16)
  inb_S1024x2688_S1024x128_0_640 : ∀ a, (![0, 640] : Fin 2 → Nat) a + S1024x128.size a ≤ S1024x2688.size a
  packedbf16_S1024x2688_S1024x128_0_640 : (Rect.unit (s := S1024x2688) ![0, 640] S1024x128.size inb_S1024x2688_S1024x128_0_640).PackedRows (EltTy.packing .bf16)
  inb_S1024x2688_S1024x128_0_768 : ∀ a, (![0, 768] : Fin 2 → Nat) a + S1024x128.size a ≤ S1024x2688.size a
  packedbf16_S1024x2688_S1024x128_0_768 : (Rect.unit (s := S1024x2688) ![0, 768] S1024x128.size inb_S1024x2688_S1024x128_0_768).PackedRows (EltTy.packing .bf16)
  inb_S1024x2688_S1024x128_0_896 : ∀ a, (![0, 896] : Fin 2 → Nat) a + S1024x128.size a ≤ S1024x2688.size a
  packedbf16_S1024x2688_S1024x128_0_896 : (Rect.unit (s := S1024x2688) ![0, 896] S1024x128.size inb_S1024x2688_S1024x128_0_896).PackedRows (EltTy.packing .bf16)
  inb_S1024x2688_S1024x128_0_1024 : ∀ a, (![0, 1024] : Fin 2 → Nat) a + S1024x128.size a ≤ S1024x2688.size a
  packedbf16_S1024x2688_S1024x128_0_1024 : (Rect.unit (s := S1024x2688) ![0, 1024] S1024x128.size inb_S1024x2688_S1024x128_0_1024).PackedRows (EltTy.packing .bf16)
  inb_S1024x2688_S1024x128_0_1152 : ∀ a, (![0, 1152] : Fin 2 → Nat) a + S1024x128.size a ≤ S1024x2688.size a
  packedbf16_S1024x2688_S1024x128_0_1152 : (Rect.unit (s := S1024x2688) ![0, 1152] S1024x128.size inb_S1024x2688_S1024x128_0_1152).PackedRows (EltTy.packing .bf16)
  inb_S1024x2688_S1024x128_0_1280 : ∀ a, (![0, 1280] : Fin 2 → Nat) a + S1024x128.size a ≤ S1024x2688.size a
  packedbf16_S1024x2688_S1024x128_0_1280 : (Rect.unit (s := S1024x2688) ![0, 1280] S1024x128.size inb_S1024x2688_S1024x128_0_1280).PackedRows (EltTy.packing .bf16)
  inb_S1024x2688_S1024x128_0_1408 : ∀ a, (![0, 1408] : Fin 2 → Nat) a + S1024x128.size a ≤ S1024x2688.size a
  packedbf16_S1024x2688_S1024x128_0_1408 : (Rect.unit (s := S1024x2688) ![0, 1408] S1024x128.size inb_S1024x2688_S1024x128_0_1408).PackedRows (EltTy.packing .bf16)
  inb_S1024x2688_S1024x128_0_1536 : ∀ a, (![0, 1536] : Fin 2 → Nat) a + S1024x128.size a ≤ S1024x2688.size a
  packedbf16_S1024x2688_S1024x128_0_1536 : (Rect.unit (s := S1024x2688) ![0, 1536] S1024x128.size inb_S1024x2688_S1024x128_0_1536).PackedRows (EltTy.packing .bf16)
  inb_S1024x2688_S1024x128_0_1664 : ∀ a, (![0, 1664] : Fin 2 → Nat) a + S1024x128.size a ≤ S1024x2688.size a
  packedbf16_S1024x2688_S1024x128_0_1664 : (Rect.unit (s := S1024x2688) ![0, 1664] S1024x128.size inb_S1024x2688_S1024x128_0_1664).PackedRows (EltTy.packing .bf16)
  inb_S1024x2688_S1024x128_0_1792 : ∀ a, (![0, 1792] : Fin 2 → Nat) a + S1024x128.size a ≤ S1024x2688.size a
  packedbf16_S1024x2688_S1024x128_0_1792 : (Rect.unit (s := S1024x2688) ![0, 1792] S1024x128.size inb_S1024x2688_S1024x128_0_1792).PackedRows (EltTy.packing .bf16)
  inb_S1024x2688_S1024x128_0_1920 : ∀ a, (![0, 1920] : Fin 2 → Nat) a + S1024x128.size a ≤ S1024x2688.size a
  packedbf16_S1024x2688_S1024x128_0_1920 : (Rect.unit (s := S1024x2688) ![0, 1920] S1024x128.size inb_S1024x2688_S1024x128_0_1920).PackedRows (EltTy.packing .bf16)
  inb_S1024x2688_S1024x128_0_2048 : ∀ a, (![0, 2048] : Fin 2 → Nat) a + S1024x128.size a ≤ S1024x2688.size a
  packedbf16_S1024x2688_S1024x128_0_2048 : (Rect.unit (s := S1024x2688) ![0, 2048] S1024x128.size inb_S1024x2688_S1024x128_0_2048).PackedRows (EltTy.packing .bf16)
  inb_S1024x2688_S1024x128_0_2176 : ∀ a, (![0, 2176] : Fin 2 → Nat) a + S1024x128.size a ≤ S1024x2688.size a
  packedbf16_S1024x2688_S1024x128_0_2176 : (Rect.unit (s := S1024x2688) ![0, 2176] S1024x128.size inb_S1024x2688_S1024x128_0_2176).PackedRows (EltTy.packing .bf16)
  inb_S1024x2688_S1024x128_0_2304 : ∀ a, (![0, 2304] : Fin 2 → Nat) a + S1024x128.size a ≤ S1024x2688.size a
  packedbf16_S1024x2688_S1024x128_0_2304 : (Rect.unit (s := S1024x2688) ![0, 2304] S1024x128.size inb_S1024x2688_S1024x128_0_2304).PackedRows (EltTy.packing .bf16)
  inb_S1024x2688_S1024x128_0_2432 : ∀ a, (![0, 2432] : Fin 2 → Nat) a + S1024x128.size a ≤ S1024x2688.size a
  packedbf16_S1024x2688_S1024x128_0_2432 : (Rect.unit (s := S1024x2688) ![0, 2432] S1024x128.size inb_S1024x2688_S1024x128_0_2432).PackedRows (EltTy.packing .bf16)
  inb_S1024x2688_S1024x128_0_2560 : ∀ a, (![0, 2560] : Fin 2 → Nat) a + S1024x128.size a ≤ S1024x2688.size a
  packedbf16_S1024x2688_S1024x128_0_2560 : (Rect.unit (s := S1024x2688) ![0, 2560] S1024x128.size inb_S1024x2688_S1024x128_0_2560).PackedRows (EltTy.packing .bf16)
  inb_S1024x2688_S1024x2688_0_0 : ∀ a, (![0, 0] : Fin 2 → Nat) a + S1024x2688.size a ≤ S1024x2688.size a
  h_S1024x2688 : 0 < S1024x2688.numel
  inb_S2688x512_S2688x512_0_0 : ∀ a, (![0, 0] : Fin 2 → Nat) a + S2688x512.size a ≤ S2688x512.size a
  h_S2688x512 : 0 < S2688x512.numel
  shapeCasts_S2688x512_S2688x512 : S2688x512.ShapeCasts S2688x512
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1_S1_0 : ∀ a, (![0] : Fin 1 → Nat) a + S1.size a ≤ S1.size a
  h_S1 : 0 < S1.numel
  shapeCasts_S1_S1x1 : S1.ShapeCasts S1x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  shapeCasts_S16384x1_S16384 : S16384x1.ShapeCasts S16384
  scatter_S91718x128_S1_S128_0_0_0_0_wf : ScatterDims.WF S91718x128 S1 S128 [0] [0] [0] 0
  gather_S91718x128_S16384x1_S16384x128_1_0_n_n_0_1_1128_wf : GatherDims.WF S91718x128 S16384x1 S16384x128 [1] [0] [] [0] [] 1 ![1, 128]
  gather_S91718x128_S16384x50x1_S16384x50x128_2_0_n_n_0_2_1128_wf : GatherDims.WF S91718x128 S16384x50x1 S16384x50x128 [2] [0] [] [0] [] 2 ![1, 128]
  dot_S1024x128_S128x128_S1024x128_1_0_0_1_n_n_wf : DotDims.WF S1024x128 S128x128 S1024x128 [1] [0] [0] [1] [] []
  dot_S1024x11_S11x128_S1024x128_1_0_0_1_n_n_wf : DotDims.WF S1024x11 S11x128 S1024x128 [1] [0] [0] [1] [] []
  dot_S1024x6_S6x3_S1024x3_1_0_0_1_n_n_wf : DotDims.WF S1024x6 S6x3 S1024x3 [1] [0] [0] [1] [] []
  dot_S1024x3_S3x6_S1024x6_1_0_0_1_n_n_wf : DotDims.WF S1024x3 S3x6 S1024x6 [1] [0] [0] [1] [] []
  dot_S1024x2688_S2688x512_S1024x512_1_0_0_1_n_n_wf : DotDims.WF S1024x2688 S2688x512 S1024x512 [1] [0] [0] [1] [] []
  dot_S1024x512_S512x256_S1024x256_1_0_0_1_n_n_wf : DotDims.WF S1024x512 S512x256 S1024x256 [1] [0] [0] [1] [] []
  dot_S1024x256_S256x1_S1024x1_1_0_0_1_n_n_wf : DotDims.WF S1024x256 S256x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S16384x128.size a
  hwx0_0 : ∀ i : grid0.Coords, EltTy.bits .f32 = 32 ∨ (Rect.block (s := S16384x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024.size a ≤ S16384.size a
  hwx0_1 : ∀ i : grid0.Coords, EltTy.bits .i32 = 32 ∨ (Rect.block (s := S16384) S1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S16384.size a
  hwx0_2 : ∀ i : grid0.Coords, EltTy.bits .i32 = 32 ∨ (Rect.block (s := S16384) S1024.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S16384x128.size a
  hwx0_3 : ∀ i : grid0.Coords, EltTy.bits .f32 = 32 ∨ (Rect.block (s := S16384x128) S1024x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S16384x128.size a
  hwx0_4 : ∀ i : grid0.Coords, EltTy.bits .f32 = 32 ∨ (Rect.block (s := S16384x128) S1024x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S11x128.size a ≤ S11x128.size a
  hwx0_5 : ∀ i : grid0.Coords, EltTy.bits .bf16 = 32 ∨ (Rect.block (s := S11x128) S11x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .bf16 = 32 ∨ (Rect.block (s := S128x128) S128x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S6x3.size a ≤ S6x3.size a
  hwx0_10 : ∀ i : grid0.Coords, EltTy.bits .f32 = 32 ∨ (Rect.block (s := S6x3) S6x3.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S3.size a ≤ S3.size a
  hwx0_11 : ∀ i : grid0.Coords, EltTy.bits .f32 = 32 ∨ (Rect.block (s := S3) S3.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S3x6.size a ≤ S3x6.size a
  hwx0_12 : ∀ i : grid0.Coords, EltTy.bits .f32 = 32 ∨ (Rect.block (s := S3x6) S3x6.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S6.size a ≤ S6.size a
  hwx0_13 : ∀ i : grid0.Coords, EltTy.bits .f32 = 32 ∨ (Rect.block (s := S6) S6.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128x128.size a ≤ S128x128.size a
  hwx0_14 : ∀ i : grid0.Coords, EltTy.bits .bf16 = 32 ∨ (Rect.block (s := S128x128) S128x128.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S2688x512.size a ≤ S2688x512.size a
  hwx0_15 : ∀ i : grid0.Coords, EltTy.bits .bf16 = 32 ∨ (Rect.block (s := S2688x512) S2688x512.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S512.size a ≤ S512.size a
  hwx0_16 : ∀ i : grid0.Coords, EltTy.bits .f32 = 32 ∨ (Rect.block (s := S512) S512.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S512.size a ≤ S512.size a
  hwx0_17 : ∀ i : grid0.Coords, EltTy.bits .f32 = 32 ∨ (Rect.block (s := S512) S512.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S512.size a ≤ S512.size a
  hwx0_18 : ∀ i : grid0.Coords, EltTy.bits .f32 = 32 ∨ (Rect.block (s := S512) S512.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S512.size a ≤ S512.size a
  hwx0_19 : ∀ i : grid0.Coords, EltTy.bits .f32 = 32 ∨ (Rect.block (s := S512) S512.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S512.size a ≤ S512.size a
  hwx0_20 : ∀ i : grid0.Coords, EltTy.bits .f32 = 32 ∨ (Rect.block (s := S512) S512.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S512x256.size a ≤ S512x256.size a
  hwx0_21 : ∀ i : grid0.Coords, EltTy.bits .bf16 = 32 ∨ (Rect.block (s := S512x256) S512x256.size (cc0_transform_21 i) (hinb0_21 i)).WholeWords (EltTy.packing .bf16)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S256.size a ≤ S256.size a
  hwx0_22 : ∀ i : grid0.Coords, EltTy.bits .f32 = 32 ∨ (Rect.block (s := S256) S256.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S256.size a ≤ S256.size a
  hwx0_23 : ∀ i : grid0.Coords, EltTy.bits .f32 = 32 ∨ (Rect.block (s := S256) S256.size (cc0_transform_23 i) (hinb0_23 i)).WholeWords (EltTy.packing .f32)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S256.size a ≤ S256.size a
  hwx0_24 : ∀ i : grid0.Coords, EltTy.bits .f32 = 32 ∨ (Rect.block (s := S256) S256.size (cc0_transform_24 i) (hinb0_24 i)).WholeWords (EltTy.packing .f32)
  hstage0_25 : ∀ j, (stage0_25 j).IsWhole
  nbuf0_25 : grid0.bufCount reads0_25 true = 1
  hreads0_25 : ∀ i i' : grid0.Coords, (∀ a, reads0_25 a = true → i a = i' a) → cc0_transform_25 i = cc0_transform_25 i'
  hinb0_25 : ∀ (i : grid0.Coords) a, (cc0_transform_25 i a + 1) * S256.size a ≤ S256.size a
  hwx0_25 : ∀ i : grid0.Coords, EltTy.bits .f32 = 32 ∨ (Rect.block (s := S256) S256.size (cc0_transform_25 i) (hinb0_25 i)).WholeWords (EltTy.packing .f32)
  hstage0_26 : ∀ j, (stage0_26 j).IsWhole
  nbuf0_26 : grid0.bufCount reads0_26 true = 1
  hreads0_26 : ∀ i i' : grid0.Coords, (∀ a, reads0_26 a = true → i a = i' a) → cc0_transform_26 i = cc0_transform_26 i'
  hinb0_26 : ∀ (i : grid0.Coords) a, (cc0_transform_26 i a + 1) * S256.size a ≤ S256.size a
  hwx0_26 : ∀ i : grid0.Coords, EltTy.bits .f32 = 32 ∨ (Rect.block (s := S256) S256.size (cc0_transform_26 i) (hinb0_26 i)).WholeWords (EltTy.packing .f32)
  hstage0_27 : ∀ j, (stage0_27 j).IsWhole
  nbuf0_27 : grid0.bufCount reads0_27 true = 1
  hreads0_27 : ∀ i i' : grid0.Coords, (∀ a, reads0_27 a = true → i a = i' a) → cc0_transform_27 i = cc0_transform_27 i'
  hinb0_27 : ∀ (i : grid0.Coords) a, (cc0_transform_27 i a + 1) * S256x1.size a ≤ S256x1.size a
  hwx0_27 : ∀ i : grid0.Coords, EltTy.bits .bf16 = 32 ∨ (Rect.block (s := S256x1) S256x1.size (cc0_transform_27 i) (hinb0_27 i)).WholeWords (EltTy.packing .bf16)
  hstage0_28 : ∀ j, (stage0_28 j).IsWhole
  nbuf0_28 : grid0.bufCount reads0_28 true = 1
  hreads0_28 : ∀ i i' : grid0.Coords, (∀ a, reads0_28 a = true → i a = i' a) → cc0_transform_28 i = cc0_transform_28 i'
  hinb0_28 : ∀ (i : grid0.Coords) a, (cc0_transform_28 i a + 1) * S1.size a ≤ S1.size a
  hwx0_28 : ∀ i : grid0.Coords, EltTy.bits .f32 = 32 ∨ (Rect.block (s := S1) S1.size (cc0_transform_28 i) (hinb0_28 i)).WholeWords (EltTy.packing .f32)
  hstage0_29 : ∀ j, (stage0_29 j).IsWhole
  nbuf0_29 : grid0.bufCount reads0_29 false = 2
  hreads0_29 : ∀ i i' : grid0.Coords, (∀ a, reads0_29 a = true → i a = i' a) → cc0_transform_29 i = cc0_transform_29 i'
  hinb0_29 : ∀ (i : grid0.Coords) a, (cc0_transform_29 i a + 1) * S1024x1.size a ≤ S16384x1.size a
  hwx0_29 : ∀ i : grid0.Coords, EltTy.bits .f32 = 32 ∨ (Rect.block (s := S16384x1) S1024x1.size (cc0_transform_29 i) (hinb0_29 i)).WholeWords (EltTy.packing .f32)

variable [Facts₀]

def scatter_S91718x128_S1_S128_0_0_0_0 : ScatterDims S91718x128 S1 S128 where
  updateWindowDims := [0]
  insertedWindowDims := [0]
  scatterDimsToOperandDims := [0]
  indexVectorDim := 0
  wf := scatter_S91718x128_S1_S128_0_0_0_0_wf
def gather_S91718x128_S16384x1_S16384x128_1_0_n_n_0_1_1128 : GatherDims S91718x128 S16384x1 S16384x128 where
  offsetDims := [1]
  collapsedSliceDims := [0]
  operandBatchingDims := []
  startIndicesBatchingDims := []
  startIndexMap := [0]
  indexVectorDim := 1
  sliceSizes := ![1, 128]
  wf := gather_S91718x128_S16384x1_S16384x128_1_0_n_n_0_1_1128_wf
def gather_S91718x128_S16384x50x1_S16384x50x128_2_0_n_n_0_2_1128 : GatherDims S91718x128 S16384x50x1 S16384x50x128 where
  offsetDims := [2]
  collapsedSliceDims := [0]
  operandBatchingDims := []
  startIndicesBatchingDims := []
  startIndexMap := [0]
  indexVectorDim := 2
  sliceSizes := ![1, 128]
  wf := gather_S91718x128_S16384x50x1_S16384x50x128_2_0_n_n_0_2_1128_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x11_S11x128_S1024x128_1_0_0_1_n_n : DotDims S1024x11 S11x128 S1024x128 where
  lhsContracting := [1]
  rhsContracting := [0]
  lhsNonContracting := [0]
  rhsNonContracting := [1]
  lhsBatch := []
  rhsBatch := []
  wf := dot_S1024x11_S11x128_S1024x128_1_0_0_1_n_n_wf
def dot_S1024x6_S6x3_S1024x3_1_0_0_1_n_n : DotDims S1024x6 S6x3 S1024x3 where
  lhsContracting := [1]
  rhsContracting := [0]
  lhsNonContracting := [0]
  rhsNonContracting := [1]
  lhsBatch := []
  rhsBatch := []
  wf := dot_S1024x6_S6x3_S1024x3_1_0_0_1_n_n_wf
def dot_S1024x3_S3x6_S1024x6_1_0_0_1_n_n : DotDims S1024x3 S3x6 S1024x6 where
  lhsContracting := [1]
  rhsContracting := [0]
  lhsNonContracting := [0]
  rhsNonContracting := [1]
  lhsBatch := []
  rhsBatch := []
  wf := dot_S1024x3_S3x6_S1024x6_1_0_0_1_n_n_wf
def dot_S1024x2688_S2688x512_S1024x512_1_0_0_1_n_n : DotDims S1024x2688 S2688x512 S1024x512 where
  lhsContracting := [1]
  rhsContracting := [0]
  lhsNonContracting := [0]
  rhsNonContracting := [1]
  lhsBatch := []
  rhsBatch := []
  wf := dot_S1024x2688_S2688x512_S1024x512_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x256_S256x1_S1024x1_1_0_0_1_n_n : DotDims S1024x256 S256x1 S1024x1 where
  lhsContracting := [1]
  rhsContracting := [0]
  lhsNonContracting := [0]
  rhsNonContracting := [1]
  lhsBatch := []
  rhsBatch := []
  wf := dot_S1024x256_S256x1_S1024x1_1_0_0_1_n_n_wf

abbrev win0_0 : Pipeline.Window sig grid0 :=
  Pipeline.Window.ofSpec (Memref.whole main_arg1) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1024x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v29) S1024x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v30) S11x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v31) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg11) S6x3.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg12) S3.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg13) S3x6.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg14) S6.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v32) S128x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v33) S2688x512.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg17) S512.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg18) S512.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg19) S512.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg20) S512.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg21) S512.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v34) S512x256.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_arg23) S256.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_arg24) S256.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_arg25) S256.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_arg26) S256.size cc0_transform_25 reads0_25 false true 1 stage0_25 sem0_25
    hrank0 hreads0_25 hinb0_25 nbuf0_25 (Memref.isWhole_whole _) hwx0_25 hstage0_25

abbrev win0_26 : Pipeline.Window sig grid0 :=
  Pipeline.Window.ofSpec (Memref.whole main_arg27) S256.size cc0_transform_26 reads0_26 false true 1 stage0_26 sem0_26
    hrank0 hreads0_26 hinb0_26 nbuf0_26 (Memref.isWhole_whole _) hwx0_26 hstage0_26

abbrev win0_27 : Pipeline.Window sig grid0 :=
  Pipeline.Window.ofSpec (Memref.whole main_v35) S256x1.size cc0_transform_27 reads0_27 false true 1 stage0_27 sem0_27
    hrank0 hreads0_27 hinb0_27 nbuf0_27 (Memref.isWhole_whole _) hwx0_27 hstage0_27

abbrev win0_28 : Pipeline.Window sig grid0 :=
  Pipeline.Window.ofSpec (Memref.whole main_arg29) S1.size cc0_transform_28 reads0_28 false true 1 stage0_28 sem0_28
    hrank0 hreads0_28 hinb0_28 nbuf0_28 (Memref.isWhole_whole _) hwx0_28 hstage0_28

abbrev win0_29 : Pipeline.Window sig grid0 :=
  Pipeline.Window.ofSpec (Memref.whole main_v36) S1024x1.size cc0_transform_29 reads0_29 true false 2 stage0_29 sem0_29
    hrank0 hreads0_29 hinb0_29 nbuf0_29 (Memref.isWhole_whole _) hwx0_29 hstage0_29

abbrev win0 : Fin 30 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | 27 => win0_27 | 28 => win0_28 | 29 => win0_29 | ⟨_ + 30, h⟩ => absurd h (Nat.not_lt.2 (Nat.le_add_left _ _))
abbrev spec0 : Fin 30 → Pipeline.WinSpec sig grid0.rank := fun w => (win0 w).toWinSpec

class Facts : Prop extends Facts₀ where

variable [Facts]
-- ==== ReferenceIdeal.lean ====
abbrev S16384 : Shape := ⟨1, ![16384]⟩
abbrev S16384x128 : Shape := ⟨2, ![16384, 128]⟩
abbrev S16384x50 : Shape := ⟨2, ![16384, 50]⟩
abbrev S91718x128 : Shape := ⟨2, ![91718, 128]⟩
abbrev S11x128 : Shape := ⟨2, ![11, 128]⟩
abbrev S128x128 : Shape := ⟨2, ![128, 128]⟩
abbrev S128 : Shape := ⟨1, ![128]⟩
abbrev S6x3 : Shape := ⟨2, ![6, 3]⟩
abbrev S3 : Shape := ⟨1, ![3]⟩
abbrev S3x6 : Shape := ⟨2, ![3, 6]⟩
abbrev S6 : Shape := ⟨1, ![6]⟩
abbrev S2688x512 : Shape := ⟨2, ![2688, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S15 : Shape := ⟨1, ![15]⟩
abbrev S_ : Shape := ⟨0, ![]⟩
abbrev S16384x1 : Shape := ⟨2, ![16384, 1]⟩
abbrev S1x128 : Shape := ⟨2, ![1, 128]⟩
abbrev S16384x50x1 : Shape := ⟨3, ![16384, 50, 1]⟩
abbrev S16384x50x128 : Shape := ⟨3, ![16384, 50, 128]⟩
abbrev S16384x1x128 : Shape := ⟨3, ![16384, 1, 128]⟩
abbrev S16384x6x128 : Shape := ⟨3, ![16384, 6, 128]⟩
abbrev S16384x6 : Shape := ⟨2, ![16384, 6]⟩
abbrev S16384x3 : Shape := ⟨2, ![16384, 3]⟩
abbrev S1x3 : Shape := ⟨2, ![1, 3]⟩
abbrev S1x6 : Shape := ⟨2, ![1, 6]⟩
abbrev S16384x6x1 : Shape := ⟨3, ![16384, 6, 1]⟩
abbrev S15x1 : Shape := ⟨2, ![15, 1]⟩
abbrev S16384x15x128 : Shape := ⟨3, ![16384, 15, 128]⟩
abbrev S16384x768 : Shape := ⟨2, ![16384, 768]⟩
abbrev S16384x1920 : Shape := ⟨2, ![16384, 1920]⟩
abbrev S16384x2688 : Shape := ⟨2, ![16384, 2688]⟩
abbrev S16384x512 : Shape := ⟨2, ![16384, 512]⟩
abbrev S1x512 : Shape := ⟨2, ![1, 512]⟩
abbrev S16384x256 : Shape := ⟨2, ![16384, 256]⟩
abbrev S1x256 : Shape := ⟨2, ![1, 256]⟩
abbrev S1x1 : Shape := ⟨2, ![1, 1]⟩

abbrev nBuf : Space → Nat
  | .hbm => 256
  | .vmem => 0
  | .smem => 0
  | _ => 0

abbrev hbmTy0_0 (i : Nat) : BufTy := match i % 128 with
  | 0 => ⟨S16384, .i32⟩
  | 1 => ⟨S16384x128, .f32⟩
  | 2 => ⟨S16384, .i32⟩
  | 3 => ⟨S16384, .i32⟩
  | 4 => ⟨S16384x50, .i32⟩
  | 5 => ⟨S91718x128, .f32⟩
  | 6 => ⟨S11x128, .f32⟩
  | 7 => ⟨S128x128, .f32⟩
  | 8 => ⟨S128, .f32⟩
  | 9 => ⟨S128, .f32⟩
  | 10 => ⟨S128, .f32⟩
  | 11 => ⟨S6x3, .f32⟩
  | 12 => ⟨S3, .f32⟩
  | 13 => ⟨S3x6, .f32⟩
  | 14 => ⟨S6, .f32⟩
  | 15 => ⟨S128x128, .f32⟩
  | 16 => ⟨S2688x512, .f32⟩
  | 17 => ⟨S512, .f32⟩
  | 18 => ⟨S512, .f32⟩
  | 19 => ⟨S512, .f32⟩
  | 20 => ⟨S512, .f32⟩
  | 21 => ⟨S512, .f32⟩
  | 22 => ⟨S512x256, .f32⟩
  | 23 => ⟨S256, .f32⟩
  | 24 => ⟨S256, .f32⟩
  | 25 => ⟨S256, .f32⟩
  | 26 => ⟨S256, .f32⟩
  | 27 => ⟨S256, .f32⟩
  | 28 => ⟨S256x1, .f32⟩
  | 29 => ⟨S1, .f32⟩
  | 30 => ⟨S15, .i32⟩
  | 31 => ⟨S15, .i1⟩
  | 32 => ⟨S15, .i32⟩
  | 33 => ⟨S15, .i1⟩
  | 34 => ⟨S_, .i32⟩
  | 35 => ⟨S1, .i32⟩
  | 36 => ⟨S_, .f32⟩
  | 37 => ⟨S128, .f32⟩
  | 38 => ⟨S91718x128, .f32⟩
  | 39 => ⟨S_, .i32⟩
  | 40 => ⟨S16384, .i32⟩
  | 41 => ⟨S16384, .i1⟩
  | 42 => ⟨S_, .i32⟩
  | 43 => ⟨S16384, .i32⟩
  | 44 => ⟨S16384, .i32⟩
  | 45 => ⟨S16384, .i32⟩
  | 46 => ⟨S16384x1, .i32⟩
  | 47 => ⟨S16384x128, .f32⟩
  | 48 => ⟨S_, .i32⟩
  | 49 => ⟨S16384, .i32⟩
  | 50 => ⟨S16384, .i1⟩
  | 51 => ⟨S_, .i32⟩
  | 52 => ⟨S16384, .i32⟩
  | 53 => ⟨S16384, .i32⟩
  | 54 => ⟨S16384, .i32⟩
  | 55 => ⟨S16384x1, .i32⟩
  | 56 => ⟨S16384x128, .f32⟩
  | 57 => ⟨S_, .i32⟩
  | 58 => ⟨S16384, .i32⟩
  | 59 => ⟨S16384, .i1⟩
  | 60 => ⟨S_, .i32⟩
  | 61 => ⟨S16384, .i32⟩
  | 62 => ⟨S16384, .i32⟩
  | 63 => ⟨S16384, .i32⟩
  | 64 => ⟨S16384x1, .i32⟩
  | 65 => ⟨S16384x128, .f32⟩
  | 66 => ⟨S16384x128, .f32⟩
  | 67 => ⟨S1x128, .f32⟩
  | 68 => ⟨S16384x128, .f32⟩
  | 69 => ⟨S16384x128, .f32⟩
  | 70 => ⟨S_, .f32⟩
  | 71 => ⟨S16384, .f32⟩
  | 72 => ⟨S16384x1, .f32⟩
  | 73 => ⟨S_, .f32⟩
  | 74 => ⟨S16384x1, .f32⟩
  | 75 => ⟨S16384x1, .f32⟩
  | 76 => ⟨S_, .i32⟩
  | 77 => ⟨S_, .f32⟩
  | 78 => ⟨S16384, .f32⟩
  | 79 => ⟨S16384x1, .f32⟩
  | 80 => ⟨S_, .f32⟩
  | 81 => ⟨S16384x1, .f32⟩
  | 82 => ⟨S16384x1, .f32⟩
  | 83 => ⟨S16384x128, .f32⟩
  | 84 => ⟨S16384x128, .f32⟩
  | 85 => ⟨S16384x128, .f32⟩
  | 86 => ⟨S_, .f32⟩
  | 87 => ⟨S_, .f32⟩
  | 88 => ⟨S_, .f32⟩
  | 89 => ⟨S_, .f32⟩
  | 90 => ⟨S16384, .f32⟩
  | 91 => ⟨S16384x1, .f32⟩
  | 92 => ⟨S16384x1, .f32⟩
  | 93 => ⟨S16384x1, .f32⟩
  | 94 => ⟨S_, .f32⟩
  | 95 => ⟨S_, .i1⟩
  | 96 => ⟨S_, .f32⟩
  | 97 => ⟨S_, .f32⟩
  | 98 => ⟨S16384x1, .f32⟩
  | 99 => ⟨S16384x1, .f32⟩
  | 100 => ⟨S16384x128, .f32⟩
  | 101 => ⟨S16384x128, .f32⟩
  | 102 => ⟨S_, .f32⟩
  | 103 => ⟨S16384x1, .f32⟩
  | 104 => ⟨S16384x1, .f32⟩
  | 105 => ⟨S16384x1, .f32⟩
  | 106 => ⟨S16384x128, .f32⟩
  | 107 => ⟨S16384x128, .f32⟩
  | 108 => ⟨S1x128, .f32⟩
  | 109 => ⟨S16384x128, .f32⟩
  | 110 => ⟨S16384x128, .f32⟩
  | 111 => ⟨S1x128, .f32⟩
  | 112 => ⟨S16384x128, .f32⟩
  | 113 => ⟨S16384x128, .f32⟩
  | 114 => ⟨S_, .f32⟩
  | 115 => ⟨S16384x128, .f32⟩
  | 116 => ⟨S16384x128, .f32⟩
  | 117 => ⟨S_, .i32⟩
  | 118 => ⟨S16384x50, .i32⟩
  | 119 => ⟨S16384x50, .i1⟩
  | 120 => ⟨S_, .i32⟩
  | 121 => ⟨S16384x50, .i32⟩
  | 122 => ⟨S16384x50, .i32⟩
  | 123 => ⟨S16384x50, .i32⟩
  | 124 => ⟨S16384x50x1, .i32⟩
  | 125 => ⟨S16384x50x128, .f32⟩
  | 126 => ⟨S_, .i32⟩
  | 127 => ⟨S16384x50, .i32⟩
  | _ => ⟨S16384, .i32⟩

abbrev hbmTy0_1 (i : Nat) : BufTy := match i % 128 with
  | 0 => ⟨S16384x50, .i1⟩
  | 1 => ⟨S16384x50, .f32⟩
  | 2 => ⟨S16384x50x1, .f32⟩
  | 3 => ⟨S16384x50x128, .f32⟩
  | 4 => ⟨S16384x50x128, .f32⟩
  | 5 => ⟨S_, .f32⟩
  | 6 => ⟨S16384x128, .f32⟩
  | 7 => ⟨S_, .f32⟩
  | 8 => ⟨S16384, .f32⟩
  | 9 => ⟨S16384x1, .f32⟩
  | 10 => ⟨S_, .f32⟩
  | 11 => ⟨S_, .f32⟩
  | 12 => ⟨S16384x1, .f32⟩
  | 13 => ⟨S16384x1, .f32⟩
  | 14 => ⟨S16384x128, .f32⟩
  | 15 => ⟨S16384x128, .f32⟩
  | 16 => ⟨S_, .f32⟩
  | 17 => ⟨S16384x128, .f32⟩
  | 18 => ⟨S16384x1x128, .f32⟩
  | 19 => ⟨S16384x1x128, .f32⟩
  | 20 => ⟨S16384x1x128, .f32⟩
  | 21 => ⟨S16384x1x128, .f32⟩
  | 22 => ⟨S16384x1x128, .f32⟩
  | 23 => ⟨S16384x1x128, .f32⟩
  | 24 => ⟨S16384x6x128, .f32⟩
  | 25 => ⟨S_, .f32⟩
  | 26 => ⟨S16384x6, .f32⟩
  | 27 => ⟨S_, .f32⟩
  | 28 => ⟨S16384x6, .f32⟩
  | 29 => ⟨S16384x6, .f32⟩
  | 30 => ⟨S16384x3, .f32⟩
  | 31 => ⟨S1x3, .f32⟩
  | 32 => ⟨S16384x3, .f32⟩
  | 33 => ⟨S16384x3, .f32⟩
  | 34 => ⟨S_, .f32⟩
  | 35 => ⟨S16384x3, .f32⟩
  | 36 => ⟨S16384x3, .f32⟩
  | 37 => ⟨S16384x6, .f32⟩
  | 38 => ⟨S1x6, .f32⟩
  | 39 => ⟨S16384x6, .f32⟩
  | 40 => ⟨S16384x6, .f32⟩
  | 41 => ⟨S16384x6, .f32⟩
  | 42 => ⟨S16384x6, .f32⟩
  | 43 => ⟨S_, .f32⟩
  | 44 => ⟨S16384x6, .f32⟩
  | 45 => ⟨S16384x6, .f32⟩
  | 46 => ⟨S_, .f32⟩
  | 47 => ⟨S16384x6, .f32⟩
  | 48 => ⟨S16384x6, .f32⟩
  | 49 => ⟨S16384x6x1, .f32⟩
  | 50 => ⟨S16384x6x128, .f32⟩
  | 51 => ⟨S16384x6x128, .f32⟩
  | 52 => ⟨S16384x6x128, .f32⟩
  | 53 => ⟨S_, .i32⟩
  | 54 => ⟨S15, .i32⟩
  | 55 => ⟨S15, .i32⟩
  | 56 => ⟨S15, .i32⟩
  | 57 => ⟨S15x1, .i32⟩
  | 58 => ⟨S16384x15x128, .f32⟩
  | 59 => ⟨S_, .i32⟩
  | 60 => ⟨S15, .i32⟩
  | 61 => ⟨S15, .i32⟩
  | 62 => ⟨S15, .i32⟩
  | 63 => ⟨S15x1, .i32⟩
  | 64 => ⟨S16384x15x128, .f32⟩
  | 65 => ⟨S16384x15x128, .f32⟩
  | 66 => ⟨S16384x768, .f32⟩
  | 67 => ⟨S16384x1920, .f32⟩
  | 68 => ⟨S16384x2688, .f32⟩
  | 69 => ⟨S16384x512, .f32⟩
  | 70 => ⟨S1x512, .f32⟩
  | 71 => ⟨S16384x512, .f32⟩
  | 72 => ⟨S16384x512, .f32⟩
  | 73 => ⟨S1x512, .f32⟩
  | 74 => ⟨S16384x512, .f32⟩
  | 75 => ⟨S16384x512, .f32⟩
  | 76 => ⟨S_, .f32⟩
  | 77 => ⟨S512, .f32⟩
  | 78 => ⟨S512, .f32⟩
  | 79 => ⟨S512, .f32⟩
  | 80 => ⟨S1x512, .f32⟩
  | 81 => ⟨S16384x512, .f32⟩
  | 82 => ⟨S16384x512, .f32⟩
  | 83 => ⟨S1x512, .f32⟩
  | 84 => ⟨S16384x512, .f32⟩
  | 85 => ⟨S16384x512, .f32⟩
  | 86 => ⟨S1x512, .f32⟩
  | 87 => ⟨S16384x512, .f32⟩
  | 88 => ⟨S16384x512, .f32⟩
  | 89 => ⟨S_, .f32⟩
  | 90 => ⟨S16384x512, .f32⟩
  | 91 => ⟨S16384x512, .f32⟩
  | 92 => ⟨S16384x256, .f32⟩
  | 93 => ⟨S1x256, .f32⟩
  | 94 => ⟨S16384x256, .f32⟩
  | 95 => ⟨S16384x256, .f32⟩
  | 96 => ⟨S1x256, .f32⟩
  | 97 => ⟨S16384x256, .f32⟩
  | 98 => ⟨S16384x256, .f32⟩
  | 99 => ⟨S_, .f32⟩
  | 100 => ⟨S256, .f32⟩
  | 101 => ⟨S256, .f32⟩
  | 102 => ⟨S256, .f32⟩
  | 103 => ⟨S1x256, .f32⟩
  | 104 => ⟨S16384x256, .f32⟩
  | 105 => ⟨S16384x256, .f32⟩
  | 106 => ⟨S1x256, .f32⟩
  | 107 => ⟨S16384x256, .f32⟩
  | 108 => ⟨S16384x256, .f32⟩
  | 109 => ⟨S1x256, .f32⟩
  | 110 => ⟨S16384x256, .f32⟩
  | 111 => ⟨S16384x256, .f32⟩
  | 112 => ⟨S_, .f32⟩
  | 113 => ⟨S16384x256, .f32⟩
  | 114 => ⟨S16384x256, .f32⟩
  | 115 => ⟨S16384x1, .f32⟩
  | 116 => ⟨S1x1, .f32⟩
  | 117 => ⟨S16384x1, .f32⟩
  | 118 => ⟨S16384x1, .f32⟩
  | 119 => ⟨S16384x1, .f32⟩
  | 120 => ⟨S16384x1, .f32⟩
  | 121 => ⟨S_, .f32⟩
  | 122 => ⟨S16384x1, .f32⟩
  | 123 => ⟨S16384x1, .f32⟩
  | 124 => ⟨S_, .f32⟩
  | 125 => ⟨S16384x1, .f32⟩
  | 126 => ⟨S16384x1, .f32⟩
  | 127 => ⟨S16384, .f32⟩
  | _ => ⟨S16384, .i32⟩

abbrev hbmTy (i : Nat) : BufTy := match i / 128 with
  | 0 => hbmTy0_0 i
  | 1 => hbmTy0_1 i
  | _ => ⟨S16384, .i32⟩

abbrev bufTy : (tb : Table) → Fin (tcTables nBuf tb) → BufTy
  | .hbm, ⟨i, _⟩ => hbmTy i
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_c : Ref sig .tc := ⟨.hbm, 30, rfl⟩
abbrev main_c_0 : Ref sig .tc := ⟨.hbm, 31, rfl⟩
abbrev main_c_1 : Ref sig .tc := ⟨.hbm, 32, rfl⟩
abbrev main_c_2 : Ref sig .tc := ⟨.hbm, 33, rfl⟩
abbrev main_c_3 : Ref sig .tc := ⟨.hbm, 34, rfl⟩
abbrev main_v0 : Ref sig .tc := ⟨.hbm, 35, rfl⟩
abbrev main_cst : Ref sig .tc := ⟨.hbm, 36, rfl⟩
abbrev main_v1 : Ref sig .tc := ⟨.hbm, 37, rfl⟩
abbrev main_v2 : Ref sig .tc := ⟨.hbm, 38, rfl⟩
abbrev main_c_4 : Ref sig .tc := ⟨.hbm, 39, rfl⟩
abbrev main_v3 : Ref sig .tc := ⟨.hbm, 40, rfl⟩
abbrev main_v4 : Ref sig .tc := ⟨.hbm, 41, rfl⟩
abbrev main_c_5 : Ref sig .tc := ⟨.hbm, 42, rfl⟩
abbrev main_v5 : Ref sig .tc := ⟨.hbm, 43, rfl⟩
abbrev main_v6 : Ref sig .tc := ⟨.hbm, 44, rfl⟩
abbrev main_v7 : Ref sig .tc := ⟨.hbm, 45, rfl⟩
abbrev main_v8 : Ref sig .tc := ⟨.hbm, 46, rfl⟩
abbrev main_v9 : Ref sig .tc := ⟨.hbm, 47, rfl⟩
abbrev main_c_6 : Ref sig .tc := ⟨.hbm, 48, rfl⟩
abbrev main_v10 : Ref sig .tc := ⟨.hbm, 49, rfl⟩
abbrev main_v11 : Ref sig .tc := ⟨.hbm, 50, rfl⟩
abbrev main_c_7 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_c_8 : Ref sig .tc := ⟨.hbm, 57, rfl⟩
abbrev main_v17 : Ref sig .tc := ⟨.hbm, 58, rfl⟩
abbrev main_v18 : Ref sig .tc := ⟨.hbm, 59, rfl⟩
abbrev main_c_9 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_cst_10 : Ref sig .tc := ⟨.hbm, 70, rfl⟩
abbrev main_v28 : Ref sig .tc := ⟨.hbm, 71, rfl⟩
abbrev main_v29 : Ref sig .tc := ⟨.hbm, 72, rfl⟩
abbrev main_cst_11 : Ref sig .tc := ⟨.hbm, 73, rfl⟩
abbrev main_v30 : Ref sig .tc := ⟨.hbm, 74, rfl⟩
abbrev main_v31 : Ref sig .tc := ⟨.hbm, 75, rfl⟩
abbrev main_c_12 : Ref sig .tc := ⟨.hbm, 76, rfl⟩
abbrev main_call0_cst : Ref sig .tc := ⟨.hbm, 77, rfl⟩
abbrev main_call0_v0 : Ref sig .tc := ⟨.hbm, 78, rfl⟩
abbrev main_call0_v1 : Ref sig .tc := ⟨.hbm, 79, rfl⟩
abbrev main_call0_cst_0 : Ref sig .tc := ⟨.hbm, 80, rfl⟩
abbrev main_call0_v2 : Ref sig .tc := ⟨.hbm, 81, rfl⟩
abbrev main_call0_v3 : Ref sig .tc := ⟨.hbm, 82, rfl⟩
abbrev main_call0_v4 : Ref sig .tc := ⟨.hbm, 83, rfl⟩
abbrev main_call0_v5 : Ref sig .tc := ⟨.hbm, 84, rfl⟩
abbrev main_call0_v6 : Ref sig .tc := ⟨.hbm, 85, rfl⟩
abbrev main_call0_v7 : Ref sig .tc := ⟨.hbm, 86, rfl⟩
abbrev main_call0_cst_1 : Ref sig .tc := ⟨.hbm, 87, rfl⟩
abbrev main_call0_v8 : Ref sig .tc := ⟨.hbm, 88, rfl⟩
abbrev main_call0_cst_2 : Ref sig .tc := ⟨.hbm, 89, rfl⟩
abbrev main_call0_v9 : Ref sig .tc := ⟨.hbm, 90, rfl⟩
abbrev main_call0_v10 : Ref sig .tc := ⟨.hbm, 91, rfl⟩
abbrev main_call0_v11 : Ref sig .tc := ⟨.hbm, 92, rfl⟩
abbrev main_call0_v12 : Ref sig .tc := ⟨.hbm, 93, rfl⟩
abbrev main_call0_cst_3 : Ref sig .tc := ⟨.hbm, 94, rfl⟩
abbrev main_call0_v13 : Ref sig .tc := ⟨.hbm, 95, rfl⟩
abbrev main_call0_cst_4 : Ref sig .tc := ⟨.hbm, 96, rfl⟩
abbrev main_call0_call0_v0 : Ref sig .tc := ⟨.hbm, 97, rfl⟩
abbrev main_call0_call0_v1 : Ref sig .tc := ⟨.hbm, 98, rfl⟩
abbrev main_v32 : Ref sig .tc := ⟨.hbm, 99, rfl⟩
abbrev main_v33 : Ref sig .tc := ⟨.hbm, 100, rfl⟩
abbrev main_v34 : Ref sig .tc := ⟨.hbm, 101, rfl⟩
abbrev main_cst_13 : Ref sig .tc := ⟨.hbm, 102, rfl⟩
abbrev main_v35 : Ref sig .tc := ⟨.hbm, 103, rfl⟩
abbrev main_v36 : Ref sig .tc := ⟨.hbm, 104, rfl⟩
abbrev main_v37 : Ref sig .tc := ⟨.hbm, 105, rfl⟩
abbrev main_v38 : Ref sig .tc := ⟨.hbm, 106, rfl⟩
abbrev main_v39 : Ref sig .tc := ⟨.hbm, 107, rfl⟩
abbrev main_v40 : Ref sig .tc := ⟨.hbm, 108, rfl⟩
abbrev main_v41 : Ref sig .tc := ⟨.hbm, 109, rfl⟩
abbrev main_v42 : Ref sig .tc := ⟨.hbm, 110, rfl⟩
abbrev main_v43 : Ref sig .tc := ⟨.hbm, 111, rfl⟩
abbrev main_v44 : Ref sig .tc := ⟨.hbm, 112, rfl⟩
abbrev main_v45 : Ref sig .tc := ⟨.hbm, 113, rfl⟩
abbrev main_call1_cst : Ref sig .tc := ⟨.hbm, 114, rfl⟩
abbrev main_call1_v0 : Ref sig .tc := ⟨.hbm, 115, rfl⟩
abbrev main_v46 : Ref sig .tc := ⟨.hbm, 116, rfl⟩
abbrev main_c_14 : Ref sig .tc := ⟨.hbm, 117, rfl⟩
abbrev main_v47 : Ref sig .tc := ⟨.hbm, 118, rfl⟩
abbrev main_v48 : Ref sig .tc := ⟨.hbm, 119, rfl⟩
abbrev main_c_15 : Ref sig .tc := ⟨.hbm, 120, rfl⟩
abbrev main_v49 : Ref sig .tc := ⟨.hbm, 121, rfl⟩
abbrev main_v50 : Ref sig .tc := ⟨.hbm, 122, rfl⟩
abbrev main_v51 : Ref sig .tc := ⟨.hbm, 123, rfl⟩
abbrev main_v52 : Ref sig .tc := ⟨.hbm, 124, rfl⟩
abbrev main_v53 : Ref sig .tc := ⟨.hbm, 125, rfl⟩
abbrev main_c_16 : Ref sig .tc := ⟨.hbm, 126, rfl⟩
abbrev main_v54 : Ref sig .tc := ⟨.hbm, 127, rfl⟩
abbrev main_v55 : Ref sig .tc := ⟨.hbm, 128, rfl⟩
abbrev main_v56 : Ref sig .tc := ⟨.hbm, 129, rfl⟩
abbrev main_v57 : Ref sig .tc := ⟨.hbm, 130, rfl⟩
abbrev main_v58 : Ref sig .tc := ⟨.hbm, 131, rfl⟩
abbrev main_v59 : Ref sig .tc := ⟨.hbm, 132, rfl⟩
abbrev main_cst_17 : Ref sig .tc := ⟨.hbm, 133, rfl⟩
abbrev main_v60 : Ref sig .tc := ⟨.hbm, 134, rfl⟩
abbrev main_cst_18 : Ref sig .tc := ⟨.hbm, 135, rfl⟩
abbrev main_v61 : Ref sig .tc := ⟨.hbm, 136, rfl⟩
abbrev main_v62 : Ref sig .tc := ⟨.hbm, 137, rfl⟩
abbrev main_cst_19 : Ref sig .tc := ⟨.hbm, 138, rfl⟩
abbrev main_call2_v0 : Ref sig .tc := ⟨.hbm, 139, rfl⟩
abbrev main_call2_v1 : Ref sig .tc := ⟨.hbm, 140, rfl⟩
abbrev main_v63 : Ref sig .tc := ⟨.hbm, 141, rfl⟩
abbrev main_v64 : Ref sig .tc := ⟨.hbm, 142, rfl⟩
abbrev main_v65 : Ref sig .tc := ⟨.hbm, 143, rfl⟩
abbrev main_cst_20 : Ref sig .tc := ⟨.hbm, 144, rfl⟩
abbrev main_v66 : Ref sig .tc := ⟨.hbm, 145, rfl⟩
abbrev main_v67 : Ref sig .tc := ⟨.hbm, 146, rfl⟩
abbrev main_v68 : Ref sig .tc := ⟨.hbm, 147, rfl⟩
abbrev main_v69 : Ref sig .tc := ⟨.hbm, 148, rfl⟩
abbrev main_v70 : Ref sig .tc := ⟨.hbm, 149, rfl⟩
abbrev main_v71 : Ref sig .tc := ⟨.hbm, 150, rfl⟩
abbrev main_v72 : Ref sig .tc := ⟨.hbm, 151, rfl⟩
abbrev main_v73 : Ref sig .tc := ⟨.hbm, 152, rfl⟩
abbrev main_cst_21 : Ref sig .tc := ⟨.hbm, 153, rfl⟩
abbrev main_v74 : Ref sig .tc := ⟨.hbm, 154, rfl⟩
abbrev main_cst_22 : Ref sig .tc := ⟨.hbm, 155, rfl⟩
abbrev main_v75 : Ref sig .tc := ⟨.hbm, 156, rfl⟩
abbrev main_v76 : Ref sig .tc := ⟨.hbm, 157, rfl⟩
abbrev main_v77 : Ref sig .tc := ⟨.hbm, 158, rfl⟩
abbrev main_v78 : Ref sig .tc := ⟨.hbm, 159, rfl⟩
abbrev main_v79 : Ref sig .tc := ⟨.hbm, 160, rfl⟩
abbrev main_v80 : Ref sig .tc := ⟨.hbm, 161, rfl⟩
abbrev main_call3_cst : Ref sig .tc := ⟨.hbm, 162, rfl⟩
abbrev main_call3_v0 : Ref sig .tc := ⟨.hbm, 163, rfl⟩
abbrev main_v81 : Ref sig .tc := ⟨.hbm, 164, rfl⟩
abbrev main_v82 : Ref sig .tc := ⟨.hbm, 165, rfl⟩
abbrev main_v83 : Ref sig .tc := ⟨.hbm, 166, rfl⟩
abbrev main_v84 : Ref sig .tc := ⟨.hbm, 167, rfl⟩
abbrev main_v85 : Ref sig .tc := ⟨.hbm, 168, rfl⟩
abbrev main_v86 : Ref sig .tc := ⟨.hbm, 169, rfl⟩
abbrev main_v87 : Ref sig .tc := ⟨.hbm, 170, rfl⟩
abbrev main_cst_23 : Ref sig .tc := ⟨.hbm, 171, rfl⟩
abbrev main_v88 : Ref sig .tc := ⟨.hbm, 172, rfl⟩
abbrev main_v89 : Ref sig .tc := ⟨.hbm, 173, rfl⟩
abbrev main_cst_24 : Ref sig .tc := ⟨.hbm, 174, rfl⟩
abbrev main_v90 : Ref sig .tc := ⟨.hbm, 175, rfl⟩
abbrev main_v91 : Ref sig .tc := ⟨.hbm, 176, rfl⟩
abbrev main_v92 : Ref sig .tc := ⟨.hbm, 177, rfl⟩
abbrev main_v93 : Ref sig .tc := ⟨.hbm, 178, rfl⟩
abbrev main_v94 : Ref sig .tc := ⟨.hbm, 179, rfl⟩
abbrev main_v95 : Ref sig .tc := ⟨.hbm, 180, rfl⟩
abbrev main_c_25 : Ref sig .tc := ⟨.hbm, 181, rfl⟩
abbrev main_v96 : Ref sig .tc := ⟨.hbm, 182, rfl⟩
abbrev main_v97 : Ref sig .tc := ⟨.hbm, 183, rfl⟩
abbrev main_v98 : Ref sig .tc := ⟨.hbm, 184, rfl⟩
abbrev main_v99 : Ref sig .tc := ⟨.hbm, 185, rfl⟩
abbrev main_v100 : Ref sig .tc := ⟨.hbm, 186, rfl⟩
abbrev main_c_26 : Ref sig .tc := ⟨.hbm, 187, rfl⟩
abbrev main_v101 : Ref sig .tc := ⟨.hbm, 188, rfl⟩
abbrev main_v102 : Ref sig .tc := ⟨.hbm, 189, rfl⟩
abbrev main_v103 : Ref sig .tc := ⟨.hbm, 190, rfl⟩
abbrev main_v104 : Ref sig .tc := ⟨.hbm, 191, rfl⟩
abbrev main_v105 : Ref sig .tc := ⟨.hbm, 192, rfl⟩
abbrev main_v106 : Ref sig .tc := ⟨.hbm, 193, rfl⟩
abbrev main_v107 : Ref sig .tc := ⟨.hbm, 194, rfl⟩
abbrev main_v108 : Ref sig .tc := ⟨.hbm, 195, rfl⟩
abbrev main_v109 : Ref sig .tc := ⟨.hbm, 196, rfl⟩
abbrev main_v110 : Ref sig .tc := ⟨.hbm, 197, rfl⟩
abbrev main_v111 : Ref sig .tc := ⟨.hbm, 198, rfl⟩
abbrev main_v112 : Ref sig .tc := ⟨.hbm, 199, rfl⟩
abbrev main_v113 : Ref sig .tc := ⟨.hbm, 200, rfl⟩
abbrev main_v114 : Ref sig .tc := ⟨.hbm, 201, rfl⟩
abbrev main_v115 : Ref sig .tc := ⟨.hbm, 202, rfl⟩
abbrev main_v116 : Ref sig .tc := ⟨.hbm, 203, rfl⟩
abbrev main_cst_27 : Ref sig .tc := ⟨.hbm, 204, rfl⟩
abbrev main_v117 : Ref sig .tc := ⟨.hbm, 205, rfl⟩
abbrev main_v118 : Ref sig .tc := ⟨.hbm, 206, rfl⟩
abbrev main_v119 : Ref sig .tc := ⟨.hbm, 207, rfl⟩
abbrev main_v120 : Ref sig .tc := ⟨.hbm, 208, rfl⟩
abbrev main_v121 : Ref sig .tc := ⟨.hbm, 209, rfl⟩
abbrev main_v122 : Ref sig .tc := ⟨.hbm, 210, rfl⟩
abbrev main_v123 : Ref sig .tc := ⟨.hbm, 211, rfl⟩
abbrev main_v124 : Ref sig .tc := ⟨.hbm, 212, rfl⟩
abbrev main_v125 : Ref sig .tc := ⟨.hbm, 213, rfl⟩
abbrev main_v126 : Ref sig .tc := ⟨.hbm, 214, rfl⟩
abbrev main_v127 : Ref sig .tc := ⟨.hbm, 215, rfl⟩
abbrev main_v128 : Ref sig .tc := ⟨.hbm, 216, rfl⟩
abbrev main_call4_cst : Ref sig .tc := ⟨.hbm, 217, rfl⟩
abbrev main_call4_v0 : Ref sig .tc := ⟨.hbm, 218, rfl⟩
abbrev main_v129 : Ref sig .tc := ⟨.hbm, 219, rfl⟩
abbrev main_v130 : Ref sig .tc := ⟨.hbm, 220, rfl⟩
abbrev main_v131 : Ref sig .tc := ⟨.hbm, 221, rfl⟩
abbrev main_v132 : Ref sig .tc := ⟨.hbm, 222, rfl⟩
abbrev main_v133 : Ref sig .tc := ⟨.hbm, 223, rfl⟩
abbrev main_v134 : Ref sig .tc := ⟨.hbm, 224, rfl⟩
abbrev main_v135 : Ref sig .tc := ⟨.hbm, 225, rfl⟩
abbrev main_v136 : Ref sig .tc := ⟨.hbm, 226, rfl⟩
abbrev main_cst_28 : Ref sig .tc := ⟨.hbm, 227, rfl⟩
abbrev main_v137 : Ref sig .tc := ⟨.hbm, 228, rfl⟩
abbrev main_v138 : Ref sig .tc := ⟨.hbm, 229, rfl⟩
abbrev main_v139 : Ref sig .tc := ⟨.hbm, 230, rfl⟩
abbrev main_v140 : Ref sig .tc := ⟨.hbm, 231, rfl⟩
abbrev main_v141 : Ref sig .tc := ⟨.hbm, 232, rfl⟩
abbrev main_v142 : Ref sig .tc := ⟨.hbm, 233, rfl⟩
abbrev main_v143 : Ref sig .tc := ⟨.hbm, 234, rfl⟩
abbrev main_v144 : Ref sig .tc := ⟨.hbm, 235, rfl⟩
abbrev main_v145 : Ref sig .tc := ⟨.hbm, 236, rfl⟩
abbrev main_v146 : Ref sig .tc := ⟨.hbm, 237, rfl⟩
abbrev main_v147 : Ref sig .tc := ⟨.hbm, 238, rfl⟩
abbrev main_v148 : Ref sig .tc := ⟨.hbm, 239, rfl⟩
abbrev main_call5_cst : Ref sig .tc := ⟨.hbm, 240, rfl⟩
abbrev main_call5_v0 : Ref sig .tc := ⟨.hbm, 241, rfl⟩
abbrev main_v149 : Ref sig .tc := ⟨.hbm, 242, rfl⟩
abbrev main_v150 : Ref sig .tc := ⟨.hbm, 243, rfl⟩
abbrev main_v151 : Ref sig .tc := ⟨.hbm, 244, rfl⟩
abbrev main_v152 : Ref sig .tc := ⟨.hbm, 245, rfl⟩
abbrev main_v153 : Ref sig .tc := ⟨.hbm, 246, rfl⟩
abbrev main_v154 : Ref sig .tc := ⟨.hbm, 247, rfl⟩
abbrev main_v155 : Ref sig .tc := ⟨.hbm, 248, rfl⟩
abbrev main_cst_29 : Ref sig .tc := ⟨.hbm, 249, rfl⟩
abbrev main_v156 : Ref sig .tc := ⟨.hbm, 250, rfl⟩
abbrev main_v157 : Ref sig .tc := ⟨.hbm, 251, rfl⟩
abbrev main_cst_30 : Ref sig .tc := ⟨.hbm, 252, rfl⟩
abbrev main_v158 : Ref sig .tc := ⟨.hbm, 253, rfl⟩
abbrev main_v159 : Ref sig .tc := ⟨.hbm, 254, rfl⟩
abbrev main_v160 : Ref sig .tc := ⟨.hbm, 255, rfl⟩

abbrev nD : Nat := 1
abbrev τ : Topo := Topo.v7x

variable {F : FTy → Type} [FloatOps F]

class Facts₀ : Prop where
  bcast_S_S1 : S_.BroadcastsInDim S1 (![] : Fin 0 → Fin S1.rank)
  bcast_S_S128 : S_.BroadcastsInDim S128 (![] : Fin 0 → Fin S128.rank)
  bcast_S_S16384 : S_.BroadcastsInDim S16384 (![] : Fin 0 → Fin S16384.rank)
  bcast_S16384_S16384x1_0 : S16384.BroadcastsInDim S16384x1 (![0] : Fin 1 → Fin S16384x1.rank)
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  reducesTo_S16384x128_S16384_d1 : S16384x128.ReducesTo [1] S16384
  h_S_ : 0 < S_.numel
  bcast_S_S16384x1 : S_.BroadcastsInDim S16384x1 (![] : Fin 0 → Fin S16384x1.rank)
  bcast_S16384x1_S16384x128_0_1 : S16384x1.BroadcastsInDim S16384x128 (![0, 1] : Fin 2 → Fin S16384x128.rank)
  bcast_S_S16384x128 : S_.BroadcastsInDim S16384x128 (![] : Fin 0 → Fin S16384x128.rank)
  bcast_S_S16384x50 : S_.BroadcastsInDim S16384x50 (![] : Fin 0 → Fin S16384x50.rank)
  bcast_S16384x50_S16384x50x1_0_1 : S16384x50.BroadcastsInDim S16384x50x1 (![0, 1] : Fin 2 → Fin S16384x50x1.rank)
  bcast_S16384x50x1_S16384x50x128_0_1_2 : S16384x50x1.BroadcastsInDim S16384x50x128 (![0, 1, 2] : Fin 3 → Fin S16384x50x128.rank)
  reducesTo_S16384x50x128_S16384x128_d1 : S16384x50x128.ReducesTo [1] S16384x128
  reducesTo_S16384x50_S16384_d1 : S16384x50.ReducesTo [1] S16384
  bcast_S16384x128_S16384x1x128_0_2 : S16384x128.BroadcastsInDim S16384x1x128 (![0, 2] : Fin 2 → Fin S16384x1x128.rank)
  concatenates_S16384x1x128_S16384x1x128_S16384x1x128_S16384x1x128_S16384x1x128_S16384x1x128_S16384x6x128_d1 : Shape.Concatenates [S16384x1x128, S16384x1x128, S16384x1x128, S16384x1x128, S16384x1x128, S16384x1x128] S16384x6x128 1
  reducesTo_S16384x6x128_S16384x6_d2 : S16384x6x128.ReducesTo [2] S16384x6
  bcast_S_S16384x6 : S_.BroadcastsInDim S16384x6 (![] : Fin 0 → Fin S16384x6.rank)
  bcast_S3_S1x3_1 : S3.BroadcastsInDim S1x3 (![1] : Fin 1 → Fin S1x3.rank)
  bcast_S1x3_S16384x3_0_1 : S1x3.BroadcastsInDim S16384x3 (![0, 1] : Fin 2 → Fin S16384x3.rank)
  bcast_S_S16384x3 : S_.BroadcastsInDim S16384x3 (![] : Fin 0 → Fin S16384x3.rank)
  bcast_S6_S1x6_1 : S6.BroadcastsInDim S1x6 (![1] : Fin 1 → Fin S1x6.rank)
  bcast_S1x6_S16384x6_0_1 : S1x6.BroadcastsInDim S16384x6 (![0, 1] : Fin 2 → Fin S16384x6.rank)
  bcast_S16384x6_S16384x6x1_0_1 : S16384x6.BroadcastsInDim S16384x6x1 (![0, 1] : Fin 2 → Fin S16384x6x1.rank)
  bcast_S16384x6x1_S16384x6x128_0_1_2 : S16384x6x1.BroadcastsInDim S16384x6x128 (![0, 1, 2] : Fin 3 → Fin S16384x6x128.rank)
  bcast_S_S15 : S_.BroadcastsInDim S15 (![] : Fin 0 → Fin S15.rank)
  bcast_S15_S15x1_0 : S15.BroadcastsInDim S15x1 (![0] : Fin 1 → Fin S15x1.rank)
  shapeCasts_S16384x6x128_S16384x768 : S16384x6x128.ShapeCasts S16384x768
  shapeCasts_S16384x15x128_S16384x1920 : S16384x15x128.ShapeCasts S16384x1920
  concatenates_S16384x768_S16384x1920_S16384x2688_d1 : Shape.Concatenates [S16384x768, S16384x1920] S16384x2688 1
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S_S512 : S_.BroadcastsInDim S512 (![] : Fin 0 → Fin S512.rank)
  bcast_S_S16384x512 : S_.BroadcastsInDim S16384x512 (![] : Fin 0 → Fin S16384x512.rank)
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S256 : S_.BroadcastsInDim S256 (![] : Fin 0 → Fin S256.rank)
  bcast_S_S16384x256 : S_.BroadcastsInDim S16384x256 (![] : Fin 0 → Fin S16384x256.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  shapeCasts_S16384x1_S16384 : S16384x1.ShapeCasts S16384
  scatter_S91718x128_S1_S128_0_0_0_0_wf : ScatterDims.WF S91718x128 S1 S128 [0] [0] [0] 0
  gather_S11x128_S16384x1_S16384x128_1_0_n_n_0_1_1128_wf : GatherDims.WF S11x128 S16384x1 S16384x128 [1] [0] [] [0] [] 1 ![1, 128]
  gather_S91718x128_S16384x1_S16384x128_1_0_n_n_0_1_1128_wf : GatherDims.WF S91718x128 S16384x1 S16384x128 [1] [0] [] [0] [] 1 ![1, 128]
  dot_S16384x128_S128x128_S16384x128_1_0_0_1_n_n_wf : DotDims.WF S16384x128 S128x128 S16384x128 [1] [0] [0] [1] [] []
  gather_S91718x128_S16384x50x1_S16384x50x128_2_0_n_n_0_2_1128_wf : GatherDims.WF S91718x128 S16384x50x1 S16384x50x128 [2] [0] [] [0] [] 2 ![1, 128]
  dot_S16384x6_S6x3_S16384x3_1_0_0_1_n_n_wf : DotDims.WF S16384x6 S6x3 S16384x3 [1] [0] [0] [1] [] []
  dot_S16384x3_S3x6_S16384x6_1_0_0_1_n_n_wf : DotDims.WF S16384x3 S3x6 S16384x6 [1] [0] [0] [1] [] []
  dot_S16384x6x128_S128x128_S16384x6x128_2_0_01_1_n_n_wf : DotDims.WF S16384x6x128 S128x128 S16384x6x128 [2] [0] [0, 1] [1] [] []
  gather_S16384x6x128_S15x1_S16384x15x128_02_1_n_n_1_1_163841128_wf : GatherDims.WF S16384x6x128 S15x1 S16384x15x128 [0, 2] [1] [] [1] [] 1 ![16384, 1, 128]
  dot_S16384x2688_S2688x512_S16384x512_1_0_0_1_n_n_wf : DotDims.WF S16384x2688 S2688x512 S16384x512 [1] [0] [0] [1] [] []
  dot_S16384x512_S512x256_S16384x256_1_0_0_1_n_n_wf : DotDims.WF S16384x512 S512x256 S16384x256 [1] [0] [0] [1] [] []
  dot_S16384x256_S256x1_S16384x1_1_0_0_1_n_n_wf : DotDims.WF S16384x256 S256x1 S16384x1 [1] [0] [0] [1] [] []

variable [Facts₀]

def scatter_S91718x128_S1_S128_0_0_0_0 : ScatterDims S91718x128 S1 S128 where
  updateWindowDims := [0]
  insertedWindowDims := [0]
  scatterDimsToOperandDims := [0]
  indexVectorDim := 0
  wf := scatter_S91718x128_S1_S128_0_0_0_0_wf
def gather_S11x128_S16384x1_S16384x128_1_0_n_n_0_1_1128 : GatherDims S11x128 S16384x1 S16384x128 where
  offsetDims := [1]
  collapsedSliceDims := [0]
  operandBatchingDims := []
  startIndicesBatchingDims := []
  startIndexMap := [0]
  indexVectorDim := 1
  sliceSizes := ![1, 128]
  wf := gather_S11x128_S16384x1_S16384x128_1_0_n_n_0_1_1128_wf
def gather_S91718x128_S16384x1_S16384x128_1_0_n_n_0_1_1128 : GatherDims S91718x128 S16384x1 S16384x128 where
  offsetDims := [1]
  collapsedSliceDims := [0]
  operandBatchingDims := []
  startIndicesBatchingDims := []
  startIndexMap := [0]
  indexVectorDim := 1
  sliceSizes := ![1, 128]
  wf := gather_S91718x128_S16384x1_S16384x128_1_0_n_n_0_1_1128_wf
def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def gather_S91718x128_S16384x50x1_S16384x50x128_2_0_n_n_0_2_1128 : GatherDims S91718x128 S16384x50x1 S16384x50x128 where
  offsetDims := [2]
  collapsedSliceDims := [0]
  operandBatchingDims := []
  startIndicesBatchingDims := []
  startIndexMap := [0]
  indexVectorDim := 2
  sliceSizes := ![1, 128]
  wf := gather_S91718x128_S16384x50x1_S16384x50x128_2_0_n_n_0_2_1128_wf
def dot_S16384x6_S6x3_S16384x3_1_0_0_1_n_n : DotDims S16384x6 S6x3 S16384x3 where
  lhsContracting := [1]
  rhsContracting := [0]
  lhsNonContracting := [0]
  rhsNonContracting := [1]
  lhsBatch := []
  rhsBatch := []
  wf := dot_S16384x6_S6x3_S16384x3_1_0_0_1_n_n_wf
def dot_S16384x3_S3x6_S16384x6_1_0_0_1_n_n : DotDims S16384x3 S3x6 S16384x6 where
  lhsContracting := [1]
  rhsContracting := [0]
  lhsNonContracting := [0]
  rhsNonContracting := [1]
  lhsBatch := []
  rhsBatch := []
  wf := dot_S16384x3_S3x6_S16384x6_1_0_0_1_n_n_wf
def dot_S16384x6x128_S128x128_S16384x6x128_2_0_01_1_n_n : DotDims S16384x6x128 S128x128 S16384x6x128 where
  lhsContracting := [2]
  rhsContracting := [0]
  lhsNonContracting := [0, 1]
  rhsNonContracting := [1]
  lhsBatch := []
  rhsBatch := []
  wf := dot_S16384x6x128_S128x128_S16384x6x128_2_0_01_1_n_n_wf
def gather_S16384x6x128_S15x1_S16384x15x128_02_1_n_n_1_1_163841128 : GatherDims S16384x6x128 S15x1 S16384x15x128 where
  offsetDims := [0, 2]
  collapsedSliceDims := [1]
  operandBatchingDims := []
  startIndicesBatchingDims := []
  startIndexMap := [1]
  indexVectorDim := 1
  sliceSizes := ![16384, 1, 128]
  wf := gather_S16384x6x128_S15x1_S16384x15x128_02_1_n_n_1_1_163841128_wf
def dot_S16384x2688_S2688x512_S16384x512_1_0_0_1_n_n : DotDims S16384x2688 S2688x512 S16384x512 where
  lhsContracting := [1]
  rhsContracting := [0]
  lhsNonContracting := [0]
  rhsNonContracting := [1]
  lhsBatch := []
  rhsBatch := []
  wf := dot_S16384x2688_S2688x512_S16384x512_1_0_0_1_n_n_wf
def dot_S16384x512_S512x256_S16384x256_1_0_0_1_n_n : DotDims S16384x512 S512x256 S16384x256 where
  lhsContracting := [1]
  rhsContracting := [0]
  lhsNonContracting := [0]
  rhsNonContracting := [1]
  lhsBatch := []
  rhsBatch := []
  wf := dot_S16384x512_S512x256_S16384x256_1_0_0_1_n_n_wf
def dot_S16384x256_S256x1_S16384x1_1_0_0_1_n_n : DotDims S16384x256 S256x1 S16384x1 where
  lhsContracting := [1]
  rhsContracting := [0]
  lhsNonContracting := [0]
  rhsNonContracting := [1]
  lhsBatch := []
  rhsBatch := []
  wf := dot_S16384x256_S256x1_S16384x1_1_0_0_1_n_n_wf

class Facts : Prop extends Facts₀ where

variable [Facts]
-- ==== Proof.Spec.lean ====
/-
  The one function of a batch row that both programs compute, written over the extended reals.

  A row carries the dense feature vector `x0`, the two category indices, the gathered item embedding and the
  pooled history embedding.  From them: the projection `x0 · mmW + mmb` is normalised over its 128 lanes
  (mean and variance by division by 128, the deviation times `rsqrt (var + eps)`), scaled, shifted and clamped
  at zero; each category index selects a row of the 11-row table (written as the sum over the table's rows of
  the indicator of the index times the row, which is the selected row when the index is in range); the six
  fields (a zero field, the two category rows, the item row, the normalised projection, the history row) are
  gated by a squeeze-and-excitation weight per field (lane means, two small linear maps, a logistic); the gated
  fields, and the lane-wise products of a gated field with the bilinear image of a later one for the fifteen
  pairs i < j (those with i = 0 vanish with the zero field), are laid side by side into 2688 columns and go
  through three linear layers, the first two followed by a normalisation with running statistics and a clamp at
  zero, the last by a logistic.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx
open scoped BigOperators

/-- A vector of extended reals over a literal one-axis shape. -/
abbrev A1 (n : Nat) : Type := (⟨1, ![n]⟩ : Shape).Idx → EReal
/-- A matrix of extended reals over a literal two-axis shape. -/
abbrev A2 (a b : Nat) : Type := (⟨2, ![a, b]⟩ : Shape).Idx → EReal

/-- The learned parameters. -/
structure W where
  cate : A2 11 128
  mmW : A2 128 128
  mmb : A1 128
  lng : A1 128
  lnb : A1 128
  seW1 : A2 6 3
  seb1 : A1 3
  seW2 : A2 3 6
  seb2 : A1 6
  biW : A2 128 128
  W1 : A2 2688 512
  b1 : A1 512
  g1 : A1 512
  be1 : A1 512
  rm1 : A1 512
  rv1 : A1 512
  W2 : A2 512 256
  b2 : A1 256
  g2 : A1 256
  be2 : A1 256
  rm2 : A1 256
  rv2 : A1 256
  W3 : A2 256 1
  b3 : A1 1

/-- What one batch row brings. -/
structure Row where
  x0 : Fin 128 → EReal
  like : BitVec 32
  view : BitVec 32
  item : Fin 128 → EReal
  hist : Fin 128 → EReal

/-- The lane count 128 as both programs write it. -/
def c128 : EReal := Ideal.ofBits .f32 0x43000000#32
/-- The stabiliser under the square roots. -/
def eps : EReal := Ideal.ofBits .f32 0x3727C5AC#32

/-- The mean of 128 lanes: their sum divided by 128. -/
def mean128 (f : Fin 128 → EReal) : EReal := Ideal.div (∑ k : Fin 128, f k) c128

/-- The projection of the dense features. -/
def lin (w : W) (x : Fin 128 → EReal) (e : Fin 128) : EReal :=
  (∑ k : Fin 128, x k * w.mmW (ix2 k e)) + w.mmb (ix1 e)

/-- The deviation of the projection from its lane mean. -/
def dev (w : W) (x : Fin 128 → EReal) (e : Fin 128) : EReal := lin w x e - mean128 (lin w x)

/-- The lane variance of the projection. -/
def var (w : W) (x : Fin 128 → EReal) : EReal := mean128 fun k => dev w x k * dev w x k

/-- The normalised, scaled, shifted and clamped projection. -/
def mmRow (w : W) (x : Fin 128 → EReal) (e : Fin 128) : EReal :=
  max (dev w x e * Ideal.rsqrt (var w x + eps) * w.lng (ix1 e) + w.lnb (ix1 e)) 0

/-- The indicator that a category index is `k`. -/
def oneHot (idx : BitVec 32) (k : Fin 11) : EReal := if idx = BitVec.ofNat 32 k.val then 1 else 0

/-- The table row a category index selects, as the indicator-weighted sum of the table's rows. -/
def catRow (w : W) (idx : BitVec 32) (e : Fin 128) : EReal := ∑ k : Fin 11, oneHot idx k * w.cate (ix2 k e)

/-- The six fields of a row. -/
def field (w : W) (r : Row) (f : Fin 6) : Fin 128 → EReal :=
  ![fun _ => 0, catRow w r.like, catRow w r.view, r.item, mmRow w r.x0, r.hist] f

/-- The lane mean of each field. -/
def z (w : W) (r : Row) (f : Fin 6) : EReal := mean128 (field w r f)

/-- The hidden layer of the gate. -/
def hid (w : W) (r : Row) (j : Fin 3) : EReal :=
  max ((∑ f : Fin 6, z w r f * w.seW1 (ix2 f j)) + w.seb1 (ix1 j)) 0

/-- The gate of each field. -/
def gate (w : W) (r : Row) (f : Fin 6) : EReal :=
  Ideal.logistic ((∑ j : Fin 3, hid w r j * w.seW2 (ix2 j f)) + w.seb2 (ix1 f))

/-- The gated fields. -/
def xs (w : W) (r : Row) (f : Fin 6) (e : Fin 128) : EReal := field w r f e * gate w r f

/-- The bilinear image of a gated field. -/
def xw (w : W) (r : Row) (j : Fin 6) (d : Fin 128) : EReal := ∑ e : Fin 128, xs w r j e * w.biW (ix2 e d)

/-- The first and the second field of the fifteen pairs i < j, in the order (0,1), (0,2), …, (4,5). -/
def pairI : Fin 15 → Fin 6 := ![0, 0, 0, 0, 0, 1, 1, 1, 1, 2, 2, 2, 3, 3, 4]
def pairJ : Fin 15 → Fin 6 := ![1, 2, 3, 4, 5, 2, 3, 4, 5, 3, 4, 5, 4, 5, 5]

/-- The 21 blocks of 128 columns: the six gated fields, five zero blocks (the pairs with the zero field), and
    the ten products of a gated field with the bilinear image of a later one. -/
def cblk (w : W) (r : Row) (q : Fin 21) (e : Fin 128) : EReal :=
  if h : q.val < 6 then xs w r ⟨q.val, h⟩ e
  else if q.val < 11 then 0
  else xs w r (pairI ⟨q.val - 6, by omega⟩) e * xw w r (pairJ ⟨q.val - 6, by omega⟩) e

/-- The 2688 columns laid side by side. -/
def cvec (w : W) (r : Row) (col : Fin 2688) : EReal :=
  cblk w r ⟨col.val / 128, by omega⟩ ⟨col.val % 128, Nat.mod_lt _ (by norm_num)⟩

/-- A normalisation with running statistics followed by a clamp at zero. -/
def bn (x rm rv g be : EReal) : EReal := max ((x - rm) * Ideal.rsqrt (rv + eps) * g + be) 0

def h1 (w : W) (r : Row) (n : Fin 512) : EReal :=
  bn ((∑ col : Fin 2688, cvec w r col * w.W1 (ix2 col n)) + w.b1 (ix1 n))
    (w.rm1 (ix1 n)) (w.rv1 (ix1 n)) (w.g1 (ix1 n)) (w.be1 (ix1 n))

def h2 (w : W) (r : Row) (n : Fin 256) : EReal :=
  bn ((∑ k : Fin 512, h1 w r k * w.W2 (ix2 k n)) + w.b2 (ix1 n))
    (w.rm2 (ix1 n)) (w.rv2 (ix1 n)) (w.g2 (ix1 n)) (w.be2 (ix1 n))

/-- The row's result. -/
def out (w : W) (r : Row) : EReal :=
  Ideal.logistic ((∑ k : Fin 256, h2 w r k * w.W3 (ix2 k (0 : Fin 1))) + w.b3 (ix1 (0 : Fin 1)))

end Cert.Spec

end
-- ==== Proof.KOut.lean ====
/-
  The kernel body's one store, written as a composition of the body's pure payloads over the 29 input blocks
  of a grid point: the normalised projection, the two category rows, the six lane means, the gated fields,
  the bilinear images, the 21 column blocks as the scratch buffer holds them, and the three-layer head.
  Also the parameters and the row data of the specification read off the blocks.
-/
import proofs.«429925_j71167608094992_2_alg».proof.Proof.Gen.KernelIdeal.Skeleton
import proofs.«429925_j71167608094992_2_alg».proof.Proof.Spec

set_option synthInstance.maxSize 4096

noncomputable section

namespace Cert.KernelIdeal.KV

open Idealize.ShloMosaic Idealize.SL.Sem Cert.KernelIdeal Cert.KernelIdeal.Gen

variable {F : FTy → Type} [FloatOps F]

/-- The column counter the category comparison runs against. -/
def kIota : IVec S1024x11 32 := iota .tc S1024x11 32 [1] iota_S1024x11_d1_w32

/-- The normalised projection of the block's rows. -/
def kMM (x0 : Vec F S1024x128 .f32) (x6 : Vec F S128x128 .bf16) (x7 x8 x9 : Vec F S128 .f32) : FVec F S1024x128 .f32 :=
  k0_pay2 x0 x6 x7 x8 x9

/-- The six fields of the block's rows, before gating. -/
def kF0 : FVec F S1024x128 .f32 := k0_pay9 (F := F)
def kF1 (x1 : Vec F S1024 .i32) (x5 : Vec F S11x128 .bf16) : FVec F S1024x128 .f32 := k0_pay5 (k0_pay3 x5) kIota (k0_pay4 x1)
def kF2 (x2 : Vec F S1024 .i32) (x5 : Vec F S11x128 .bf16) : FVec F S1024x128 .f32 := k0_pay6 (k0_pay3 x5) kIota x2
def kF3 (x3 : Vec F S1024x128 .f32) : FVec F S1024x128 .f32 := k0_pay7 x3
def kF5 (x4 : Vec F S1024x128 .f32) : FVec F S1024x128 .f32 := k0_pay8 x4

section gated
variable (x0 : Vec F S1024x128 .f32) (x1 x2 : Vec F S1024 .i32) (x3 x4 : Vec F S1024x128 .f32) (x5 : Vec F S11x128 .bf16)
  (x6 : Vec F S128x128 .bf16) (x7 x8 x9 : Vec F S128 .f32) (x10 : Vec F S6x3 .f32) (x11 : Vec F S3 .f32) (x12 : Vec F S3x6 .f32)
  (x13 : Vec F S6 .f32) (x14 : Vec F S128x128 .bf16)

/-- The gate of the six fields (one column each). -/
def kGate : FVec F S1024x6 .f32 := k0_pay16 (k0_pay10 (F := F)) (k0_pay11 (k0_pay3 x5) kIota (k0_pay4 x1)) (k0_pay12 (k0_pay3 x5) kIota x2) (k0_pay13 x3) (k0_pay14 (kMM x0 x6 x7 x8 x9)) (k0_pay15 x4) x10 x11 x12 x13

/-- The gated fields. -/
def kXs0 : FVec F S1024x128 .f32 := k0_pay17 (kF0 (F := F)) (k0_pay10 (F := F)) (k0_pay11 (k0_pay3 x5) kIota (k0_pay4 x1)) (k0_pay12 (k0_pay3 x5) kIota x2) (k0_pay13 x3) (k0_pay14 (kMM x0 x6 x7 x8 x9)) (k0_pay15 x4) x10 x11 x12 x13
def kXs1 : FVec F S1024x128 .f32 := k0_pay18 (kF1 x1 x5) (k0_pay10 (F := F)) (k0_pay11 (k0_pay3 x5) kIota (k0_pay4 x1)) (k0_pay12 (k0_pay3 x5) kIota x2) (k0_pay13 x3) (k0_pay14 (kMM x0 x6 x7 x8 x9)) (k0_pay15 x4) x10 x11 x12 x13
def kXs2 : FVec F S1024x128 .f32 := k0_pay19 (kF2 x2 x5) (k0_pay10 (F := F)) (k0_pay11 (k0_pay3 x5) kIota (k0_pay4 x1)) (k0_pay12 (k0_pay3 x5) kIota x2) (k0_pay13 x3) (k0_pay14 (kMM x0 x6 x7 x8 x9)) (k0_pay15 x4) x10 x11 x12 x13
def kXs3 : FVec F S1024x128 .f32 := k0_pay20 (kF3 x3) (k0_pay10 (F := F)) (k0_pay11 (k0_pay3 x5) kIota (k0_pay4 x1)) (k0_pay12 (k0_pay3 x5) kIota x2) (k0_pay13 x3) (k0_pay14 (kMM x0 x6 x7 x8 x9)) (k0_pay15 x4) x10 x11 x12 x13
def kXs4 : FVec F S1024x128 .f32 := k0_pay21 (kMM x0 x6 x7 x8 x9) (k0_pay10 (F := F)) (k0_pay11 (k0_pay3 x5) kIota (k0_pay4 x1)) (k0_pay12 (k0_pay3 x5) kIota x2) (k0_pay13 x3) (k0_pay14 (kMM x0 x6 x7 x8 x9)) (k0_pay15 x4) x10 x11 x12 x13
def kXs5 : FVec F S1024x128 .f32 := k0_pay22 (kF5 x4) (k0_pay10 (F := F)) (k0_pay11 (k0_pay3 x5) kIota (k0_pay4 x1)) (k0_pay12 (k0_pay3 x5) kIota x2) (k0_pay13 x3) (k0_pay14 (kMM x0 x6 x7 x8 x9)) (k0_pay15 x4) x10 x11 x12 x13

/-- The bilinear images of the gated fields 2 to 5. -/
def kXw2 : FVec F S1024x128 .f32 := k0_pay24 (kF2 x2 x5) (k0_pay10 (F := F)) (k0_pay11 (k0_pay3 x5) kIota (k0_pay4 x1)) (k0_pay12 (k0_pay3 x5) kIota x2) (k0_pay13 x3) (k0_pay14 (kMM x0 x6 x7 x8 x9)) (k0_pay15 x4) x10 x11 x12 x13 x14
def kXw3 : FVec F S1024x128 .f32 := k0_pay25 (kF3 x3) (k0_pay10 (F := F)) (k0_pay11 (k0_pay3 x5) kIota (k0_pay4 x1)) (k0_pay12 (k0_pay3 x5) kIota x2) (k0_pay13 x3) (k0_pay14 (kMM x0 x6 x7 x8 x9)) (k0_pay15 x4) x10 x11 x12 x13 x14
def kXw4 : FVec F S1024x128 .f32 := k0_pay26 (kMM x0 x6 x7 x8 x9) (k0_pay10 (F := F)) (k0_pay11 (k0_pay3 x5) kIota (k0_pay4 x1)) (k0_pay12 (k0_pay3 x5) kIota x2) (k0_pay13 x3) (k0_pay14 (kMM x0 x6 x7 x8 x9)) (k0_pay15 x4) x10 x11 x12 x13 x14
def kXw5 : FVec F S1024x128 .f32 := k0_pay28 (k0_pay23 x14) (k0_pay27 (kF5 x4) (k0_pay10 (F := F)) (k0_pay11 (k0_pay3 x5) kIota (k0_pay4 x1)) (k0_pay12 (k0_pay3 x5) kIota x2) (k0_pay13 x3) (k0_pay14 (kMM x0 x6 x7 x8 x9)) (k0_pay15 x4) x10 x11 x12 x13)

/-- The 21 column blocks the body stores into its scratch buffer, in column order. -/
def kPiece (q : Fin 21) : FVec F S1024x128 .bf16 :=
  let xs1 := kXs1 x0 x1 x2 x3 x4 x5 x6 x7 x8 x9 x10 x11 x12 x13
  let xs2 := kXs2 x0 x1 x2 x3 x4 x5 x6 x7 x8 x9 x10 x11 x12 x13
  let xs3 := kXs3 x0 x1 x2 x3 x4 x5 x6 x7 x8 x9 x10 x11 x12 x13
  let xs4 := kXs4 x0 x1 x2 x3 x4 x5 x6 x7 x8 x9 x10 x11 x12 x13
  let xw2 := kXw2 x0 x1 x2 x3 x4 x5 x6 x7 x8 x9 x10 x11 x12 x13 x14
  let xw3 := kXw3 x0 x1 x2 x3 x4 x5 x6 x7 x8 x9 x10 x11 x12 x13 x14
  let xw4 := kXw4 x0 x1 x2 x3 x4 x5 x6 x7 x8 x9 x10 x11 x12 x13 x14
  let xw5 := kXw5 x0 x1 x2 x3 x4 x5 x6 x7 x8 x9 x10 x11 x12 x13 x14
  ![k0_pay29 (kXs0 x0 x1 x2 x3 x4 x5 x6 x7 x8 x9 x10 x11 x12 x13), k0_pay30 xs1, k0_pay31 xs2, k0_pay32 xs3, k0_pay33 xs4,
    k0_pay34 (kXs5 x0 x1 x2 x3 x4 x5 x6 x7 x8 x9 x10 x11 x12 x13),
    k0_pay36 (F := F), k0_pay37 (F := F), k0_pay38 (k0_pay35 (F := F)), k0_pay39 (k0_pay35 (F := F)), k0_pay40 (k0_pay35 (F := F)),
    k0_pay41 xs1 xw2, k0_pay42 xs1 xw3, k0_pay43 xs1 xw4, k0_pay44 xs1 xw5, k0_pay45 xs2 xw3,
    k0_pay47 (k0_pay46 xs2 xw4), k0_pay48 xs2 xw5, k0_pay49 xs3 xw4, k0_pay50 xs3 xw5, k0_pay51 xs4 xw5] q

/-- The scratch buffer read back whole: column `128 q + e` of row `r` is block `q` at `(r, e)`. -/
def kC : Vec F S1024x2688 .bf16 := fun y =>
  kPiece x0 x1 x2 x3 x4 x5 x6 x7 x8 x9 x10 x11 x12 x13 x14 ⟨(y 1).val / 128, by have h : (y 1).val < 2688 := (y 1).isLt; omega⟩
    (ValueIdx.ix2 (y 0) ⟨(y 1).val % 128, Nat.mod_lt _ (by norm_num)⟩)

end gated

/-- The body's one store: the head over the scratch buffer's contents. -/
def kOut (x0 : Vec F S1024x128 .f32) (x1 x2 : Vec F S1024 .i32) (x3 x4 : Vec F S1024x128 .f32) (x5 : Vec F S11x128 .bf16)
    (x6 : Vec F S128x128 .bf16) (x7 x8 x9 : Vec F S128 .f32) (x10 : Vec F S6x3 .f32) (x11 : Vec F S3 .f32) (x12 : Vec F S3x6 .f32)
    (x13 : Vec F S6 .f32) (x14 : Vec F S128x128 .bf16) (x15 : Vec F S2688x512 .bf16) (x16 x17 x18 x19 x20 : Vec F S512 .f32)
    (x21 : Vec F S512x256 .bf16) (x22 x23 x24 x25 x26 : Vec F S256 .f32) (x27 : Vec F S256x1 .bf16) (x28 : Vec F S1 .f32) :
    FVec F S1024x1 .f32 :=
  k0_pay1 (k0_pay54 (k0_pay52 (kC x0 x1 x2 x3 x4 x5 x6 x7 x8 x9 x10 x11 x12 x13 x14) x15 x16 x19) (k0_pay53 x20)
      x17 x18 x21 x22 x25 x26 x23 x24) (k0_pay55 x27) x28

/-- The specification's parameters read off the weight blocks (a change of float format is the identity). -/
def wOf (x5 : Vec Ideal S11x128 .bf16) (x6 : Vec Ideal S128x128 .bf16) (x7 x8 x9 : Vec Ideal S128 .f32) (x10 : Vec Ideal S6x3 .f32)
    (x11 : Vec Ideal S3 .f32) (x12 : Vec Ideal S3x6 .f32) (x13 : Vec Ideal S6 .f32) (x14 : Vec Ideal S128x128 .bf16)
    (x15 : Vec Ideal S2688x512 .bf16) (x16 x17 x18 x19 x20 : Vec Ideal S512 .f32) (x21 : Vec Ideal S512x256 .bf16)
    (x22 x23 x24 x25 x26 : Vec Ideal S256 .f32) (x27 : Vec Ideal S256x1 .bf16) (x28 : Vec Ideal S1 .f32) : Cert.Spec.W where
  cate := x5
  mmW := x6
  mmb := x7
  lng := x8
  lnb := x9
  seW1 := x10
  seb1 := x11
  seW2 := x12
  seb2 := x13
  biW := x14
  W1 := x15
  b1 := x16
  g1 := x17
  be1 := x18
  rm1 := x19
  rv1 := x20
  W2 := x21
  b2 := x22
  g2 := x23
  be2 := x24
  rm2 := x25
  rv2 := x26
  W3 := x27
  b3 := x28

/-- The specification's row data read off the five row blocks at row `r`. -/
def rowOf (x0 : Vec Ideal S1024x128 .f32) (x1 x2 : Vec Ideal S1024 .i32) (x3 x4 : Vec Ideal S1024x128 .f32) (r : Fin 1024) : Cert.Spec.Row where
  x0 := fun k => x0 (ValueIdx.ix2 r k)
  like := x1 (ValueIdx.ix1 r)
  view := x2 (ValueIdx.ix1 r)
  item := fun k => x3 (ValueIdx.ix2 r k)
  hist := fun k => x4 (ValueIdx.ix2 r k)

end Cert.KernelIdeal.KV

end
-- ==== Proof.KPiece.lean ====
/-
  The value the kernel body leaves in the output's staging buffer at a grid point, as a closed term: the
  three-layer head applied to the wide buffer's contents, which are the twenty-one column blocks side by side.
  First the wide buffer: twenty-one stores of 1024 x 128 blocks at column offsets 0, 128, ..., 2560 tile the
  1024 x 2688 buffer, and each store's block is the restriction of ONE function of the wide index (column
  `128 q + e` of row `r` is block `q` at `(r, e)`); so a load of the whole buffer reads that function.
  Then the one store of the output: every load of an input buffer reads the buffer's contents.
-/
import proofs.«429925_j71167608094992_2_alg».proof.Proof.KernelIdealFrame
import proofs.«429925_j71167608094992_2_alg».proof.Proof.KOut
import Idealize.ShloMosaic.Lib.Pipeline.Value
import Idealize.ShloMosaic.Lib.ValueIdx

set_option maxRecDepth 16384

noncomputable section

namespace Cert.KernelIdeal.KV.KPiece

open Cert.KernelIdeal.Gen Cert.KernelIdeal.GenP
open Idealize.ShloMosaic Idealize.ShloMosaic.TcCoe Idealize.ShloMosaic.Tactic
open Idealize.SL Idealize.SL.Sem

variable {F : FTy → Type} [FloatOps F]

theorem zeros2 : (![0, 0] : Fin 2 → Nat) = fun _ => 0 := funext fun a => by fin_cases a <;> rfl
theorem zeros1 : (![0] : Fin 1 → Nat) = fun _ => 0 := funext fun a => by fin_cases a; rfl

/-- Twenty-one blocks of 128 columns set side by side, as one function of the wide index: column `128 q + e` of
    row `r` is block `q` at `(r, e)`. -/
def blocks (G : Fin 21 → FVec F S1024x128 .bf16) : Vec F S1024x2688 .bf16 := fun y =>
  G ⟨(y 1).val / 128, by have h : (y 1).val < 2688 := (y 1).isLt; omega⟩
    (ValueIdx.ix2 (y 0) ⟨(y 1).val % 128, Nat.mod_lt _ (by norm_num)⟩)

/-- At the wide index under local index `x` of the column rectangle that starts at column `128 q`, the side-by-side
    function is block `q` at `x`: the quotient of `128 q + x₁` by 128 is `q` and the remainder is `x₁`. -/
theorem blocks_emb (G : Fin 21 → FVec F S1024x128 .bf16) (q : Fin 21) (o : Nat) (ho : o = 128 * q.val)
    (inb : ∀ a, (![0, o] : Fin 2 → Nat) a + S1024x128.size a ≤ S1024x2688.size a) (x : S1024x128.Idx) :
    blocks G ((Rect.unit (s := S1024x2688) ![0, o] S1024x128.size inb).emb x) = G q x := by
  subst ho
  have hx1 : (x 1).val < 128 := (x 1).isLt
  have h0 : ((Rect.unit (s := S1024x2688) ![0, 128 * q.val] S1024x128.size inb).emb x) 0 = x 0 :=
    Fin.ext (by rw [Rect.emb_apply]; simp)
  have h1 : (((Rect.unit (s := S1024x2688) ![0, 128 * q.val] S1024x128.size inb).emb x) 1).val = 128 * q.val + (x 1).val := by
    rw [Rect.emb_apply]; simp
  have hq : (⟨(((Rect.unit (s := S1024x2688) ![0, 128 * q.val] S1024x128.size inb).emb x) 1).val / 128,
      by have h : (((Rect.unit (s := S1024x2688) ![0, 128 * q.val] S1024x128.size inb).emb x) 1).val < 2688 := Fin.isLt _; omega⟩ : Fin 21) = q :=
    Fin.ext (by show _ / 128 = q.val; rw [h1]; omega)
  have hr : (⟨(((Rect.unit (s := S1024x2688) ![0, 128 * q.val] S1024x128.size inb).emb x) 1).val % 128,
      Nat.mod_lt _ (by norm_num)⟩ : Fin 128) = x 1 :=
    Fin.ext (by show _ % 128 = (x 1).val; rw [h1]; omega)
  unfold blocks
  rw [hq, hr, h0]
  exact congrArg (G q) (ValueIdx.eq_ix2 x).symm

/-- What the twenty-one column stores leave in the wide buffer, whatever it held before: the blocks side by side. -/
theorem scratch_canon (p0 p1 p2 p3 p4 p5 p6 p7 p8 p9 p10 p11 p12 p13 p14 p15 p16 p17 p18 p19 p20 : FVec F S1024x128 .bf16) :
    View.canon (Val := Elt F)
      [(⟨Rect.unit (s := S1024x2688) ![0, 2560] S1024x128.size inb_S1024x2688_S1024x128_0_2560, p20⟩ : View.Piece (Elt F) S1024x2688 .bf16),
      (⟨Rect.unit (s := S1024x2688) ![0, 2432] S1024x128.size inb_S1024x2688_S1024x128_0_2432, p19⟩ : View.Piece (Elt F) S1024x2688 .bf16),
      (⟨Rect.unit (s := S1024x2688) ![0, 2304] S1024x128.size inb_S1024x2688_S1024x128_0_2304, p18⟩ : View.Piece (Elt F) S1024x2688 .bf16),
      (⟨Rect.unit (s := S1024x2688) ![0, 2176] S1024x128.size inb_S1024x2688_S1024x128_0_2176, p17⟩ : View.Piece (Elt F) S1024x2688 .bf16),
      (⟨Rect.unit (s := S1024x2688) ![0, 2048] S1024x128.size inb_S1024x2688_S1024x128_0_2048, p16⟩ : View.Piece (Elt F) S1024x2688 .bf16),
      (⟨Rect.unit (s := S1024x2688) ![0, 1920] S1024x128.size inb_S1024x2688_S1024x128_0_1920, p15⟩ : View.Piece (Elt F) S1024x2688 .bf16),
      (⟨Rect.unit (s := S1024x2688) ![0, 1792] S1024x128.size inb_S1024x2688_S1024x128_0_1792, p14⟩ : View.Piece (Elt F) S1024x2688 .bf16),
      (⟨Rect.unit (s := S1024x2688) ![0, 1664] S1024x128.size inb_S1024x2688_S1024x128_0_1664, p13⟩ : View.Piece (Elt F) S1024x2688 .bf16),
      (⟨Rect.unit (s := S1024x2688) ![0, 1536] S1024x128.size inb_S1024x2688_S1024x128_0_1536, p12⟩ : View.Piece (Elt F) S1024x2688 .bf16),
      (⟨Rect.unit (s := S1024x2688) ![0, 1408] S1024x128.size inb_S1024x2688_S1024x128_0_1408, p11⟩ : View.Piece (Elt F) S1024x2688 .bf16),
      (⟨Rect.unit (s := S1024x2688) ![0, 1280] S1024x128.size inb_S1024x2688_S1024x128_0_1280, p10⟩ : View.Piece (Elt F) S1024x2688 .bf16),
      (⟨Rect.unit (s := S1024x2688) ![0, 1152] S1024x128.size inb_S1024x2688_S1024x128_0_1152, p9⟩ : View.Piece (Elt F) S1024x2688 .bf16),
      (⟨Rect.unit (s := S1024x2688) ![0, 1024] S1024x128.size inb_S1024x2688_S1024x128_0_1024, p8⟩ : View.Piece (Elt F) S1024x2688 .bf16),
      (⟨Rect.unit (s := S1024x2688) ![0, 896] S1024x128.size inb_S1024x2688_S1024x128_0_896, p7⟩ : View.Piece (Elt F) S1024x2688 .bf16),
      (⟨Rect.unit (s := S1024x2688) ![0, 768] S1024x128.size inb_S1024x2688_S1024x128_0_768, p6⟩ : View.Piece (Elt F) S1024x2688 .bf16),
      (⟨Rect.unit (s := S1024x2688) ![0, 640] S1024x128.size inb_S1024x2688_S1024x128_0_640, p5⟩ : View.Piece (Elt F) S1024x2688 .bf16),
      (⟨Rect.unit (s := S1024x2688) ![0, 512] S1024x128.size inb_S1024x2688_S1024x128_0_512, p4⟩ : View.Piece (Elt F) S1024x2688 .bf16),
      (⟨Rect.unit (s := S1024x2688) ![0, 384] S1024x128.size inb_S1024x2688_S1024x128_0_384, p3⟩ : View.Piece (Elt F) S1024x2688 .bf16),
      (⟨Rect.unit (s := S1024x2688) ![0, 256] S1024x128.size inb_S1024x2688_S1024x128_0_256, p2⟩ : View.Piece (Elt F) S1024x2688 .bf16),
      (⟨Rect.unit (s := S1024x2688) ![0, 128] S1024x128.size inb_S1024x2688_S1024x128_0_128, p1⟩ : View.Piece (Elt F) S1024x2688 .bf16),
      (⟨Rect.unit (s := S1024x2688) ![0, 0] S1024x128.size inb_S1024x2688_S1024x128_0_0, p0⟩ : View.Piece (Elt F) S1024x2688 .bf16)]
      = blocks ![p0, p1, p2, p3, p4, p5, p6, p7, p8, p9, p10, p11, p12, p13, p14, p15, p16, p17, p18, p19, p20] := by
  funext y
  refine View.canon_apply_of_pieces (blocks ![p0, p1, p2, p3, p4, p5, p6, p7, p8, p9, p10, p11, p12, p13, p14, p15, p16, p17, p18, p19, p20]) _ ?hL y ?hy
  case hL =>
    intro p hp x
    simp only [List.mem_cons, List.not_mem_nil, or_false] at hp
    rcases hp with rfl | rfl | rfl | rfl | rfl | rfl | rfl | rfl | rfl | rfl | rfl | rfl | rfl | rfl | rfl | rfl | rfl | rfl | rfl | rfl | rfl
    · exact (blocks_emb ![p0, p1, p2, p3, p4, p5, p6, p7, p8, p9, p10, p11, p12, p13, p14, p15, p16, p17, p18, p19, p20] (20 : Fin 21) 2560 rfl inb_S1024x2688_S1024x128_0_2560 x).symm
    · exact (blocks_emb ![p0, p1, p2, p3, p4, p5, p6, p7, p8, p9, p10, p11, p12, p13, p14, p15, p16, p17, p18, p19, p20] (19 : Fin 21) 2432 rfl inb_S1024x2688_S1024x128_0_2432 x).symm
    · exact (blocks_emb ![p0, p1, p2, p3, p4, p5, p6, p7, p8, p9, p10, p11, p12, p13, p14, p15, p16, p17, p18, p19, p20] (18 : Fin 21) 2304 rfl inb_S1024x2688_S1024x128_0_2304 x).symm
    · exact (blocks_emb ![p0, p1, p2, p3, p4, p5, p6, p7, p8, p9, p10, p11, p12, p13, p14, p15, p16, p17, p18, p19, p20] (17 : Fin 21) 2176 rfl inb_S1024x2688_S1024x128_0_2176 x).symm
    · exact (blocks_emb ![p0, p1, p2, p3, p4, p5, p6, p7, p8, p9, p10, p11, p12, p13, p14, p15, p16, p17, p18, p19, p20] (16 : Fin 21) 2048 rfl inb_S1024x2688_S1024x128_0_2048 x).symm
    · exact (blocks_emb ![p0, p1, p2, p3, p4, p5, p6, p7, p8, p9, p10, p11, p12, p13, p14, p15, p16, p17, p18, p19, p20] (15 : Fin 21) 1920 rfl inb_S1024x2688_S1024x128_0_1920 x).symm
    · exact (blocks_emb ![p0, p1, p2, p3, p4, p5, p6, p7, p8, p9, p10, p11, p12, p13, p14, p15, p16, p17, p18, p19, p20] (14 : Fin 21) 1792 rfl inb_S1024x2688_S1024x128_0_1792 x).symm
    · exact (blocks_emb ![p0, p1, p2, p3, p4, p5, p6, p7, p8, p9, p10, p11, p12, p13, p14, p15, p16, p17, p18, p19, p20] (13 : Fin 21) 1664 rfl inb_S1024x2688_S1024x128_0_1664 x).symm
    · exact (blocks_emb ![p0, p1, p2, p3, p4, p5, p6, p7, p8, p9, p10, p11, p12, p13, p14, p15, p16, p17, p18, p19, p20] (12 : Fin 21) 1536 rfl inb_S1024x2688_S1024x128_0_1536 x).symm
    · exact (blocks_emb ![p0, p1, p2, p3, p4, p5, p6, p7, p8, p9, p10, p11, p12, p13, p14, p15, p16, p17, p18, p19, p20] (11 : Fin 21) 1408 rfl inb_S1024x2688_S1024x128_0_1408 x).symm
    · exact (blocks_emb ![p0, p1, p2, p3, p4, p5, p6, p7, p8, p9, p10, p11, p12, p13, p14, p15, p16, p17, p18, p19, p20] (10 : Fin 21) 1280 rfl inb_S1024x2688_S1024x128_0_1280 x).symm
    · exact (blocks_emb ![p0, p1, p2, p3, p4, p5, p6, p7, p8, p9, p10, p11, p12, p13, p14, p15, p16, p17, p18, p19, p20] (9 : Fin 21) 1152 rfl inb_S1024x2688_S1024x128_0_1152 x).symm
    · exact (blocks_emb ![p0, p1, p2, p3, p4, p5, p6, p7, p8, p9, p10, p11, p12, p13, p14, p15, p16, p17, p18, p19, p20] (8 : Fin 21) 1024 rfl inb_S1024x2688_S1024x128_0_1024 x).symm
    · exact (blocks_emb ![p0, p1, p2, p3, p4, p5, p6, p7, p8, p9, p10, p11, p12, p13, p14, p15, p16, p17, p18, p19, p20] (7 : Fin 21) 896 rfl inb_S1024x2688_S1024x128_0_896 x).symm
    · exact (blocks_emb ![p0, p1, p2, p3, p4, p5, p6, p7, p8, p9, p10, p11, p12, p13, p14, p15, p16, p17, p18, p19, p20] (6 : Fin 21) 768 rfl inb_S1024x2688_S1024x128_0_768 x).symm
    · exact (blocks_emb ![p0, p1, p2, p3, p4, p5, p6, p7, p8, p9, p10, p11, p12, p13, p14, p15, p16, p17, p18, p19, p20] (5 : Fin 21) 640 rfl inb_S1024x2688_S1024x128_0_640 x).symm
    · exact (blocks_emb ![p0, p1, p2, p3, p4, p5, p6, p7, p8, p9, p10, p11, p12, p13, p14, p15, p16, p17, p18, p19, p20] (4 : Fin 21) 512 rfl inb_S1024x2688_S1024x128_0_512 x).symm
    · exact (blocks_emb ![p0, p1, p2, p3, p4, p5, p6, p7, p8, p9, p10, p11, p12, p13, p14, p15, p16, p17, p18, p19, p20] (3 : Fin 21) 384 rfl inb_S1024x2688_S1024x128_0_384 x).symm
    · exact (blocks_emb ![p0, p1, p2, p3, p4, p5, p6, p7, p8, p9, p10, p11, p12, p13, p14, p15, p16, p17, p18, p19, p20] (2 : Fin 21) 256 rfl inb_S1024x2688_S1024x128_0_256 x).symm
    · exact (blocks_emb ![p0, p1, p2, p3, p4, p5, p6, p7, p8, p9, p10, p11, p12, p13, p14, p15, p16, p17, p18, p19, p20] (1 : Fin 21) 128 rfl inb_S1024x2688_S1024x128_0_128 x).symm
    · exact (blocks_emb ![p0, p1, p2, p3, p4, p5, p6, p7, p8, p9, p10, p11, p12, p13, p14, p15, p16, p17, p18, p19, p20] (0 : Fin 21) 0 rfl inb_S1024x2688_S1024x128_0_0 x).symm
  case hy =>
    exact View.cover_of_tiledL (s := S1024x2688) _ (![1024, 128] : Fin 2 → ℕ) (by sl_kernel_rfl) y

/-- A load of the whole wide buffer after the twenty-one column stores reads the blocks side by side. -/
theorem scratch_read {sg : RefSig} {κ : Kind} {sp : Space} (v : View sg κ sp S1024x2688 .bf16) (p0 p1 p2 p3 p4 p5 p6 p7 p8 p9 p10 p11 p12 p13 p14 p15 p16 p17 p18 p19 p20 : FVec F S1024x128 .bf16) :
    v.readCov (Val := Elt F)
      [(⟨Rect.unit (s := S1024x2688) ![0, 2560] S1024x128.size inb_S1024x2688_S1024x128_0_2560, p20⟩ : View.Piece (Elt F) S1024x2688 .bf16),
      (⟨Rect.unit (s := S1024x2688) ![0, 2432] S1024x128.size inb_S1024x2688_S1024x128_0_2432, p19⟩ : View.Piece (Elt F) S1024x2688 .bf16),
      (⟨Rect.unit (s := S1024x2688) ![0, 2304] S1024x128.size inb_S1024x2688_S1024x128_0_2304, p18⟩ : View.Piece (Elt F) S1024x2688 .bf16),
      (⟨Rect.unit (s := S1024x2688) ![0, 2176] S1024x128.size inb_S1024x2688_S1024x128_0_2176, p17⟩ : View.Piece (Elt F) S1024x2688 .bf16),
      (⟨Rect.unit (s := S1024x2688) ![0, 2048] S1024x128.size inb_S1024x2688_S1024x128_0_2048, p16⟩ : View.Piece (Elt F) S1024x2688 .bf16),
      (⟨Rect.unit (s := S1024x2688) ![0, 1920] S1024x128.size inb_S1024x2688_S1024x128_0_1920, p15⟩ : View.Piece (Elt F) S1024x2688 .bf16),
      (⟨Rect.unit (s := S1024x2688) ![0, 1792] S1024x128.size inb_S1024x2688_S1024x128_0_1792, p14⟩ : View.Piece (Elt F) S1024x2688 .bf16),
      (⟨Rect.unit (s := S1024x2688) ![0, 1664] S1024x128.size inb_S1024x2688_S1024x128_0_1664, p13⟩ : View.Piece (Elt F) S1024x2688 .bf16),
      (⟨Rect.unit (s := S1024x2688) ![0, 1536] S1024x128.size inb_S1024x2688_S1024x128_0_1536, p12⟩ : View.Piece (Elt F) S1024x2688 .bf16),
      (⟨Rect.unit (s := S1024x2688) ![0, 1408] S1024x128.size inb_S1024x2688_S1024x128_0_1408, p11⟩ : View.Piece (Elt F) S1024x2688 .bf16),
      (⟨Rect.unit (s := S1024x2688) ![0, 1280] S1024x128.size inb_S1024x2688_S1024x128_0_1280, p10⟩ : View.Piece (Elt F) S1024x2688 .bf16),
      (⟨Rect.unit (s := S1024x2688) ![0, 1152] S1024x128.size inb_S1024x2688_S1024x128_0_1152, p9⟩ : View.Piece (Elt F) S1024x2688 .bf16),
      (⟨Rect.unit (s := S1024x2688) ![0, 1024] S1024x128.size inb_S1024x2688_S1024x128_0_1024, p8⟩ : View.Piece (Elt F) S1024x2688 .bf16),
      (⟨Rect.unit (s := S1024x2688) ![0, 896] S1024x128.size inb_S1024x2688_S1024x128_0_896, p7⟩ : View.Piece (Elt F) S1024x2688 .bf16),
      (⟨Rect.unit (s := S1024x2688) ![0, 768] S1024x128.size inb_S1024x2688_S1024x128_0_768, p6⟩ : View.Piece (Elt F) S1024x2688 .bf16),
      (⟨Rect.unit (s := S1024x2688) ![0, 640] S1024x128.size inb_S1024x2688_S1024x128_0_640, p5⟩ : View.Piece (Elt F) S1024x2688 .bf16),
      (⟨Rect.unit (s := S1024x2688) ![0, 512] S1024x128.size inb_S1024x2688_S1024x128_0_512, p4⟩ : View.Piece (Elt F) S1024x2688 .bf16),
      (⟨Rect.unit (s := S1024x2688) ![0, 384] S1024x128.size inb_S1024x2688_S1024x128_0_384, p3⟩ : View.Piece (Elt F) S1024x2688 .bf16),
      (⟨Rect.unit (s := S1024x2688) ![0, 256] S1024x128.size inb_S1024x2688_S1024x128_0_256, p2⟩ : View.Piece (Elt F) S1024x2688 .bf16),
      (⟨Rect.unit (s := S1024x2688) ![0, 128] S1024x128.size inb_S1024x2688_S1024x128_0_128, p1⟩ : View.Piece (Elt F) S1024x2688 .bf16),
      (⟨Rect.unit (s := S1024x2688) ![0, 0] S1024x128.size inb_S1024x2688_S1024x128_0_0, p0⟩ : View.Piece (Elt F) S1024x2688 .bf16)]
      (Rect.unit (s := S1024x2688) ![0, 0] S1024x2688.size inb_S1024x2688_S1024x2688_0_0).toLoadRect
      = blocks ![p0, p1, p2, p3, p4, p5, p6, p7, p8, p9, p10, p11, p12, p13, p14, p15, p16, p17, p18, p19, p20] := by
  rw [View.readCov_eq_canon', scratch_canon]
  exact View.ld_unit_zero (Val := Elt F) (e := .bf16) (S := S1024x2688) zeros2 inb_S1024x2688_S1024x2688_0_0 _

end Cert.KernelIdeal.KV.KPiece

namespace Cert.KernelIdeal.KV

open Cert.KernelIdeal.Gen Cert.KernelIdeal.GenP
open Idealize.ShloMosaic Idealize.ShloMosaic.TcCoe Idealize.ShloMosaic.Tactic
open Idealize.SL Idealize.SL.Sem
open KPiece

variable {F : FTy → Type} [FloatOps F]

/-- The body's one store, for any memrefs and any 29 input blocks: the stored value reads every input buffer whole,
    and the wide buffer it loads back holds the twenty-one column blocks side by side, so the store is the head
    applied to them. -/
theorem out0_A_29_eq (c : Dev nD) (i : grid0.Coords) (arg1 : Memref sig .tc .vmem S1024x128 .f32) (harg1 : arg1.IsWhole) (arg2 : Memref sig .tc .vmem S1024 .i32) (harg2 : arg2.IsWhole) (arg3 : Memref sig .tc .vmem S1024 .i32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S11x128 .bf16) (harg6 : arg6.IsWhole) (arg7 : Memref sig .tc .vmem S128x128 .bf16) (harg7 : arg7.IsWhole) (arg8 : Memref sig .tc .vmem S128 .f32) (harg8 : arg8.IsWhole) (arg9 : Memref sig .tc .vmem S128 .f32) (harg9 : arg9.IsWhole) (arg10 : Memref sig .tc .vmem S128 .f32) (harg10 : arg10.IsWhole) (arg11 : Memref sig .tc .vmem S6x3 .f32) (harg11 : arg11.IsWhole) (arg12 : Memref sig .tc .vmem S3 .f32) (harg12 : arg12.IsWhole) (arg13 : Memref sig .tc .vmem S3x6 .f32) (harg13 : arg13.IsWhole) (arg14 : Memref sig .tc .vmem S6 .f32) (harg14 : arg14.IsWhole) (arg15 : Memref sig .tc .vmem S128x128 .bf16) (harg15 : arg15.IsWhole) (arg16 : Memref sig .tc .vmem S2688x512 .bf16) (harg16 : arg16.IsWhole) (arg17 : Memref sig .tc .vmem S512 .f32) (harg17 : arg17.IsWhole) (arg18 : Memref sig .tc .vmem S512 .f32) (harg18 : arg18.IsWhole) (arg19 : Memref sig .tc .vmem S512 .f32) (harg19 : arg19.IsWhole) (arg20 : Memref sig .tc .vmem S512 .f32) (harg20 : arg20.IsWhole) (arg21 : Memref sig .tc .vmem S512 .f32) (harg21 : arg21.IsWhole) (arg22 : Memref sig .tc .vmem S512x256 .bf16) (harg22 : arg22.IsWhole) (arg23 : Memref sig .tc .vmem S256 .f32) (harg23 : arg23.IsWhole) (arg24 : Memref sig .tc .vmem S256 .f32) (harg24 : arg24.IsWhole) (arg25 : Memref sig .tc .vmem S256 .f32) (harg25 : arg25.IsWhole) (arg26 : Memref sig .tc .vmem S256 .f32) (harg26 : arg26.IsWhole) (arg27 : Memref sig .tc .vmem S256 .f32) (harg27 : arg27.IsWhole) (arg28 : Memref sig .tc .vmem S256x1 .bf16) (harg28 : arg28.IsWhole) (arg29 : Memref sig .tc .vmem S1 .f32) (harg29 : arg29.IsWhole) (arg30 : Memref sig .tc .vmem S1024x1 .f32) (harg30 : arg30.IsWhole) (arg31 : Memref sig .tc .vmem S1024x2688 .bf16) (harg31 : arg31.IsWhole)
    (x0 : Vec F S1024x128 .f32) (x1 : Vec F S1024 .i32) (x2 : Vec F S1024 .i32) (x3 : Vec F S1024x128 .f32) (x4 : Vec F S1024x128 .f32) (x5 : Vec F S11x128 .bf16) (x6 : Vec F S128x128 .bf16) (x7 : Vec F S128 .f32) (x8 : Vec F S128 .f32) (x9 : Vec F S128 .f32) (x10 : Vec F S6x3 .f32) (x11 : Vec F S3 .f32) (x12 : Vec F S3x6 .f32) (x13 : Vec F S6 .f32) (x14 : Vec F S128x128 .bf16) (x15 : Vec F S2688x512 .bf16) (x16 : Vec F S512 .f32) (x17 : Vec F S512 .f32) (x18 : Vec F S512 .f32) (x19 : Vec F S512 .f32) (x20 : Vec F S512 .f32) (x21 : Vec F S512x256 .bf16) (x22 : Vec F S256 .f32) (x23 : Vec F S256 .f32) (x24 : Vec F S256 .f32) (x25 : Vec F S256 .f32) (x26 : Vec F S256 .f32) (x27 : Vec F S256x1 .bf16) (x28 : Vec F S1 .f32) :
    out0_A_29 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 x0 x1 x2 x3 x4 x5 x6 x7 x8 x9 x10 x11 x12 x13 x14 x15 x16 x17 x18 x19 x20 x21 x22 x23 x24 x25 x26 x27 x28 = kOut x0 x1 x2 x3 x4 x5 x6 x7 x8 x9 x10 x11 x12 x13 x14 x15 x16 x17 x18 x19 x20 x21 x22 x23 x24 x25 x26 x27 x28 := by
  unfold out0_A_29
  rw [View.read_writes_eq_canon _ _ _ (cover0_A_29 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 x0 x1 x2 x3 x4 x5 x6 x7 x8 x9 x10 x11 x12 x13 x14 x15 x16 x17 x18 x19 x20 x21 x22 x23 x24 x25 x26 x27 x28)]
  unfold kernelRun0_A
  dsimp only
  sl_unfold_words
  rw [View.canon_unit_zero (S := S1024x1) zeros2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, View.ld_unit_zero (S := S1024x128) zeros2, View.ld_unit_zero (S := S11x128) zeros2, View.ld_unit_zero (S := S128x128) zeros2, View.ld_unit_zero (S := S6x3) zeros2, View.ld_unit_zero (S := S3x6) zeros2, View.ld_unit_zero (S := S2688x512) zeros2, View.ld_unit_zero (S := S512x256) zeros2, View.ld_unit_zero (S := S256x1) zeros2, View.ld_unit_zero (S := S1024) zeros1, View.ld_unit_zero (S := S128) zeros1, View.ld_unit_zero (S := S3) zeros1, View.ld_unit_zero (S := S6) zeros1, View.ld_unit_zero (S := S512) zeros1, View.ld_unit_zero (S := S256) zeros1, View.ld_unit_zero (S := S1) zeros1]
  rw [scratch_read]
  rfl

variable (m : (ℓ : Loc nD τ sig) → Buf (Elt F) ℓ)

/-- What the output's staging buffer holds after the body at grid point `t`: the head over the point's 29 blocks. -/
theorem outsAt0_eq (c : Dev nD) (t : Fin cfg0.N) :
    outsAt0 m c t = kOut (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) := by
  unfold outsAt0
  exact out0_A_29_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t)

end Cert.KernelIdeal.KV

end
-- ==== Proof.KMm.lean ====
/-
  The normalised projection the kernel body computes, read at a row and a lane: the product of the row of dense
  features with the projection matrix plus the bias, its deviation from the mean of the 128 lanes, times the
  reciprocal square root of the lane variance plus the stabiliser, scaled, shifted and clamped at zero. This is the
  specification's `mmRow` of that row.
-/
import proofs.«429925_j71167608094992_2_alg».proof.Proof.KOut
import Idealize.ShloMosaic.Lib.ValueIdx
import Idealize.ShloMosaic.Lib.Pipeline.Value
import Idealize.ShloMosaic.Lib.ValueLayout
import Idealize.ShloMosaic.PureOps.Ideal
import Idealize.ShloMosaic.PureOps.Ideal.Laws

set_option synthInstance.maxSize 4096

noncomputable section

namespace Cert.KernelIdeal.KV

open Idealize.ShloMosaic Idealize.ShloMosaic.ValueIdx Idealize.SL.Sem Cert.KernelIdeal Cert.KernelIdeal.Gen
open scoped BigOperators

/-! ## Layout operations read at an index -/

section layout
variable {α : Type}

/-- An `[a]` array cast to the column `[a, 1]` reads, at `(i, u)`, the operand at `i`. -/
private theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
private theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end layout

/-- The sum over the 128 lanes of a row. -/
private theorem rowSum_apply (v : FVec Ideal S1024x128 .f32) (hφ : FKind.Formats .f32)
    (hacc : (0x00000000#32 : BitVec 32) = 0x00000000#32) (r : Fin 1024) :
    multiReduction .add [1] S1024 v 0x00000000#32 reduces_S1024x128_S1024 hφ hacc (ix1 r) = ∑ k : Fin 128, v (ix2 r k) := by
  refine (Ideal.multiReduction_add_single v 0x00000000#32 reduces_S1024x128_S1024 hφ hacc (ix1 r)).trans ?_
  refine Finset.sum_congr rfl fun k _ => congrArg v ?_
  funext a
  match a with
  | ⟨0, _⟩ => rfl
  | ⟨1, _⟩ => rfl

/-- A lane-wise reciprocal square root read at an index. -/
private theorem rsqrt_apply {s : Shape} {φ : FTy} (v : FVec Ideal s φ) (i : s.Idx) : rsqrt v i = Ideal.rsqrt (v i) := rfl

/-! ## The product `[1024, 128] × [128, 128]` read at an index -/

private theorem lhs_mm_0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl

private theorem lhs_mm_1 (i : S1024x128.Idx) (q : dot_S1024x128_S128x128_S1024x128_1_0_0_1_n_n.contr.Idx) :
    (dot_S1024x128_S128x128_S1024x128_1_0_0_1_n_n.lhsIdx i q 1).val = (q ⟨0, by decide⟩).val :=
  dot_S1024x128_S128x128_S1024x128_1_0_0_1_n_n.lhsIdx_val_of_single rfl i q

private theorem rhs_mm_0 (i : S1024x128.Idx) (q : dot_S1024x128_S128x128_S1024x128_1_0_0_1_n_n.contr.Idx) :
    (dot_S1024x128_S128x128_S1024x128_1_0_0_1_n_n.rhsIdx i q 0).val = (q ⟨0, by decide⟩).val :=
  dot_S1024x128_S128x128_S1024x128_1_0_0_1_n_n.rhsIdx_val_of_single rfl i q

private theorem rhs_mm_1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl

/-- The product into the zero accumulator, at `(r, e)`: the sum over the contracted coordinate of the row of the left
    factor times the column of the right one. -/
private theorem matmul_mm_apply (L : FVec Ideal S1024x128 .bf16) (R : FVec Ideal S128x128 .bf16) (r : Fin 1024) (e : Fin 128) :
    matmul dot_S1024x128_S128x128_S1024x128_1_0_0_1_n_n none L R (constant (F := Ideal) S1024x128 .f32 0x00000000#32) (ix2 r e)
      = ∑ k : Fin 128, L (ix2 r k) * R (ix2 k e) := by
  simp only [matmul]
  rw [Ideal.matmul_constant_zero_apply, ← Equiv.sum_comp (contrEquiv1 dot_S1024x128_S128x128_S1024x128_1_0_0_1_n_n 128 rfl rfl).symm]
  refine Finset.sum_congr rfl fun k _ => ?_
  have hk := contrEquiv1_symm_val dot_S1024x128_S128x128_S1024x128_1_0_0_1_n_n 128 rfl rfl k
  have el : dot_S1024x128_S128x128_S1024x128_1_0_0_1_n_n.lhsIdx (ix2 r e) ((contrEquiv1 dot_S1024x128_S128x128_S1024x128_1_0_0_1_n_n 128 rfl rfl).symm k) = ix2 r k := funext fun a => Fin.ext (by
    match a with
    | ⟨0, _⟩ => exact lhs_mm_0 _ _
    | ⟨1, _⟩ => exact (lhs_mm_1 _ _).trans hk)
  have er : dot_S1024x128_S128x128_S1024x128_1_0_0_1_n_n.rhsIdx (ix2 r e) ((contrEquiv1 dot_S1024x128_S128x128_S1024x128_1_0_0_1_n_n 128 rfl rfl).symm k) = ix2 k e := funext fun a => Fin.ext (by
    match a with
    | ⟨0, _⟩ => exact (rhs_mm_0 _ _).trans hk
    | ⟨1, _⟩ => exact rhs_mm_1 _ _)
  rw [el, er]

/-! ## The normalised projection -/

/-- The body's normalised projection at `(r, e)` is the specification's, for any parameters whose projection
    matrix, bias, scale and shift are the four weight blocks. -/
theorem kMM_apply_of (x0 : Vec Ideal S1024x128 .f32) (x6 : Vec Ideal S128x128 .bf16) (x7 x8 x9 : Vec Ideal S128 .f32)
    (w : Cert.Spec.W) (hW : w.mmW = x6) (hb : w.mmb = x7) (hg : w.lng = x8) (hbe : w.lnb = x9)
    (r : Fin 1024) (e : Fin 128) :
    kMM x0 x6 x7 x8 x9 (ix2 r e) = Cert.Spec.mmRow w (fun k => x0 (ix2 r k)) e := by
  subst hW hb hg hbe
  unfold kMM k0_pay2
  dsimp only
  simp only [maximumf_apply, addf_apply, mulf_apply, subf_apply, divf_apply, broadcast_apply, truncf_apply,
    broadcastTo_1b_ab_apply, shapeCast_a_1a_apply, broadcastTo_a1_ab_apply, shapeCast_a_a1_apply,
    rowSum_apply _ (.inl rfl) rfl,
    matmul_mm_apply, shapeCast_self, rsqrt_apply]
  simp only [Cert.Spec.mmRow, Cert.Spec.dev, Cert.Spec.var, Cert.Spec.mean128, Cert.Spec.lin, Cert.Spec.c128,
    Cert.Spec.eps, Ideal.ofBits_def, Ideal.ofBits_zero_f32]

/-- The same over the 29 blocks of a grid point, against the parameters and the row read off them. -/
theorem kMM_apply (x0 : Vec Ideal S1024x128 .f32) (x1 x2 : Vec Ideal S1024 .i32) (x3 x4 : Vec Ideal S1024x128 .f32)
    (x5 : Vec Ideal S11x128 .bf16) (x6 : Vec Ideal S128x128 .bf16) (x7 x8 x9 : Vec Ideal S128 .f32) (x10 : Vec Ideal S6x3 .f32)
    (x11 : Vec Ideal S3 .f32) (x12 : Vec Ideal S3x6 .f32) (x13 : Vec Ideal S6 .f32) (x14 : Vec Ideal S128x128 .bf16)
    (x15 : Vec Ideal S2688x512 .bf16) (x16 x17 x18 x19 x20 : Vec Ideal S512 .f32) (x21 : Vec Ideal S512x256 .bf16)
    (x22 x23 x24 x25 x26 : Vec Ideal S256 .f32) (x27 : Vec Ideal S256x1 .bf16) (x28 : Vec Ideal S1 .f32)
    (r : Fin 1024) (e : Fin 128) :
    kMM x0 x6 x7 x8 x9 (ix2 r e)
      = Cert.Spec.mmRow (wOf x5 x6 x7 x8 x9 x10 x11 x12 x13 x14 x15 x16 x17 x18 x19 x20 x21 x22 x23 x24 x25 x26 x27 x28)
          (rowOf x0 x1 x2 x3 x4 r).x0 e :=
  kMM_apply_of x0 x6 x7 x8 x9 _ rfl rfl rfl rfl r e

end Cert.KernelIdeal.KV

end
-- ==== Proof.KCat.lean ====
/-
  The six fields of a row before gating, as the kernel body computes them, read at a row and a lane. The two
  category rows are the product of the indicator matrix of the category index (the index compared with the column
  counter 0..10) with the 11-row table, which is the specification's indicator-weighted sum of the table's rows;
  the zero field is the constant zero; the item and history rows are the blocks themselves.
-/
import proofs.«429925_j71167608094992_2_alg».proof.Proof.KOut
import Idealize.ShloMosaic.Lib.ValueIdx
import Idealize.ShloMosaic.Lib.Pipeline.Value
import Idealize.ShloMosaic.Lib.ValueLayout
import Idealize.ShloMosaic.PureOps.Ideal
import Idealize.ShloMosaic.PureOps.Ideal.Laws

set_option synthInstance.maxSize 4096

noncomputable section

namespace Cert.KernelIdeal.KV

open Idealize.ShloMosaic Idealize.ShloMosaic.ValueIdx Idealize.SL.Sem Cert.KernelIdeal Cert.KernelIdeal.Gen
open scoped BigOperators

/-! ## Layout operations read at an index -/

section layout
variable {α : Type}

/-- An `[a]` array cast to the column `[a, 1]` reads, at `(i, u)`, the operand at `i`. -/
private theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
private theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end layout

/-! ## The product `[1024, 11] × [11, 128]` read at an index -/

private theorem lhs_cat_0 (i : S1024x128.Idx) (q : dot_S1024x11_S11x128_S1024x128_1_0_0_1_n_n.contr.Idx) :
    (dot_S1024x11_S11x128_S1024x128_1_0_0_1_n_n.lhsIdx i q 0).val = (i 0).val := by
  unfold DotDims.lhsIdx
  rw [dif_neg (show ¬(0 : Fin S1024x11.rank) ∈ dot_S1024x11_S11x128_S1024x128_1_0_0_1_n_n.lhsBatch by decide), dif_pos (show (0 : Fin S1024x11.rank) ∈ dot_S1024x11_S11x128_S1024x128_1_0_0_1_n_n.lhsNonContracting by decide)]
  rfl

private theorem lhs_cat_1 (i : S1024x128.Idx) (q : dot_S1024x11_S11x128_S1024x128_1_0_0_1_n_n.contr.Idx) :
    (dot_S1024x11_S11x128_S1024x128_1_0_0_1_n_n.lhsIdx i q 1).val = (q ⟨0, by decide⟩).val :=
  dot_S1024x11_S11x128_S1024x128_1_0_0_1_n_n.lhsIdx_val_of_single rfl i q

private theorem rhs_cat_0 (i : S1024x128.Idx) (q : dot_S1024x11_S11x128_S1024x128_1_0_0_1_n_n.contr.Idx) :
    (dot_S1024x11_S11x128_S1024x128_1_0_0_1_n_n.rhsIdx i q 0).val = (q ⟨0, by decide⟩).val :=
  dot_S1024x11_S11x128_S1024x128_1_0_0_1_n_n.rhsIdx_val_of_single rfl i q

private theorem rhs_cat_1 (i : S1024x128.Idx) (q : dot_S1024x11_S11x128_S1024x128_1_0_0_1_n_n.contr.Idx) :
    (dot_S1024x11_S11x128_S1024x128_1_0_0_1_n_n.rhsIdx i q 1).val = (i 1).val := by
  unfold DotDims.rhsIdx
  rw [dif_neg (show ¬(1 : Fin S11x128.rank) ∈ dot_S1024x11_S11x128_S1024x128_1_0_0_1_n_n.rhsBatch by decide), dif_pos (show (1 : Fin S11x128.rank) ∈ dot_S1024x11_S11x128_S1024x128_1_0_0_1_n_n.rhsNonContracting by decide)]
  rfl

/-- The product into the zero accumulator, at `(r, e)`: the sum over the contracted coordinate of the row of the left
    factor times the column of the right one. -/
private theorem matmul_cat_apply (L : FVec Ideal S1024x11 .bf16) (R : FVec Ideal S11x128 .bf16) (r : Fin 1024) (e : Fin 128) :
    matmul dot_S1024x11_S11x128_S1024x128_1_0_0_1_n_n none L R (constant (F := Ideal) S1024x128 .f32 0x00000000#32) (ix2 r e)
      = ∑ k : Fin 11, L (ix2 r k) * R (ix2 k e) := by
  simp only [matmul]
  rw [Ideal.matmul_constant_zero_apply, ← Equiv.sum_comp (contrEquiv1 dot_S1024x11_S11x128_S1024x128_1_0_0_1_n_n 11 rfl rfl).symm]
  refine Finset.sum_congr rfl fun k _ => ?_
  have hk := contrEquiv1_symm_val dot_S1024x11_S11x128_S1024x128_1_0_0_1_n_n 11 rfl rfl k
  have el : dot_S1024x11_S11x128_S1024x128_1_0_0_1_n_n.lhsIdx (ix2 r e) ((contrEquiv1 dot_S1024x11_S11x128_S1024x128_1_0_0_1_n_n 11 rfl rfl).symm k) = ix2 r k := funext fun a => Fin.ext (by
    match a with
    | ⟨0, _⟩ => exact lhs_cat_0 _ _
    | ⟨1, _⟩ => exact (lhs_cat_1 _ _).trans hk)
  have er : dot_S1024x11_S11x128_S1024x128_1_0_0_1_n_n.rhsIdx (ix2 r e) ((contrEquiv1 dot_S1024x11_S11x128_S1024x128_1_0_0_1_n_n 11 rfl rfl).symm k) = ix2 k e := funext fun a => Fin.ext (by
    match a with
    | ⟨0, _⟩ => exact (rhs_cat_0 _ _).trans hk
    | ⟨1, _⟩ => exact rhs_cat_1 _ _)
  rw [el, er]

/-! ## The category comparison read at an index -/

/-- The column counter at `(r, k)` is the word `k`. -/
private theorem kIota_apply (r : Fin 1024) (k : Fin 11) : kIota (ix2 r k) = BitVec.ofNat 32 k.val :=
  iota_single_apply .tc S1024x11 32 1 iota_S1024x11_d1_w32 (ix2 r k)

/-- A lane-wise integer comparison read at an index. -/
private theorem cmpi_apply {s : Shape} {w : ℕ} (p : CmpIPredicate) (a b : IVec s w) (i : s.Idx) :
    cmpi p a b i = IntOp.cmpi p (a i) (b i) := rfl

/-- The bit of an equality test, widened to a word and read as a signed integer, is the indicator of the
    equality. -/
private theorem sitofp_eq_bit (a b : BitVec 32) :
    (FloatOps.sitofp (F := Ideal) .f32 ((IntOp.cmpi .eq a b).setWidth 32) : EReal) = if a = b then 1 else 0 := by
  by_cases h : a = b
  · have hc : IntOp.cmpi .eq a b = 1#1 := by
      show BitVec.ofBool (a == b) = 1#1
      rw [h, beq_self_eq_true]; rfl
    rw [hc, if_pos h]
    show (((BitVec.setWidth 32 1#1).toInt : ℝ) : EReal) = 1
    have ht : (BitVec.setWidth 32 1#1).toInt = 1 := by decide
    rw [ht]
    norm_num
  · have hc : IntOp.cmpi .eq a b = 0#1 := by
      show BitVec.ofBool (a == b) = 0#1
      rw [beq_eq_false_iff_ne.mpr h]; rfl
    rw [hc, if_neg h]
    show (((BitVec.setWidth 32 0#1).toInt : ℝ) : EReal) = 0
    have ht : (BitVec.setWidth 32 0#1).toInt = 0 := by decide
    rw [ht]
    norm_num

/-! ## The fields -/

/-- The zero field. -/
theorem kF0_apply (r : Fin 1024) (e : Fin 128) : kF0 (F := Ideal) (ix2 r e) = 0 := by
  unfold kF0 k0_pay9
  simp only [broadcast_apply]
  exact Ideal.ofBits_zero_f32

/-- The first category row at `(r, e)`, for any parameters whose table is the table block. -/
theorem kF1_apply_of (x1 : Vec Ideal S1024 .i32) (x5 : Vec Ideal S11x128 .bf16)
    (w : Cert.Spec.W) (hc : w.cate = x5) (r : Fin 1024) (e : Fin 128) :
    kF1 x1 x5 (ix2 r e) = Cert.Spec.catRow w (x1 (ix1 r)) e := by
  subst hc
  unfold kF1 k0_pay5 k0_pay3 k0_pay4
  dsimp only
  simp only [matmul_cat_apply, truncf_apply, sitofp_apply, extui_apply, cmpi_apply, broadcastTo_a1_ab_apply,
    shapeCast_a_a1_apply, kIota_apply, shapeCast_self, sitofp_eq_bit]
  rfl

/-- The second category row at `(r, e)`. -/
theorem kF2_apply_of (x2 : Vec Ideal S1024 .i32) (x5 : Vec Ideal S11x128 .bf16)
    (w : Cert.Spec.W) (hc : w.cate = x5) (r : Fin 1024) (e : Fin 128) :
    kF2 x2 x5 (ix2 r e) = Cert.Spec.catRow w (x2 (ix1 r)) e := by
  subst hc
  unfold kF2 k0_pay6 k0_pay3
  dsimp only
  simp only [matmul_cat_apply, truncf_apply, sitofp_apply, extui_apply, cmpi_apply, broadcastTo_a1_ab_apply,
    shapeCast_a_a1_apply, kIota_apply, shapeCast_self, sitofp_eq_bit]
  rfl

/-- The item row is the item block. -/
theorem kF3_apply (x3 : Vec Ideal S1024x128 .f32) (r : Fin 1024) (e : Fin 128) : kF3 x3 (ix2 r e) = x3 (ix2 r e) := by
  unfold kF3 k0_pay7
  rw [shapeCast_self]

/-- The history row is the history block. -/
theorem kF5_apply (x4 : Vec Ideal S1024x128 .f32) (r : Fin 1024) (e : Fin 128) : kF5 x4 (ix2 r e) = x4 (ix2 r e) := by
  unfold kF5 k0_pay8
  rw [shapeCast_self]

/-- The two category rows over the 29 blocks of a grid point, against the parameters read off them. -/
theorem kF1_apply (x0 : Vec Ideal S1024x128 .f32) (x1 x2 : Vec Ideal S1024 .i32) (x3 x4 : Vec Ideal S1024x128 .f32)
    (x5 : Vec Ideal S11x128 .bf16) (x6 : Vec Ideal S128x128 .bf16) (x7 x8 x9 : Vec Ideal S128 .f32) (x10 : Vec Ideal S6x3 .f32)
    (x11 : Vec Ideal S3 .f32) (x12 : Vec Ideal S3x6 .f32) (x13 : Vec Ideal S6 .f32) (x14 : Vec Ideal S128x128 .bf16)
    (x15 : Vec Ideal S2688x512 .bf16) (x16 x17 x18 x19 x20 : Vec Ideal S512 .f32) (x21 : Vec Ideal S512x256 .bf16)
    (x22 x23 x24 x25 x26 : Vec Ideal S256 .f32) (x27 : Vec Ideal S256x1 .bf16) (x28 : Vec Ideal S1 .f32)
    (r : Fin 1024) (e : Fin 128) :
    kF1 x1 x5 (ix2 r e)
      = Cert.Spec.catRow (wOf x5 x6 x7 x8 x9 x10 x11 x12 x13 x14 x15 x16 x17 x18 x19 x20 x21 x22 x23 x24 x25 x26 x27 x28)
          (x1 (ix1 r)) e :=
  kF1_apply_of x1 x5 _ rfl r e

theorem kF2_apply (x0 : Vec Ideal S1024x128 .f32) (x1 x2 : Vec Ideal S1024 .i32) (x3 x4 : Vec Ideal S1024x128 .f32)
    (x5 : Vec Ideal S11x128 .bf16) (x6 : Vec Ideal S128x128 .bf16) (x7 x8 x9 : Vec Ideal S128 .f32) (x10 : Vec Ideal S6x3 .f32)
    (x11 : Vec Ideal S3 .f32) (x12 : Vec Ideal S3x6 .f32) (x13 : Vec Ideal S6 .f32) (x14 : Vec Ideal S128x128 .bf16)
    (x15 : Vec Ideal S2688x512 .bf16) (x16 x17 x18 x19 x20 : Vec Ideal S512 .f32) (x21 : Vec Ideal S512x256 .bf16)
    (x22 x23 x24 x25 x26 : Vec Ideal S256 .f32) (x27 : Vec Ideal S256x1 .bf16) (x28 : Vec Ideal S1 .f32)
    (r : Fin 1024) (e : Fin 128) :
    kF2 x2 x5 (ix2 r e)
      = Cert.Spec.catRow (wOf x5 x6 x7 x8 x9 x10 x11 x12 x13 x14 x15 x16 x17 x18 x19 x20 x21 x22 x23 x24 x25 x26 x27 x28)
          (x2 (ix1 r)) e :=
  kF2_apply_of x2 x5 _ rfl r e

end Cert.KernelIdeal.KV

end
-- ==== Proof.KGate.lean ====
/-
  The gate of a row, on the kernel's side.

  The kernel lays six one-column matrices side by side: for five of the fields the sum over the 128 lanes of the
  field's block divided by 128, and for the last field the lane sum, divided by 128 where the columns are assembled.
  Read at row `r` each column is the lane mean of that row's field: the zero field's lanes are all zero, the two
  category rows and the normalised projection are the specification's by hypothesis, and the item and history rows
  are the blocks themselves. A matrix product into a zero accumulator read at `(r, j)` is the sum over the
  contracted positions of the products; a vector cast to one row and repeated over the rows reads the vector at the
  column. So the six columns go through the first linear map (six to three), the clamp at zero, the second linear map
  (three to six) and the logistic exactly as the specification's gate does.
-/
import proofs.«429925_j71167608094992_2_alg».proof.Proof.KOut
import Idealize.ShloMosaic.Lib.ValueIdx
import Idealize.ShloMosaic.Lib.Pipeline.Value
import Idealize.ShloMosaic.Lib.ValueLayout
import Idealize.ShloMosaic.PureOps.Ideal.Laws

set_option synthInstance.maxSize 4096

noncomputable section

namespace Cert.KernelIdeal.KV

open Idealize.ShloMosaic Idealize.ShloMosaic.ValueIdx Idealize.SL.Sem Cert.KernelIdeal Cert.KernelIdeal.Gen
open scoped BigOperators

/-! ## Layout operations read at an index -/

/-- A vector cast to a one-column matrix reads, at `(i, u)`, the vector at `i`. -/
theorem gate_shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- The sum over the 128 lanes of row `r` of a block. -/
theorem gate_laneSum_apply (src : FVec Ideal S1024x128 .f32) (h : S1024x128.Reduces [1] S1024) (hφ : FKind.Formats FTy.f32)
    (hacc : (0x00000000#32 : BitVec 32) = 0x00000000#32) (r : Fin 1024) :
    multiReduction (F := Ideal) .add [1] S1024 src 0x00000000#32 h hφ hacc (ix1 r) = ∑ k : Fin 128, src (ix2 r k) := by
  refine (Ideal.multiReduction_add_single src 0x00000000#32 h hφ hacc (ix1 r)).trans ?_
  refine Finset.sum_congr rfl fun k _ => congrArg src ?_
  funext a
  match a with
  | ⟨0, _⟩ => rfl
  | ⟨1, _⟩ => rfl

/-- The lane sum kept as a one-column matrix. -/
theorem gate_laneSumCol_apply (src : FVec Ideal S1024x128 .f32) (h : S1024x128.Reduces [1] S1024) (hφ : FKind.Formats FTy.f32)
    (hacc : (0x00000000#32 : BitVec 32) = 0x00000000#32) (hc : S1024.ShapeCasts S1024x1) (r : Fin 1024) (u : Fin 1) :
    shapeCast S1024x1 (multiReduction (F := Ideal) .add [1] S1024 src 0x00000000#32 h hφ hacc) hc (ix2 r u)
      = ∑ k : Fin 128, src (ix2 r k) :=
  (gate_shapeCast_a_a1_apply _ hc r u).trans (gate_laneSum_apply src h hφ hacc r)

/-- The lane mean kept as a one-column matrix: the lane sum divided by the constant 128. -/
theorem gate_laneMeanCol_apply (src : FVec Ideal S1024x128 .f32) (h : S1024x128.Reduces [1] S1024) (hφ : FKind.Formats FTy.f32)
    (hacc : (0x00000000#32 : BitVec 32) = 0x00000000#32) (hc : S1024.ShapeCasts S1024x1) (r : Fin 1024) (u : Fin 1) :
    divf (shapeCast S1024x1 (multiReduction (F := Ideal) .add [1] S1024 src 0x00000000#32 h hφ hacc) hc)
        (broadcast S1024x1 (Scalar.ofBits (F := Ideal) .f32 0x43000000#32)) (ix2 r u)
      = Cert.Spec.mean128 fun k => src (ix2 r k) := by
  rw [divf_apply, gate_laneSumCol_apply]
  rfl

/-- Six one-column matrices laid side by side: column `f` of the result is the `f`-th piece's one column. -/
theorem gate_concat6_apply (v0 v1 v2 v3 v4 v5 : FVec Ideal S1024x1 .f32)
    (h : Shape.Concatenates [S1024x1, S1024x1, S1024x1, S1024x1, S1024x1, S1024x1] S1024x6 1) (r : Fin 1024) (f : Fin 6) :
    concatenate S1024x6 1 [⟨S1024x1, v0⟩, ⟨S1024x1, v1⟩, ⟨S1024x1, v2⟩, ⟨S1024x1, v3⟩, ⟨S1024x1, v4⟩, ⟨S1024x1, v5⟩] h (ix2 r f)
      = (![v0, v1, v2, v3, v4, v5] f) (ix2 r (0 : Fin 1)) := by
  match f with
  | ⟨0, _⟩ =>
    exact concatenate_apply_piece (t := S1024x6) 1 [⟨S1024x1, v0⟩, ⟨S1024x1, v1⟩, ⟨S1024x1, v2⟩, ⟨S1024x1, v3⟩, ⟨S1024x1, v4⟩, ⟨S1024x1, v5⟩] h _ 0 (by show (0 : ℕ) < 6; omega) S1024x1 v0 rfl rfl 0 rfl (ix2 r (0 : Fin 1))
      (fun b hb => by
        match b, hb with
        | ⟨0, _⟩, _ => rfl
        | ⟨1, _⟩, hb => exact absurd rfl hb) rfl
  | ⟨1, _⟩ =>
    exact concatenate_apply_piece (t := S1024x6) 1 [⟨S1024x1, v0⟩, ⟨S1024x1, v1⟩, ⟨S1024x1, v2⟩, ⟨S1024x1, v3⟩, ⟨S1024x1, v4⟩, ⟨S1024x1, v5⟩] h _ 1 (by show (1 : ℕ) < 6; omega) S1024x1 v1 rfl rfl 1 rfl (ix2 r (0 : Fin 1))
      (fun b hb => by
        match b, hb with
        | ⟨0, _⟩, _ => rfl
        | ⟨1, _⟩, hb => exact absurd rfl hb) rfl
  | ⟨2, _⟩ =>
    exact concatenate_apply_piece (t := S1024x6) 1 [⟨S1024x1, v0⟩, ⟨S1024x1, v1⟩, ⟨S1024x1, v2⟩, ⟨S1024x1, v3⟩, ⟨S1024x1, v4⟩, ⟨S1024x1, v5⟩] h _ 2 (by show (2 : ℕ) < 6; omega) S1024x1 v2 rfl rfl 2 rfl (ix2 r (0 : Fin 1))
      (fun b hb => by
        match b, hb with
        | ⟨0, _⟩, _ => rfl
        | ⟨1, _⟩, hb => exact absurd rfl hb) rfl
  | ⟨3, _⟩ =>
    exact concatenate_apply_piece (t := S1024x6) 1 [⟨S1024x1, v0⟩, ⟨S1024x1, v1⟩, ⟨S1024x1, v2⟩, ⟨S1024x1, v3⟩, ⟨S1024x1, v4⟩, ⟨S1024x1, v5⟩] h _ 3 (by show (3 : ℕ) < 6; omega) S1024x1 v3 rfl rfl 3 rfl (ix2 r (0 : Fin 1))
      (fun b hb => by
        match b, hb with
        | ⟨0, _⟩, _ => rfl
        | ⟨1, _⟩, hb => exact absurd rfl hb) rfl
  | ⟨4, _⟩ =>
    exact concatenate_apply_piece (t := S1024x6) 1 [⟨S1024x1, v0⟩, ⟨S1024x1, v1⟩, ⟨S1024x1, v2⟩, ⟨S1024x1, v3⟩, ⟨S1024x1, v4⟩, ⟨S1024x1, v5⟩] h _ 4 (by show (4 : ℕ) < 6; omega) S1024x1 v4 rfl rfl 4 rfl (ix2 r (0 : Fin 1))
      (fun b hb => by
        match b, hb with
        | ⟨0, _⟩, _ => rfl
        | ⟨1, _⟩, hb => exact absurd rfl hb) rfl
  | ⟨5, _⟩ =>
    exact concatenate_apply_piece (t := S1024x6) 1 [⟨S1024x1, v0⟩, ⟨S1024x1, v1⟩, ⟨S1024x1, v2⟩, ⟨S1024x1, v3⟩, ⟨S1024x1, v4⟩, ⟨S1024x1, v5⟩] h _ 5 (by show (5 : ℕ) < 6; omega) S1024x1 v5 rfl rfl 5 rfl (ix2 r (0 : Fin 1))
      (fun b hb => by
        match b, hb with
        | ⟨0, _⟩, _ => rfl
        | ⟨1, _⟩, hb => exact absurd rfl hb) rfl

/-! ## The two small products of the gate -/

theorem gate_lhs_se1_0 (i : S1024x3.Idx) (q : dot_S1024x6_S6x3_S1024x3_1_0_0_1_n_n.contr.Idx) :
    (dot_S1024x6_S6x3_S1024x3_1_0_0_1_n_n.lhsIdx i q 0).val = (i 0).val := by
  unfold DotDims.lhsIdx
  rw [dif_neg (show ¬(0 : Fin S1024x6.rank) ∈ dot_S1024x6_S6x3_S1024x3_1_0_0_1_n_n.lhsBatch by decide), dif_pos (show (0 : Fin S1024x6.rank) ∈ dot_S1024x6_S6x3_S1024x3_1_0_0_1_n_n.lhsNonContracting by decide)]
  rfl
theorem gate_lhs_se1_1 (i : S1024x3.Idx) (q : dot_S1024x6_S6x3_S1024x3_1_0_0_1_n_n.contr.Idx) :
    (dot_S1024x6_S6x3_S1024x3_1_0_0_1_n_n.lhsIdx i q 1).val = (q ⟨0, by decide⟩).val :=
  dot_S1024x6_S6x3_S1024x3_1_0_0_1_n_n.lhsIdx_val_of_single rfl i q
theorem gate_rhs_se1_0 (i : S1024x3.Idx) (q : dot_S1024x6_S6x3_S1024x3_1_0_0_1_n_n.contr.Idx) :
    (dot_S1024x6_S6x3_S1024x3_1_0_0_1_n_n.rhsIdx i q 0).val = (q ⟨0, by decide⟩).val :=
  dot_S1024x6_S6x3_S1024x3_1_0_0_1_n_n.rhsIdx_val_of_single rfl i q
theorem gate_rhs_se1_1 (i : S1024x3.Idx) (q : dot_S1024x6_S6x3_S1024x3_1_0_0_1_n_n.contr.Idx) :
    (dot_S1024x6_S6x3_S1024x3_1_0_0_1_n_n.rhsIdx i q 1).val = (i 1).val := by
  unfold DotDims.rhsIdx
  rw [dif_neg (show ¬(1 : Fin S6x3.rank) ∈ dot_S1024x6_S6x3_S1024x3_1_0_0_1_n_n.rhsBatch by decide), dif_pos (show (1 : Fin S6x3.rank) ∈ dot_S1024x6_S6x3_S1024x3_1_0_0_1_n_n.rhsNonContracting by decide)]
  rfl

/-- The product into a zero accumulator, read at `(r, j)`: the sum over the 6 contracted positions. -/
theorem gate_matmul_se1_apply (lhs : FVec Ideal S1024x6 .f32) (rhs : FVec Ideal S6x3 .f32) (r : Fin 1024) (j : Fin 3) :
    matmul dot_S1024x6_S6x3_S1024x3_1_0_0_1_n_n none lhs rhs (constant (F := Ideal) S1024x3 .f32 0x00000000#32) (ix2 r j)
      = ∑ k : Fin 6, lhs (ix2 r k) * rhs (ix2 k j) := by
  simp only [matmul]
  rw [Ideal.matmul_constant_zero_apply, ← Equiv.sum_comp (contrEquiv1 dot_S1024x6_S6x3_S1024x3_1_0_0_1_n_n 6 rfl rfl).symm]
  refine Finset.sum_congr rfl fun k _ => ?_
  have hk := contrEquiv1_symm_val dot_S1024x6_S6x3_S1024x3_1_0_0_1_n_n 6 rfl rfl k
  have el : dot_S1024x6_S6x3_S1024x3_1_0_0_1_n_n.lhsIdx (ix2 r j) ((contrEquiv1 dot_S1024x6_S6x3_S1024x3_1_0_0_1_n_n 6 rfl rfl).symm k) = ix2 r k := funext fun a => Fin.ext (by
    match a with
    | ⟨0, _⟩ => exact gate_lhs_se1_0 _ _
    | ⟨1, _⟩ => exact (gate_lhs_se1_1 _ _).trans hk)
  have er : dot_S1024x6_S6x3_S1024x3_1_0_0_1_n_n.rhsIdx (ix2 r j) ((contrEquiv1 dot_S1024x6_S6x3_S1024x3_1_0_0_1_n_n 6 rfl rfl).symm k) = ix2 k j := funext fun a => Fin.ext (by
    match a with
    | ⟨0, _⟩ => exact (gate_rhs_se1_0 _ _).trans hk
    | ⟨1, _⟩ => exact gate_rhs_se1_1 _ _)
  rw [el, er]

theorem gate_lhs_se2_0 (i : S1024x6.Idx) (q : dot_S1024x3_S3x6_S1024x6_1_0_0_1_n_n.contr.Idx) :
    (dot_S1024x3_S3x6_S1024x6_1_0_0_1_n_n.lhsIdx i q 0).val = (i 0).val := by
  unfold DotDims.lhsIdx
  rw [dif_neg (show ¬(0 : Fin S1024x3.rank) ∈ dot_S1024x3_S3x6_S1024x6_1_0_0_1_n_n.lhsBatch by decide), dif_pos (show (0 : Fin S1024x3.rank) ∈ dot_S1024x3_S3x6_S1024x6_1_0_0_1_n_n.lhsNonContracting by decide)]
  rfl
theorem gate_lhs_se2_1 (i : S1024x6.Idx) (q : dot_S1024x3_S3x6_S1024x6_1_0_0_1_n_n.contr.Idx) :
    (dot_S1024x3_S3x6_S1024x6_1_0_0_1_n_n.lhsIdx i q 1).val = (q ⟨0, by decide⟩).val :=
  dot_S1024x3_S3x6_S1024x6_1_0_0_1_n_n.lhsIdx_val_of_single rfl i q
theorem gate_rhs_se2_0 (i : S1024x6.Idx) (q : dot_S1024x3_S3x6_S1024x6_1_0_0_1_n_n.contr.Idx) :
    (dot_S1024x3_S3x6_S1024x6_1_0_0_1_n_n.rhsIdx i q 0).val = (q ⟨0, by decide⟩).val :=
  dot_S1024x3_S3x6_S1024x6_1_0_0_1_n_n.rhsIdx_val_of_single rfl i q
theorem gate_rhs_se2_1 (i : S1024x6.Idx) (q : dot_S1024x3_S3x6_S1024x6_1_0_0_1_n_n.contr.Idx) :
    (dot_S1024x3_S3x6_S1024x6_1_0_0_1_n_n.rhsIdx i q 1).val = (i 1).val := by
  unfold DotDims.rhsIdx
  rw [dif_neg (show ¬(1 : Fin S3x6.rank) ∈ dot_S1024x3_S3x6_S1024x6_1_0_0_1_n_n.rhsBatch by decide), dif_pos (show (1 : Fin S3x6.rank) ∈ dot_S1024x3_S3x6_S1024x6_1_0_0_1_n_n.rhsNonContracting by decide)]
  rfl

/-- The product into a zero accumulator, read at `(r, j)`: the sum over the 3 contracted positions. -/
theorem gate_matmul_se2_apply (lhs : FVec Ideal S1024x3 .f32) (rhs : FVec Ideal S3x6 .f32) (r : Fin 1024) (j : Fin 6) :
    matmul dot_S1024x3_S3x6_S1024x6_1_0_0_1_n_n none lhs rhs (constant (F := Ideal) S1024x6 .f32 0x00000000#32) (ix2 r j)
      = ∑ k : Fin 3, lhs (ix2 r k) * rhs (ix2 k j) := by
  simp only [matmul]
  rw [Ideal.matmul_constant_zero_apply, ← Equiv.sum_comp (contrEquiv1 dot_S1024x3_S3x6_S1024x6_1_0_0_1_n_n 3 rfl rfl).symm]
  refine Finset.sum_congr rfl fun k _ => ?_
  have hk := contrEquiv1_symm_val dot_S1024x3_S3x6_S1024x6_1_0_0_1_n_n 3 rfl rfl k
  have el : dot_S1024x3_S3x6_S1024x6_1_0_0_1_n_n.lhsIdx (ix2 r j) ((contrEquiv1 dot_S1024x3_S3x6_S1024x6_1_0_0_1_n_n 3 rfl rfl).symm k) = ix2 r k := funext fun a => Fin.ext (by
    match a with
    | ⟨0, _⟩ => exact gate_lhs_se2_0 _ _
    | ⟨1, _⟩ => exact (gate_lhs_se2_1 _ _).trans hk)
  have er : dot_S1024x3_S3x6_S1024x6_1_0_0_1_n_n.rhsIdx (ix2 r j) ((contrEquiv1 dot_S1024x3_S3x6_S1024x6_1_0_0_1_n_n 3 rfl rfl).symm k) = ix2 k j := funext fun a => Fin.ext (by
    match a with
    | ⟨0, _⟩ => exact (gate_rhs_se2_0 _ _).trans hk
    | ⟨1, _⟩ => exact gate_rhs_se2_1 _ _)
  rw [el, er]

/-! ## The six lane means -/

/-- A logistic read at an index. -/
theorem gate_logistic_apply {s : Shape} {φ : FTy} (a : FVec Ideal s φ) (i : s.Idx) : logistic a i = Ideal.logistic (a i) := rfl

/-- The zero field's lane mean. -/
theorem gate_pay10_apply (r : Fin 1024) (u : Fin 1) :
    k0_pay10 (F := Ideal) (ix2 r u) = Cert.Spec.mean128 fun _ => 0 := by
  unfold k0_pay10
  refine (gate_laneMeanCol_apply (k0_pay9 (F := Ideal)) _ _ _ _ r u).trans ?_
  refine congrArg Cert.Spec.mean128 (funext fun k => ?_)
  show Ideal.ofBits .f32 0x00000000#32 = 0
  exact Ideal.ofBits_zero_f32

theorem gate_pay11_apply (v38 : FVec Ideal S11x128 .bf16) (v39 : IVec S1024x11 32) (v41 : IVec S1024x1 32) (r : Fin 1024) (u : Fin 1) :
    k0_pay11 v38 v39 v41 (ix2 r u) = Cert.Spec.mean128 fun k => k0_pay5 v38 v39 v41 (ix2 r k) := by
  unfold k0_pay11
  exact gate_laneMeanCol_apply (k0_pay5 v38 v39 v41) _ _ _ _ r u

theorem gate_pay12_apply (v38 : FVec Ideal S11x128 .bf16) (v39 : IVec S1024x11 32) (v42 : Vec Ideal S1024 .i32) (r : Fin 1024) (u : Fin 1) :
    k0_pay12 v38 v39 v42 (ix2 r u) = Cert.Spec.mean128 fun k => k0_pay6 v38 v39 v42 (ix2 r k) := by
  unfold k0_pay12
  exact gate_laneMeanCol_apply (k0_pay6 v38 v39 v42) _ _ _ _ r u

theorem gate_pay13_apply (v56 : Vec Ideal S1024x128 .f32) (r : Fin 1024) (u : Fin 1) :
    k0_pay13 v56 (ix2 r u) = Cert.Spec.mean128 fun k => k0_pay7 v56 (ix2 r k) := by
  unfold k0_pay13
  exact gate_laneMeanCol_apply (k0_pay7 v56) _ _ _ _ r u

theorem gate_pay14_apply (v36 : FVec Ideal S1024x128 .f32) (r : Fin 1024) (u : Fin 1) :
    k0_pay14 v36 (ix2 r u) = Cert.Spec.mean128 fun k => v36 (ix2 r k) := by
  unfold k0_pay14
  exact gate_laneMeanCol_apply v36 _ _ _ _ r u

/-- The last field's lane sum, divided by 128 where the six columns are assembled. -/
theorem gate_pay15_apply (v58 : Vec Ideal S1024x128 .f32) (r : Fin 1024) (u : Fin 1) :
    divf (k0_pay15 v58) (broadcast S1024x1 (Scalar.ofBits (F := Ideal) .f32 0x43000000#32)) (ix2 r u) = Cert.Spec.mean128 fun k => k0_pay8 v58 (ix2 r k) := by
  unfold k0_pay15
  exact gate_laneMeanCol_apply (k0_pay8 v58) _ _ _ _ r u

/-! ## The gate from the six lane means -/

/-- The two small linear maps, the clamp at zero and the logistic over six given column values. -/
theorem gate_pay16_apply (v64 v68 v72 v76 v80 v82 : FVec Ideal S1024x1 .f32) (x10 : Vec Ideal S6x3 .f32) (x11 : Vec Ideal S3 .f32)
    (x12 : Vec Ideal S3x6 .f32) (x13 : Vec Ideal S6 .f32) (r : Fin 1024) (f : Fin 6) (zz : Fin 6 → EReal)
    (hz0 : v64 (ix2 r (0 : Fin 1)) = zz 0) (hz1 : v68 (ix2 r (0 : Fin 1)) = zz 1) (hz2 : v72 (ix2 r (0 : Fin 1)) = zz 2)
    (hz3 : v76 (ix2 r (0 : Fin 1)) = zz 3) (hz4 : v80 (ix2 r (0 : Fin 1)) = zz 4)
    (hz5 : divf v82 (broadcast S1024x1 (Scalar.ofBits (F := Ideal) .f32 0x43000000#32)) (ix2 r (0 : Fin 1)) = zz 5) :
    k0_pay16 v64 v68 v72 v76 v80 v82 x10 x11 x12 x13 (ix2 r f)
      = Ideal.logistic ((∑ j : Fin 3, max ((∑ g : Fin 6, zz g * x10 (ix2 g j)) + x11 (ix1 j)) 0 * x12 (ix2 j f)) + x13 (ix1 f)) := by
  unfold k0_pay16
  simp only [gate_logistic_apply, addf_apply, maximumf_apply, broadcast_apply, gate_matmul_se2_apply, gate_matmul_se1_apply,
    broadcastTo_1b_ab_apply, shapeCast_a_1a_apply, gate_concat6_apply]
  have hz : ∀ g : Fin 6, (![v64, v68, v72, v76, v80, divf v82 (broadcast S1024x1 (Scalar.ofBits (F := Ideal) .f32 0x43000000#32))] g) (ix2 r (0 : Fin 1)) = zz g := by
    intro g
    match g with
    | ⟨0, _⟩ => exact hz0
    | ⟨1, _⟩ => exact hz1
    | ⟨2, _⟩ => exact hz2
    | ⟨3, _⟩ => exact hz3
    | ⟨4, _⟩ => exact hz4
    | ⟨5, _⟩ => exact hz5
  simp only [hz]
  simp only [Ideal.ofBits_def, Ideal.ofBits_zero_f32]

/-! ## The gate of a row -/

/-- The kernel's gate at row `r`, field `f` is the specification's: the six columns the body lays side by side are the
    lane means of the six fields, and the rest is the two linear maps, the clamp and the logistic as written. -/
theorem kGate_apply (x0 : Vec Ideal S1024x128 .f32) (x1 x2 : Vec Ideal S1024 .i32) (x3 x4 : Vec Ideal S1024x128 .f32) (x5 : Vec Ideal S11x128 .bf16)
    (x6 : Vec Ideal S128x128 .bf16) (x7 x8 x9 : Vec Ideal S128 .f32) (x10 : Vec Ideal S6x3 .f32) (x11 : Vec Ideal S3 .f32) (x12 : Vec Ideal S3x6 .f32)
    (x13 : Vec Ideal S6 .f32) (x14 : Vec Ideal S128x128 .bf16) (x15 : Vec Ideal S2688x512 .bf16) (x16 x17 x18 x19 x20 : Vec Ideal S512 .f32)
    (x21 : Vec Ideal S512x256 .bf16) (x22 x23 x24 x25 x26 : Vec Ideal S256 .f32) (x27 : Vec Ideal S256x1 .bf16) (x28 : Vec Ideal S1 .f32)
    (r : Fin 1024) (f : Fin 6)
    (hMM : ∀ e, kMM x0 x6 x7 x8 x9 (ix2 r e) = Cert.Spec.mmRow (wOf x5 x6 x7 x8 x9 x10 x11 x12 x13 x14 x15 x16 x17 x18 x19 x20 x21 x22 x23 x24 x25 x26 x27 x28) (rowOf x0 x1 x2 x3 x4 r).x0 e)
    (h1 : ∀ e, kF1 x1 x5 (ix2 r e) = Cert.Spec.catRow (wOf x5 x6 x7 x8 x9 x10 x11 x12 x13 x14 x15 x16 x17 x18 x19 x20 x21 x22 x23 x24 x25 x26 x27 x28) (x1 (ix1 r)) e)
    (h2 : ∀ e, kF2 x2 x5 (ix2 r e) = Cert.Spec.catRow (wOf x5 x6 x7 x8 x9 x10 x11 x12 x13 x14 x15 x16 x17 x18 x19 x20 x21 x22 x23 x24 x25 x26 x27 x28) (x2 (ix1 r)) e) :
    kGate x0 x1 x2 x3 x4 x5 x6 x7 x8 x9 x10 x11 x12 x13 (ix2 r f) = Cert.Spec.gate (wOf x5 x6 x7 x8 x9 x10 x11 x12 x13 x14 x15 x16 x17 x18 x19 x20 x21 x22 x23 x24 x25 x26 x27 x28) (rowOf x0 x1 x2 x3 x4 r) f := by
  unfold kGate
  refine (gate_pay16_apply _ _ _ _ _ _ x10 x11 x12 x13 r f (Cert.Spec.z (wOf x5 x6 x7 x8 x9 x10 x11 x12 x13 x14 x15 x16 x17 x18 x19 x20 x21 x22 x23 x24 x25 x26 x27 x28) (rowOf x0 x1 x2 x3 x4 r)) ?_ ?_ ?_ ?_ ?_ ?_).trans ?_
  · exact gate_pay10_apply r 0
  · exact (gate_pay11_apply _ _ _ r 0).trans (congrArg Cert.Spec.mean128 (funext fun k => h1 k))
  · exact (gate_pay12_apply _ _ _ r 0).trans (congrArg Cert.Spec.mean128 (funext fun k => h2 k))
  · refine (gate_pay13_apply x3 r 0).trans (congrArg Cert.Spec.mean128 (funext fun k => ?_))
    unfold k0_pay7
    rw [shapeCast_self]
    rfl
  · exact (gate_pay14_apply _ r 0).trans (congrArg Cert.Spec.mean128 (funext fun k => hMM k))
  · refine (gate_pay15_apply x4 r 0).trans (congrArg Cert.Spec.mean128 (funext fun k => ?_))
    unfold k0_pay8
    rw [shapeCast_self]
    rfl
  · rfl

end Cert.KernelIdeal.KV

end
-- ==== Proof.KXs.lean ====
/-
  The gated fields and their bilinear images at a row of the block.  A gated field at lane `e` is the field's lane
  times the field's own gate column (the column is cut out of the six gate columns and laid along the 128 lanes);
  the bilinear image of a gated field at lane `d` is the sum over the 128 lanes `e` of the gated field at `e` times
  the bilinear weight at `(e, d)` (the narrowing of the float format before the product is the identity on
  extended reals, and the product accumulates into zero).
-/
import proofs.«429925_j71167608094992_2_alg».proof.Proof.KOut
import Idealize.ShloMosaic.Lib.ValueIdx
import Idealize.ShloMosaic.Lib.Pipeline.Value
import Idealize.ShloMosaic.Lib.ValueLayout
import Idealize.ShloMosaic.PureOps.Ideal.Laws

set_option synthInstance.maxSize 4096

noncomputable section

namespace Cert.KernelIdeal.KV

open Idealize.ShloMosaic Idealize.SL.Sem Cert.KernelIdeal Cert.KernelIdeal.Gen Idealize.ShloMosaic.ValueIdx
open scoped BigOperators

/-! ## One gate column laid along the lanes -/

/-- A field times the broadcast of column `f` of the gate reads, at `(r, e)`, the field at `(r, e)` times the gate
    at `(r, f)`. -/
theorem kc_gated_apply (v : FVec Ideal S1024x128 .f32) (g : FVec Ideal S1024x6 .f32) (o : Nat)
    (h : S1024x6.Slices ![0, o] S1024x1) (f : Fin 6) (hf : f.val = o) (r : Fin 1024) (e : Fin 128) :
    mulf v (broadcastTo S1024x128 (extractStridedSlice S1024x1 ![0, o] g h) broadcasts_S1024x1_S1024x128) (ix2 r e)
      = v (ix2 r e) * g (ix2 r f) := by
  rw [mulf_apply]
  congr 1
  refine (broadcastTo_apply _ _ (ix2 r e) (ix2 r (0 : Fin 1)) (fun a => by
    match a with
    | ⟨0, _⟩ => rfl
    | ⟨1, _⟩ => rfl)).trans ?_
  exact slice2_axis1_apply o g h r (0 : Fin 1) f (by rw [hf]; rfl)

/-- The zero field is zero at every row and lane. -/
theorem kc_F0_apply (r : Fin 1024) (e : Fin 128) : (kF0 (F := Ideal)) (ix2 r e) = 0 := by
  unfold kF0 k0_pay9
  show Ideal.ofBits .f32 0x00000000#32 = 0
  exact Ideal.ofBits_zero_f32

/-- The item block cast to its own shape is the item block. -/
theorem kc_F3_apply (x3 : Vec Ideal S1024x128 .f32) (r : Fin 1024) (e : Fin 128) : kF3 x3 (ix2 r e) = x3 (ix2 r e) := by
  unfold kF3 k0_pay7
  rw [shapeCast_self]

/-- The history block cast to its own shape is the history block. -/
theorem kc_F5_apply (x4 : Vec Ideal S1024x128 .f32) (r : Fin 1024) (e : Fin 128) : kF5 x4 (ix2 r e) = x4 (ix2 r e) := by
  unfold kF5 k0_pay8
  rw [shapeCast_self]

/-! ## The product of a row block with a 128 × 128 matrix at an index -/

theorem kc_lhs_0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl

theorem kc_lhs_1 (i : S1024x128.Idx) (q : dot_S1024x128_S128x128_S1024x128_1_0_0_1_n_n.contr.Idx) :
    (dot_S1024x128_S128x128_S1024x128_1_0_0_1_n_n.lhsIdx i q 1).val = (q ⟨0, by decide⟩).val :=
  dot_S1024x128_S128x128_S1024x128_1_0_0_1_n_n.lhsIdx_val_of_single rfl i q

theorem kc_rhs_0 (i : S1024x128.Idx) (q : dot_S1024x128_S128x128_S1024x128_1_0_0_1_n_n.contr.Idx) :
    (dot_S1024x128_S128x128_S1024x128_1_0_0_1_n_n.rhsIdx i q 0).val = (q ⟨0, by decide⟩).val :=
  dot_S1024x128_S128x128_S1024x128_1_0_0_1_n_n.rhsIdx_val_of_single rfl i q

theorem kc_rhs_1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl

/-- The block product accumulated into zero reads, at `(r, d)`, the sum over the contracted lane `k` of the left
    operand at `(r, k)` times the right operand at `(k, d)`. -/
theorem kc_matmul_apply (lhs : FVec Ideal S1024x128 .bf16) (rhs : FVec Ideal S128x128 .bf16) (r : Fin 1024) (d : Fin 128) :
    matmul dot_S1024x128_S128x128_S1024x128_1_0_0_1_n_n none lhs rhs (constant (F := Ideal) S1024x128 .f32 0x00000000#32) (ix2 r d)
      = ∑ k : Fin 128, lhs (ix2 r k) * rhs (ix2 k d) := by
  simp only [matmul]
  rw [Ideal.matmul_constant_zero_apply, ← Equiv.sum_comp (contrEquiv1 dot_S1024x128_S128x128_S1024x128_1_0_0_1_n_n 128 rfl rfl).symm]
  refine Finset.sum_congr rfl fun k _ => ?_
  have hk := contrEquiv1_symm_val dot_S1024x128_S128x128_S1024x128_1_0_0_1_n_n 128 rfl rfl k
  have el : dot_S1024x128_S128x128_S1024x128_1_0_0_1_n_n.lhsIdx (ix2 r d) ((contrEquiv1 dot_S1024x128_S128x128_S1024x128_1_0_0_1_n_n 128 rfl rfl).symm k) = ix2 r k := funext fun a => Fin.ext (by
    match a with
    | ⟨0, _⟩ => exact kc_lhs_0 _ _
    | ⟨1, _⟩ => exact (kc_lhs_1 _ _).trans hk)
  have er : dot_S1024x128_S128x128_S1024x128_1_0_0_1_n_n.rhsIdx (ix2 r d) ((contrEquiv1 dot_S1024x128_S128x128_S1024x128_1_0_0_1_n_n 128 rfl rfl).symm k) = ix2 k d := funext fun a => Fin.ext (by
    match a with
    | ⟨0, _⟩ => exact (kc_rhs_0 _ _).trans hk
    | ⟨1, _⟩ => exact kc_rhs_1 _ _)
  rw [el, er]

/-- The narrowed gated field times the bilinear weight (cast to its own shape), accumulated into zero. -/
theorem kc_bilinear_apply (v : FVec Ideal S1024x128 .f32) (x14 : Vec Ideal S128x128 .bf16) (r : Fin 1024) (d : Fin 128) :
    matmul dot_S1024x128_S128x128_S1024x128_1_0_0_1_n_n none (truncf .bf16 v bitsLt_bf16_f32) (k0_pay23 x14) (constant (F := Ideal) S1024x128 .f32 0x00000000#32) (ix2 r d)
      = ∑ k : Fin 128, v (ix2 r k) * x14 (ix2 k d) := by
  rw [kc_matmul_apply]
  refine Finset.sum_congr rfl fun k _ => ?_
  unfold k0_pay23
  rw [shapeCast_self]
  rfl

section rows
variable (x0 : Vec Ideal S1024x128 .f32) (x1 x2 : Vec Ideal S1024 .i32) (x3 x4 : Vec Ideal S1024x128 .f32) (x5 : Vec Ideal S11x128 .bf16)
  (x6 : Vec Ideal S128x128 .bf16) (x7 x8 x9 : Vec Ideal S128 .f32) (x10 : Vec Ideal S6x3 .f32) (x11 : Vec Ideal S3 .f32) (x12 : Vec Ideal S3x6 .f32)
  (x13 : Vec Ideal S6 .f32) (x14 : Vec Ideal S128x128 .bf16) (x15 : Vec Ideal S2688x512 .bf16) (x16 x17 x18 x19 x20 : Vec Ideal S512 .f32)
  (x21 : Vec Ideal S512x256 .bf16) (x22 x23 x24 x25 x26 : Vec Ideal S256 .f32) (x27 : Vec Ideal S256x1 .bf16) (x28 : Vec Ideal S1 .f32)
  (r : Fin 1024)

/-! ## The six gated fields -/

/-- Gated field 0 (the zero field times its gate). -/
theorem kXs0_apply (hG : ∀ f : Fin 6, kGate x0 x1 x2 x3 x4 x5 x6 x7 x8 x9 x10 x11 x12 x13 (ix2 r f) = Spec.gate (wOf x5 x6 x7 x8 x9 x10 x11 x12 x13 x14 x15 x16 x17 x18 x19 x20 x21 x22 x23 x24 x25 x26 x27 x28) (rowOf x0 x1 x2 x3 x4 r) f)
    (hMM : ∀ e : Fin 128, kMM x0 x6 x7 x8 x9 (ix2 r e) = Spec.mmRow (wOf x5 x6 x7 x8 x9 x10 x11 x12 x13 x14 x15 x16 x17 x18 x19 x20 x21 x22 x23 x24 x25 x26 x27 x28) (rowOf x0 x1 x2 x3 x4 r).x0 e)
    (h1 : ∀ e : Fin 128, kF1 x1 x5 (ix2 r e) = Spec.catRow (wOf x5 x6 x7 x8 x9 x10 x11 x12 x13 x14 x15 x16 x17 x18 x19 x20 x21 x22 x23 x24 x25 x26 x27 x28) (x1 (ix1 r)) e)
    (h2 : ∀ e : Fin 128, kF2 x2 x5 (ix2 r e) = Spec.catRow (wOf x5 x6 x7 x8 x9 x10 x11 x12 x13 x14 x15 x16 x17 x18 x19 x20 x21 x22 x23 x24 x25 x26 x27 x28) (x2 (ix1 r)) e)
    (e : Fin 128) :
    kXs0 x0 x1 x2 x3 x4 x5 x6 x7 x8 x9 x10 x11 x12 x13 (ix2 r e) = Spec.xs (wOf x5 x6 x7 x8 x9 x10 x11 x12 x13 x14 x15 x16 x17 x18 x19 x20 x21 x22 x23 x24 x25 x26 x27 x28) (rowOf x0 x1 x2 x3 x4 r) 0 e := by
  refine (kc_gated_apply (kF0 (F := Ideal)) (kGate x0 x1 x2 x3 x4 x5 x6 x7 x8 x9 x10 x11 x12 x13) 0 slices_S1024x6_o0_0_S1024x1 0 rfl r e).trans ?_
  rw [kc_F0_apply r e, hG 0]
  show (0 : EReal) * _ = (0 : EReal) * _
  rfl

/-- Gated field 1 (the first category row times its gate). -/
theorem kXs1_apply (hG : ∀ f : Fin 6, kGate x0 x1 x2 x3 x4 x5 x6 x7 x8 x9 x10 x11 x12 x13 (ix2 r f) = Spec.gate (wOf x5 x6 x7 x8 x9 x10 x11 x12 x13 x14 x15 x16 x17 x18 x19 x20 x21 x22 x23 x24 x25 x26 x27 x28) (rowOf x0 x1 x2 x3 x4 r) f)
    (hMM : ∀ e : Fin 128, kMM x0 x6 x7 x8 x9 (ix2 r e) = Spec.mmRow (wOf x5 x6 x7 x8 x9 x10 x11 x12 x13 x14 x15 x16 x17 x18 x19 x20 x21 x22 x23 x24 x25 x26 x27 x28) (rowOf x0 x1 x2 x3 x4 r).x0 e)
    (h1 : ∀ e : Fin 128, kF1 x1 x5 (ix2 r e) = Spec.catRow (wOf x5 x6 x7 x8 x9 x10 x11 x12 x13 x14 x15 x16 x17 x18 x19 x20 x21 x22 x23 x24 x25 x26 x27 x28) (x1 (ix1 r)) e)
    (h2 : ∀ e : Fin 128, kF2 x2 x5 (ix2 r e) = Spec.catRow (wOf x5 x6 x7 x8 x9 x10 x11 x12 x13 x14 x15 x16 x17 x18 x19 x20 x21 x22 x23 x24 x25 x26 x27 x28) (x2 (ix1 r)) e)
    (e : Fin 128) :
    kXs1 x0 x1 x2 x3 x4 x5 x6 x7 x8 x9 x10 x11 x12 x13 (ix2 r e) = Spec.xs (wOf x5 x6 x7 x8 x9 x10 x11 x12 x13 x14 x15 x16 x17 x18 x19 x20 x21 x22 x23 x24 x25 x26 x27 x28) (rowOf x0 x1 x2 x3 x4 r) 1 e := by
  refine (kc_gated_apply (kF1 x1 x5) (kGate x0 x1 x2 x3 x4 x5 x6 x7 x8 x9 x10 x11 x12 x13) 1 slices_S1024x6_o0_1_S1024x1 1 rfl r e).trans ?_
  rw [h1 e, hG 1]
  rfl

/-- Gated field 2 (the second category row times its gate). -/
theorem kXs2_apply (hG : ∀ f : Fin 6, kGate x0 x1 x2 x3 x4 x5 x6 x7 x8 x9 x10 x11 x12 x13 (ix2 r f) = Spec.gate (wOf x5 x6 x7 x8 x9 x10 x11 x12 x13 x14 x15 x16 x17 x18 x19 x20 x21 x22 x23 x24 x25 x26 x27 x28) (rowOf x0 x1 x2 x3 x4 r) f)
    (hMM : ∀ e : Fin 128, kMM x0 x6 x7 x8 x9 (ix2 r e) = Spec.mmRow (wOf x5 x6 x7 x8 x9 x10 x11 x12 x13 x14 x15 x16 x17 x18 x19 x20 x21 x22 x23 x24 x25 x26 x27 x28) (rowOf x0 x1 x2 x3 x4 r).x0 e)
    (h1 : ∀ e : Fin 128, kF1 x1 x5 (ix2 r e) = Spec.catRow (wOf x5 x6 x7 x8 x9 x10 x11 x12 x13 x14 x15 x16 x17 x18 x19 x20 x21 x22 x23 x24 x25 x26 x27 x28) (x1 (ix1 r)) e)
    (h2 : ∀ e : Fin 128, kF2 x2 x5 (ix2 r e) = Spec.catRow (wOf x5 x6 x7 x8 x9 x10 x11 x12 x13 x14 x15 x16 x17 x18 x19 x20 x21 x22 x23 x24 x25 x26 x27 x28) (x2 (ix1 r)) e)
    (e : Fin 128) :
    kXs2 x0 x1 x2 x3 x4 x5 x6 x7 x8 x9 x10 x11 x12 x13 (ix2 r e) = Spec.xs (wOf x5 x6 x7 x8 x9 x10 x11 x12 x13 x14 x15 x16 x17 x18 x19 x20 x21 x22 x23 x24 x25 x26 x27 x28) (rowOf x0 x1 x2 x3 x4 r) 2 e := by
  refine (kc_gated_apply (kF2 x2 x5) (kGate x0 x1 x2 x3 x4 x5 x6 x7 x8 x9 x10 x11 x12 x13) 2 slices_S1024x6_o0_2_S1024x1 2 rfl r e).trans ?_
  rw [h2 e, hG 2]
  rfl

/-- Gated field 3 (the item row times its gate). -/
theorem kXs3_apply (hG : ∀ f : Fin 6, kGate x0 x1 x2 x3 x4 x5 x6 x7 x8 x9 x10 x11 x12 x13 (ix2 r f) = Spec.gate (wOf x5 x6 x7 x8 x9 x10 x11 x12 x13 x14 x15 x16 x17 x18 x19 x20 x21 x22 x23 x24 x25 x26 x27 x28) (rowOf x0 x1 x2 x3 x4 r) f)
    (hMM : ∀ e : Fin 128, kMM x0 x6 x7 x8 x9 (ix2 r e) = Spec.mmRow (wOf x5 x6 x7 x8 x9 x10 x11 x12 x13 x14 x15 x16 x17 x18 x19 x20 x21 x22 x23 x24 x25 x26 x27 x28) (rowOf x0 x1 x2 x3 x4 r).x0 e)
    (h1 : ∀ e : Fin 128, kF1 x1 x5 (ix2 r e) = Spec.catRow (wOf x5 x6 x7 x8 x9 x10 x11 x12 x13 x14 x15 x16 x17 x18 x19 x20 x21 x22 x23 x24 x25 x26 x27 x28) (x1 (ix1 r)) e)
    (h2 : ∀ e : Fin 128, kF2 x2 x5 (ix2 r e) = Spec.catRow (wOf x5 x6 x7 x8 x9 x10 x11 x12 x13 x14 x15 x16 x17 x18 x19 x20 x21 x22 x23 x24 x25 x26 x27 x28) (x2 (ix1 r)) e)
    (e : Fin 128) :
    kXs3 x0 x1 x2 x3 x4 x5 x6 x7 x8 x9 x10 x11 x12 x13 (ix2 r e) = Spec.xs (wOf x5 x6 x7 x8 x9 x10 x11 x12 x13 x14 x15 x16 x17 x18 x19 x20 x21 x22 x23 x24 x25 x26 x27 x28) (rowOf x0 x1 x2 x3 x4 r) 3 e := by
  refine (kc_gated_apply (kF3 x3) (kGate x0 x1 x2 x3 x4 x5 x6 x7 x8 x9 x10 x11 x12 x13) 3 slices_S1024x6_o0_3_S1024x1 3 rfl r e).trans ?_
  rw [kc_F3_apply x3 r e, hG 3]
  rfl

/-- Gated field 4 (the normalised projection times its gate). -/
theorem kXs4_apply (hG : ∀ f : Fin 6, kGate x0 x1 x2 x3 x4 x5 x6 x7 x8 x9 x10 x11 x12 x13 (ix2 r f) = Spec.gate (wOf x5 x6 x7 x8 x9 x10 x11 x12 x13 x14 x15 x16 x17 x18 x19 x20 x21 x22 x23 x24 x25 x26 x27 x28) (rowOf x0 x1 x2 x3 x4 r) f)
    (hMM : ∀ e : Fin 128, kMM x0 x6 x7 x8 x9 (ix2 r e) = Spec.mmRow (wOf x5 x6 x7 x8 x9 x10 x11 x12 x13 x14 x15 x16 x17 x18 x19 x20 x21 x22 x23 x24 x25 x26 x27 x28) (rowOf x0 x1 x2 x3 x4 r).x0 e)
    (h1 : ∀ e : Fin 128, kF1 x1 x5 (ix2 r e) = Spec.catRow (wOf x5 x6 x7 x8 x9 x10 x11 x12 x13 x14 x15 x16 x17 x18 x19 x20 x21 x22 x23 x24 x25 x26 x27 x28) (x1 (ix1 r)) e)
    (h2 : ∀ e : Fin 128, kF2 x2 x5 (ix2 r e) = Spec.catRow (wOf x5 x6 x7 x8 x9 x10 x11 x12 x13 x14 x15 x16 x17 x18 x19 x20 x21 x22 x23 x24 x25 x26 x27 x28) (x2 (ix1 r)) e)
    (e : Fin 128) :
    kXs4 x0 x1 x2 x3 x4 x5 x6 x7 x8 x9 x10 x11 x12 x13 (ix2 r e) = Spec.xs (wOf x5 x6 x7 x8 x9 x10 x11 x12 x13 x14 x15 x16 x17 x18 x19 x20 x21 x22 x23 x24 x25 x26 x27 x28) (rowOf x0 x1 x2 x3 x4 r) 4 e := by
  refine (kc_gated_apply (kMM x0 x6 x7 x8 x9) (kGate x0 x1 x2 x3 x4 x5 x6 x7 x8 x9 x10 x11 x12 x13) 4 slices_S1024x6_o0_4_S1024x1 4 rfl r e).trans ?_
  rw [hMM e, hG 4]
  rfl

/-- Gated field 5 (the history row times its gate). -/
theorem kXs5_apply (hG : ∀ f : Fin 6, kGate x0 x1 x2 x3 x4 x5 x6 x7 x8 x9 x10 x11 x12 x13 (ix2 r f) = Spec.gate (wOf x5 x6 x7 x8 x9 x10 x11 x12 x13 x14 x15 x16 x17 x18 x19 x20 x21 x22 x23 x24 x25 x26 x27 x28) (rowOf x0 x1 x2 x3 x4 r) f)
    (hMM : ∀ e : Fin 128, kMM x0 x6 x7 x8 x9 (ix2 r e) = Spec.mmRow (wOf x5 x6 x7 x8 x9 x10 x11 x12 x13 x14 x15 x16 x17 x18 x19 x20 x21 x22 x23 x24 x25 x26 x27 x28) (rowOf x0 x1 x2 x3 x4 r).x0 e)
    (h1 : ∀ e : Fin 128, kF1 x1 x5 (ix2 r e) = Spec.catRow (wOf x5 x6 x7 x8 x9 x10 x11 x12 x13 x14 x15 x16 x17 x18 x19 x20 x21 x22 x23 x24 x25 x26 x27 x28) (x1 (ix1 r)) e)
    (h2 : ∀ e : Fin 128, kF2 x2 x5 (ix2 r e) = Spec.catRow (wOf x5 x6 x7 x8 x9 x10 x11 x12 x13 x14 x15 x16 x17 x18 x19 x20 x21 x22 x23 x24 x25 x26 x27 x28) (x2 (ix1 r)) e)
    (e : Fin 128) :
    kXs5 x0 x1 x2 x3 x4 x5 x6 x7 x8 x9 x10 x11 x12 x13 (ix2 r e) = Spec.xs (wOf x5 x6 x7 x8 x9 x10 x11 x12 x13 x14 x15 x16 x17 x18 x19 x20 x21 x22 x23 x24 x25 x26 x27 x28) (rowOf x0 x1 x2 x3 x4 r) 5 e := by
  refine (kc_gated_apply (kF5 x4) (kGate x0 x1 x2 x3 x4 x5 x6 x7 x8 x9 x10 x11 x12 x13) 5 slices_S1024x6_o0_5_S1024x1 5 rfl r e).trans ?_
  rw [kc_F5_apply x4 r e, hG 5]
  rfl

/-! ## The bilinear images of the gated fields 2 to 5 -/

/-- The bilinear image of gated field 2. -/
theorem kXw2_apply
    (hXs : ∀ e : Fin 128, kXs2 x0 x1 x2 x3 x4 x5 x6 x7 x8 x9 x10 x11 x12 x13 (ix2 r e) = Spec.xs (wOf x5 x6 x7 x8 x9 x10 x11 x12 x13 x14 x15 x16 x17 x18 x19 x20 x21 x22 x23 x24 x25 x26 x27 x28) (rowOf x0 x1 x2 x3 x4 r) 2 e)
    (d : Fin 128) :
    kXw2 x0 x1 x2 x3 x4 x5 x6 x7 x8 x9 x10 x11 x12 x13 x14 (ix2 r d) = Spec.xw (wOf x5 x6 x7 x8 x9 x10 x11 x12 x13 x14 x15 x16 x17 x18 x19 x20 x21 x22 x23 x24 x25 x26 x27 x28) (rowOf x0 x1 x2 x3 x4 r) 2 d := by
  refine (kc_bilinear_apply (kXs2 x0 x1 x2 x3 x4 x5 x6 x7 x8 x9 x10 x11 x12 x13) x14 r d).trans ?_
  exact Finset.sum_congr rfl fun k _ => by rw [hXs k]; rfl

/-- The bilinear image of gated field 3. -/
theorem kXw3_apply
    (hXs : ∀ e : Fin 128, kXs3 x0 x1 x2 x3 x4 x5 x6 x7 x8 x9 x10 x11 x12 x13 (ix2 r e) = Spec.xs (wOf x5 x6 x7 x8 x9 x10 x11 x12 x13 x14 x15 x16 x17 x18 x19 x20 x21 x22 x23 x24 x25 x26 x27 x28) (rowOf x0 x1 x2 x3 x4 r) 3 e)
    (d : Fin 128) :
    kXw3 x0 x1 x2 x3 x4 x5 x6 x7 x8 x9 x10 x11 x12 x13 x14 (ix2 r d) = Spec.xw (wOf x5 x6 x7 x8 x9 x10 x11 x12 x13 x14 x15 x16 x17 x18 x19 x20 x21 x22 x23 x24 x25 x26 x27 x28) (rowOf x0 x1 x2 x3 x4 r) 3 d := by
  refine (kc_bilinear_apply (kXs3 x0 x1 x2 x3 x4 x5 x6 x7 x8 x9 x10 x11 x12 x13) x14 r d).trans ?_
  exact Finset.sum_congr rfl fun k _ => by rw [hXs k]; rfl

/-- The bilinear image of gated field 4. -/
theorem kXw4_apply
    (hXs : ∀ e : Fin 128, kXs4 x0 x1 x2 x3 x4 x5 x6 x7 x8 x9 x10 x11 x12 x13 (ix2 r e) = Spec.xs (wOf x5 x6 x7 x8 x9 x10 x11 x12 x13 x14 x15 x16 x17 x18 x19 x20 x21 x22 x23 x24 x25 x26 x27 x28) (rowOf x0 x1 x2 x3 x4 r) 4 e)
    (d : Fin 128) :
    kXw4 x0 x1 x2 x3 x4 x5 x6 x7 x8 x9 x10 x11 x12 x13 x14 (ix2 r d) = Spec.xw (wOf x5 x6 x7 x8 x9 x10 x11 x12 x13 x14 x15 x16 x17 x18 x19 x20 x21 x22 x23 x24 x25 x26 x27 x28) (rowOf x0 x1 x2 x3 x4 r) 4 d := by
  refine (kc_bilinear_apply (kXs4 x0 x1 x2 x3 x4 x5 x6 x7 x8 x9 x10 x11 x12 x13) x14 r d).trans ?_
  exact Finset.sum_congr rfl fun k _ => by rw [hXs k]; rfl

/-- The bilinear image of gated field 5. -/
theorem kXw5_apply
    (hXs : ∀ e : Fin 128, kXs5 x0 x1 x2 x3 x4 x5 x6 x7 x8 x9 x10 x11 x12 x13 (ix2 r e) = Spec.xs (wOf x5 x6 x7 x8 x9 x10 x11 x12 x13 x14 x15 x16 x17 x18 x19 x20 x21 x22 x23 x24 x25 x26 x27 x28) (rowOf x0 x1 x2 x3 x4 r) 5 e)
    (d : Fin 128) :
    kXw5 x0 x1 x2 x3 x4 x5 x6 x7 x8 x9 x10 x11 x12 x13 x14 (ix2 r d) = Spec.xw (wOf x5 x6 x7 x8 x9 x10 x11 x12 x13 x14 x15 x16 x17 x18 x19 x20 x21 x22 x23 x24 x25 x26 x27 x28) (rowOf x0 x1 x2 x3 x4 r) 5 d := by
  refine (kc_bilinear_apply (kXs5 x0 x1 x2 x3 x4 x5 x6 x7 x8 x9 x10 x11 x12 x13) x14 r d).trans ?_
  exact Finset.sum_congr rfl fun k _ => by rw [hXs k]; rfl

end rows

end Cert.KernelIdeal.KV

end
-- ==== Proof.KCvec.lean ====
/-
  The scratch buffer's 2688 columns at a row of the block: each of its 21 blocks of 128 columns is a narrowing of
  the float format (the identity on extended reals) of a gated field, of a zero block, or of the lane-wise product
  of a gated field with the bilinear image of a later one, in the order of the specification's column blocks.
-/
import proofs.«429925_j71167608094992_2_alg».proof.Proof.KOut
import Idealize.ShloMosaic.Lib.ValueIdx
import Idealize.ShloMosaic.Lib.Pipeline.Value
import Idealize.ShloMosaic.Lib.ValueLayout
import Idealize.ShloMosaic.PureOps.Ideal.Laws

set_option synthInstance.maxSize 4096

noncomputable section

namespace Cert.KernelIdeal.KV

open Idealize.ShloMosaic Idealize.SL.Sem Cert.KernelIdeal Cert.KernelIdeal.Gen Idealize.ShloMosaic.ValueIdx

/-- A narrowing of the float format followed by a cast to the same shape reads the operand. -/
theorem kd_narrow_cast (v : FVec Ideal S1024x128 .f32) (i : S1024x128.Idx) :
    shapeCast S1024x128 (truncf .bf16 v bitsLt_bf16_f32) shapeCasts_S1024x128_S1024x128 i = v i := by
  rw [shapeCast_self]
  rfl

/-- A cast to the same shape reads the operand. -/
theorem kd_cast (v : FVec Ideal S1024x128 .bf16) (i : S1024x128.Idx) :
    shapeCast S1024x128 v shapeCasts_S1024x128_S1024x128 i = v i := by
  rw [shapeCast_self]

/-- The narrowed lane-wise product, cast to the same shape, reads the product of the two operands. -/
theorem kd_mul_narrow_cast (a b : FVec Ideal S1024x128 .f32) (i : S1024x128.Idx) :
    shapeCast S1024x128 (truncf .bf16 (mulf a b) bitsLt_bf16_f32) shapeCasts_S1024x128_S1024x128 i = a i * b i := by
  rw [shapeCast_self]
  rfl

/-- The narrowed lane-wise product reads the product of the two operands. -/
theorem kd_mul_narrow (a b : FVec Ideal S1024x128 .f32) (i : S1024x128.Idx) :
    (truncf .bf16 (mulf a b) bitsLt_bf16_f32 : FVec Ideal S1024x128 .bf16) i = a i * b i := rfl

/-- The pattern of all zero bits in the narrow format denotes zero. -/
theorem kd_ofBits_zero_bf16 : Ideal.ofBits .bf16 0x0000#16 = 0 := by simp [Ideal.ofBits, Ideal.ieee]

/-- The zero block reads zero everywhere. -/
theorem kd_zero_block (i : S1024x128.Idx) : k0_pay35 (F := Ideal) i = 0 := kd_ofBits_zero_bf16

section blocks
variable (x0 : Vec Ideal S1024x128 .f32) (x1 x2 : Vec Ideal S1024 .i32) (x3 x4 : Vec Ideal S1024x128 .f32) (x5 : Vec Ideal S11x128 .bf16)
  (x6 : Vec Ideal S128x128 .bf16) (x7 x8 x9 : Vec Ideal S128 .f32) (x10 : Vec Ideal S6x3 .f32) (x11 : Vec Ideal S3 .f32) (x12 : Vec Ideal S3x6 .f32)
  (x13 : Vec Ideal S6 .f32) (x14 : Vec Ideal S128x128 .bf16) (x15 : Vec Ideal S2688x512 .bf16) (x16 x17 x18 x19 x20 : Vec Ideal S512 .f32)
  (x21 : Vec Ideal S512x256 .bf16) (x22 x23 x24 x25 x26 : Vec Ideal S256 .f32) (x27 : Vec Ideal S256x1 .bf16) (x28 : Vec Ideal S1 .f32)
  (r : Fin 1024)

/-- Block `q` of the scratch buffer at row `r` and lane `e` is the specification's column block `q` at lane `e`, given the
    six gated fields and the four bilinear images at that row. -/
theorem kPiece_apply
    (h0 : ∀ e : Fin 128, kXs0 x0 x1 x2 x3 x4 x5 x6 x7 x8 x9 x10 x11 x12 x13 (ix2 r e)
      = Spec.xs (wOf x5 x6 x7 x8 x9 x10 x11 x12 x13 x14 x15 x16 x17 x18 x19 x20 x21 x22 x23 x24 x25 x26 x27 x28) (rowOf x0 x1 x2 x3 x4 r) 0 e)
    (h1 : ∀ e : Fin 128, kXs1 x0 x1 x2 x3 x4 x5 x6 x7 x8 x9 x10 x11 x12 x13 (ix2 r e)
      = Spec.xs (wOf x5 x6 x7 x8 x9 x10 x11 x12 x13 x14 x15 x16 x17 x18 x19 x20 x21 x22 x23 x24 x25 x26 x27 x28) (rowOf x0 x1 x2 x3 x4 r) 1 e)
    (h2 : ∀ e : Fin 128, kXs2 x0 x1 x2 x3 x4 x5 x6 x7 x8 x9 x10 x11 x12 x13 (ix2 r e)
      = Spec.xs (wOf x5 x6 x7 x8 x9 x10 x11 x12 x13 x14 x15 x16 x17 x18 x19 x20 x21 x22 x23 x24 x25 x26 x27 x28) (rowOf x0 x1 x2 x3 x4 r) 2 e)
    (h3 : ∀ e : Fin 128, kXs3 x0 x1 x2 x3 x4 x5 x6 x7 x8 x9 x10 x11 x12 x13 (ix2 r e)
      = Spec.xs (wOf x5 x6 x7 x8 x9 x10 x11 x12 x13 x14 x15 x16 x17 x18 x19 x20 x21 x22 x23 x24 x25 x26 x27 x28) (rowOf x0 x1 x2 x3 x4 r) 3 e)
    (h4 : ∀ e : Fin 128, kXs4 x0 x1 x2 x3 x4 x5 x6 x7 x8 x9 x10 x11 x12 x13 (ix2 r e)
      = Spec.xs (wOf x5 x6 x7 x8 x9 x10 x11 x12 x13 x14 x15 x16 x17 x18 x19 x20 x21 x22 x23 x24 x25 x26 x27 x28) (rowOf x0 x1 x2 x3 x4 r) 4 e)
    (h5 : ∀ e : Fin 128, kXs5 x0 x1 x2 x3 x4 x5 x6 x7 x8 x9 x10 x11 x12 x13 (ix2 r e)
      = Spec.xs (wOf x5 x6 x7 x8 x9 x10 x11 x12 x13 x14 x15 x16 x17 x18 x19 x20 x21 x22 x23 x24 x25 x26 x27 x28) (rowOf x0 x1 x2 x3 x4 r) 5 e)
    (w2 : ∀ d : Fin 128, kXw2 x0 x1 x2 x3 x4 x5 x6 x7 x8 x9 x10 x11 x12 x13 x14 (ix2 r d)
      = Spec.xw (wOf x5 x6 x7 x8 x9 x10 x11 x12 x13 x14 x15 x16 x17 x18 x19 x20 x21 x22 x23 x24 x25 x26 x27 x28) (rowOf x0 x1 x2 x3 x4 r) 2 d)
    (w3 : ∀ d : Fin 128, kXw3 x0 x1 x2 x3 x4 x5 x6 x7 x8 x9 x10 x11 x12 x13 x14 (ix2 r d)
      = Spec.xw (wOf x5 x6 x7 x8 x9 x10 x11 x12 x13 x14 x15 x16 x17 x18 x19 x20 x21 x22 x23 x24 x25 x26 x27 x28) (rowOf x0 x1 x2 x3 x4 r) 3 d)
    (w4 : ∀ d : Fin 128, kXw4 x0 x1 x2 x3 x4 x5 x6 x7 x8 x9 x10 x11 x12 x13 x14 (ix2 r d)
      = Spec.xw (wOf x5 x6 x7 x8 x9 x10 x11 x12 x13 x14 x15 x16 x17 x18 x19 x20 x21 x22 x23 x24 x25 x26 x27 x28) (rowOf x0 x1 x2 x3 x4 r) 4 d)
    (w5 : ∀ d : Fin 128, kXw5 x0 x1 x2 x3 x4 x5 x6 x7 x8 x9 x10 x11 x12 x13 x14 (ix2 r d)
      = Spec.xw (wOf x5 x6 x7 x8 x9 x10 x11 x12 x13 x14 x15 x16 x17 x18 x19 x20 x21 x22 x23 x24 x25 x26 x27 x28) (rowOf x0 x1 x2 x3 x4 r) 5 d)
    (q : Fin 21) (e : Fin 128) :
    kPiece x0 x1 x2 x3 x4 x5 x6 x7 x8 x9 x10 x11 x12 x13 x14 q (ix2 r e)
      = Spec.cblk (wOf x5 x6 x7 x8 x9 x10 x11 x12 x13 x14 x15 x16 x17 x18 x19 x20 x21 x22 x23 x24 x25 x26 x27 x28) (rowOf x0 x1 x2 x3 x4 r) q e := by
  match q with
  | ⟨0, _⟩ => exact (kd_narrow_cast _ _).trans (h0 e)
  | ⟨1, _⟩ => exact (kd_narrow_cast _ _).trans (h1 e)
  | ⟨2, _⟩ => exact (kd_narrow_cast _ _).trans (h2 e)
  | ⟨3, _⟩ => exact (kd_narrow_cast _ _).trans (h3 e)
  | ⟨4, _⟩ => exact (kd_narrow_cast _ _).trans (h4 e)
  | ⟨5, _⟩ => exact (kd_narrow_cast _ _).trans (h5 e)
  | ⟨6, _⟩ =>
    show shapeCast S1024x128 (k0_pay35 (F := Ideal)) shapeCasts_S1024x128_S1024x128 (ix2 r e) = 0
    exact (kd_cast _ _).trans (kd_zero_block _)
  | ⟨7, _⟩ =>
    show shapeCast S1024x128 (k0_pay35 (F := Ideal)) shapeCasts_S1024x128_S1024x128 (ix2 r e) = 0
    exact (kd_cast _ _).trans (kd_zero_block _)
  | ⟨8, _⟩ =>
    show shapeCast S1024x128 (k0_pay35 (F := Ideal)) shapeCasts_S1024x128_S1024x128 (ix2 r e) = 0
    exact (kd_cast _ _).trans (kd_zero_block _)
  | ⟨9, _⟩ =>
    show shapeCast S1024x128 (k0_pay35 (F := Ideal)) shapeCasts_S1024x128_S1024x128 (ix2 r e) = 0
    exact (kd_cast _ _).trans (kd_zero_block _)
  | ⟨10, _⟩ =>
    show shapeCast S1024x128 (k0_pay35 (F := Ideal)) shapeCasts_S1024x128_S1024x128 (ix2 r e) = 0
    exact (kd_cast _ _).trans (kd_zero_block _)
  | ⟨11, _⟩ => exact (kd_mul_narrow_cast _ _ _).trans (congrArg₂ (· * ·) (h1 e) (w2 e))
  | ⟨12, _⟩ => exact (kd_mul_narrow_cast _ _ _).trans (congrArg₂ (· * ·) (h1 e) (w3 e))
  | ⟨13, _⟩ => exact (kd_mul_narrow_cast _ _ _).trans (congrArg₂ (· * ·) (h1 e) (w4 e))
  | ⟨14, _⟩ => exact (kd_mul_narrow_cast _ _ _).trans (congrArg₂ (· * ·) (h1 e) (w5 e))
  | ⟨15, _⟩ => exact (kd_mul_narrow_cast _ _ _).trans (congrArg₂ (· * ·) (h2 e) (w3 e))
  | ⟨16, _⟩ => exact (kd_cast _ _).trans ((kd_mul_narrow _ _ _).trans (congrArg₂ (· * ·) (h2 e) (w4 e)))
  | ⟨17, _⟩ => exact (kd_mul_narrow_cast _ _ _).trans (congrArg₂ (· * ·) (h2 e) (w5 e))
  | ⟨18, _⟩ => exact (kd_mul_narrow_cast _ _ _).trans (congrArg₂ (· * ·) (h3 e) (w4 e))
  | ⟨19, _⟩ => exact (kd_mul_narrow_cast _ _ _).trans (congrArg₂ (· * ·) (h3 e) (w5 e))
  | ⟨20, _⟩ => exact (kd_mul_narrow_cast _ _ _).trans (congrArg₂ (· * ·) (h4 e) (w5 e))
  | ⟨n + 21, h⟩ => exact absurd h (by omega)

/-- The scratch buffer read back whole at row `r`: column `col` is the specification's column `col`, given the six gated
    fields and the four bilinear images at that row. -/
theorem kC_apply
    (h0 : ∀ e : Fin 128, kXs0 x0 x1 x2 x3 x4 x5 x6 x7 x8 x9 x10 x11 x12 x13 (ix2 r e)
      = Spec.xs (wOf x5 x6 x7 x8 x9 x10 x11 x12 x13 x14 x15 x16 x17 x18 x19 x20 x21 x22 x23 x24 x25 x26 x27 x28) (rowOf x0 x1 x2 x3 x4 r) 0 e)
    (h1 : ∀ e : Fin 128, kXs1 x0 x1 x2 x3 x4 x5 x6 x7 x8 x9 x10 x11 x12 x13 (ix2 r e)
      = Spec.xs (wOf x5 x6 x7 x8 x9 x10 x11 x12 x13 x14 x15 x16 x17 x18 x19 x20 x21 x22 x23 x24 x25 x26 x27 x28) (rowOf x0 x1 x2 x3 x4 r) 1 e)
    (h2 : ∀ e : Fin 128, kXs2 x0 x1 x2 x3 x4 x5 x6 x7 x8 x9 x10 x11 x12 x13 (ix2 r e)
      = Spec.xs (wOf x5 x6 x7 x8 x9 x10 x11 x12 x13 x14 x15 x16 x17 x18 x19 x20 x21 x22 x23 x24 x25 x26 x27 x28) (rowOf x0 x1 x2 x3 x4 r) 2 e)
    (h3 : ∀ e : Fin 128, kXs3 x0 x1 x2 x3 x4 x5 x6 x7 x8 x9 x10 x11 x12 x13 (ix2 r e)
      = Spec.xs (wOf x5 x6 x7 x8 x9 x10 x11 x12 x13 x14 x15 x16 x17 x18 x19 x20 x21 x22 x23 x24 x25 x26 x27 x28) (rowOf x0 x1 x2 x3 x4 r) 3 e)
    (h4 : ∀ e : Fin 128, kXs4 x0 x1 x2 x3 x4 x5 x6 x7 x8 x9 x10 x11 x12 x13 (ix2 r e)
      = Spec.xs (wOf x5 x6 x7 x8 x9 x10 x11 x12 x13 x14 x15 x16 x17 x18 x19 x20 x21 x22 x23 x24 x25 x26 x27 x28) (rowOf x0 x1 x2 x3 x4 r) 4 e)
    (h5 : ∀ e : Fin 128, kXs5 x0 x1 x2 x3 x4 x5 x6 x7 x8 x9 x10 x11 x12 x13 (ix2 r e)
      = Spec.xs (wOf x5 x6 x7 x8 x9 x10 x11 x12 x13 x14 x15 x16 x17 x18 x19 x20 x21 x22 x23 x24 x25 x26 x27 x28) (rowOf x0 x1 x2 x3 x4 r) 5 e)
    (w2 : ∀ d : Fin 128, kXw2 x0 x1 x2 x3 x4 x5 x6 x7 x8 x9 x10 x11 x12 x13 x14 (ix2 r d)
      = Spec.xw (wOf x5 x6 x7 x8 x9 x10 x11 x12 x13 x14 x15 x16 x17 x18 x19 x20 x21 x22 x23 x24 x25 x26 x27 x28) (rowOf x0 x1 x2 x3 x4 r) 2 d)
    (w3 : ∀ d : Fin 128, kXw3 x0 x1 x2 x3 x4 x5 x6 x7 x8 x9 x10 x11 x12 x13 x14 (ix2 r d)
      = Spec.xw (wOf x5 x6 x7 x8 x9 x10 x11 x12 x13 x14 x15 x16 x17 x18 x19 x20 x21 x22 x23 x24 x25 x26 x27 x28) (rowOf x0 x1 x2 x3 x4 r) 3 d)
    (w4 : ∀ d : Fin 128, kXw4 x0 x1 x2 x3 x4 x5 x6 x7 x8 x9 x10 x11 x12 x13 x14 (ix2 r d)
      = Spec.xw (wOf x5 x6 x7 x8 x9 x10 x11 x12 x13 x14 x15 x16 x17 x18 x19 x20 x21 x22 x23 x24 x25 x26 x27 x28) (rowOf x0 x1 x2 x3 x4 r) 4 d)
    (w5 : ∀ d : Fin 128, kXw5 x0 x1 x2 x3 x4 x5 x6 x7 x8 x9 x10 x11 x12 x13 x14 (ix2 r d)
      = Spec.xw (wOf x5 x6 x7 x8 x9 x10 x11 x12 x13 x14 x15 x16 x17 x18 x19 x20 x21 x22 x23 x24 x25 x26 x27 x28) (rowOf x0 x1 x2 x3 x4 r) 5 d)
    (col : Fin 2688) :
    kC x0 x1 x2 x3 x4 x5 x6 x7 x8 x9 x10 x11 x12 x13 x14 (ix2 r col)
      = Spec.cvec (wOf x5 x6 x7 x8 x9 x10 x11 x12 x13 x14 x15 x16 x17 x18 x19 x20 x21 x22 x23 x24 x25 x26 x27 x28) (rowOf x0 x1 x2 x3 x4 r) col :=
  kPiece_apply x0 x1 x2 x3 x4 x5 x6 x7 x8 x9 x10 x11 x12 x13 x14 x15 x16 x17 x18 x19 x20 x21 x22 x23 x24 x25 x26 x27 x28 r
    h0 h1 h2 h3 h4 h5 w2 w3 w4 w5 ⟨col.val / 128, by have h := col.isLt; omega⟩ ⟨col.val % 128, Nat.mod_lt _ (by norm_num)⟩

end blocks

end Cert.KernelIdeal.KV

end
-- ==== Proof.KHead.lean ====
/-
  The three-layer head over the scratch buffer's columns at a row of the block: each layer is a product over its
  contraction index plus a bias; the first two are normalised with running statistics (the deviation times the
  reciprocal square root of the variance plus the stabiliser, scaled and shifted) and clamped at zero, the last goes
  through a logistic.  With the columns equal to the specification's, the stored value is the specification's result.
-/
import proofs.«429925_j71167608094992_2_alg».proof.Proof.KOut
import Idealize.ShloMosaic.Lib.ValueIdx
import Idealize.ShloMosaic.Lib.Pipeline.Value
import Idealize.ShloMosaic.Lib.ValueLayout
import Idealize.ShloMosaic.PureOps.Ideal.Laws

set_option synthInstance.maxSize 4096

noncomputable section

namespace Cert.KernelIdeal.KV

open Idealize.ShloMosaic Idealize.SL.Sem Cert.KernelIdeal Cert.KernelIdeal.Gen Idealize.ShloMosaic.ValueIdx
open scoped BigOperators

/-! ## The operand indices of the three products: rows times contraction, contraction times columns -/

theorem kh_lhs1_0 (i : S1024x512.Idx) (q : dot_S1024x2688_S2688x512_S1024x512_1_0_0_1_n_n.contr.Idx) :
    (dot_S1024x2688_S2688x512_S1024x512_1_0_0_1_n_n.lhsIdx i q 0).val = (i 0).val := by
  unfold DotDims.lhsIdx
  rw [dif_neg (show ¬(0 : Fin S1024x2688.rank) ∈ dot_S1024x2688_S2688x512_S1024x512_1_0_0_1_n_n.lhsBatch by decide),
    dif_pos (show (0 : Fin S1024x2688.rank) ∈ dot_S1024x2688_S2688x512_S1024x512_1_0_0_1_n_n.lhsNonContracting by decide)]
  rfl

theorem kh_lhs1_1 (i : S1024x512.Idx) (q : dot_S1024x2688_S2688x512_S1024x512_1_0_0_1_n_n.contr.Idx) :
    (dot_S1024x2688_S2688x512_S1024x512_1_0_0_1_n_n.lhsIdx i q 1).val = (q ⟨0, by decide⟩).val :=
  dot_S1024x2688_S2688x512_S1024x512_1_0_0_1_n_n.lhsIdx_val_of_single rfl i q

theorem kh_rhs1_0 (i : S1024x512.Idx) (q : dot_S1024x2688_S2688x512_S1024x512_1_0_0_1_n_n.contr.Idx) :
    (dot_S1024x2688_S2688x512_S1024x512_1_0_0_1_n_n.rhsIdx i q 0).val = (q ⟨0, by decide⟩).val :=
  dot_S1024x2688_S2688x512_S1024x512_1_0_0_1_n_n.rhsIdx_val_of_single rfl i q

theorem kh_rhs1_1 (i : S1024x512.Idx) (q : dot_S1024x2688_S2688x512_S1024x512_1_0_0_1_n_n.contr.Idx) :
    (dot_S1024x2688_S2688x512_S1024x512_1_0_0_1_n_n.rhsIdx i q 1).val = (i 1).val := by
  unfold DotDims.rhsIdx
  rw [dif_neg (show ¬(1 : Fin S2688x512.rank) ∈ dot_S1024x2688_S2688x512_S1024x512_1_0_0_1_n_n.rhsBatch by decide),
    dif_pos (show (1 : Fin S2688x512.rank) ∈ dot_S1024x2688_S2688x512_S1024x512_1_0_0_1_n_n.rhsNonContracting by decide)]
  rfl

/-- The first layer's product at row `r` and column `n`: the sum over the 2688 columns. -/
theorem kh_mm1 (c : FVec Ideal S1024x2688 .bf16) (w : FVec Ideal S2688x512 .bf16) (r : Fin 1024) (n : Fin 512) :
    matmul dot_S1024x2688_S2688x512_S1024x512_1_0_0_1_n_n none c w (constant (F := Ideal) S1024x512 .f32 0x00000000#32) (ix2 r n)
      = ∑ k : Fin 2688, c (ix2 r k) * w (ix2 k n) := by
  simp only [matmul]
  rw [Ideal.matmul_constant_zero_apply, ← Equiv.sum_comp (contrEquiv1 dot_S1024x2688_S2688x512_S1024x512_1_0_0_1_n_n 2688 rfl rfl).symm]
  refine Finset.sum_congr rfl fun k _ => ?_
  have hk := contrEquiv1_symm_val dot_S1024x2688_S2688x512_S1024x512_1_0_0_1_n_n 2688 rfl rfl k
  have el : dot_S1024x2688_S2688x512_S1024x512_1_0_0_1_n_n.lhsIdx (ix2 r n) ((contrEquiv1 dot_S1024x2688_S2688x512_S1024x512_1_0_0_1_n_n 2688 rfl rfl).symm k) = ix2 r k :=
    funext fun a => Fin.ext (by
      match a with
      | ⟨0, _⟩ => exact kh_lhs1_0 _ _
      | ⟨1, _⟩ => exact (kh_lhs1_1 _ _).trans hk)
  have er : dot_S1024x2688_S2688x512_S1024x512_1_0_0_1_n_n.rhsIdx (ix2 r n) ((contrEquiv1 dot_S1024x2688_S2688x512_S1024x512_1_0_0_1_n_n 2688 rfl rfl).symm k) = ix2 k n :=
    funext fun a => Fin.ext (by
      match a with
      | ⟨0, _⟩ => exact (kh_rhs1_0 _ _).trans hk
      | ⟨1, _⟩ => exact kh_rhs1_1 _ _)
  rw [el, er]

theorem kh_lhs2_0 (i : S1024x256.Idx) (q : dot_S1024x512_S512x256_S1024x256_1_0_0_1_n_n.contr.Idx) :
    (dot_S1024x512_S512x256_S1024x256_1_0_0_1_n_n.lhsIdx i q 0).val = (i 0).val := by
  unfold DotDims.lhsIdx
  rw [dif_neg (show ¬(0 : Fin S1024x512.rank) ∈ dot_S1024x512_S512x256_S1024x256_1_0_0_1_n_n.lhsBatch by decide),
    dif_pos (show (0 : Fin S1024x512.rank) ∈ dot_S1024x512_S512x256_S1024x256_1_0_0_1_n_n.lhsNonContracting by decide)]
  rfl

theorem kh_lhs2_1 (i : S1024x256.Idx) (q : dot_S1024x512_S512x256_S1024x256_1_0_0_1_n_n.contr.Idx) :
    (dot_S1024x512_S512x256_S1024x256_1_0_0_1_n_n.lhsIdx i q 1).val = (q ⟨0, by decide⟩).val :=
  dot_S1024x512_S512x256_S1024x256_1_0_0_1_n_n.lhsIdx_val_of_single rfl i q

theorem kh_rhs2_0 (i : S1024x256.Idx) (q : dot_S1024x512_S512x256_S1024x256_1_0_0_1_n_n.contr.Idx) :
    (dot_S1024x512_S512x256_S1024x256_1_0_0_1_n_n.rhsIdx i q 0).val = (q ⟨0, by decide⟩).val :=
  dot_S1024x512_S512x256_S1024x256_1_0_0_1_n_n.rhsIdx_val_of_single rfl i q

theorem kh_rhs2_1 (i : S1024x256.Idx) (q : dot_S1024x512_S512x256_S1024x256_1_0_0_1_n_n.contr.Idx) :
    (dot_S1024x512_S512x256_S1024x256_1_0_0_1_n_n.rhsIdx i q 1).val = (i 1).val := by
  unfold DotDims.rhsIdx
  rw [dif_neg (show ¬(1 : Fin S512x256.rank) ∈ dot_S1024x512_S512x256_S1024x256_1_0_0_1_n_n.rhsBatch by decide),
    dif_pos (show (1 : Fin S512x256.rank) ∈ dot_S1024x512_S512x256_S1024x256_1_0_0_1_n_n.rhsNonContracting by decide)]
  rfl

/-- The second layer's product at row `r` and column `n`: the sum over the 512 hidden units. -/
theorem kh_mm2 (c : FVec Ideal S1024x512 .bf16) (w : FVec Ideal S512x256 .bf16) (r : Fin 1024) (n : Fin 256) :
    matmul dot_S1024x512_S512x256_S1024x256_1_0_0_1_n_n none c w (constant (F := Ideal) S1024x256 .f32 0x00000000#32) (ix2 r n)
      = ∑ k : Fin 512, c (ix2 r k) * w (ix2 k n) := by
  simp only [matmul]
  rw [Ideal.matmul_constant_zero_apply, ← Equiv.sum_comp (contrEquiv1 dot_S1024x512_S512x256_S1024x256_1_0_0_1_n_n 512 rfl rfl).symm]
  refine Finset.sum_congr rfl fun k _ => ?_
  have hk := contrEquiv1_symm_val dot_S1024x512_S512x256_S1024x256_1_0_0_1_n_n 512 rfl rfl k
  have el : dot_S1024x512_S512x256_S1024x256_1_0_0_1_n_n.lhsIdx (ix2 r n) ((contrEquiv1 dot_S1024x512_S512x256_S1024x256_1_0_0_1_n_n 512 rfl rfl).symm k) = ix2 r k :=
    funext fun a => Fin.ext (by
      match a with
      | ⟨0, _⟩ => exact kh_lhs2_0 _ _
      | ⟨1, _⟩ => exact (kh_lhs2_1 _ _).trans hk)
  have er : dot_S1024x512_S512x256_S1024x256_1_0_0_1_n_n.rhsIdx (ix2 r n) ((contrEquiv1 dot_S1024x512_S512x256_S1024x256_1_0_0_1_n_n 512 rfl rfl).symm k) = ix2 k n :=
    funext fun a => Fin.ext (by
      match a with
      | ⟨0, _⟩ => exact (kh_rhs2_0 _ _).trans hk
      | ⟨1, _⟩ => exact kh_rhs2_1 _ _)
  rw [el, er]

theorem kh_lhs3_0 (i : S1024x1.Idx) (q : dot_S1024x256_S256x1_S1024x1_1_0_0_1_n_n.contr.Idx) :
    (dot_S1024x256_S256x1_S1024x1_1_0_0_1_n_n.lhsIdx i q 0).val = (i 0).val := by
  unfold DotDims.lhsIdx
  rw [dif_neg (show ¬(0 : Fin S1024x256.rank) ∈ dot_S1024x256_S256x1_S1024x1_1_0_0_1_n_n.lhsBatch by decide),
    dif_pos (show (0 : Fin S1024x256.rank) ∈ dot_S1024x256_S256x1_S1024x1_1_0_0_1_n_n.lhsNonContracting by decide)]
  rfl

theorem kh_lhs3_1 (i : S1024x1.Idx) (q : dot_S1024x256_S256x1_S1024x1_1_0_0_1_n_n.contr.Idx) :
    (dot_S1024x256_S256x1_S1024x1_1_0_0_1_n_n.lhsIdx i q 1).val = (q ⟨0, by decide⟩).val :=
  dot_S1024x256_S256x1_S1024x1_1_0_0_1_n_n.lhsIdx_val_of_single rfl i q

theorem kh_rhs3_0 (i : S1024x1.Idx) (q : dot_S1024x256_S256x1_S1024x1_1_0_0_1_n_n.contr.Idx) :
    (dot_S1024x256_S256x1_S1024x1_1_0_0_1_n_n.rhsIdx i q 0).val = (q ⟨0, by decide⟩).val :=
  dot_S1024x256_S256x1_S1024x1_1_0_0_1_n_n.rhsIdx_val_of_single rfl i q

theorem kh_rhs3_1 (i : S1024x1.Idx) (q : dot_S1024x256_S256x1_S1024x1_1_0_0_1_n_n.contr.Idx) :
    (dot_S1024x256_S256x1_S1024x1_1_0_0_1_n_n.rhsIdx i q 1).val = (i 1).val := by
  unfold DotDims.rhsIdx
  rw [dif_neg (show ¬(1 : Fin S256x1.rank) ∈ dot_S1024x256_S256x1_S1024x1_1_0_0_1_n_n.rhsBatch by decide),
    dif_pos (show (1 : Fin S256x1.rank) ∈ dot_S1024x256_S256x1_S1024x1_1_0_0_1_n_n.rhsNonContracting by decide)]
  rfl

/-- The last layer's product at row `r`: the sum over the 256 hidden units. -/
theorem kh_mm3 (c : FVec Ideal S1024x256 .bf16) (w : FVec Ideal S256x1 .bf16) (r : Fin 1024) (n : Fin 1) :
    matmul dot_S1024x256_S256x1_S1024x1_1_0_0_1_n_n none c w (constant (F := Ideal) S1024x1 .f32 0x00000000#32) (ix2 r n)
      = ∑ k : Fin 256, c (ix2 r k) * w (ix2 k n) := by
  simp only [matmul]
  rw [Ideal.matmul_constant_zero_apply, ← Equiv.sum_comp (contrEquiv1 dot_S1024x256_S256x1_S1024x1_1_0_0_1_n_n 256 rfl rfl).symm]
  refine Finset.sum_congr rfl fun k _ => ?_
  have hk := contrEquiv1_symm_val dot_S1024x256_S256x1_S1024x1_1_0_0_1_n_n 256 rfl rfl k
  have el : dot_S1024x256_S256x1_S1024x1_1_0_0_1_n_n.lhsIdx (ix2 r n) ((contrEquiv1 dot_S1024x256_S256x1_S1024x1_1_0_0_1_n_n 256 rfl rfl).symm k) = ix2 r k :=
    funext fun a => Fin.ext (by
      match a with
      | ⟨0, _⟩ => exact kh_lhs3_0 _ _
      | ⟨1, _⟩ => exact (kh_lhs3_1 _ _).trans hk)
  have er : dot_S1024x256_S256x1_S1024x1_1_0_0_1_n_n.rhsIdx (ix2 r n) ((contrEquiv1 dot_S1024x256_S256x1_S1024x1_1_0_0_1_n_n 256 rfl rfl).symm k) = ix2 k n :=
    funext fun a => Fin.ext (by
      match a with
      | ⟨0, _⟩ => exact (kh_rhs3_0 _ _).trans hk
      | ⟨1, _⟩ => exact kh_rhs3_1 _ _)
  rw [el, er]

/-! ## A vector laid along every row; the pointwise functions at an index -/

/-- A vector of `n` entries cast to one row and laid along each of `a` rows reads, at `(p, c)`, the vector at `c`. -/
theorem kh_bias_apply {α : Type} {a n : ℕ} (v : (⟨1, ![n]⟩ : Shape).Idx → α) (h1 : (⟨1, ![n]⟩ : Shape).ShapeCasts ⟨2, ![1, n]⟩)
    (h2 : (⟨2, ![1, n]⟩ : Shape).Broadcasts ⟨2, ![a, n]⟩) (p : Fin a) (c : Fin n) :
    broadcastTo ⟨2, ![a, n]⟩ (shapeCast ⟨2, ![1, n]⟩ v h1) h2 (ix2 p c) = v (ix1 c) := by
  rw [broadcastTo_1b_ab_apply, shapeCast_a_1a_apply]

/-- The reciprocal square root of a vector at an index is that of the element. -/
theorem kh_rsqrt_apply {s : Shape} {φ : FTy} (v : FVec Ideal s φ) (i : s.Idx) : rsqrt v i = Ideal.rsqrt (v i) := rfl

/-- The logistic of a vector at an index is that of the element. -/
theorem kh_logistic_apply {s : Shape} {φ : FTy} (v : FVec Ideal s φ) (i : s.Idx) : logistic v i = Ideal.logistic (v i) := rfl

/-- The all-zero word of the wide format denotes zero. -/
theorem kh_zero : (Scalar.ofBits .f32 0x00000000#32 : Ideal .f32) = 0 := Ideal.ofBits_zero_f32

/-- The stabiliser's word denotes the specification's stabiliser. -/
theorem kh_eps : (Scalar.ofBits .f32 0x3727C5AC#32 : Ideal .f32) = Spec.eps := rfl

/-! ## The layers at a row -/

/-- The first layer before its normalisation: the product plus the bias, minus the running mean. -/
theorem kh_pay52_apply (c : Vec Ideal S1024x2688 .bf16) (x15 : Vec Ideal S2688x512 .bf16) (x16 x19 : Vec Ideal S512 .f32)
    (r : Fin 1024) (n : Fin 512) :
    k0_pay52 c x15 x16 x19 (ix2 r n)
      = ((∑ k : Fin 2688, c (ix2 r k) * x15 (ix2 k n)) + x16 (ix1 n)) - x19 (ix1 n) := by
  unfold k0_pay52
  simp only [subf_apply, addf_apply, kh_bias_apply, shapeCast_self, kh_mm1]

/-- The first layer's running variance plus the stabiliser. -/
theorem kh_pay53_apply (x20 : Vec Ideal S512 .f32) (n : Fin 512) :
    k0_pay53 x20 (ix1 n) = x20 (ix1 n) + Spec.eps := by
  unfold k0_pay53
  simp only [addf_apply, broadcast_apply, kh_eps]

/-- The second layer over the first layer's normalised and clamped values. -/
theorem kh_pay54_apply (v230 : FVec Ideal S1024x512 .f32) (v233 : FVec Ideal S512 .f32) (g1 be1 : Vec Ideal S512 .f32)
    (w2 : Vec Ideal S512x256 .bf16) (b2 rm2 rv2 g2 be2 : Vec Ideal S256 .f32) (r : Fin 1024) (n : Fin 256) :
    k0_pay54 v230 v233 g1 be1 w2 b2 rm2 rv2 g2 be2 (ix2 r n)
      = max ((((∑ k : Fin 512, max (v230 (ix2 r k) * Ideal.rsqrt (v233 (ix1 k)) * g1 (ix1 k) + be1 (ix1 k)) 0 * w2 (ix2 k n))
                + b2 (ix1 n)) - rm2 (ix1 n)) * Ideal.rsqrt (rv2 (ix1 n) + Spec.eps) * g2 (ix1 n) + be2 (ix1 n)) 0 := by
  unfold k0_pay54
  simp only [maximumf_apply, addf_apply, subf_apply, mulf_apply, kh_bias_apply, broadcast_apply, shapeCast_self, kh_mm2,
    truncf_apply, kh_rsqrt_apply, kh_zero, kh_eps]

/-- The last layer and its logistic. -/
theorem kh_pay1_apply (v276 : FVec Ideal S1024x256 .f32) (w3 : FVec Ideal S256x1 .bf16) (b3 : Vec Ideal S1 .f32) (r : Fin 1024) :
    k0_pay1 v276 w3 b3 (ix2 r (0 : Fin 1))
      = Ideal.logistic ((∑ k : Fin 256, v276 (ix2 r k) * w3 (ix2 k (0 : Fin 1))) + b3 (ix1 (0 : Fin 1))) := by
  unfold k0_pay1
  simp only [kh_logistic_apply, addf_apply, kh_bias_apply, kh_mm3, truncf_apply]

section rows
variable (x0 : Vec Ideal S1024x128 .f32) (x1 x2 : Vec Ideal S1024 .i32) (x3 x4 : Vec Ideal S1024x128 .f32) (x5 : Vec Ideal S11x128 .bf16)
  (x6 : Vec Ideal S128x128 .bf16) (x7 x8 x9 : Vec Ideal S128 .f32) (x10 : Vec Ideal S6x3 .f32) (x11 : Vec Ideal S3 .f32) (x12 : Vec Ideal S3x6 .f32)
  (x13 : Vec Ideal S6 .f32) (x14 : Vec Ideal S128x128 .bf16) (x15 : Vec Ideal S2688x512 .bf16) (x16 x17 x18 x19 x20 : Vec Ideal S512 .f32)
  (x21 : Vec Ideal S512x256 .bf16) (x22 x23 x24 x25 x26 : Vec Ideal S256 .f32) (x27 : Vec Ideal S256x1 .bf16) (x28 : Vec Ideal S1 .f32)
  (r : Fin 1024)

/-- With the scratch buffer's columns at row `r` equal to the specification's columns, the stored value at row `r` is
    the specification's result. -/
theorem kOut_apply
    (hC : ∀ col : Fin 2688, kC x0 x1 x2 x3 x4 x5 x6 x7 x8 x9 x10 x11 x12 x13 x14 (ix2 r col) = Spec.cvec (wOf x5 x6 x7 x8 x9 x10 x11 x12 x13 x14 x15 x16 x17 x18 x19 x20 x21 x22 x23 x24 x25 x26 x27 x28) (rowOf x0 x1 x2 x3 x4 r) col) :
    kOut x0 x1 x2 x3 x4 x5 x6 x7 x8 x9 x10 x11 x12 x13 x14 x15 x16 x17 x18 x19 x20 x21 x22 x23 x24 x25 x26 x27 x28 (ix2 r (0 : Fin 1)) = Spec.out (wOf x5 x6 x7 x8 x9 x10 x11 x12 x13 x14 x15 x16 x17 x18 x19 x20 x21 x22 x23 x24 x25 x26 x27 x28) (rowOf x0 x1 x2 x3 x4 r) := by
  have H1 : ∀ n : Fin 512,
      max (k0_pay52 (kC x0 x1 x2 x3 x4 x5 x6 x7 x8 x9 x10 x11 x12 x13 x14) x15 x16 x19 (ix2 r n) * Ideal.rsqrt (k0_pay53 x20 (ix1 n)) * x17 (ix1 n) + x18 (ix1 n)) 0
        = Spec.h1 (wOf x5 x6 x7 x8 x9 x10 x11 x12 x13 x14 x15 x16 x17 x18 x19 x20 x21 x22 x23 x24 x25 x26 x27 x28) (rowOf x0 x1 x2 x3 x4 r) n := by
    intro n
    rw [kh_pay52_apply, kh_pay53_apply, Finset.sum_congr rfl (fun col _ => by rw [hC col])]
    rfl
  have H2 : ∀ n : Fin 256,
      k0_pay54 (k0_pay52 (kC x0 x1 x2 x3 x4 x5 x6 x7 x8 x9 x10 x11 x12 x13 x14) x15 x16 x19) (k0_pay53 x20) x17 x18 x21 x22 x25 x26 x23 x24 (ix2 r n)
        = Spec.h2 (wOf x5 x6 x7 x8 x9 x10 x11 x12 x13 x14 x15 x16 x17 x18 x19 x20 x21 x22 x23 x24 x25 x26 x27 x28) (rowOf x0 x1 x2 x3 x4 r) n := by
    intro n
    rw [kh_pay54_apply, Finset.sum_congr rfl (fun k _ => by rw [H1 k])]
    rfl
  unfold kOut
  rw [kh_pay1_apply, Finset.sum_congr rfl (fun k _ => by rw [H2 k])]
  unfold k0_pay55
  rw [shapeCast_self]
  rfl

end rows

end Cert.KernelIdeal.KV

end
-- ==== Proof.KAll.lean ====
/-
  The body's one store at a row of the block is the specification's result on the parameters and the row data read
  off the 29 blocks: the normalised projection and the two category rows give the gate, the gate the six gated
  fields, these the four bilinear images, all of them the 2688 columns of the buffer, and the columns the head.
-/
import proofs.«429925_j71167608094992_2_alg».proof.Proof.KMm
import proofs.«429925_j71167608094992_2_alg».proof.Proof.KCat
import proofs.«429925_j71167608094992_2_alg».proof.Proof.KGate
import proofs.«429925_j71167608094992_2_alg».proof.Proof.KXs
import proofs.«429925_j71167608094992_2_alg».proof.Proof.KCvec
import proofs.«429925_j71167608094992_2_alg».proof.Proof.KHead

set_option synthInstance.maxSize 4096

noncomputable section

namespace Cert.KernelIdeal.KV

open Idealize.ShloMosaic Idealize.SL.Sem Cert.KernelIdeal Cert.KernelIdeal.Gen Idealize.ShloMosaic.ValueIdx

/-- The stored value at row `r` of a grid point's block is the specification's result for the parameters and the row
    data read off the point's 29 blocks. -/
theorem kOut_all (x0 : Vec Ideal S1024x128 .f32) (x1 x2 : Vec Ideal S1024 .i32) (x3 x4 : Vec Ideal S1024x128 .f32)
    (x5 : Vec Ideal S11x128 .bf16) (x6 : Vec Ideal S128x128 .bf16) (x7 x8 x9 : Vec Ideal S128 .f32) (x10 : Vec Ideal S6x3 .f32)
    (x11 : Vec Ideal S3 .f32) (x12 : Vec Ideal S3x6 .f32) (x13 : Vec Ideal S6 .f32) (x14 : Vec Ideal S128x128 .bf16)
    (x15 : Vec Ideal S2688x512 .bf16) (x16 x17 x18 x19 x20 : Vec Ideal S512 .f32) (x21 : Vec Ideal S512x256 .bf16)
    (x22 x23 x24 x25 x26 : Vec Ideal S256 .f32) (x27 : Vec Ideal S256x1 .bf16) (x28 : Vec Ideal S1 .f32)
    (r : Fin 1024) :
    kOut x0 x1 x2 x3 x4 x5 x6 x7 x8 x9 x10 x11 x12 x13 x14 x15 x16 x17 x18 x19 x20 x21 x22 x23 x24 x25 x26 x27 x28 (ix2 r (0 : Fin 1))
      = Spec.out (wOf x5 x6 x7 x8 x9 x10 x11 x12 x13 x14 x15 x16 x17 x18 x19 x20 x21 x22 x23 x24 x25 x26 x27 x28) (rowOf x0 x1 x2 x3 x4 r) := by
  -- the normalised projection and the two category rows
  have hMM := fun e : Fin 128 => kMM_apply x0 x1 x2 x3 x4 x5 x6 x7 x8 x9 x10 x11 x12 x13 x14 x15 x16 x17 x18 x19 x20 x21 x22 x23 x24 x25 x26 x27 x28 r e
  have h1 := fun e : Fin 128 => kF1_apply x0 x1 x2 x3 x4 x5 x6 x7 x8 x9 x10 x11 x12 x13 x14 x15 x16 x17 x18 x19 x20 x21 x22 x23 x24 x25 x26 x27 x28 r e
  have h2 := fun e : Fin 128 => kF2_apply x0 x1 x2 x3 x4 x5 x6 x7 x8 x9 x10 x11 x12 x13 x14 x15 x16 x17 x18 x19 x20 x21 x22 x23 x24 x25 x26 x27 x28 r e
  -- the gate of the six fields
  have hG := fun f : Fin 6 => kGate_apply x0 x1 x2 x3 x4 x5 x6 x7 x8 x9 x10 x11 x12 x13 x14 x15 x16 x17 x18 x19 x20 x21 x22 x23 x24 x25 x26 x27 x28 r f hMM h1 h2
  -- the six gated fields
  have s0 := fun e : Fin 128 => kXs0_apply x0 x1 x2 x3 x4 x5 x6 x7 x8 x9 x10 x11 x12 x13 x14 x15 x16 x17 x18 x19 x20 x21 x22 x23 x24 x25 x26 x27 x28 r hG hMM h1 h2 e
  have s1 := fun e : Fin 128 => kXs1_apply x0 x1 x2 x3 x4 x5 x6 x7 x8 x9 x10 x11 x12 x13 x14 x15 x16 x17 x18 x19 x20 x21 x22 x23 x24 x25 x26 x27 x28 r hG hMM h1 h2 e
  have s2 := fun e : Fin 128 => kXs2_apply x0 x1 x2 x3 x4 x5 x6 x7 x8 x9 x10 x11 x12 x13 x14 x15 x16 x17 x18 x19 x20 x21 x22 x23 x24 x25 x26 x27 x28 r hG hMM h1 h2 e
  have s3 := fun e : Fin 128 => kXs3_apply x0 x1 x2 x3 x4 x5 x6 x7 x8 x9 x10 x11 x12 x13 x14 x15 x16 x17 x18 x19 x20 x21 x22 x23 x24 x25 x26 x27 x28 r hG hMM h1 h2 e
  have s4 := fun e : Fin 128 => kXs4_apply x0 x1 x2 x3 x4 x5 x6 x7 x8 x9 x10 x11 x12 x13 x14 x15 x16 x17 x18 x19 x20 x21 x22 x23 x24 x25 x26 x27 x28 r hG hMM h1 h2 e
  have s5 := fun e : Fin 128 => kXs5_apply x0 x1 x2 x3 x4 x5 x6 x7 x8 x9 x10 x11 x12 x13 x14 x15 x16 x17 x18 x19 x20 x21 x22 x23 x24 x25 x26 x27 x28 r hG hMM h1 h2 e
  -- the four bilinear images
  have w2 := fun d : Fin 128 => kXw2_apply x0 x1 x2 x3 x4 x5 x6 x7 x8 x9 x10 x11 x12 x13 x14 x15 x16 x17 x18 x19 x20 x21 x22 x23 x24 x25 x26 x27 x28 r s2 d
  have w3 := fun d : Fin 128 => kXw3_apply x0 x1 x2 x3 x4 x5 x6 x7 x8 x9 x10 x11 x12 x13 x14 x15 x16 x17 x18 x19 x20 x21 x22 x23 x24 x25 x26 x27 x28 r s3 d
  have w4 := fun d : Fin 128 => kXw4_apply x0 x1 x2 x3 x4 x5 x6 x7 x8 x9 x10 x11 x12 x13 x14 x15 x16 x17 x18 x19 x20 x21 x22 x23 x24 x25 x26 x27 x28 r s4 d
  have w5 := fun d : Fin 128 => kXw5_apply x0 x1 x2 x3 x4 x5 x6 x7 x8 x9 x10 x11 x12 x13 x14 x15 x16 x17 x18 x19 x20 x21 x22 x23 x24 x25 x26 x27 x28 r s5 d
  -- the 2688 columns, then the head
  have hC := fun col : Fin 2688 => kC_apply x0 x1 x2 x3 x4 x5 x6 x7 x8 x9 x10 x11 x12 x13 x14 x15 x16 x17 x18 x19 x20 x21 x22 x23 x24 x25 x26 x27 x28 r s0 s1 s2 s3 s4 s5 w2 w3 w4 w5 col
  exact kOut_apply x0 x1 x2 x3 x4 x5 x6 x7 x8 x9 x10 x11 x12 x13 x14 x15 x16 x17 x18 x19 x20 x21 x22 x23 x24 x25 x26 x27 x28 r hC

end Cert.KernelIdeal.KV

end
-- ==== Proof.KBlocks.lean ====
/-
  The blocks a grid point's windows hold, read off the arrays the region finds.

  The grid has 16 points; point `t` takes rows `1024 t … 1024 t + 1023` of the five row arrays (the dense
  features, the two category indices, the gathered item embedding, the pooled history embedding), so row `r`
  of its block is row `b = 1024 t + r` of the array; every parameter window has one block, the whole array, at
  every point.  Six parameter arrays are narrowed copies of launch arguments, and over the extended reals a
  narrowing is the identity, so those windows hold the launch arguments themselves.  Hence the specification's
  row data read off the five row blocks at `r` is the row data of batch row `b`, and the parameters read off
  the parameter blocks are the launch parameters, the same at every point.
-/
import proofs.«429925_j71167608094992_2_alg».proof.Proof.KernelIdealFrame
import proofs.«429925_j71167608094992_2_alg».proof.Proof.KOut

noncomputable section

namespace Cert

open Idealize.ShloMosaic Idealize.ShloMosaic.TcCoe Idealize.SL.Sem Cert.KernelIdeal Cert.KernelIdeal.Gen
open Idealize.ShloMosaic.ValueIdx

variable (m : (ℓ : Loc nD τ sig) → Buf (Elt Ideal) ℓ)

/-- The row data of batch row `b`: the dense features and the two category indices as launched, the gathered
    item embedding and the pooled history embedding as the region finds them. -/
def KRow (c : Dev nD) (b : Fin 16384) : Cert.Spec.Row where
  x0 := fun k => m ((c : Thread nD τ).loc main_arg1) (ix2 b k)
  like := m ((c : Thread nD τ).loc main_arg2) (ix1 b)
  view := m ((c : Thread nD τ).loc main_arg3) (ix1 b)
  item := fun k => V m c main_v9 (ix2 b k)
  hist := fun k => V m c main_v29 (ix2 b k)

/-- The parameters as launched. -/
def KW (c : Dev nD) : Cert.Spec.W where
  cate := m ((c : Thread nD τ).loc main_arg6)
  mmW := m ((c : Thread nD τ).loc main_arg7)
  mmb := m ((c : Thread nD τ).loc main_arg8)
  lng := m ((c : Thread nD τ).loc main_arg9)
  lnb := m ((c : Thread nD τ).loc main_arg10)
  seW1 := m ((c : Thread nD τ).loc main_arg11)
  seb1 := m ((c : Thread nD τ).loc main_arg12)
  seW2 := m ((c : Thread nD τ).loc main_arg13)
  seb2 := m ((c : Thread nD τ).loc main_arg14)
  biW := m ((c : Thread nD τ).loc main_arg15)
  W1 := m ((c : Thread nD τ).loc main_arg16)
  b1 := m ((c : Thread nD τ).loc main_arg17)
  g1 := m ((c : Thread nD τ).loc main_arg18)
  be1 := m ((c : Thread nD τ).loc main_arg19)
  rm1 := m ((c : Thread nD τ).loc main_arg20)
  rv1 := m ((c : Thread nD τ).loc main_arg21)
  W2 := m ((c : Thread nD τ).loc main_arg22)
  b2 := m ((c : Thread nD τ).loc main_arg23)
  g2 := m ((c : Thread nD τ).loc main_arg24)
  be2 := m ((c : Thread nD τ).loc main_arg25)
  rm2 := m ((c : Thread nD τ).loc main_arg26)
  rv2 := m ((c : Thread nD τ).loc main_arg27)
  W3 := m ((c : Thread nD τ).loc main_arg28)
  b3 := m ((c : Thread nD τ).loc main_arg29)

end Cert

namespace Cert.KernelIdeal.KV

open Idealize.ShloMosaic Idealize.ShloMosaic.TcCoe Idealize.SL.Sem Cert.KernelIdeal Cert.KernelIdeal.Gen
open Idealize.ShloMosaic.ValueIdx

variable (m : (ℓ : Loc nD τ sig) → Buf (Elt Ideal) ℓ)

/-! ## The block index of each window at each grid point -/

/-- Window 0's block index at point `t`: the point along the rows, 0 along the lanes. -/
theorem blockIdx0 : ∀ t : Fin cfg0.N, win0_0.index t (0 : Fin 2) = t.val ∧ win0_0.index t (1 : Fin 2) = 0 :=
  (by decide +kernel : ∀ t : Fin grid0.N, _)
/-- Window 1's block index at point `t`: the point along the rows. -/
theorem blockIdx1 : ∀ t : Fin cfg0.N, win0_1.index t (0 : Fin 1) = t.val :=
  (by decide +kernel : ∀ t : Fin grid0.N, _)
/-- Window 2's block index at point `t`: the point along the rows. -/
theorem blockIdx2 : ∀ t : Fin cfg0.N, win0_2.index t (0 : Fin 1) = t.val :=
  (by decide +kernel : ∀ t : Fin grid0.N, _)
/-- Window 3's block index at point `t`: the point along the rows, 0 along the lanes. -/
theorem blockIdx3 : ∀ t : Fin cfg0.N, win0_3.index t (0 : Fin 2) = t.val ∧ win0_3.index t (1 : Fin 2) = 0 :=
  (by decide +kernel : ∀ t : Fin grid0.N, _)
/-- Window 4's block index at point `t`: the point along the rows, 0 along the lanes. -/
theorem blockIdx4 : ∀ t : Fin cfg0.N, win0_4.index t (0 : Fin 2) = t.val ∧ win0_4.index t (1 : Fin 2) = 0 :=
  (by decide +kernel : ∀ t : Fin grid0.N, _)
/-- Window 5's block index at point `t`: 0 on every axis. -/
theorem blockIdx5 : ∀ t : Fin cfg0.N, win0_5.index t (0 : Fin 2) = 0 ∧ win0_5.index t (1 : Fin 2) = 0 :=
  (by decide +kernel : ∀ t : Fin grid0.N, _)
/-- Window 6's block index at point `t`: 0 on every axis. -/
theorem blockIdx6 : ∀ t : Fin cfg0.N, win0_6.index t (0 : Fin 2) = 0 ∧ win0_6.index t (1 : Fin 2) = 0 :=
  (by decide +kernel : ∀ t : Fin grid0.N, _)
/-- Window 7's block index at point `t`: 0 on every axis. -/
theorem blockIdx7 : ∀ t : Fin cfg0.N, win0_7.index t (0 : Fin 1) = 0 :=
  (by decide +kernel : ∀ t : Fin grid0.N, _)
/-- Window 8's block index at point `t`: 0 on every axis. -/
theorem blockIdx8 : ∀ t : Fin cfg0.N, win0_8.index t (0 : Fin 1) = 0 :=
  (by decide +kernel : ∀ t : Fin grid0.N, _)
/-- Window 9's block index at point `t`: 0 on every axis. -/
theorem blockIdx9 : ∀ t : Fin cfg0.N, win0_9.index t (0 : Fin 1) = 0 :=
  (by decide +kernel : ∀ t : Fin grid0.N, _)
/-- Window 10's block index at point `t`: 0 on every axis. -/
theorem blockIdx10 : ∀ t : Fin cfg0.N, win0_10.index t (0 : Fin 2) = 0 ∧ win0_10.index t (1 : Fin 2) = 0 :=
  (by decide +kernel : ∀ t : Fin grid0.N, _)
/-- Window 11's block index at point `t`: 0 on every axis. -/
theorem blockIdx11 : ∀ t : Fin cfg0.N, win0_11.index t (0 : Fin 1) = 0 :=
  (by decide +kernel : ∀ t : Fin grid0.N, _)
/-- Window 12's block index at point `t`: 0 on every axis. -/
theorem blockIdx12 : ∀ t : Fin cfg0.N, win0_12.index t (0 : Fin 2) = 0 ∧ win0_12.index t (1 : Fin 2) = 0 :=
  (by decide +kernel : ∀ t : Fin grid0.N, _)
/-- Window 13's block index at point `t`: 0 on every axis. -/
theorem blockIdx13 : ∀ t : Fin cfg0.N, win0_13.index t (0 : Fin 1) = 0 :=
  (by decide +kernel : ∀ t : Fin grid0.N, _)
/-- Window 14's block index at point `t`: 0 on every axis. -/
theorem blockIdx14 : ∀ t : Fin cfg0.N, win0_14.index t (0 : Fin 2) = 0 ∧ win0_14.index t (1 : Fin 2) = 0 :=
  (by decide +kernel : ∀ t : Fin grid0.N, _)
/-- Window 15's block index at point `t`: 0 on every axis. -/
theorem blockIdx15 : ∀ t : Fin cfg0.N, win0_15.index t (0 : Fin 2) = 0 ∧ win0_15.index t (1 : Fin 2) = 0 :=
  (by decide +kernel : ∀ t : Fin grid0.N, _)
/-- Window 16's block index at point `t`: 0 on every axis. -/
theorem blockIdx16 : ∀ t : Fin cfg0.N, win0_16.index t (0 : Fin 1) = 0 :=
  (by decide +kernel : ∀ t : Fin grid0.N, _)
/-- Window 17's block index at point `t`: 0 on every axis. -/
theorem blockIdx17 : ∀ t : Fin cfg0.N, win0_17.index t (0 : Fin 1) = 0 :=
  (by decide +kernel : ∀ t : Fin grid0.N, _)
/-- Window 18's block index at point `t`: 0 on every axis. -/
theorem blockIdx18 : ∀ t : Fin cfg0.N, win0_18.index t (0 : Fin 1) = 0 :=
  (by decide +kernel : ∀ t : Fin grid0.N, _)
/-- Window 19's block index at point `t`: 0 on every axis. -/
theorem blockIdx19 : ∀ t : Fin cfg0.N, win0_19.index t (0 : Fin 1) = 0 :=
  (by decide +kernel : ∀ t : Fin grid0.N, _)
/-- Window 20's block index at point `t`: 0 on every axis. -/
theorem blockIdx20 : ∀ t : Fin cfg0.N, win0_20.index t (0 : Fin 1) = 0 :=
  (by decide +kernel : ∀ t : Fin grid0.N, _)
/-- Window 21's block index at point `t`: 0 on every axis. -/
theorem blockIdx21 : ∀ t : Fin cfg0.N, win0_21.index t (0 : Fin 2) = 0 ∧ win0_21.index t (1 : Fin 2) = 0 :=
  (by decide +kernel : ∀ t : Fin grid0.N, _)
/-- Window 22's block index at point `t`: 0 on every axis. -/
theorem blockIdx22 : ∀ t : Fin cfg0.N, win0_22.index t (0 : Fin 1) = 0 :=
  (by decide +kernel : ∀ t : Fin grid0.N, _)
/-- Window 23's block index at point `t`: 0 on every axis. -/
theorem blockIdx23 : ∀ t : Fin cfg0.N, win0_23.index t (0 : Fin 1) = 0 :=
  (by decide +kernel : ∀ t : Fin grid0.N, _)
/-- Window 24's block index at point `t`: 0 on every axis. -/
theorem blockIdx24 : ∀ t : Fin cfg0.N, win0_24.index t (0 : Fin 1) = 0 :=
  (by decide +kernel : ∀ t : Fin grid0.N, _)
/-- Window 25's block index at point `t`: 0 on every axis. -/
theorem blockIdx25 : ∀ t : Fin cfg0.N, win0_25.index t (0 : Fin 1) = 0 :=
  (by decide +kernel : ∀ t : Fin grid0.N, _)
/-- Window 26's block index at point `t`: 0 on every axis. -/
theorem blockIdx26 : ∀ t : Fin cfg0.N, win0_26.index t (0 : Fin 1) = 0 :=
  (by decide +kernel : ∀ t : Fin grid0.N, _)
/-- Window 27's block index at point `t`: 0 on every axis. -/
theorem blockIdx27 : ∀ t : Fin cfg0.N, win0_27.index t (0 : Fin 2) = 0 ∧ win0_27.index t (1 : Fin 2) = 0 :=
  (by decide +kernel : ∀ t : Fin grid0.N, _)
/-- Window 28's block index at point `t`: 0 on every axis. -/
theorem blockIdx28 : ∀ t : Fin cfg0.N, win0_28.index t (0 : Fin 1) = 0 :=
  (by decide +kernel : ∀ t : Fin grid0.N, _)

/-- The batch row that row `r` of point `t`'s block is: `1024 t + r`. -/
abbrev rowAt (t : Fin cfg0.N) (r : Fin 1024) : Fin 16384 :=
  ⟨1024 * t.val + r.val, by have h := t.isLt; have h16 : cfg0.N = 16 := rfl; have hr := r.isLt; omega⟩

/-! ## The row blocks: row `r` of point `t`'s block is row `1024 t + r` of the array -/

theorem rowBlock0 (c : Dev nD) (t : Fin cfg0.N) (r : Fin 1024) (k : Fin 128) :
    iblk m c 0 t (ix2 r k) = V m c main_arg1 (ix2 (rowAt t r) k) := by
  obtain ⟨e0, e1⟩ := blockIdx0 t
  show V m c main_arg1 (((cfg0.win 0).blk t).view.emb (ix2 r k)) = _
  congr 1
  funext a; apply Fin.ext
  match a with
  | ⟨0, _⟩ => show win0_0.index t (0 : Fin 2) * 1024 + 1 * r.val = 1024 * t.val + r.val; omega
  | ⟨1, _⟩ => show win0_0.index t (1 : Fin 2) * 128 + 1 * k.val = k.val; omega
theorem rowBlock1 (c : Dev nD) (t : Fin cfg0.N) (r : Fin 1024) :
    iblk m c 1 t (ix1 r) = V m c main_arg2 (ix1 (rowAt t r)) := by
  have e0 := blockIdx1 t
  show V m c main_arg2 (((cfg0.win 1).blk t).view.emb (ix1 r)) = _
  congr 1
  funext a; apply Fin.ext
  match a with
  | ⟨0, _⟩ => show win0_1.index t (0 : Fin 1) * 1024 + 1 * r.val = 1024 * t.val + r.val; omega
theorem rowBlock2 (c : Dev nD) (t : Fin cfg0.N) (r : Fin 1024) :
    iblk m c 2 t (ix1 r) = V m c main_arg3 (ix1 (rowAt t r)) := by
  have e0 := blockIdx2 t
  show V m c main_arg3 (((cfg0.win 2).blk t).view.emb (ix1 r)) = _
  congr 1
  funext a; apply Fin.ext
  match a with
  | ⟨0, _⟩ => show win0_2.index t (0 : Fin 1) * 1024 + 1 * r.val = 1024 * t.val + r.val; omega
theorem rowBlock3 (c : Dev nD) (t : Fin cfg0.N) (r : Fin 1024) (k : Fin 128) :
    iblk m c 3 t (ix2 r k) = V m c main_v9 (ix2 (rowAt t r) k) := by
  obtain ⟨e0, e1⟩ := blockIdx3 t
  show V m c main_v9 (((cfg0.win 3).blk t).view.emb (ix2 r k)) = _
  congr 1
  funext a; apply Fin.ext
  match a with
  | ⟨0, _⟩ => show win0_3.index t (0 : Fin 2) * 1024 + 1 * r.val = 1024 * t.val + r.val; omega
  | ⟨1, _⟩ => show win0_3.index t (1 : Fin 2) * 128 + 1 * k.val = k.val; omega
theorem rowBlock4 (c : Dev nD) (t : Fin cfg0.N) (r : Fin 1024) (k : Fin 128) :
    iblk m c 4 t (ix2 r k) = V m c main_v29 (ix2 (rowAt t r) k) := by
  obtain ⟨e0, e1⟩ := blockIdx4 t
  show V m c main_v29 (((cfg0.win 4).blk t).view.emb (ix2 r k)) = _
  congr 1
  funext a; apply Fin.ext
  match a with
  | ⟨0, _⟩ => show win0_4.index t (0 : Fin 2) * 1024 + 1 * r.val = 1024 * t.val + r.val; omega
  | ⟨1, _⟩ => show win0_4.index t (1 : Fin 2) * 128 + 1 * k.val = k.val; omega

/-! ## The parameter windows: the one block is the whole array -/

theorem wholeBlock5 (c : Dev nD) (t : Fin cfg0.N) : iblk m c 5 t = V m c main_v30 := by
  obtain ⟨e0, e1⟩ := blockIdx5 t
  funext j
  show V m c main_v30 (((cfg0.win 5).blk t).view.emb j) = _
  congr 1
  funext a; apply Fin.ext
  match a with
  | ⟨0, _⟩ => show win0_5.index t (0 : Fin 2) * 11 + 1 * (j 0).val = (j 0).val; omega
  | ⟨1, _⟩ => show win0_5.index t (1 : Fin 2) * 128 + 1 * (j 1).val = (j 1).val; omega
theorem wholeBlock6 (c : Dev nD) (t : Fin cfg0.N) : iblk m c 6 t = V m c main_v31 := by
  obtain ⟨e0, e1⟩ := blockIdx6 t
  funext j
  show V m c main_v31 (((cfg0.win 6).blk t).view.emb j) = _
  congr 1
  funext a; apply Fin.ext
  match a with
  | ⟨0, _⟩ => show win0_6.index t (0 : Fin 2) * 128 + 1 * (j 0).val = (j 0).val; omega
  | ⟨1, _⟩ => show win0_6.index t (1 : Fin 2) * 128 + 1 * (j 1).val = (j 1).val; omega
theorem wholeBlock7 (c : Dev nD) (t : Fin cfg0.N) : iblk m c 7 t = V m c main_arg8 := by
  have e0 := blockIdx7 t
  funext j
  show V m c main_arg8 (((cfg0.win 7).blk t).view.emb j) = _
  congr 1
  funext a; apply Fin.ext
  match a with
  | ⟨0, _⟩ => show win0_7.index t (0 : Fin 1) * 128 + 1 * (j 0).val = (j 0).val; omega
theorem wholeBlock8 (c : Dev nD) (t : Fin cfg0.N) : iblk m c 8 t = V m c main_arg9 := by
  have e0 := blockIdx8 t
  funext j
  show V m c main_arg9 (((cfg0.win 8).blk t).view.emb j) = _
  congr 1
  funext a; apply Fin.ext
  match a with
  | ⟨0, _⟩ => show win0_8.index t (0 : Fin 1) * 128 + 1 * (j 0).val = (j 0).val; omega
theorem wholeBlock9 (c : Dev nD) (t : Fin cfg0.N) : iblk m c 9 t = V m c main_arg10 := by
  have e0 := blockIdx9 t
  funext j
  show V m c main_arg10 (((cfg0.win 9).blk t).view.emb j) = _
  congr 1
  funext a; apply Fin.ext
  match a with
  | ⟨0, _⟩ => show win0_9.index t (0 : Fin 1) * 128 + 1 * (j 0).val = (j 0).val; omega
theorem wholeBlock10 (c : Dev nD) (t : Fin cfg0.N) : iblk m c 10 t = V m c main_arg11 := by
  obtain ⟨e0, e1⟩ := blockIdx10 t
  funext j
  show V m c main_arg11 (((cfg0.win 10).blk t).view.emb j) = _
  congr 1
  funext a; apply Fin.ext
  match a with
  | ⟨0, _⟩ => show win0_10.index t (0 : Fin 2) * 6 + 1 * (j 0).val = (j 0).val; omega
  | ⟨1, _⟩ => show win0_10.index t (1 : Fin 2) * 3 + 1 * (j 1).val = (j 1).val; omega
theorem wholeBlock11 (c : Dev nD) (t : Fin cfg0.N) : iblk m c 11 t = V m c main_arg12 := by
  have e0 := blockIdx11 t
  funext j
  show V m c main_arg12 (((cfg0.win 11).blk t).view.emb j) = _
  congr 1
  funext a; apply Fin.ext
  match a with
  | ⟨0, _⟩ => show win0_11.index t (0 : Fin 1) * 3 + 1 * (j 0).val = (j 0).val; omega
theorem wholeBlock12 (c : Dev nD) (t : Fin cfg0.N) : iblk m c 12 t = V m c main_arg13 := by
  obtain ⟨e0, e1⟩ := blockIdx12 t
  funext j
  show V m c main_arg13 (((cfg0.win 12).blk t).view.emb j) = _
  congr 1
  funext a; apply Fin.ext
  match a with
  | ⟨0, _⟩ => show win0_12.index t (0 : Fin 2) * 3 + 1 * (j 0).val = (j 0).val; omega
  | ⟨1, _⟩ => show win0_12.index t (1 : Fin 2) * 6 + 1 * (j 1).val = (j 1).val; omega
theorem wholeBlock13 (c : Dev nD) (t : Fin cfg0.N) : iblk m c 13 t = V m c main_arg14 := by
  have e0 := blockIdx13 t
  funext j
  show V m c main_arg14 (((cfg0.win 13).blk t).view.emb j) = _
  congr 1
  funext a; apply Fin.ext
  match a with
  | ⟨0, _⟩ => show win0_13.index t (0 : Fin 1) * 6 + 1 * (j 0).val = (j 0).val; omega
theorem wholeBlock14 (c : Dev nD) (t : Fin cfg0.N) : iblk m c 14 t = V m c main_v32 := by
  obtain ⟨e0, e1⟩ := blockIdx14 t
  funext j
  show V m c main_v32 (((cfg0.win 14).blk t).view.emb j) = _
  congr 1
  funext a; apply Fin.ext
  match a with
  | ⟨0, _⟩ => show win0_14.index t (0 : Fin 2) * 128 + 1 * (j 0).val = (j 0).val; omega
  | ⟨1, _⟩ => show win0_14.index t (1 : Fin 2) * 128 + 1 * (j 1).val = (j 1).val; omega
theorem wholeBlock15 (c : Dev nD) (t : Fin cfg0.N) : iblk m c 15 t = V m c main_v33 := by
  obtain ⟨e0, e1⟩ := blockIdx15 t
  funext j
  show V m c main_v33 (((cfg0.win 15).blk t).view.emb j) = _
  congr 1
  funext a; apply Fin.ext
  match a with
  | ⟨0, _⟩ => show win0_15.index t (0 : Fin 2) * 2688 + 1 * (j 0).val = (j 0).val; omega
  | ⟨1, _⟩ => show win0_15.index t (1 : Fin 2) * 512 + 1 * (j 1).val = (j 1).val; omega
theorem wholeBlock16 (c : Dev nD) (t : Fin cfg0.N) : iblk m c 16 t = V m c main_arg17 := by
  have e0 := blockIdx16 t
  funext j
  show V m c main_arg17 (((cfg0.win 16).blk t).view.emb j) = _
  congr 1
  funext a; apply Fin.ext
  match a with
  | ⟨0, _⟩ => show win0_16.index t (0 : Fin 1) * 512 + 1 * (j 0).val = (j 0).val; omega
theorem wholeBlock17 (c : Dev nD) (t : Fin cfg0.N) : iblk m c 17 t = V m c main_arg18 := by
  have e0 := blockIdx17 t
  funext j
  show V m c main_arg18 (((cfg0.win 17).blk t).view.emb j) = _
  congr 1
  funext a; apply Fin.ext
  match a with
  | ⟨0, _⟩ => show win0_17.index t (0 : Fin 1) * 512 + 1 * (j 0).val = (j 0).val; omega
theorem wholeBlock18 (c : Dev nD) (t : Fin cfg0.N) : iblk m c 18 t = V m c main_arg19 := by
  have e0 := blockIdx18 t
  funext j
  show V m c main_arg19 (((cfg0.win 18).blk t).view.emb j) = _
  congr 1
  funext a; apply Fin.ext
  match a with
  | ⟨0, _⟩ => show win0_18.index t (0 : Fin 1) * 512 + 1 * (j 0).val = (j 0).val; omega
theorem wholeBlock19 (c : Dev nD) (t : Fin cfg0.N) : iblk m c 19 t = V m c main_arg20 := by
  have e0 := blockIdx19 t
  funext j
  show V m c main_arg20 (((cfg0.win 19).blk t).view.emb j) = _
  congr 1
  funext a; apply Fin.ext
  match a with
  | ⟨0, _⟩ => show win0_19.index t (0 : Fin 1) * 512 + 1 * (j 0).val = (j 0).val; omega
theorem wholeBlock20 (c : Dev nD) (t : Fin cfg0.N) : iblk m c 20 t = V m c main_arg21 := by
  have e0 := blockIdx20 t
  funext j
  show V m c main_arg21 (((cfg0.win 20).blk t).view.emb j) = _
  congr 1
  funext a; apply Fin.ext
  match a with
  | ⟨0, _⟩ => show win0_20.index t (0 : Fin 1) * 512 + 1 * (j 0).val = (j 0).val; omega
theorem wholeBlock21 (c : Dev nD) (t : Fin cfg0.N) : iblk m c 21 t = V m c main_v34 := by
  obtain ⟨e0, e1⟩ := blockIdx21 t
  funext j
  show V m c main_v34 (((cfg0.win 21).blk t).view.emb j) = _
  congr 1
  funext a; apply Fin.ext
  match a with
  | ⟨0, _⟩ => show win0_21.index t (0 : Fin 2) * 512 + 1 * (j 0).val = (j 0).val; omega
  | ⟨1, _⟩ => show win0_21.index t (1 : Fin 2) * 256 + 1 * (j 1).val = (j 1).val; omega
theorem wholeBlock22 (c : Dev nD) (t : Fin cfg0.N) : iblk m c 22 t = V m c main_arg23 := by
  have e0 := blockIdx22 t
  funext j
  show V m c main_arg23 (((cfg0.win 22).blk t).view.emb j) = _
  congr 1
  funext a; apply Fin.ext
  match a with
  | ⟨0, _⟩ => show win0_22.index t (0 : Fin 1) * 256 + 1 * (j 0).val = (j 0).val; omega
theorem wholeBlock23 (c : Dev nD) (t : Fin cfg0.N) : iblk m c 23 t = V m c main_arg24 := by
  have e0 := blockIdx23 t
  funext j
  show V m c main_arg24 (((cfg0.win 23).blk t).view.emb j) = _
  congr 1
  funext a; apply Fin.ext
  match a with
  | ⟨0, _⟩ => show win0_23.index t (0 : Fin 1) * 256 + 1 * (j 0).val = (j 0).val; omega
theorem wholeBlock24 (c : Dev nD) (t : Fin cfg0.N) : iblk m c 24 t = V m c main_arg25 := by
  have e0 := blockIdx24 t
  funext j
  show V m c main_arg25 (((cfg0.win 24).blk t).view.emb j) = _
  congr 1
  funext a; apply Fin.ext
  match a with
  | ⟨0, _⟩ => show win0_24.index t (0 : Fin 1) * 256 + 1 * (j 0).val = (j 0).val; omega
theorem wholeBlock25 (c : Dev nD) (t : Fin cfg0.N) : iblk m c 25 t = V m c main_arg26 := by
  have e0 := blockIdx25 t
  funext j
  show V m c main_arg26 (((cfg0.win 25).blk t).view.emb j) = _
  congr 1
  funext a; apply Fin.ext
  match a with
  | ⟨0, _⟩ => show win0_25.index t (0 : Fin 1) * 256 + 1 * (j 0).val = (j 0).val; omega
theorem wholeBlock26 (c : Dev nD) (t : Fin cfg0.N) : iblk m c 26 t = V m c main_arg27 := by
  have e0 := blockIdx26 t
  funext j
  show V m c main_arg27 (((cfg0.win 26).blk t).view.emb j) = _
  congr 1
  funext a; apply Fin.ext
  match a with
  | ⟨0, _⟩ => show win0_26.index t (0 : Fin 1) * 256 + 1 * (j 0).val = (j 0).val; omega
theorem wholeBlock27 (c : Dev nD) (t : Fin cfg0.N) : iblk m c 27 t = V m c main_v35 := by
  obtain ⟨e0, e1⟩ := blockIdx27 t
  funext j
  show V m c main_v35 (((cfg0.win 27).blk t).view.emb j) = _
  congr 1
  funext a; apply Fin.ext
  match a with
  | ⟨0, _⟩ => show win0_27.index t (0 : Fin 2) * 256 + 1 * (j 0).val = (j 0).val; omega
  | ⟨1, _⟩ => show win0_27.index t (1 : Fin 2) * 1 + 1 * (j 1).val = (j 1).val; omega
theorem wholeBlock28 (c : Dev nD) (t : Fin cfg0.N) : iblk m c 28 t = V m c main_arg29 := by
  have e0 := blockIdx28 t
  funext j
  show V m c main_arg29 (((cfg0.win 28).blk t).view.emb j) = _
  congr 1
  funext a; apply Fin.ext
  match a with
  | ⟨0, _⟩ => show win0_28.index t (0 : Fin 1) * 1 + 1 * (j 0).val = (j 0).val; omega

/-! ## The narrowed parameter arrays: over the extended reals a narrowing is the identity -/

theorem V_main_v30 (c : Dev nD) : (V m c main_v30 : S11x128.Idx → EReal) = m ((c : Thread nD τ).loc main_arg6) := by
  show StableHlo.after hostOps0 (fun b => m (c, b)) (Proc.devRef .tc main_v30) = _
  after_results
  rfl
theorem V_main_v31 (c : Dev nD) : (V m c main_v31 : S128x128.Idx → EReal) = m ((c : Thread nD τ).loc main_arg7) := by
  show StableHlo.after hostOps0 (fun b => m (c, b)) (Proc.devRef .tc main_v31) = _
  after_results
  rfl
theorem V_main_v32 (c : Dev nD) : (V m c main_v32 : S128x128.Idx → EReal) = m ((c : Thread nD τ).loc main_arg15) := by
  show StableHlo.after hostOps0 (fun b => m (c, b)) (Proc.devRef .tc main_v32) = _
  after_results
  rfl
theorem V_main_v33 (c : Dev nD) : (V m c main_v33 : S2688x512.Idx → EReal) = m ((c : Thread nD τ).loc main_arg16) := by
  show StableHlo.after hostOps0 (fun b => m (c, b)) (Proc.devRef .tc main_v33) = _
  after_results
  rfl
theorem V_main_v34 (c : Dev nD) : (V m c main_v34 : S512x256.Idx → EReal) = m ((c : Thread nD τ).loc main_arg22) := by
  show StableHlo.after hostOps0 (fun b => m (c, b)) (Proc.devRef .tc main_v34) = _
  after_results
  rfl
theorem V_main_v35 (c : Dev nD) : (V m c main_v35 : S256x1.Idx → EReal) = m ((c : Thread nD τ).loc main_arg28) := by
  show StableHlo.after hostOps0 (fun b => m (c, b)) (Proc.devRef .tc main_v35) = _
  after_results
  rfl

/-! ## The specification's data read off the blocks -/

/-- The row data read off the five row blocks at row `r` of point `t` is the data of batch row `1024 t + r`. -/
theorem rowOf_blocks (c : Dev nD) (t : Fin cfg0.N) (r : Fin 1024) :
    rowOf (iblk m c 0 t) (iblk m c 1 t) (iblk m c 2 t) (iblk m c 3 t) (iblk m c 4 t) r = Cert.KRow m c (rowAt t r) := by
  have h0 : (fun k : Fin 128 => iblk m c 0 t (ix2 r k)) = fun k => m ((c : Thread nD τ).loc main_arg1) (ix2 (rowAt t r) k) :=
    funext fun k => by rw [rowBlock0 m c t r k, V_main_arg1 m c]
  have h1 : iblk m c 1 t (ix1 r) = m ((c : Thread nD τ).loc main_arg2) (ix1 (rowAt t r)) := by
    rw [rowBlock1 m c t r, V_main_arg2 m c]
  have h2 : iblk m c 2 t (ix1 r) = m ((c : Thread nD τ).loc main_arg3) (ix1 (rowAt t r)) := by
    rw [rowBlock2 m c t r, V_main_arg3 m c]
  have h3 : (fun k : Fin 128 => iblk m c 3 t (ix2 r k)) = fun k => V m c main_v9 (ix2 (rowAt t r) k) :=
    funext fun k => rowBlock3 m c t r k
  have h4 : (fun k : Fin 128 => iblk m c 4 t (ix2 r k)) = fun k => V m c main_v29 (ix2 (rowAt t r) k) :=
    funext fun k => rowBlock4 m c t r k
  show Cert.Spec.Row.mk (fun k => iblk m c 0 t (ix2 r k)) (iblk m c 1 t (ix1 r)) (iblk m c 2 t (ix1 r))
      (fun k => iblk m c 3 t (ix2 r k)) (fun k => iblk m c 4 t (ix2 r k)) = _
  rw [h0, h1, h2, h3, h4]
  rfl

/-- The parameters read off the parameter blocks of any point are the launch parameters. -/
theorem wOf_blocks (c : Dev nD) (t : Fin cfg0.N) :
    wOf (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) = Cert.KW m c := by
  have h5 : iblk m c 5 t = m ((c : Thread nD τ).loc main_arg6) := (wholeBlock5 m c t).trans (V_main_v30 m c)
  have h6 : iblk m c 6 t = m ((c : Thread nD τ).loc main_arg7) := (wholeBlock6 m c t).trans (V_main_v31 m c)
  have h7 : iblk m c 7 t = m ((c : Thread nD τ).loc main_arg8) := (wholeBlock7 m c t).trans (V_main_arg8 m c)
  have h8 : iblk m c 8 t = m ((c : Thread nD τ).loc main_arg9) := (wholeBlock8 m c t).trans (V_main_arg9 m c)
  have h9 : iblk m c 9 t = m ((c : Thread nD τ).loc main_arg10) := (wholeBlock9 m c t).trans (V_main_arg10 m c)
  have h10 : iblk m c 10 t = m ((c : Thread nD τ).loc main_arg11) := (wholeBlock10 m c t).trans (V_main_arg11 m c)
  have h11 : iblk m c 11 t = m ((c : Thread nD τ).loc main_arg12) := (wholeBlock11 m c t).trans (V_main_arg12 m c)
  have h12 : iblk m c 12 t = m ((c : Thread nD τ).loc main_arg13) := (wholeBlock12 m c t).trans (V_main_arg13 m c)
  have h13 : iblk m c 13 t = m ((c : Thread nD τ).loc main_arg14) := (wholeBlock13 m c t).trans (V_main_arg14 m c)
  have h14 : iblk m c 14 t = m ((c : Thread nD τ).loc main_arg15) := (wholeBlock14 m c t).trans (V_main_v32 m c)
  have h15 : iblk m c 15 t = m ((c : Thread nD τ).loc main_arg16) := (wholeBlock15 m c t).trans (V_main_v33 m c)
  have h16 : iblk m c 16 t = m ((c : Thread nD τ).loc main_arg17) := (wholeBlock16 m c t).trans (V_main_arg17 m c)
  have h17 : iblk m c 17 t = m ((c : Thread nD τ).loc main_arg18) := (wholeBlock17 m c t).trans (V_main_arg18 m c)
  have h18 : iblk m c 18 t = m ((c : Thread nD τ).loc main_arg19) := (wholeBlock18 m c t).trans (V_main_arg19 m c)
  have h19 : iblk m c 19 t = m ((c : Thread nD τ).loc main_arg20) := (wholeBlock19 m c t).trans (V_main_arg20 m c)
  have h20 : iblk m c 20 t = m ((c : Thread nD τ).loc main_arg21) := (wholeBlock20 m c t).trans (V_main_arg21 m c)
  have h21 : iblk m c 21 t = m ((c : Thread nD τ).loc main_arg22) := (wholeBlock21 m c t).trans (V_main_v34 m c)
  have h22 : iblk m c 22 t = m ((c : Thread nD τ).loc main_arg23) := (wholeBlock22 m c t).trans (V_main_arg23 m c)
  have h23 : iblk m c 23 t = m ((c : Thread nD τ).loc main_arg24) := (wholeBlock23 m c t).trans (V_main_arg24 m c)
  have h24 : iblk m c 24 t = m ((c : Thread nD τ).loc main_arg25) := (wholeBlock24 m c t).trans (V_main_arg25 m c)
  have h25 : iblk m c 25 t = m ((c : Thread nD τ).loc main_arg26) := (wholeBlock25 m c t).trans (V_main_arg26 m c)
  have h26 : iblk m c 26 t = m ((c : Thread nD τ).loc main_arg27) := (wholeBlock26 m c t).trans (V_main_arg27 m c)
  have h27 : iblk m c 27 t = m ((c : Thread nD τ).loc main_arg28) := (wholeBlock27 m c t).trans (V_main_v35 m c)
  have h28 : iblk m c 28 t = m ((c : Thread nD τ).loc main_arg29) := (wholeBlock28 m c t).trans (V_main_arg29 m c)
  rw [h5, h6, h7, h8, h9, h10, h11, h12, h13, h14, h15, h16, h17, h18, h19, h20, h21, h22, h23, h24, h25, h26, h27, h28]
  rfl

end Cert.KernelIdeal.KV

end
-- ==== Proof.KValue.lean ====
/-
  The value the kernel's program leaves in its result.

  The one output window writes back, at grid point `t`, rows `1024 t … 1024 t + 1023` of a column of 16384 rows;
  the sixteen blocks tile the column, so after the region the column is ONE function of the row index, given what
  each point's block holds row by row. The host line after the region reads the 16384 × 1 column as a vector of
  16384 entries (same row-major position), and every argument is as launched.
-/
import proofs.«429925_j71167608094992_2_alg».proof.Proof.KernelIdealFrame
import Idealize.ShloMosaic.Lib.Pipeline.Value
import Idealize.ShloMosaic.Lib.ValueIdx

set_option maxRecDepth 16384

noncomputable section

namespace Cert.KernelIdeal.KV

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- Row `r` of block `t` is a row of the column: `1024 t + r < 16 · 1024`. -/
theorem row_lt (t : Fin cfg0.N) (r : Fin 1024) : 1024 * t.val + r.val < 16384 := by
  have ht : t.val < 16 := Nat.lt_of_lt_of_eq t.isLt (show cfg0.N = 16 from N_0)
  have hr := r.isLt
  omega

/-- The output window's block index at point `t` is `(t, 0)` (decided over the sixteen points). -/
theorem idx29 : ∀ t : Fin cfg0.N, win0_29.index t (0 : Fin 2) = t.val ∧ win0_29.index t (1 : Fin 2) = 0 :=
  (by decide +kernel : ∀ t : Fin grid0.N, win0_29.index t (0 : Fin 2) = t.val ∧ win0_29.index t (1 : Fin 2) = 0)

/-- No block of the output window overhangs the column: every point moves the full 1024 × 1 block. -/
theorem size29 : ∀ t : Fin cfg0.N, win0_29.xsize (grid0.coords t) (0 : Fin 2) = 1024 ∧ win0_29.xsize (grid0.coords t) (1 : Fin 2) = 1 :=
  (by decide +kernel : ∀ t : Fin grid0.N, win0_29.xsize (grid0.coords t) (0 : Fin 2) = 1024 ∧ win0_29.xsize (grid0.coords t) (1 : Fin 2) = 1)

/-- The column as one function of its index: entry `(b, 0)` is the row function at `b`. -/
def G36 (G : Dev nD → Fin 16384 → EReal) (c : Dev nD) : Buf (Elt Ideal) ((c.tc : Thread nD τ).loc main_v36) :=
  fun i => G c ⟨(i 0).val, (i 0).isLt⟩

/-- WHAT POINT `t` WRITES BACK is block `t` of the column function: entry `(r, 0)` of the block sits at row
    `t · 1024 + r` of the column. -/
theorem flushed29_eq (G : Dev nD → Fin 16384 → EReal)
    (hG : ∀ (c : Dev nD) (t : Fin cfg0.N) (r : Fin 1024), outsAt0 m c t (ix2 r (0 : Fin 1)) = G c ⟨1024 * t.val + r.val, row_lt t r⟩)
    (c : Dev nD) (t : Fin cfg0.N) :
    (dats m 0 c).flushed 29 t = ((cfg0.win 29).blk t).view.read (Elt Ideal) (G36 G c) := by
  show (cfg0.win 29).cut (grid0.coords t) ((dats m 0 c).after 29 t) = _
  rw [after0_29]
  funext j
  rw [View.read_apply]
  show outsAt0 m c t ((cfg0.win 29).xinj (grid0.coords t) j) = G36 G c (((cfg0.win 29).blk t).view.emb j)
  have hj0 : (j 0).val < 1024 := (j 0).isLt
  have hx : (cfg0.win 29).xinj (grid0.coords t) j = ix2 (⟨(j 0).val, hj0⟩ : Fin 1024) (0 : Fin 1) := by
    funext a; apply Fin.ext
    match a with
    | ⟨0, _⟩ => rfl
    | ⟨1, _⟩ => show (j 1).val = 0; have h1 : (j 1).val < 1 := (j 1).isLt; omega
  rw [hx, hG c t ⟨(j 0).val, hj0⟩]
  unfold G36
  refine congrArg (G c) (Fin.ext ?_)
  show 1024 * t.val + (j 0).val = win0_29.index t (0 : Fin 2) * 1024 + 1 * (j 0).val
  rw [(idx29 t).1]; omega

/-- THE BLOCKS TILE THE COLUMN: row `b` lies in the block of point `b / 1024`. -/
theorem cover29 (c : Dev nD) (i : ((cfg0.win 29).arr.view.loc (c.tc : Thread nD τ)).2.ty.Idx) :
    ∃ t : Fin cfg0.N, (cfg0.win 29).flush t = true ∧ i ∈ ((cfg0.win 29).blk t).view.set := by
  have h0 : (i 0).val < 16384 := (i 0).isLt
  have h1 : (i 1).val < 1 := (i 1).isLt
  have hN : cfg0.N = 16 := N_0
  refine ⟨⟨(i 0).val / 1024, by rw [hN]; omega⟩, flush0_29 _, ?_⟩
  generalize ht : (⟨(i 0).val / 1024, by rw [hN]; omega⟩ : Fin cfg0.N) = t
  have htv : t.val = (i 0).val / 1024 := by rw [← ht]
  show i ∈ ((View.whole main_v36).slice (win0_29.rect t)).set
  rw [View.set_slice_whole, Rect.mem_set_unit]
  intro a
  match a with
  | ⟨0, _⟩ =>
    show win0_29.index t (0 : Fin 2) * 1024 ≤ (i 0).val ∧ (i 0).val < win0_29.index t (0 : Fin 2) * 1024 + win0_29.xsize (grid0.coords t) (0 : Fin 2)
    rw [(idx29 t).1, (size29 t).1, htv]; omega
  | ⟨1, _⟩ =>
    show win0_29.index t (1 : Fin 2) * 1 ≤ (i 1).val ∧ (i 1).val < win0_29.index t (1 : Fin 2) * 1 + win0_29.xsize (grid0.coords t) (1 : Fin 2)
    rw [(idx29 t).2, (size29 t).2]; omega

/-- THE COLUMN after the region is the column function, at every row. -/
theorem final36 (G : Dev nD → Fin 16384 → EReal)
    (hG : ∀ (c : Dev nD) (t : Fin cfg0.N) (r : Fin 1024), outsAt0 m c t (ix2 r (0 : Fin 1)) = G c ⟨1024 * t.val + r.val, row_lt t r⟩)
    (c : Dev nD) : (dats m 0 c).arrAt 29 cfg0.N = G36 G c :=
  (dats m 0 c).arrAt_eq_of_cover 29 (G36 G c) (fun t _ => flushed29_eq m G hG c t) (cover29 c)

/-- THE HOST LINE AFTER THE REGION reads the 16384 × 1 column as a vector: entry `b` of the vector and entry
    `(b, 0)` of the column have the same row-major position, `b · 1 + 0 = b`. -/
theorem tail37 (G : Dev nD → Fin 16384 → EReal)
    (hG : ∀ (c : Dev nD) (t : Fin cfg0.N) (r : Fin 1024), outsAt0 m c t (ix2 r (0 : Fin 1)) = G c ⟨1024 * t.val + r.val, row_lt t r⟩)
    (c : Dev nD) :
    Pipeline.afterTail₀ cfgs (dats m) 0 (V0 m) [hostOps1] c main_v37 = (fun j => G c (j 0)) := by
  unfold Pipeline.afterTail₀
  show StableHlo.after hostOps1 _ (Proc.devRef .tc main_v37) = _
  after_results
  have hW : Pipeline.withArrays (cfgs 0).spec c (V0 m c) (fun w => (dats m 0 c).arrAt w (cfgs 0).N) (Proc.devRef .tc main_v36) = G36 G c :=
    (Pipeline.withArrays_arr spec0 launch0.win.arr_inj c _ _ 29).trans (final36 m G hG c)
  rw [hW]
  funext j
  obtain ⟨b, rfl⟩ : ∃ b : Fin 16384, j = ix1 b := ⟨j 0, eq_ix1 j⟩
  show shapeCast S16384 (G36 G c) shapeCasts_S16384x1_S16384 (ix1 b) = G c b
  refine (shapeCast_apply (G36 G c) shapeCasts_S16384x1_S16384 (ix1 b) (ix2 b (0 : Fin 1)) ?_).trans rfl
  show ((⟨2, ![16384, 1]⟩ : Shape).rowMajor (ix2 b (0 : Fin 1))).val = ((⟨1, ![16384]⟩ : Shape).rowMajor (ix1 b)).val
  rw [Shape.rowMajor_val_two, Shape.rowMajor_val_one]
  show b.val * 1 + 0 = b.val
  omega

/-- After the run the result buffer holds what the host line after the region computes: the buffer is no array of
    the pipeline. -/
theorem post37 (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_v37) = Pipeline.afterTail₀ cfgs (dats m) 0 (V0 m) [hostOps1] c main_v37 :=
  (h c).2 main_v37 (Pipeline.mem_restRefs_of main_v37 (by decide) (by decide))

set_option maxHeartbeats 1800000 in
/-- After the run every argument is as launched: an argument a window stages is an input array, never written
    back; any other argument is written by no line of the program. -/
theorem args_kept (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)
    ∧ r.2.mem ((c.tc : Thread nD τ).loc main_arg16) = m ((c.tc : Thread nD τ).loc main_arg16)
    ∧ r.2.mem ((c.tc : Thread nD τ).loc main_arg17) = m ((c.tc : Thread nD τ).loc main_arg17)
    ∧ r.2.mem ((c.tc : Thread nD τ).loc main_arg18) = m ((c.tc : Thread nD τ).loc main_arg18)
    ∧ r.2.mem ((c.tc : Thread nD τ).loc main_arg19) = m ((c.tc : Thread nD τ).loc main_arg19)
    ∧ r.2.mem ((c.tc : Thread nD τ).loc main_arg20) = m ((c.tc : Thread nD τ).loc main_arg20)
    ∧ r.2.mem ((c.tc : Thread nD τ).loc main_arg21) = m ((c.tc : Thread nD τ).loc main_arg21)
    ∧ r.2.mem ((c.tc : Thread nD τ).loc main_arg22) = m ((c.tc : Thread nD τ).loc main_arg22)
    ∧ r.2.mem ((c.tc : Thread nD τ).loc main_arg23) = m ((c.tc : Thread nD τ).loc main_arg23)
    ∧ r.2.mem ((c.tc : Thread nD τ).loc main_arg24) = m ((c.tc : Thread nD τ).loc main_arg24)
    ∧ r.2.mem ((c.tc : Thread nD τ).loc main_arg25) = m ((c.tc : Thread nD τ).loc main_arg25)
    ∧ r.2.mem ((c.tc : Thread nD τ).loc main_arg26) = m ((c.tc : Thread nD τ).loc main_arg26)
    ∧ r.2.mem ((c.tc : Thread nD τ).loc main_arg27) = m ((c.tc : Thread nD τ).loc main_arg27)
    ∧ r.2.mem ((c.tc : Thread nD τ).loc main_arg28) = m ((c.tc : Thread nD τ).loc main_arg28)
    ∧ r.2.mem ((c.tc : Thread nD τ).loc main_arg29) = m ((c.tc : Thread nD τ).loc main_arg29) :=
  ⟨(((h c).2 main_arg0 (Pipeline.mem_restRefs_of main_arg0 (by decide) (by decide))).trans (W_main_arg0 m (dats m) c)),
    ((h c).1 0).trans ((((dats m) 0 c).arrAt_in 0 rfl _).trans ((A_eq m c 0).trans (V_main_arg1 m c))),
    ((h c).1 1).trans ((((dats m) 0 c).arrAt_in 1 rfl _).trans ((A_eq m c 1).trans (V_main_arg2 m c))),
    ((h c).1 2).trans ((((dats m) 0 c).arrAt_in 2 rfl _).trans ((A_eq m c 2).trans (V_main_arg3 m c))),
    (((h c).2 main_arg4 (Pipeline.mem_restRefs_of main_arg4 (by decide) (by decide))).trans (W_main_arg4 m (dats m) c)),
    (((h c).2 main_arg5 (Pipeline.mem_restRefs_of main_arg5 (by decide) (by decide))).trans (W_main_arg5 m (dats m) c)),
    (((h c).2 main_arg6 (Pipeline.mem_restRefs_of main_arg6 (by decide) (by decide))).trans (W_main_arg6 m (dats m) c)),
    (((h c).2 main_arg7 (Pipeline.mem_restRefs_of main_arg7 (by decide) (by decide))).trans (W_main_arg7 m (dats m) c)),
    ((h c).1 7).trans ((((dats m) 0 c).arrAt_in 7 rfl _).trans ((A_eq m c 7).trans (V_main_arg8 m c))),
    ((h c).1 8).trans ((((dats m) 0 c).arrAt_in 8 rfl _).trans ((A_eq m c 8).trans (V_main_arg9 m c))),
    ((h c).1 9).trans ((((dats m) 0 c).arrAt_in 9 rfl _).trans ((A_eq m c 9).trans (V_main_arg10 m c))),
    ((h c).1 10).trans ((((dats m) 0 c).arrAt_in 10 rfl _).trans ((A_eq m c 10).trans (V_main_arg11 m c))),
    ((h c).1 11).trans ((((dats m) 0 c).arrAt_in 11 rfl _).trans ((A_eq m c 11).trans (V_main_arg12 m c))),
    ((h c).1 12).trans ((((dats m) 0 c).arrAt_in 12 rfl _).trans ((A_eq m c 12).trans (V_main_arg13 m c))),
    ((h c).1 13).trans ((((dats m) 0 c).arrAt_in 13 rfl _).trans ((A_eq m c 13).trans (V_main_arg14 m c))),
    (((h c).2 main_arg15 (Pipeline.mem_restRefs_of main_arg15 (by decide) (by decide))).trans (W_main_arg15 m (dats m) c)),
    (((h c).2 main_arg16 (Pipeline.mem_restRefs_of main_arg16 (by decide) (by decide))).trans (W_main_arg16 m (dats m) c)),
    ((h c).1 16).trans ((((dats m) 0 c).arrAt_in 16 rfl _).trans ((A_eq m c 16).trans (V_main_arg17 m c))),
    ((h c).1 17).trans ((((dats m) 0 c).arrAt_in 17 rfl _).trans ((A_eq m c 17).trans (V_main_arg18 m c))),
    ((h c).1 18).trans ((((dats m) 0 c).arrAt_in 18 rfl _).trans ((A_eq m c 18).trans (V_main_arg19 m c))),
    ((h c).1 19).trans ((((dats m) 0 c).arrAt_in 19 rfl _).trans ((A_eq m c 19).trans (V_main_arg20 m c))),
    ((h c).1 20).trans ((((dats m) 0 c).arrAt_in 20 rfl _).trans ((A_eq m c 20).trans (V_main_arg21 m c))),
    (((h c).2 main_arg22 (Pipeline.mem_restRefs_of main_arg22 (by decide) (by decide))).trans (W_main_arg22 m (dats m) c)),
    ((h c).1 22).trans ((((dats m) 0 c).arrAt_in 22 rfl _).trans ((A_eq m c 22).trans (V_main_arg23 m c))),
    ((h c).1 23).trans ((((dats m) 0 c).arrAt_in 23 rfl _).trans ((A_eq m c 23).trans (V_main_arg24 m c))),
    ((h c).1 24).trans ((((dats m) 0 c).arrAt_in 24 rfl _).trans ((A_eq m c 24).trans (V_main_arg25 m c))),
    ((h c).1 25).trans ((((dats m) 0 c).arrAt_in 25 rfl _).trans ((A_eq m c 25).trans (V_main_arg26 m c))),
    ((h c).1 26).trans ((((dats m) 0 c).arrAt_in 26 rfl _).trans ((A_eq m c 26).trans (V_main_arg27 m c))),
    (((h c).2 main_arg28 (Pipeline.mem_restRefs_of main_arg28 (by decide) (by decide))).trans (W_main_arg28 m (dats m) c)),
    ((h c).1 28).trans ((((dats m) 0 c).arrAt_in 28 rfl _).trans ((A_eq m c 28).trans (V_main_arg29 m c)))⟩

/-- THE KERNEL'S VALUE: if block `t` holds, at row `r`, the row function at `1024 t + r`, then every run of the
    program ends with the result vector equal to the row function, entry by entry, and every argument as launched. -/
theorem kernel_value (G : Dev nD → Fin 16384 → EReal)
    (hG : ∀ (c : Dev nD) (t : Fin cfg0.N) (r : Fin 1024), outsAt0 m c t (ix2 r (0 : Fin 1)) = G c ⟨1024 * t.val + r.val, row_lt t r⟩) :
    θ_run defs (onTc (τ := τ) (main (F := Ideal))) ⟨m, fun _ => 0, ρ⟩ (fun r => ∀ c : Dev nD,
      r.2.mem ((c.tc : Thread nD τ).loc main_v37) = (fun j => G c (j 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) :=
  (θ_run defs _ _).mono (fun r h c => ⟨(post37 m r h c).trans (tail37 m G hG c), args_kept m r h c⟩) (run_main m ρ)

end Cert.KernelIdeal.KV

end
-- ==== Proof.KFinal.lean ====
/-
  The kernel program's result, row by row, is the row specification: the value the body stores at row r of grid
  point t is the three-layer head over the point's blocks, which is the specification's result for the parameters
  and row data read off those blocks; the parameter blocks are the launch parameters and row r of point t's row
  blocks is batch row 1024 t + r; and the run lays the points' stores side by side into the result.
-/
import proofs.«429925_j71167608094992_2_alg».proof.Proof.KPiece
import proofs.«429925_j71167608094992_2_alg».proof.Proof.KAll
import proofs.«429925_j71167608094992_2_alg».proof.Proof.KBlocks
import proofs.«429925_j71167608094992_2_alg».proof.Proof.KValue

noncomputable section

namespace Cert.KernelIdeal.KV

open Idealize.ShloMosaic Idealize.ShloMosaic.TcCoe Idealize.SL.Sem Cert.KernelIdeal Cert.KernelIdeal.Gen Cert.KernelIdeal.GenP
open Idealize.ShloMosaic.ValueIdx

/-- The kernel program's run leaves, at batch row b of the result, the specification's value for the launch
    parameters and the row data of b; the thirty arguments are as launched. -/
theorem kernel_final (m : (ℓ : Loc nD τ sig) → Buf (Elt Ideal) ℓ) (ρ : Dev nD → PrngReg) :
    θ_run (Cert.KernelIdeal.defs (F := Ideal)) (onTc (τ := τ) (main (F := Ideal))) ⟨m, fun _ => 0, ρ⟩
      (fun r => ∀ c : Dev nD,
        r.2.mem ((c.tc : Thread nD τ).loc main_v37) = (fun j => Spec.out (Cert.KW m c) (Cert.KRow m c (j 0)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) :=
  kernel_value m ρ (fun c b => Spec.out (Cert.KW m c) (Cert.KRow m c b)) (by
    intro c t r
    show outsAt0 m c t (ix2 r (0 : Fin 1)) = Spec.out (Cert.KW m c) (Cert.KRow m c (rowAt t r))
    rw [outsAt0_eq, kOut_all, rowOf_blocks, wOf_blocks])

end Cert.KernelIdeal.KV

end
-- ==== Proof.HostShared.lean ====
/-
  The two gathered inputs of a batch row that the host prepares for the head.

  The embedding table is first given a zero row 0.  The item embedding of a row is the table's row at the
  row's item index (an index below zero is wrapped by the table's length).  The pooled history embedding is,
  lane by lane, the sum over the 50 history positions of the table's rows at the (wrapped) history indices,
  each multiplied by the indicator "the index is not 0", divided by the number of non-zero positions clamped
  below at one.  Both programs compute these by the same operations; the only difference is the order of the
  two arguments of the clamp, and a maximum over the extended reals does not depend on that order.
-/
import proofs.«429925_j71167608094992_2_alg».proof.Proof.Gen.KernelIdeal.Frame.Runs
import proofs.«429925_j71167608094992_2_alg».proof.Proof.Gen.ReferenceIdeal
import Idealize.ShloMosaic.Lib.StableHlo.Run
import Idealize.ShloMosaic.Lib.IdealHost

set_option synthInstance.maxSize 4096

noncomputable section

/-! ## The first program's host terms -/

namespace Cert.KernelIdeal.KV

open Idealize.ShloMosaic Idealize.ShloMosaic.TcCoe Idealize.SL.Sem Cert.KernelIdeal Cert.KernelIdeal.Gen

variable {F : FTy → Type} [FloatOps F]

/-- The embedding table with row 0 overwritten by zeros. -/
def embZ (emb : FVec F S91718x128 .f32) : FVec F S91718x128 .f32 :=
  Host.scatter scatter_S91718x128_S1_S128_0_0_0_0 (fun _ b => b) emb
    (broadcastInDim S1 ![] bcast_S_S1 (constantI S_ 32 0#32))
    (broadcastInDim S128 ![] bcast_S_S128 (constant S_ .f32 0x00000000#32))

/-- The item embedding of every row: the zero-row table gathered at the wrapped item indices. -/
def itemK (emb : FVec F S91718x128 .f32) (ids : IVec S16384 32) : FVec F S16384x128 .f32 :=
  Host.gather gather_S91718x128_S16384x1_S16384x128_1_0_n_n_0_1_1128 (embZ emb)
    (broadcastInDim S16384x1 ![0] bcast_S16384_S16384x1_0
      (select (cmpi .slt ids (broadcastInDim S16384 ![] bcast_S_S16384 (constantI S_ 32 0#32)))
        (addi ids (broadcastInDim S16384 ![] bcast_S_S16384 (constantI S_ 32 91718#32))) ids))

/-- The indicator "the history index is not 0", as a float. -/
def histMask (seq : IVec S16384x50 32) : FVec F S16384x50 .f32 :=
  uitofp .f32 (cmpi .ne seq (broadcastInDim S16384x50 ![] bcast_S_S16384x50 (constantI S_ 32 0#32)))

/-- The masked sum over the history positions of the gathered rows. -/
def histSum (emb : FVec F S91718x128 .f32) (seq : IVec S16384x50 32) : FVec F S16384x128 .f32 :=
  Host.reduceAdd
    (mulf
      (Host.gather gather_S91718x128_S16384x50x1_S16384x50x128_2_0_n_n_0_2_1128 (embZ emb)
        (broadcastInDim S16384x50x1 ![0, 1] bcast_S16384x50_S16384x50x1_0_1
          (select (cmpi .slt seq (broadcastInDim S16384x50 ![] bcast_S_S16384x50 (constantI S_ 32 0#32)))
            (addi seq (broadcastInDim S16384x50 ![] bcast_S_S16384x50 (constantI S_ 32 91718#32))) seq)))
      (broadcastInDim S16384x50x128 ![0, 1, 2] bcast_S16384x50x1_S16384x50x128_0_1_2
        (broadcastInDim S16384x50x1 ![0, 1] bcast_S16384x50_S16384x50x1_0_1 (histMask seq))))
    (constant S_ .f32 0x00000000#32) reducesTo_S16384x50x128_S16384x128_d1 h_S_

/-- The number of non-zero history positions of every row. -/
def histCnt (seq : IVec S16384x50 32) : FVec F S16384 .f32 :=
  Host.reduceAdd (histMask (F := F) seq) (constant S_ .f32 0x00000000#32) reducesTo_S16384x50_S16384_d1 h_S_

/-- The pooled history embedding: the masked sum divided by the count clamped below at one. -/
def histK (emb : FVec F S91718x128 .f32) (seq : IVec S16384x50 32) : FVec F S16384x128 .f32 :=
  Host.divf (histSum emb seq)
    (broadcastInDim S16384x128 ![0, 1] bcast_S16384x1_S16384x128_0_1
      (maximumf (broadcastInDim S16384x1 ![0] bcast_S16384_S16384x1_0 (histCnt seq))
        (broadcastInDim S16384x1 ![] bcast_S_S16384x1 (constant S_ .f32 0x3F800000#32))))

variable (m : (ℓ : Loc nD τ sig) → Buf (Elt F) ℓ)

/-- What the region finds in its item window's array: the item embedding of the launch's table and indices. -/
theorem V_main_v9 (c : Dev nD) :
    (V m c main_v9 : FVec F S16384x128 .f32)
      = itemK (m ((c : Thread nD τ).loc main_arg5)) (m ((c : Thread nD τ).loc main_arg0)) := by
  show StableHlo.after hostOps0 (fun b => m (c, b)) (Proc.devRef .tc main_v9) = _
  after_results_simp; rfl

/-- What the region finds in its history window's array: the pooled history embedding of the launch's table and
    history indices. -/
theorem V_main_v29 (c : Dev nD) :
    (V m c main_v29 : FVec F S16384x128 .f32)
      = histK (m ((c : Thread nD τ).loc main_arg5)) (m ((c : Thread nD τ).loc main_arg4)) := by
  show StableHlo.after hostOps0 (fun b => m (c, b)) (Proc.devRef .tc main_v29) = _
  after_results_simp; rfl

end Cert.KernelIdeal.KV

/-! ## The second program's host terms, and their agreement with the first's -/

namespace Cert.ReferenceIdeal.RV

open Idealize.ShloMosaic Idealize.SL.Sem Cert.ReferenceIdeal Cert.ReferenceIdeal.Gen

variable {F : FTy → Type} [FloatOps F]

/-- The embedding table with row 0 overwritten by zeros. -/
def embZ (emb : FVec F S91718x128 .f32) : FVec F S91718x128 .f32 :=
  Host.scatter scatter_S91718x128_S1_S128_0_0_0_0 (fun _ b => b) emb
    (broadcastInDim S1 ![] bcast_S_S1 (constantI S_ 32 0#32))
    (broadcastInDim S128 ![] bcast_S_S128 (constant S_ .f32 0x00000000#32))

/-- The item embedding of every row: the zero-row table gathered at the wrapped item indices. -/
def itemR (emb : FVec F S91718x128 .f32) (ids : IVec S16384 32) : FVec F S16384x128 .f32 :=
  Host.gather gather_S91718x128_S16384x1_S16384x128_1_0_n_n_0_1_1128 (embZ emb)
    (broadcastInDim S16384x1 ![0] bcast_S16384_S16384x1_0
      (select (cmpi .slt ids (broadcastInDim S16384 ![] bcast_S_S16384 (constantI S_ 32 0#32)))
        (addi ids (broadcastInDim S16384 ![] bcast_S_S16384 (constantI S_ 32 91718#32))) ids))

/-- The indicator "the history index is not 0", as a float. -/
def histMask (seq : IVec S16384x50 32) : FVec F S16384x50 .f32 :=
  uitofp .f32 (cmpi .ne seq (broadcastInDim S16384x50 ![] bcast_S_S16384x50 (constantI S_ 32 0#32)))

/-- The masked sum over the history positions of the gathered rows. -/
def histSum (emb : FVec F S91718x128 .f32) (seq : IVec S16384x50 32) : FVec F S16384x128 .f32 :=
  Host.reduceAdd
    (mulf
      (Host.gather gather_S91718x128_S16384x50x1_S16384x50x128_2_0_n_n_0_2_1128 (embZ emb)
        (broadcastInDim S16384x50x1 ![0, 1] bcast_S16384x50_S16384x50x1_0_1
          (select (cmpi .slt seq (broadcastInDim S16384x50 ![] bcast_S_S16384x50 (constantI S_ 32 0#32)))
            (addi seq (broadcastInDim S16384x50 ![] bcast_S_S16384x50 (constantI S_ 32 91718#32))) seq)))
      (broadcastInDim S16384x50x128 ![0, 1, 2] bcast_S16384x50x1_S16384x50x128_0_1_2
        (broadcastInDim S16384x50x1 ![0, 1] bcast_S16384x50_S16384x50x1_0_1 (histMask seq))))
    (constant S_ .f32 0x00000000#32) reducesTo_S16384x50x128_S16384x128_d1 h_S_

/-- The number of non-zero history positions of every row. -/
def histCnt (seq : IVec S16384x50 32) : FVec F S16384 .f32 :=
  Host.reduceAdd (histMask (F := F) seq) (constant S_ .f32 0x00000000#32) reducesTo_S16384x50_S16384_d1 h_S_

/-- The pooled history embedding: the masked sum divided by the clamp of one from below by the count's side,
    the clamp written with the constant first. -/
def histR (emb : FVec F S91718x128 .f32) (seq : IVec S16384x50 32) : FVec F S16384x128 .f32 :=
  Host.divf (histSum emb seq)
    (broadcastInDim S16384x128 ![0, 1] bcast_S16384x1_S16384x128_0_1
      (maximumf (broadcastInDim S16384x1 ![] bcast_S_S16384x1 (constant S_ .f32 0x3F800000#32))
        (broadcastInDim S16384x1 ![0] bcast_S16384_S16384x1_0 (histCnt seq))))

/-- The zero-row tables of the two programs are one function of the table. -/
theorem embZ_eq (emb : FVec F S91718x128 .f32) : embZ emb = Cert.KernelIdeal.KV.embZ emb := rfl

/-- The item embeddings of the two programs are one function of the table and the indices. -/
theorem itemR_eq (emb : FVec F S91718x128 .f32) (ids : IVec S16384 32) :
    itemR emb ids = Cert.KernelIdeal.KV.itemK emb ids := rfl

theorem histMask_eq (seq : IVec S16384x50 32) : histMask (F := F) seq = Cert.KernelIdeal.KV.histMask seq := rfl

theorem histSum_eq (emb : FVec F S91718x128 .f32) (seq : IVec S16384x50 32) :
    histSum emb seq = Cert.KernelIdeal.KV.histSum emb seq := rfl

theorem histCnt_eq (seq : IVec S16384x50 32) : histCnt (F := F) seq = Cert.KernelIdeal.KV.histCnt seq := rfl

/-- Over the extended reals the lane-wise maximum does not depend on the order of its arguments. -/
theorem maximumf_comm {s : Shape} {φ : FTy} (a b : FVec Ideal s φ) : maximumf a b = maximumf b a := by
  funext i
  show max (a i) (b i) = max (b i) (a i)
  exact max_comm _ _

/-- Over the extended reals the pooled history embeddings of the two programs are one function of the table
    and the history indices. -/
theorem histR_eq (emb : FVec Ideal S91718x128 .f32) (seq : IVec S16384x50 32) :
    histR emb seq = Cert.KernelIdeal.KV.histK emb seq := by
  unfold histR Cert.KernelIdeal.KV.histK
  rw [maximumf_comm, histSum_eq, histCnt_eq]

/-- The same, read at an index. -/
theorem histR_apply (emb : FVec Ideal S91718x128 .f32) (seq : IVec S16384x50 32) (j : S16384x128.Idx) :
    histR emb seq j = Cert.KernelIdeal.KV.histK emb seq j := congrFun (histR_eq emb seq) j

end Cert.ReferenceIdeal.RV
-- ==== Proof.PreFacts.lean ====
/-
  What the precondition on the inputs says of the two category indices and of the two running variances: from
  the conjunction of all its tests being one, each index reads, signed, at least 0 and less than 11, hence
  unsigned less than 11, and every running variance is not negative.
-/
import proofs.«429925_j71167608094992_2_alg».proof.Proof.Gen.Pre_finite_inputs
import Idealize.ShloMosaic.Lib.ReduceAll
import Idealize.ShloMosaic.Lib.ValueIdx
import Idealize.ShloMosaic.PureOps.Ideal
import Idealize.ShloMosaic.PureOps.Ideal.Laws

namespace Cert.PreFacts

open Idealize.ShloMosaic Idealize.ShloMosaic.ValueIdx Cert.Pre_finite_inputs

/-- The shape without axes has one index. -/
instance : Subsingleton S_.Idx := ⟨fun a b => funext fun d => d.elim0⟩

/-- A 32-bit word that reads, signed, at least 0 and less than 11 reads unsigned less than 11. -/
theorem toNat_lt_11 (x : BitVec 32) (h0 : (0#32 : BitVec 32).toInt ≤ x.toInt)
    (h1 : x.toInt < (11#32 : BitVec 32).toInt) : x.toNat < 11 := by
  have e0 : (0#32 : BitVec 32).toInt = 0 := by decide
  have e11 : (11#32 : BitVec 32).toInt = 11 := by decide
  rw [e0] at h0; rw [e11] at h1
  rw [BitVec.toInt_eq_toNat_cond] at h0 h1
  have := x.isLt
  by_cases hc : 2 * x.toNat < 2 ^ 32
  · rw [if_pos hc] at h0 h1; omega
  · rw [if_neg hc] at h0; omega

/-- The ordered test for at least is one only when the order holds. -/
theorem le_of_cmp_oge {x y : EReal} (h : Ideal.cmp .oge x y = 1#1) : y ≤ x := by
  by_cases hc : y ≤ x
  · exact hc
  · simp [Ideal.cmp, hc] at h

variable [Facts]

/-- Every word of an index vector whose two range tests are all one reads unsigned less than 11. -/
theorem range_of_all (a : IVec S16384 32)
    (h : Host.reduce IntOp.andi
          (andi (cmpi .sge a (broadcastInDim S16384 ![] Facts.bcast_S_S16384 (constantI S_ 32 0#32)))
            (cmpi .slt a (broadcastInDim S16384 ![] Facts.bcast_S_S16384 (constantI S_ 32 11#32))))
          (constantI S_ 1 1#1) Facts.reducesTo_S16384_S_d0 Facts.h_S_ ix0 = 1#1)
    (b : Fin 16384) : (a (ix1 b)).toNat < 11 := by
  have h1 := Host.reduce_andi_all _ _ _ _ _ h (ix1 b)
  obtain ⟨hge, hlt⟩ := IntOp.andi_eq_one.1 h1
  exact toNat_lt_11 _ (IntOp.cmpi_sge.1 hge) (IntOp.cmpi_slt.1 hlt)

/-- Every entry of a vector whose test against zero is all one is not negative. -/
theorem nonneg_of_all {n : Nat} (a : FVec Ideal (⟨1, ![n]⟩ : Shape) .f32)
    (hb : S_.BroadcastsInDim (⟨1, ![n]⟩ : Shape) (![] : Fin 0 → Fin 1))
    (hr : (⟨1, ![n]⟩ : Shape).ReducesTo [0] S_)
    (h : Host.reduce IntOp.andi
          (cmpf .oge a (broadcastInDim (⟨1, ![n]⟩ : Shape) ![] hb (constant (F := Ideal) S_ .f32 0x00000000#32)))
          (constantI S_ 1 1#1) hr Facts.h_S_ ix0 = 1#1)
    (k : Fin n) : 0 ≤ a (ix1 k) := by
  have h1 := Host.reduce_andi_all _ _ _ _ _ h (ix1 k)
  have h2 : Ideal.cmp .oge (a (ix1 k)) (Ideal.ofBits .f32 0x00000000#32) = 1#1 := h1
  rw [Ideal.ofBits_zero_f32] at h2
  exact le_of_cmp_oge h2

/-- The last part of the chain: its incoming conjunction is one, the second index is in range, the two
    running variances are not negative. -/
theorem part8_facts (a3 : IVec S16384 32) (a21 : FVec Ideal S512 .f32) (a27 : FVec Ideal S256 .f32)
    (v135 : IVec S_ 1)
    (h : fn_part8 (F := Ideal) a3 a21 a27 v135 (constantI S_ 32 0#32) ix0 = 1#1) :
    v135 ix0 = 1#1 ∧ (∀ b : Fin 16384, (a3 (ix1 b)).toNat < 11) ∧ (∀ n : Fin 512, 0 ≤ a21 (ix1 n))
      ∧ (∀ n : Fin 256, 0 ≤ a27 (ix1 n)) := by
  unfold fn_part8 at h
  dsimp only at h
  obtain ⟨h146, h149⟩ := IntOp.andi_eq_one.1 h
  obtain ⟨h142, h145⟩ := IntOp.andi_eq_one.1 h146
  obtain ⟨h135, h141⟩ := IntOp.andi_eq_one.1 h142
  exact ⟨h135, range_of_all a3 h141, nonneg_of_all a21 _ _ h145, nonneg_of_all a27 _ _ h149⟩

/-- The part before it adds the first index. -/
theorem part7_facts (a2 a3 : IVec S16384 32) (a21 : FVec Ideal S512 .f32) (a27 : FVec Ideal S256 .f32)
    (a29 : FVec Ideal S1 .f32) (v118 : IVec S_ 1) (v119 : FVec Ideal S256x1 .f32)
    (h : fn_part7 (F := Ideal) a2 a3 a21 a27 a29 v118 v119 ix0 = 1#1) :
    (∀ b : Fin 16384, (a2 (ix1 b)).toNat < 11) ∧ (∀ b : Fin 16384, (a3 (ix1 b)).toNat < 11)
      ∧ (∀ n : Fin 512, 0 ≤ a21 (ix1 n)) ∧ (∀ n : Fin 256, 0 ≤ a27 (ix1 n)) := by
  unfold fn_part7 at h
  dsimp only at h
  obtain ⟨h135, h3, h21, h27⟩ := part8_facts _ _ _ _ h
  obtain ⟨_, h134⟩ := IntOp.andi_eq_one.1 h135
  exact ⟨range_of_all a2 h134, h3, h21, h27⟩

/-- From the whole precondition: both category indices read unsigned less than 11 and both running variances are
    not negative. The chain of parts only hands its conjunction on until the last two. -/
theorem pre_facts (a0 : IVec S16384 32) (a1 : FVec Ideal S16384x128 .f32) (a2 a3 : IVec S16384 32)
    (a4 : IVec S16384x50 32) (a5 : FVec Ideal S91718x128 .f32) (a6 : FVec Ideal S11x128 .f32)
    (a7 : FVec Ideal S128x128 .f32) (a8 a9 a10 : FVec Ideal S128 .f32) (a11 : FVec Ideal S6x3 .f32)
    (a12 : FVec Ideal S3 .f32) (a13 : FVec Ideal S3x6 .f32) (a14 : FVec Ideal S6 .f32)
    (a15 : FVec Ideal S128x128 .f32) (a16 : FVec Ideal S2688x512 .f32)
    (a17 a18 a19 a20 a21 : FVec Ideal S512 .f32) (a22 : FVec Ideal S512x256 .f32)
    (a23 a24 a25 a26 a27 : FVec Ideal S256 .f32) (a28 : FVec Ideal S256x1 .f32) (a29 : FVec Ideal S1 .f32)
    (h : fn (F := Ideal) a0 a1 a2 a3 a4 a5 a6 a7 a8 a9 a10 a11 a12 a13 a14 a15 a16 a17 a18 a19 a20 a21 a22 a23 a24
          a25 a26 a27 a28 a29 ix0 = 1#1) :
    (∀ b : Fin 16384, (a2 (ix1 b)).toNat < 11) ∧ (∀ b : Fin 16384, (a3 (ix1 b)).toNat < 11)
      ∧ (∀ n : Fin 512, 0 ≤ a21 (ix1 n)) ∧ (∀ n : Fin 256, 0 ≤ a27 (ix1 n)) := by
  unfold fn at h; dsimp only at h
  unfold fn_part1 at h; dsimp only at h
  unfold fn_part2 at h; dsimp only at h
  unfold fn_part3 at h; dsimp only at h
  unfold fn_part4 at h; dsimp only at h
  unfold fn_part5 at h; dsimp only at h
  unfold fn_part6 at h; dsimp only at h
  exact part7_facts _ _ _ _ _ _ _ h

end Cert.PreFacts
-- ==== Proof.SpecLemmas.lean ====
/-
  Facts about the row specification over the extended reals: the constants 1 and 128 and the stabiliser as
  reals, positivity of what stands under the reciprocal square roots, the product with a reciprocal square root
  as a quotient by the square root, an indicator-weighted sum as a selection, the logistic written with a
  quotient, and the 21 column blocks one by one.
-/
import proofs.«429925_j71167608094992_2_alg».proof.Proof.Spec

noncomputable section

namespace Cert.Spec

open Idealize.ShloMosaic Idealize.ShloMosaic.ValueIdx
open scoped BigOperators

/-! ### The constants -/

/-- The pattern of the single-precision one is the real one. -/
theorem ofBits_one : Ideal.ofBits .f32 0x3F800000#32 = 1 := by
  rw [← EReal.coe_one]
  simp [Ideal.ofBits, Ideal.ieee, -EReal.coe_mul]; norm_num

/-- The lane count is the real 128: significand 2^23, exponent 134 - 127 - 23 = -16. -/
theorem c128_eq : c128 = ((128 : ℝ) : EReal) := by
  show Ideal.ofBits .f32 0x43000000#32 = _
  simp [Ideal.ofBits, Ideal.ieee, -EReal.coe_mul]; norm_num

theorem c128_pos : 0 < c128 := by
  rw [c128_eq]; exact EReal.coe_pos.2 (by norm_num)

theorem c128_ne_zero : c128 ≠ 0 := c128_pos.ne'

/-- The stabiliser is a positive real: significand 2^23 + 2606508, exponent 110 - 127 - 23. -/
theorem eps_eq_coe : ∃ t : ℝ, 0 < t ∧ eps = (t : EReal) := by
  refine ⟨(2 ^ 23 + 2606508 : ℕ) * (2 : ℝ) ^ ((110 : ℤ) - 127 - 23), by positivity, ?_⟩
  show Ideal.ofBits .f32 0x3727C5AC#32 = _
  simp [Ideal.ofBits, Ideal.ieee, -EReal.coe_mul]

theorem eps_pos : 0 < eps := by
  obtain ⟨t, ht, h⟩ := eps_eq_coe
  rw [h]; exact EReal.coe_pos.2 ht

theorem eps_ne_top : eps ≠ ⊤ := by
  obtain ⟨t, _, h⟩ := eps_eq_coe
  rw [h]; exact EReal.coe_ne_top t

theorem eps_ne_bot : eps ≠ ⊥ := by
  obtain ⟨t, _, h⟩ := eps_eq_coe
  rw [h]; exact EReal.coe_ne_bot t

/-! ### Signs -/

/-- A square is not negative, at the infinities too. -/
theorem mul_self_nonneg' (x : EReal) : 0 ≤ x * x := by
  induction x using EReal.rec with
  | bot => rw [EReal.bot_mul_bot]; exact le_top
  | coe t => rw [← EReal.coe_mul]; exact EReal.coe_nonneg.2 (mul_self_nonneg t)
  | top => rw [EReal.top_mul_top]; exact le_top

/-- A quotient of a non-negative number by 128 is not negative. -/
theorem div_c128_nonneg {s : EReal} (h : 0 ≤ s) : 0 ≤ Ideal.div s c128 := by
  rw [Ideal.div, if_neg c128_ne_zero]
  exact mul_nonneg h (EReal.inv_nonneg_of_nonneg c128_pos.le)

/-- The mean of non-negative lanes is not negative. -/
theorem mean128_nonneg {f : Fin 128 → EReal} (h : ∀ k, 0 ≤ f k) : 0 ≤ mean128 f :=
  div_c128_nonneg (Finset.sum_nonneg fun k _ => h k)

/-- A non-negative number plus the stabiliser is positive. -/
theorem add_eps_pos {v : EReal} (h : 0 ≤ v) : 0 < v + eps := by
  have h1 : 0 + eps ≤ v + eps := add_le_add h le_rfl
  rw [zero_add] at h1
  exact lt_of_lt_of_le eps_pos h1

/-- The variance is not negative. -/
theorem var_nonneg (w : W) (x : Fin 128 → EReal) : 0 ≤ var w x :=
  mean128_nonneg fun k => mul_self_nonneg' (dev w x k)

/-- What stands under the reciprocal square root of the normalisation is positive. -/
theorem var_eps_pos (w : W) (x : Fin 128 → EReal) : 0 < var w x + eps := add_eps_pos (var_nonneg w x)

/-! ### The reciprocal square root -/

/-- For a positive v, the product with the reciprocal square root of v is the quotient by the square root
    of v: at the infinity both are the product with zero; at a positive real the root is a non-zero real and
    its reciprocal is the real reciprocal. -/
theorem mul_rsqrt_eq_div_sqrt (x : EReal) {v : EReal} (hv : 0 < v) :
    x * Ideal.rsqrt v = Ideal.div x (Ideal.sqrt v) := by
  induction v using EReal.rec with
  | bot => exact absurd hv (not_lt.2 bot_le)
  | top =>
    rw [Ideal.rsqrt_top, Ideal.sqrt_top, Ideal.div, if_neg (by simp), EReal.inv_top]
  | coe t =>
    have ht : 0 < t := EReal.coe_pos.1 hv
    have hs : Real.sqrt t ≠ 0 := (Real.sqrt_pos.2 ht).ne'
    rw [Ideal.rsqrt_coe, Ideal.sqrt_coe, if_neg (not_lt.2 ht.le), if_neg ht.ne', if_neg (not_lt.2 ht.le),
      Ideal.div, if_neg (by exact_mod_cast hs), EReal.coe_inv]

/-! ### The indicator-weighted sum -/

/-- The indicator-weighted sum over the table's rows is the row an in-range index selects. -/
theorem oneHot_sum (idx : BitVec 32) (g : Fin 11 → EReal) (h : idx.toNat < 11) :
    ∑ k, oneHot idx k * g k = g ⟨idx.toNat, h⟩ := by
  rw [Finset.sum_eq_single (⟨idx.toNat, h⟩ : Fin 11)]
  · rw [oneHot, if_pos (by simp), one_mul]
  · intro k _ hk
    have hne : idx ≠ BitVec.ofNat 32 k.val := by
      intro he
      apply hk
      apply Fin.ext
      have := congrArg BitVec.toNat he
      rw [BitVec.toNat_ofNat, Nat.mod_eq_of_lt (by omega)] at this
      exact this.symm
    rw [oneHot, if_neg hne, zero_mul]
  · intro hk; exact absurd (Finset.mem_univ _) hk

/-! ### The logistic -/

/-- The logistic written as the quotient of one by one plus the exponential of the negated argument. -/
theorem logistic_eq (x : EReal) :
    Ideal.div (Ideal.ofBits .f32 0x3F800000#32) (Ideal.ofBits .f32 0x3F800000#32 + Ideal.exp (-x))
      = Ideal.logistic x := by
  rw [ofBits_one]; rfl

/-! ### The zero field -/

theorem field0 (w : W) (r : Row) (e : Fin 128) : field w r 0 e = 0 := rfl

theorem xs0 (w : W) (r : Row) (e : Fin 128) : xs w r 0 e = 0 := by
  rw [xs, field0, zero_mul]

/-! ### The column blocks -/

/-- The first six blocks are the gated fields. -/
theorem cblk_lt6 (w : W) (r : Row) (q : Fin 21) (e : Fin 128) (h : q.val < 6) :
    cblk w r q e = xs w r ⟨q.val, h⟩ e := by
  rw [cblk, dif_pos h]

/-- The next five blocks, the pairs with the zero field, are zero. -/
theorem cblk_zero (w : W) (r : Row) (q : Fin 21) (e : Fin 128) (h6 : 6 ≤ q.val) (h11 : q.val < 11) :
    cblk w r q e = 0 := by
  rw [cblk, dif_neg (by omega), if_pos h11]

/-- The last ten blocks are the products of a gated field with the bilinear image of a later one. -/
theorem cblk_pair (w : W) (r : Row) (q : Fin 21) (e : Fin 128) (h : 11 ≤ q.val) :
    cblk w r q e
      = xs w r (pairI ⟨q.val - 6, by omega⟩) e * xw w r (pairJ ⟨q.val - 6, by omega⟩) e := by
  rw [cblk, dif_neg (by omega), if_neg (by omega)]

section literal
variable (w : W) (r : Row) (e : Fin 128)

theorem cblk_0 : cblk w r 0 e = xs w r 0 e := rfl
theorem cblk_1 : cblk w r 1 e = xs w r 1 e := rfl
theorem cblk_2 : cblk w r 2 e = xs w r 2 e := rfl
theorem cblk_3 : cblk w r 3 e = xs w r 3 e := rfl
theorem cblk_4 : cblk w r 4 e = xs w r 4 e := rfl
theorem cblk_5 : cblk w r 5 e = xs w r 5 e := rfl
theorem cblk_6 : cblk w r 6 e = 0 := rfl
theorem cblk_7 : cblk w r 7 e = 0 := rfl
theorem cblk_8 : cblk w r 8 e = 0 := rfl
theorem cblk_9 : cblk w r 9 e = 0 := rfl
theorem cblk_10 : cblk w r 10 e = 0 := rfl
theorem cblk_11 : cblk w r 11 e = xs w r 1 e * xw w r 2 e := rfl
theorem cblk_12 : cblk w r 12 e = xs w r 1 e * xw w r 3 e := rfl
theorem cblk_13 : cblk w r 13 e = xs w r 1 e * xw w r 4 e := rfl
theorem cblk_14 : cblk w r 14 e = xs w r 1 e * xw w r 5 e := rfl
theorem cblk_15 : cblk w r 15 e = xs w r 2 e * xw w r 3 e := rfl
theorem cblk_16 : cblk w r 16 e = xs w r 2 e * xw w r 4 e := rfl
theorem cblk_17 : cblk w r 17 e = xs w r 2 e * xw w r 5 e := rfl
theorem cblk_18 : cblk w r 18 e = xs w r 3 e * xw w r 4 e := rfl
theorem cblk_19 : cblk w r 19 e = xs w r 3 e * xw w r 5 e := rfl
theorem cblk_20 : cblk w r 20 e = xs w r 4 e * xw w r 5 e := rfl

/-- The first block vanishes with the zero field. -/
theorem cblk_0_zero : cblk w r 0 e = 0 := by rw [cblk_0, xs0]

end literal

/-- Column 128 q + e lies in block q at lane e. -/
theorem cvec_eq (w : W) (r : Row) (col : Fin 2688) (q : Fin 21) (e : Fin 128)
    (h : col.val = 128 * q.val + e.val) : cvec w r col = cblk w r q e := by
  have hq : (⟨col.val / 128, by omega⟩ : Fin 21) = q := Fin.ext (by show col.val / 128 = q.val; omega)
  have he : (⟨col.val % 128, Nat.mod_lt _ (by norm_num)⟩ : Fin 128) = e :=
    Fin.ext (by show col.val % 128 = e.val; omega)
  rw [cvec, hq, he]

end Cert.Spec

end
-- ==== Proof.RefCat.lean ====
/-
  The reference's category lookup: an index below zero is moved up by the table's height, and the table row at
  the (clamped) index is read.  For an index in range this is the indicator-weighted sum of the table's rows.
-/
import proofs.«429925_j71167608094992_2_alg».proof.Proof.Gen.ReferenceIdeal
import proofs.«429925_j71167608094992_2_alg».proof.Proof.Spec
import proofs.«429925_j71167608094992_2_alg».proof.Proof.SpecLemmas
import Idealize.ShloMosaic.Lib.ValueIdx
import Idealize.ShloMosaic.Lib.StableHlo.Predicate

set_option synthInstance.maxSize 4096

noncomputable section

namespace Cert.ReferenceIdeal.RV

open Idealize.ShloMosaic Idealize.SL.Sem Cert.ReferenceIdeal Idealize.ShloMosaic.ValueIdx
open Cert.ReferenceIdeal.Facts₀
open scoped BigOperators

variable {F : FTy → Type} [FloatOps F]

/-- The index moved up by eleven where it is negative. -/
def refCatIdx (idx : IVec S16384 32) : IVec S16384 32 :=
  select (cmpi .slt idx (broadcastInDim S16384 ![] bcast_S_S16384 (constantI S_ 32 0#32)))
    (addi idx (broadcastInDim S16384 ![] bcast_S_S16384 (constantI S_ 32 11#32))) idx

/-- The table rows the indices select. -/
def refCat (cate : FVec F S11x128 .f32) (idx : IVec S16384 32) : FVec F S16384x128 .f32 :=
  Host.gather gather_S11x128_S16384x1_S16384x128_1_0_n_n_0_1_1128 cate
    (broadcastInDim S16384x1 ![0] bcast_S16384_S16384x1_0 (refCatIdx idx))

/-- A short name for the row gather's dimension numbers. -/
local notation "gD" => gather_S11x128_S16384x1_S16384x128_1_0_n_n_0_1_1128

/-- Reading the row gather at (b, e): the table at the start index (read signed, clamped into the table's rows) and lane e. -/
theorem gather_rows_apply {α : Type} (x : S11x128.Idx → α) (idx : IVec S16384x1 32) (b : Fin 16384) (e : Fin 128) :
    Host.gather gD x idx (ix2 b e)
      = x (ix2 (⟨min (idx (ix2 b (0 : Fin 1))).toInt.toNat 10, by omega⟩ : Fin 11) e) := by
  unfold Host.gather
  congr 1
  funext a
  refine Fin.ext ?_
  match a with
  | ⟨0, _⟩ =>
    show GatherDims.start gD (ix2 b e) idx 0 + GatherDims.batchCoord gD (ix2 b e) 0 + GatherDims.offCoord gD (ix2 b e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ GatherDims.startIndexMap gD from List.mem_singleton.mpr rfl)]
    have hsi : GatherDims.siIdx gD (ix2 b e) ⟨List.idxOf (0 : Fin 2) (GatherDims.startIndexMap gD),
        List.idxOf_lt_length_iff.2 (List.mem_singleton.mpr rfl)⟩ = ix2 b (0 : Fin 1) := by
      funext c; refine Fin.ext ?_
      match c with
      | ⟨0, _⟩ => rfl
      | ⟨1, _⟩ => rfl
    rw [hsi]
    rfl
  | ⟨1, _⟩ =>
    show GatherDims.start gD (ix2 b e) idx 1 + GatherDims.batchCoord gD (ix2 b e) 1 + GatherDims.offCoord gD (ix2 b e) 1 = _
    rw [GatherDims.batchCoord_eq_zero _ _ _ List.not_mem_nil]
    unfold GatherDims.start
    rw [dif_neg (show ¬ (1 : Fin 2) ∈ GatherDims.startIndexMap gD from by decide)]
    simp only [Nat.add_zero, Nat.zero_add]
    rfl

/-- An index in range is not negative: the shifted copy is not taken. -/
theorem refCatIdx_apply (idx : IVec S16384 32) (b : Fin 16384) (h : (idx (ix1 b)).toNat < 11) :
    refCatIdx idx (ix1 b) = idx (ix1 b) := by
  unfold refCatIdx
  rw [select_apply]
  have hc : cmpi .slt idx (broadcastInDim S16384 ![] bcast_S_S16384 (constantI S_ 32 0#32)) (ix1 b) = 0#1 := by
    apply eq_zero_of_ne_one
    intro h1
    have h2 : IntOp.cmpi .slt (idx (ix1 b)) 0#32 = 1#1 := h1
    rw [StableHlo.Predicate.slt_iff_toNat (by omega) (by decide)] at h2
    simp at h2
  rw [hc, select_zero]

/-- The reference's category lookup at (b, e) is the specification's selected row. -/
theorem refCat_apply (w : Spec.W) {cate : FVec Ideal S11x128 .f32} {idx : IVec S16384 32} (hc : w.cate = cate)
    (b : Fin 16384) (e : Fin 128) (h : (idx (ix1 b)).toNat < 11) :
    refCat cate idx (ix2 b e) = Spec.catRow w (idx (ix1 b)) e := by
  unfold refCat
  rw [gather_rows_apply]
  have h8 : broadcastInDim S16384x1 ![0] bcast_S16384_S16384x1_0 (refCatIdx idx) (ix2 b (0 : Fin 1)) = idx (ix1 b) := by
    rw [← refCatIdx_apply idx b h]
    simp only [broadcastInDim]
    congr 1
    funext a
    match a with
    | ⟨0, _⟩ => rfl
  unfold Spec.catRow
  rw [Spec.oneHot_sum (idx (ix1 b)) (fun k => w.cate (ix2 k e)) h, hc]
  congr 1
  have hnat : min (broadcastInDim S16384x1 ![0] bcast_S16384_S16384x1_0 (refCatIdx idx) (ix2 b (0 : Fin 1))).toInt.toNat 10
      = (idx (ix1 b)).toNat := by
    rw [h8, StableHlo.Predicate.toInt_eq_toNat_of_lt (by omega)]
    simp only [Int.toNat_natCast]
    omega
  funext a
  match a with
  | ⟨0, _⟩ => exact Fin.ext hnat
  | ⟨1, _⟩ => rfl

end Cert.ReferenceIdeal.RV

end
-- ==== Proof.RefMm.lean ====
/-
  The reference's dense projection: the product with the weight matrix plus the bias, its lane mean and lane
  variance (sums divided by 128), the deviation divided by the square root of the variance plus the stabiliser,
  scaled, shifted and clamped at zero.  Dividing by the square root of a positive number is multiplying by its
  reciprocal square root, so each element is the specification's normalised projection.
-/
import proofs.«429925_j71167608094992_2_alg».proof.Proof.Gen.ReferenceIdeal
import proofs.«429925_j71167608094992_2_alg».proof.Proof.Spec
import proofs.«429925_j71167608094992_2_alg».proof.Proof.SpecLemmas
import Idealize.ShloMosaic.Lib.ValueIdx
import Idealize.ShloMosaic.Lib.IdealHost
import Idealize.ShloMosaic.PureOps.Ideal.Laws

set_option synthInstance.maxSize 4096

noncomputable section

namespace Cert.ReferenceIdeal.RV

open Idealize.ShloMosaic Idealize.SL.Sem Cert.ReferenceIdeal Idealize.ShloMosaic.ValueIdx
open Cert.ReferenceIdeal.Facts₀
open scoped BigOperators

variable {F : FTy → Type} [FloatOps F]

/-- A vector of 128 lanes laid along every row. -/
def refRow128 (a : FVec F S128 .f32) : FVec F S16384x128 .f32 :=
  broadcastInDim S16384x128 ![0, 1] bcast_S1x128_S16384x128_0_1 (broadcastInDim S1x128 ![1] bcast_S128_S1x128_1 a)

/-- The projection plus the bias. -/
def refLin (x : FVec F S16384x128 .f32) (a7 : FVec F S128x128 .f32) (a8 : FVec F S128 .f32) : FVec F S16384x128 .f32 :=
  addf (Host.dotGeneral dot_S16384x128_S128x128_S16384x128_1_0_0_1_n_n none x a7) (refRow128 a8)

/-- The lane mean of each row, as a column. -/
def refMean (y : FVec F S16384x128 .f32) : FVec F S16384x1 .f32 :=
  Host.divf
    (broadcastInDim S16384x1 ![0] bcast_S16384_S16384x1_0
      (Host.reduceAdd y (constant S_ .f32 0x00000000#32) reducesTo_S16384x128_S16384_d1 h_S_))
    (broadcastInDim S16384x1 ![] bcast_S_S16384x1 (constant S_ .f32 0x43000000#32))

/-- The count the squared deviations' sum is divided by: 128 minus the correction. -/
def refVarDen (c : IVec S_ 32) : FVec F S_ .f32 := subf (constant S_ .f32 0x43000000#32) (sitofp .f32 c)

/-- The lane variance of each row with correction `c`, as a column; not a number where the count is not positive. -/
def refVar (y : FVec F S16384x128 .f32) (c : IVec S_ 32) : FVec F S16384x1 .f32 :=
  select (broadcastInDim S16384x1 ![] bcast_S_S16384x1 (cmpf .ogt (refVarDen (F := F) c) (constant S_ .f32 0x00000000#32)))
    (Host.divf
      (broadcastInDim S16384x1 ![0] bcast_S16384_S16384x1_0
        (Host.reduceAdd
          (mulf (subf y (broadcastInDim S16384x128 ![0, 1] bcast_S16384x1_S16384x128_0_1 (refMean y)))
            (subf y (broadcastInDim S16384x128 ![0, 1] bcast_S16384x1_S16384x128_0_1 (refMean y))))
          (constant S_ .f32 0x00000000#32) reducesTo_S16384x128_S16384_d1 h_S_))
      (broadcastInDim S16384x1 ![] bcast_S_S16384x1 (refVarDen (F := F) c)))
    (broadcastInDim S16384x1 ![] bcast_S_S16384x1 (id (constant S_ .f32 0x7FC00000#32)))

/-- The normalised, scaled, shifted and clamped projection. -/
def refMM (x : FVec F S16384x128 .f32) (a7 : FVec F S128x128 .f32) (a8 a9 a10 : FVec F S128 .f32) : FVec F S16384x128 .f32 :=
  maximumf
    (addf
      (mulf
        (Host.divf
          (subf (refLin x a7 a8) (broadcastInDim S16384x128 ![0, 1] bcast_S16384x1_S16384x128_0_1 (refMean (refLin x a7 a8))))
          (broadcastInDim S16384x128 ![0, 1] bcast_S16384x1_S16384x128_0_1
            (Host.sqrt (addf (refVar (refLin x a7 a8) (constantI S_ 32 0#32))
              (broadcastInDim S16384x1 ![] bcast_S_S16384x1 (constant S_ .f32 0x3727C5AC#32))))))
        (refRow128 a9))
      (refRow128 a10))
    (broadcastInDim S16384x128 ![] bcast_S_S16384x128 (constant S_ .f32 0x00000000#32))

/-! ### The layout operations at an index -/

/-- A vector of 128 lanes laid along every row reads its lane. -/
theorem refRow128_apply (a : FVec F S128 .f32) (b : Fin 16384) (e : Fin 128) : refRow128 a (ix2 b e) = a (ix1 e) := by
  unfold refRow128
  simp only [broadcastInDim]
  congr 1
  funext c
  match c with
  | ⟨0, _⟩ => rfl

/-- A column laid along the lanes reads the row's entry. -/
theorem bcol_apply {α : Type} (v : S16384x1.Idx → α) (b : Fin 16384) (e : Fin 128) :
    broadcastInDim S16384x128 ![0, 1] bcast_S16384x1_S16384x128_0_1 v (ix2 b e) = v (ix2 b (0 : Fin 1)) := by
  simp only [broadcastInDim]
  congr 1
  funext c
  match c with
  | ⟨0, _⟩ => rfl
  | ⟨1, _⟩ => rfl

/-- A vector over the rows kept as a column reads the row's entry. -/
theorem col_apply {α : Type} (v : S16384.Idx → α) (b : Fin 16384) :
    broadcastInDim S16384x1 ![0] bcast_S16384_S16384x1_0 v (ix2 b (0 : Fin 1)) = v (ix1 b) := by
  simp only [broadcastInDim]
  congr 1
  funext c
  match c with
  | ⟨0, _⟩ => rfl

/-- A scalar laid over a column reads the scalar. -/
theorem scal_apply {α : Type} (v : S_.Idx → α) (j : S16384x1.Idx) :
    broadcastInDim S16384x1 ![] bcast_S_S16384x1 v j = v ix0 := by
  unfold broadcastInDim; exact congrArg v (funext fun a => a.elim0)

/-! ### The contraction with the weight matrix -/

theorem lhs_mm_0 (i : S16384x128.Idx) (q : dot_S16384x128_S128x128_S16384x128_1_0_0_1_n_n.contr.Idx) :
    (dot_S16384x128_S128x128_S16384x128_1_0_0_1_n_n.lhsIdx i q 0).val = (i 0).val := by
  unfold DotDims.lhsIdx
  rw [dif_neg (show ¬(0 : Fin S16384x128.rank) ∈ dot_S16384x128_S128x128_S16384x128_1_0_0_1_n_n.lhsBatch by decide),
    dif_pos (show (0 : Fin S16384x128.rank) ∈ dot_S16384x128_S128x128_S16384x128_1_0_0_1_n_n.lhsNonContracting by decide)]
  rfl

theorem lhs_mm_1 (i : S16384x128.Idx) (q : dot_S16384x128_S128x128_S16384x128_1_0_0_1_n_n.contr.Idx) :
    (dot_S16384x128_S128x128_S16384x128_1_0_0_1_n_n.lhsIdx i q 1).val = (q ⟨0, by decide⟩).val :=
  dot_S16384x128_S128x128_S16384x128_1_0_0_1_n_n.lhsIdx_val_of_single rfl i q

theorem rhs_mm_0 (i : S16384x128.Idx) (q : dot_S16384x128_S128x128_S16384x128_1_0_0_1_n_n.contr.Idx) :
    (dot_S16384x128_S128x128_S16384x128_1_0_0_1_n_n.rhsIdx i q 0).val = (q ⟨0, by decide⟩).val :=
  dot_S16384x128_S128x128_S16384x128_1_0_0_1_n_n.rhsIdx_val_of_single rfl i q

theorem rhs_mm_1 (i : S16384x128.Idx) (q : dot_S16384x128_S128x128_S16384x128_1_0_0_1_n_n.contr.Idx) :
    (dot_S16384x128_S128x128_S16384x128_1_0_0_1_n_n.rhsIdx i q 1).val = (i 1).val := by
  unfold DotDims.rhsIdx
  rw [dif_neg (show ¬(1 : Fin S128x128.rank) ∈ dot_S16384x128_S128x128_S16384x128_1_0_0_1_n_n.rhsBatch by decide),
    dif_pos (show (1 : Fin S128x128.rank) ∈ dot_S16384x128_S128x128_S16384x128_1_0_0_1_n_n.rhsNonContracting by decide)]
  rfl

/-- The product with the weight matrix at (b, e) is the sum over the contracted lane. -/
theorem refDot_apply (x : FVec Ideal S16384x128 .f32) (a7 : FVec Ideal S128x128 .f32) (b : Fin 16384) (e : Fin 128) :
    Host.dotGeneral dot_S16384x128_S128x128_S16384x128_1_0_0_1_n_n none x a7 (ix2 b e)
      = ∑ k : Fin 128, x (ix2 b k) * a7 (ix2 k e) := by
  simp only [Host.dotGeneral]
  rw [Ideal.dotGeneral_apply,
    ← Equiv.sum_comp (contrEquiv1 dot_S16384x128_S128x128_S16384x128_1_0_0_1_n_n 128 rfl rfl).symm]
  refine Finset.sum_congr rfl fun k _ => ?_
  have hk := contrEquiv1_symm_val dot_S16384x128_S128x128_S16384x128_1_0_0_1_n_n 128 rfl rfl k
  have el : dot_S16384x128_S128x128_S16384x128_1_0_0_1_n_n.lhsIdx (ix2 b e)
      ((contrEquiv1 dot_S16384x128_S128x128_S16384x128_1_0_0_1_n_n 128 rfl rfl).symm k) = ix2 b k :=
    funext fun a => Fin.ext (by
      match a with
      | ⟨0, _⟩ => exact lhs_mm_0 _ _
      | ⟨1, _⟩ => exact (lhs_mm_1 _ _).trans hk)
  have er : dot_S16384x128_S128x128_S16384x128_1_0_0_1_n_n.rhsIdx (ix2 b e)
      ((contrEquiv1 dot_S16384x128_S128x128_S16384x128_1_0_0_1_n_n 128 rfl rfl).symm k) = ix2 k e :=
    funext fun a => Fin.ext (by
      match a with
      | ⟨0, _⟩ => exact (rhs_mm_0 _ _).trans hk
      | ⟨1, _⟩ => exact rhs_mm_1 _ _)
  rw [el, er]

/-- The projection plus the bias at (b, e). -/
theorem refLin_apply (x : FVec Ideal S16384x128 .f32) (a7 : FVec Ideal S128x128 .f32) (a8 : FVec Ideal S128 .f32)
    (b : Fin 16384) (e : Fin 128) :
    refLin x a7 a8 (ix2 b e) = (∑ k : Fin 128, x (ix2 b k) * a7 (ix2 k e)) + a8 (ix1 e) := by
  unfold refLin
  rw [addf_apply, refDot_apply, refRow128_apply]

/-! ### The lane sums -/

/-- The lane sum of a row. -/
theorem rowsum_apply (y : FVec Ideal S16384x128 .f32) (b : Fin 16384) :
    Host.reduceAdd y (constant (F := Ideal) S_ .f32 0x00000000#32) reducesTo_S16384x128_S16384_d1 h_S_ (ix1 b)
      = ∑ k : Fin 128, y (ix2 b k) := by
  simp only [Host.reduceAdd, Ideal.hostReduceAdd_def]
  rw [Ideal.hostReduceAdd_single reducesTo_S16384x128_S16384_d1 (by decide)]
  rw [constant_apply, Ideal.ofBits_zero_f32, zero_add]
  refine Finset.sum_congr rfl fun k _ => ?_
  exact congrArg y (funext fun a => Fin.ext (by match a with | ⟨0, _⟩ => rfl | ⟨1, _⟩ => rfl))

/-- The lane mean of a row is the specification's mean of its lanes. -/
theorem refMean_apply (y : FVec Ideal S16384x128 .f32) (b : Fin 16384) :
    refMean y (ix2 b (0 : Fin 1)) = Spec.mean128 (fun k => y (ix2 b k)) := by
  unfold refMean Spec.mean128 Spec.c128
  rw [hostDivf_apply, col_apply, scal_apply, constant_apply, rowsum_apply]

/-! ### The variance and the normalisation -/

/-- With no correction the squared deviations' sum is divided by 128. -/
theorem refVarDen_zero : refVarDen (F := Ideal) (constantI S_ 32 0#32) ix0 = Spec.c128 := by
  unfold refVarDen Spec.c128
  rw [subf_apply, constant_apply, sitofp_apply]
  show Ideal.ofBits .f32 0x43000000#32 - ((((constantI S_ 32 0#32 : IVec S_ 32) ix0).toInt : ℝ) : EReal) = _
  have h0 : ((constantI S_ 32 0#32 : IVec S_ 32) ix0).toInt = 0 := by decide
  rw [h0, Int.cast_zero, EReal.coe_zero, sub_zero]

/-- The lane variance of a row is the specification's mean of the squared deviations. -/
theorem refVar_apply (y : FVec Ideal S16384x128 .f32) (b : Fin 16384) :
    refVar y (constantI S_ 32 0#32) (ix2 b (0 : Fin 1))
      = Spec.mean128 (fun k => (y (ix2 b k) - Spec.mean128 (fun k' => y (ix2 b k')))
          * (y (ix2 b k) - Spec.mean128 (fun k' => y (ix2 b k')))) := by
  unfold refVar
  rw [select_apply, scal_apply]
  have hc : cmpf .ogt (refVarDen (F := Ideal) (constantI S_ 32 0#32)) (constant S_ .f32 0x00000000#32) ix0 = 1#1 := by
    rw [cmpf_apply, refVarDen_zero, constant_apply, Ideal.ofBits_zero_f32]
    show Ideal.cmp .ogt Spec.c128 0 = 1#1
    unfold Ideal.cmp
    simp [Spec.c128_pos]
  rw [hc, select_one, hostDivf_apply, col_apply, scal_apply, refVarDen_zero, rowsum_apply]
  unfold Spec.mean128
  refine congrArg (fun s => Ideal.div s Spec.c128) (Finset.sum_congr rfl fun k _ => ?_)
  rw [mulf_apply, subf_apply, bcol_apply, refMean_apply]
  rfl

/-- The reference's dense projection at (b, e) is the specification's normalised projection of the row. -/
theorem refMM_apply (w : Spec.W) {x : FVec Ideal S16384x128 .f32} {a7 : FVec Ideal S128x128 .f32}
    {a8 a9 a10 : FVec Ideal S128 .f32} (hW : w.mmW = a7) (hb : w.mmb = a8) (hg : w.lng = a9) (hbe : w.lnb = a10)
    (b : Fin 16384) (e : Fin 128) :
    refMM x a7 a8 a9 a10 (ix2 b e) = Spec.mmRow w (fun k => x (ix2 b k)) e := by
  have hlin : (fun e' => refLin x a7 a8 (ix2 b e')) = Spec.lin w (fun k => x (ix2 b k)) := by
    funext e'; rw [refLin_apply]; unfold Spec.lin; rw [hW, hb]
  have hmean : refMean (refLin x a7 a8) (ix2 b (0 : Fin 1)) = Spec.mean128 (Spec.lin w (fun k => x (ix2 b k))) := by
    rw [refMean_apply, hlin]
  have hdev : ∀ e', refLin x a7 a8 (ix2 b e') - refMean (refLin x a7 a8) (ix2 b (0 : Fin 1))
      = Spec.dev w (fun k => x (ix2 b k)) e' := by
    intro e'; rw [hmean]; unfold Spec.dev; rw [← hlin]
  have hvar : refVar (refLin x a7 a8) (constantI S_ 32 0#32) (ix2 b (0 : Fin 1)) = Spec.var w (fun k => x (ix2 b k)) := by
    rw [refVar_apply, hlin]
    unfold Spec.var Spec.dev
    refine congrArg Spec.mean128 (funext fun k => ?_)
    rw [show refLin x a7 a8 (ix2 b k) = Spec.lin w (fun k => x (ix2 b k)) k from congrFun hlin k]
  unfold refMM Spec.mmRow
  rw [maximumf_apply, addf_apply, mulf_apply, hostDivf_apply, subf_apply, bcol_apply, bcol_apply, refRow128_apply,
    refRow128_apply, hdev, broadcastInDim_scalar_apply, constant_apply, Ideal.ofBits_zero_f32]
  show max (Ideal.div (Spec.dev w (fun k => x (ix2 b k)) e)
      (Ideal.sqrt (addf (refVar (refLin x a7 a8) (constantI S_ 32 0#32))
        (broadcastInDim S16384x1 ![] bcast_S_S16384x1 (constant S_ .f32 0x3727C5AC#32)) (ix2 b (0 : Fin 1))))
      * a9 (ix1 e) + a10 (ix1 e)) 0 = _
  rw [addf_apply, hvar, scal_apply, constant_apply]
  show max (Ideal.div (Spec.dev w (fun k => x (ix2 b k)) e) (Ideal.sqrt (Spec.var w (fun k => x (ix2 b k)) + Spec.eps))
      * a9 (ix1 e) + a10 (ix1 e)) 0 = _
  rw [← Spec.mul_rsqrt_eq_div_sqrt _ (Spec.var_eps_pos w _), hg, hbe]

end Cert.ReferenceIdeal.RV

end
-- ==== Proof.RefGate.lean ====
/-
  The reference's field stack, its gate and its gated fields, as functions of the arrays they read.

  The six fields of every batch row (a zero field and five given ones) are laid side by side along a middle
  axis; the gate of a field is the logistic of a two-layer map of the six lane means; the gated fields are the
  fields times their gates.  Each is read at an index and shown to be the row function of the specification.
-/
import proofs.«429925_j71167608094992_2_alg».proof.Proof.Gen.ReferenceIdeal
import proofs.«429925_j71167608094992_2_alg».proof.Proof.Spec
import Idealize.ShloMosaic.Lib.IdealHost
import Idealize.ShloMosaic.Lib.Pipeline.Value
import Idealize.ShloMosaic.Lib.ValueLayout

set_option synthInstance.maxSize 4096

noncomputable section

namespace Cert.ReferenceIdeal.RV

open Idealize.ShloMosaic Idealize.SL.Sem Idealize.ShloMosaic.ValueIdx Cert.ReferenceIdeal Cert.ReferenceIdeal.Gen
open scoped BigOperators

variable {F : FTy → Type} [FloatOps F]

/-- One field given a middle axis of extent one. -/
def refLift (f : FVec F S16384x128 .f32) : FVec F S16384x1x128 .f32 :=
  broadcastInDim S16384x1x128 ![0, 2] bcast_S16384x128_S16384x1x128_0_2 f

/-- The zero field. -/
def refZero : FVec F S16384x128 .f32 :=
  broadcastInDim S16384x128 ![] bcast_S_S16384x128 (constant S_ .f32 0x00000000#32)

/-- The six fields side by side along the middle axis: the zero field, then the five given ones. -/
def refX (f1 f2 f3 f4 f5 : FVec F S16384x128 .f32) : FVec F S16384x6x128 .f32 :=
  concatenate S16384x6x128 1
    [⟨S16384x1x128, refLift (refZero (F := F))⟩, ⟨S16384x1x128, refLift f1⟩, ⟨S16384x1x128, refLift f2⟩,
     ⟨S16384x1x128, refLift f3⟩, ⟨S16384x1x128, refLift f4⟩, ⟨S16384x1x128, refLift f5⟩]
    concatenates_S16384x1x128_S16384x1x128_S16384x1x128_S16384x1x128_S16384x1x128_S16384x1x128_S16384x6x128_d1

/-- The lane mean of every field: the lane sum divided by 128. -/
def refZ (x : FVec F S16384x6x128 .f32) : FVec F S16384x6 .f32 :=
  Host.divf (Host.reduceAdd x (constant S_ .f32 0x00000000#32) reducesTo_S16384x6x128_S16384x6_d2 h_S_)
    (broadcastInDim S16384x6 ![] bcast_S_S16384x6 (constant S_ .f32 0x43000000#32))

/-- The hidden layer of the gate: a linear map of the six means, clamped at zero. -/
def refHid (x : FVec F S16384x6x128 .f32) (a11 : FVec F S6x3 .f32) (a12 : FVec F S3 .f32) : FVec F S16384x3 .f32 :=
  maximumf
    (addf (Host.dotGeneral dot_S16384x6_S6x3_S16384x3_1_0_0_1_n_n none (refZ x) a11)
      (broadcastInDim S16384x3 ![0, 1] bcast_S1x3_S16384x3_0_1 (broadcastInDim S1x3 ![1] bcast_S3_S1x3_1 a12)))
    (broadcastInDim S16384x3 ![] bcast_S_S16384x3 (constant S_ .f32 0x00000000#32))

/-- The argument of the gate's logistic: a linear map of the hidden layer. -/
def refPre (x : FVec F S16384x6x128 .f32) (a11 : FVec F S6x3 .f32) (a12 : FVec F S3 .f32) (a13 : FVec F S3x6 .f32)
    (a14 : FVec F S6 .f32) : FVec F S16384x6 .f32 :=
  addf (Host.dotGeneral dot_S16384x3_S3x6_S16384x6_1_0_0_1_n_n none (refHid x a11 a12) a13)
    (broadcastInDim S16384x6 ![0, 1] bcast_S1x6_S16384x6_0_1 (broadcastInDim S1x6 ![1] bcast_S6_S1x6_1 a14))

/-- The gate of every field: one over one plus the exponential of the negated argument. -/
def refGate (x : FVec F S16384x6x128 .f32) (a11 : FVec F S6x3 .f32) (a12 : FVec F S3 .f32) (a13 : FVec F S3x6 .f32)
    (a14 : FVec F S6 .f32) : FVec F S16384x6 .f32 :=
  Host.divf (broadcastInDim S16384x6 ![] bcast_S_S16384x6 (constant S_ .f32 0x3F800000#32))
    (addf (broadcastInDim S16384x6 ![] bcast_S_S16384x6 (constant S_ .f32 0x3F800000#32))
      (Host.exp (Host.negf (refPre x a11 a12 a13 a14))))

/-- The gated fields: every lane of a field times the field's gate. -/
def refXs (x : FVec F S16384x6x128 .f32) (g : FVec F S16384x6 .f32) : FVec F S16384x6x128 .f32 :=
  mulf x (broadcastInDim S16384x6x128 ![0, 1, 2] bcast_S16384x6x1_S16384x6x128_0_1_2
    (broadcastInDim S16384x6x1 ![0, 1] bcast_S16384x6_S16384x6x1_0_1 g))

/-! ## The field stack at an index -/

/-- A lifted field at row `b`, lane `e` is the field there. -/
theorem refLift_apply (f : FVec F S16384x128 .f32) (b : Fin 16384) (e : Fin 128) :
    refLift f (ix3 b (0 : Fin 1) e) = f (ix2 b e) := by
  unfold refLift
  refine broadcastInDim_apply _ _ f _ (ix2 b e) ?_
  intro a
  match a with
  | ⟨0, _⟩ => rfl
  | ⟨1, _⟩ => rfl

/-- The zero field is zero everywhere. -/
theorem refZero_apply (j : S16384x128.Idx) : refZero (F := Ideal) j = 0 := by
  unfold refZero
  rw [broadcastInDim_scalar_apply, constant_apply]
  exact Ideal.ofBits_zero_f32

/-- The stack at field 0 is the lifted zero field. -/
theorem refX_at0 (f1 f2 f3 f4 f5 : FVec Ideal S16384x128 .f32) (b : Fin 16384) (e : Fin 128) :
    refX f1 f2 f3 f4 f5 (ix3 b (0 : Fin 6) e) = 0 := by
  unfold refX
  refine (concatenate_apply_piece 1 _ _ (ix3 b (0 : Fin 6) e) 0 (by simp) S16384x1x128 (refLift (refZero (F := Ideal))) rfl rfl 0 rfl
    (ix3 b (0 : Fin 1) e) ?_ rfl).trans ?_
  · intro a ha
    match a, ha with
    | ⟨0, _⟩, _ => rfl
    | ⟨1, _⟩, ha => exact absurd rfl ha
    | ⟨2, _⟩, _ => rfl
  · rw [refLift_apply, refZero_apply]

/-- The stack at field 1 is the first given field. -/
theorem refX_at1 (f1 f2 f3 f4 f5 : FVec Ideal S16384x128 .f32) (b : Fin 16384) (e : Fin 128) :
    refX f1 f2 f3 f4 f5 (ix3 b (1 : Fin 6) e) = f1 (ix2 b e) := by
  unfold refX
  refine (concatenate_apply_piece 1 _ _ (ix3 b (1 : Fin 6) e) 1 (by simp) S16384x1x128 (refLift f1) rfl rfl 1 rfl
    (ix3 b (0 : Fin 1) e) ?_ rfl).trans (refLift_apply f1 b e)
  intro a ha
  match a, ha with
  | ⟨0, _⟩, _ => rfl
  | ⟨1, _⟩, ha => exact absurd rfl ha
  | ⟨2, _⟩, _ => rfl

/-- The stack at field 2 is the second given field. -/
theorem refX_at2 (f1 f2 f3 f4 f5 : FVec Ideal S16384x128 .f32) (b : Fin 16384) (e : Fin 128) :
    refX f1 f2 f3 f4 f5 (ix3 b (2 : Fin 6) e) = f2 (ix2 b e) := by
  unfold refX
  refine (concatenate_apply_piece 1 _ _ (ix3 b (2 : Fin 6) e) 2 (by simp) S16384x1x128 (refLift f2) rfl rfl 2 rfl
    (ix3 b (0 : Fin 1) e) ?_ rfl).trans (refLift_apply f2 b e)
  intro a ha
  match a, ha with
  | ⟨0, _⟩, _ => rfl
  | ⟨1, _⟩, ha => exact absurd rfl ha
  | ⟨2, _⟩, _ => rfl

/-- The stack at field 3 is the third given field. -/
theorem refX_at3 (f1 f2 f3 f4 f5 : FVec Ideal S16384x128 .f32) (b : Fin 16384) (e : Fin 128) :
    refX f1 f2 f3 f4 f5 (ix3 b (3 : Fin 6) e) = f3 (ix2 b e) := by
  unfold refX
  refine (concatenate_apply_piece 1 _ _ (ix3 b (3 : Fin 6) e) 3 (by simp) S16384x1x128 (refLift f3) rfl rfl 3 rfl
    (ix3 b (0 : Fin 1) e) ?_ rfl).trans (refLift_apply f3 b e)
  intro a ha
  match a, ha with
  | ⟨0, _⟩, _ => rfl
  | ⟨1, _⟩, ha => exact absurd rfl ha
  | ⟨2, _⟩, _ => rfl

/-- The stack at field 4 is the fourth given field. -/
theorem refX_at4 (f1 f2 f3 f4 f5 : FVec Ideal S16384x128 .f32) (b : Fin 16384) (e : Fin 128) :
    refX f1 f2 f3 f4 f5 (ix3 b (4 : Fin 6) e) = f4 (ix2 b e) := by
  unfold refX
  refine (concatenate_apply_piece 1 _ _ (ix3 b (4 : Fin 6) e) 4 (by simp) S16384x1x128 (refLift f4) rfl rfl 4 rfl
    (ix3 b (0 : Fin 1) e) ?_ rfl).trans (refLift_apply f4 b e)
  intro a ha
  match a, ha with
  | ⟨0, _⟩, _ => rfl
  | ⟨1, _⟩, ha => exact absurd rfl ha
  | ⟨2, _⟩, _ => rfl

/-- The stack at field 5 is the fifth given field. -/
theorem refX_at5 (f1 f2 f3 f4 f5 : FVec Ideal S16384x128 .f32) (b : Fin 16384) (e : Fin 128) :
    refX f1 f2 f3 f4 f5 (ix3 b (5 : Fin 6) e) = f5 (ix2 b e) := by
  unfold refX
  refine (concatenate_apply_piece 1 _ _ (ix3 b (5 : Fin 6) e) 5 (by simp) S16384x1x128 (refLift f5) rfl rfl 5 rfl
    (ix3 b (0 : Fin 1) e) ?_ rfl).trans (refLift_apply f5 b e)
  intro a ha
  match a, ha with
  | ⟨0, _⟩, _ => rfl
  | ⟨1, _⟩, ha => exact absurd rfl ha
  | ⟨2, _⟩, _ => rfl

/-- The stack at row `b`, field `f`, lane `e` is the specification's field of the row, given that the five fields are. -/
theorem refX_apply (w : Spec.W) (r : Spec.Row) (f1 f2 f3 f4 f5 : FVec Ideal S16384x128 .f32) (b : Fin 16384)
    (h1 : ∀ e, f1 (ix2 b e) = Spec.field w r 1 e) (h2 : ∀ e, f2 (ix2 b e) = Spec.field w r 2 e)
    (h3 : ∀ e, f3 (ix2 b e) = Spec.field w r 3 e) (h4 : ∀ e, f4 (ix2 b e) = Spec.field w r 4 e)
    (h5 : ∀ e, f5 (ix2 b e) = Spec.field w r 5 e) (f : Fin 6) (e : Fin 128) :
    refX f1 f2 f3 f4 f5 (ix3 b f e) = Spec.field w r f e := by
  match f with
  | ⟨0, _⟩ => exact refX_at0 f1 f2 f3 f4 f5 b e
  | ⟨1, _⟩ => exact (refX_at1 f1 f2 f3 f4 f5 b e).trans (h1 e)
  | ⟨2, _⟩ => exact (refX_at2 f1 f2 f3 f4 f5 b e).trans (h2 e)
  | ⟨3, _⟩ => exact (refX_at3 f1 f2 f3 f4 f5 b e).trans (h3 e)
  | ⟨4, _⟩ => exact (refX_at4 f1 f2 f3 f4 f5 b e).trans (h4 e)
  | ⟨5, _⟩ => exact (refX_at5 f1 f2 f3 f4 f5 b e).trans (h5 e)

/-! ## The gate at an index -/

/-- The shape fact naming the inserted lane coordinate of the lane sum. -/
theorem reduces_lane : S16384x6x128.Reduces [2] S16384x6 := by decide

/-- The index over `(b, f)` with lane `k` inserted is `(b, f, k)`. -/
theorem lift_lane (b : Fin 16384) (f : Fin 6) (k : Fin 128) :
    reduces_lane.lift (ix2 b f) k = ix3 b f k := by
  funext c
  apply Fin.ext
  match c with
  | ⟨0, _⟩ => rfl
  | ⟨1, _⟩ => rfl
  | ⟨2, _⟩ => rfl

/-- The lane mean of field `f` of row `b`: the sum of its 128 lanes divided by 128. -/
theorem refZ_apply (x : FVec Ideal S16384x6x128 .f32) (b : Fin 16384) (f : Fin 6) :
    refZ x (ix2 b f) = Spec.mean128 fun e => x (ix3 b f e) := by
  unfold refZ Spec.mean128
  rw [hostDivf_apply, hostReduceAdd_apply, broadcastInDim_scalar_apply, constant_apply, constant_apply,
    Ideal.hostReduceAdd_single reducesTo_S16384x6x128_S16384x6_d2 reduces_lane, Ideal.ofBits_zero_f32, zero_add]
  have hsum : (∑ k : Fin (S16384x6x128.size 2), x (reduces_lane.lift (ix2 b f) k)) = ∑ k : Fin 128, x (ix3 b f k) :=
    Finset.sum_congr rfl fun k _ => congrArg x (lift_lane b f k)
  rw [hsum]
  rfl

theorem lhs_A_0 (j : S16384x3.Idx) (k : dot_S16384x6_S6x3_S16384x3_1_0_0_1_n_n.contr.Idx) :
    (dot_S16384x6_S6x3_S16384x3_1_0_0_1_n_n.lhsIdx j k 0).val = (j 0).val := rfl
theorem lhs_A_1 (j : S16384x3.Idx) (k : dot_S16384x6_S6x3_S16384x3_1_0_0_1_n_n.contr.Idx) :
    (dot_S16384x6_S6x3_S16384x3_1_0_0_1_n_n.lhsIdx j k 1).val = (k ⟨0, by decide⟩).val :=
  dot_S16384x6_S6x3_S16384x3_1_0_0_1_n_n.lhsIdx_val_of_single rfl j k
theorem rhs_A_0 (j : S16384x3.Idx) (k : dot_S16384x6_S6x3_S16384x3_1_0_0_1_n_n.contr.Idx) :
    (dot_S16384x6_S6x3_S16384x3_1_0_0_1_n_n.rhsIdx j k 0).val = (k ⟨0, by decide⟩).val :=
  dot_S16384x6_S6x3_S16384x3_1_0_0_1_n_n.rhsIdx_val_of_single rfl j k
theorem rhs_A_1 (j : S16384x3.Idx) (k : dot_S16384x6_S6x3_S16384x3_1_0_0_1_n_n.contr.Idx) :
    (dot_S16384x6_S6x3_S16384x3_1_0_0_1_n_n.rhsIdx j k 1).val = (j 1).val := rfl

/-- The first linear map of the gate at row `b`, hidden unit `n`: the sum over the six fields. -/
theorem dot_A_apply (l : FVec Ideal S16384x6 .f32) (r : FVec Ideal S6x3 .f32) (b : Fin 16384) (n : Fin 3) :
    Host.dotGeneral dot_S16384x6_S6x3_S16384x3_1_0_0_1_n_n none l r (ix2 b n) = ∑ k : Fin 6, l (ix2 b k) * r (ix2 k n) := by
  simp only [Host.dotGeneral]
  rw [Ideal.dotGeneral_apply, ← Equiv.sum_comp (contrEquiv1 dot_S16384x6_S6x3_S16384x3_1_0_0_1_n_n 6 rfl rfl).symm]
  refine Finset.sum_congr rfl fun k _ => ?_
  have hk := contrEquiv1_symm_val dot_S16384x6_S6x3_S16384x3_1_0_0_1_n_n 6 rfl rfl k
  have hl : dot_S16384x6_S6x3_S16384x3_1_0_0_1_n_n.lhsIdx (ix2 b n) ((contrEquiv1 dot_S16384x6_S6x3_S16384x3_1_0_0_1_n_n 6 rfl rfl).symm k) = ix2 b k := by
    funext a
    apply Fin.ext
    match a with
    | ⟨0, _⟩ => exact lhs_A_0 _ _
    | ⟨1, _⟩ => exact (lhs_A_1 _ _).trans hk
  have hr : dot_S16384x6_S6x3_S16384x3_1_0_0_1_n_n.rhsIdx (ix2 b n) ((contrEquiv1 dot_S16384x6_S6x3_S16384x3_1_0_0_1_n_n 6 rfl rfl).symm k) = ix2 k n := by
    funext a
    apply Fin.ext
    match a with
    | ⟨0, _⟩ => exact (rhs_A_0 _ _).trans hk
    | ⟨1, _⟩ => exact rhs_A_1 _ _
  rw [hl, hr]

theorem lhs_B_0 (j : S16384x6.Idx) (k : dot_S16384x3_S3x6_S16384x6_1_0_0_1_n_n.contr.Idx) :
    (dot_S16384x3_S3x6_S16384x6_1_0_0_1_n_n.lhsIdx j k 0).val = (j 0).val := rfl
theorem lhs_B_1 (j : S16384x6.Idx) (k : dot_S16384x3_S3x6_S16384x6_1_0_0_1_n_n.contr.Idx) :
    (dot_S16384x3_S3x6_S16384x6_1_0_0_1_n_n.lhsIdx j k 1).val = (k ⟨0, by decide⟩).val :=
  dot_S16384x3_S3x6_S16384x6_1_0_0_1_n_n.lhsIdx_val_of_single rfl j k
theorem rhs_B_0 (j : S16384x6.Idx) (k : dot_S16384x3_S3x6_S16384x6_1_0_0_1_n_n.contr.Idx) :
    (dot_S16384x3_S3x6_S16384x6_1_0_0_1_n_n.rhsIdx j k 0).val = (k ⟨0, by decide⟩).val :=
  dot_S16384x3_S3x6_S16384x6_1_0_0_1_n_n.rhsIdx_val_of_single rfl j k
theorem rhs_B_1 (j : S16384x6.Idx) (k : dot_S16384x3_S3x6_S16384x6_1_0_0_1_n_n.contr.Idx) :
    (dot_S16384x3_S3x6_S16384x6_1_0_0_1_n_n.rhsIdx j k 1).val = (j 1).val := rfl

/-- The second linear map of the gate at row `b`, field `n`: the sum over the three hidden units. -/
theorem dot_B_apply (l : FVec Ideal S16384x3 .f32) (r : FVec Ideal S3x6 .f32) (b : Fin 16384) (n : Fin 6) :
    Host.dotGeneral dot_S16384x3_S3x6_S16384x6_1_0_0_1_n_n none l r (ix2 b n) = ∑ k : Fin 3, l (ix2 b k) * r (ix2 k n) := by
  simp only [Host.dotGeneral]
  rw [Ideal.dotGeneral_apply, ← Equiv.sum_comp (contrEquiv1 dot_S16384x3_S3x6_S16384x6_1_0_0_1_n_n 3 rfl rfl).symm]
  refine Finset.sum_congr rfl fun k _ => ?_
  have hk := contrEquiv1_symm_val dot_S16384x3_S3x6_S16384x6_1_0_0_1_n_n 3 rfl rfl k
  have hl : dot_S16384x3_S3x6_S16384x6_1_0_0_1_n_n.lhsIdx (ix2 b n) ((contrEquiv1 dot_S16384x3_S3x6_S16384x6_1_0_0_1_n_n 3 rfl rfl).symm k) = ix2 b k := by
    funext a
    apply Fin.ext
    match a with
    | ⟨0, _⟩ => exact lhs_B_0 _ _
    | ⟨1, _⟩ => exact (lhs_B_1 _ _).trans hk
  have hr : dot_S16384x3_S3x6_S16384x6_1_0_0_1_n_n.rhsIdx (ix2 b n) ((contrEquiv1 dot_S16384x3_S3x6_S16384x6_1_0_0_1_n_n 3 rfl rfl).symm k) = ix2 k n := by
    funext a
    apply Fin.ext
    match a with
    | ⟨0, _⟩ => exact (rhs_B_0 _ _).trans hk
    | ⟨1, _⟩ => exact rhs_B_1 _ _
  rw [hl, hr]

/-- A bias over the three hidden units, broadcast over the rows, read at `(b, j)`. -/
theorem bias3_apply (a12 : FVec Ideal S3 .f32) (b : Fin 16384) (j : Fin 3) :
    broadcastInDim S16384x3 ![0, 1] bcast_S1x3_S16384x3_0_1 (broadcastInDim S1x3 ![1] bcast_S3_S1x3_1 a12) (ix2 b j)
      = a12 (ix1 j) := by
  refine (broadcastInDim_apply _ _ _ (ix2 b j) (ix2 (0 : Fin 1) j) ?_).trans
    (broadcastInDim_apply _ _ a12 (ix2 (0 : Fin 1) j) (ix1 j) ?_)
  · intro a
    match a with
    | ⟨0, _⟩ => rfl
    | ⟨1, _⟩ => rfl
  · intro a
    match a with
    | ⟨0, _⟩ => rfl

/-- A bias over the six fields, broadcast over the rows, read at `(b, f)`. -/
theorem bias6_apply (a14 : FVec Ideal S6 .f32) (b : Fin 16384) (f : Fin 6) :
    broadcastInDim S16384x6 ![0, 1] bcast_S1x6_S16384x6_0_1 (broadcastInDim S1x6 ![1] bcast_S6_S1x6_1 a14) (ix2 b f)
      = a14 (ix1 f) := by
  refine (broadcastInDim_apply _ _ _ (ix2 b f) (ix2 (0 : Fin 1) f) ?_).trans
    (broadcastInDim_apply _ _ a14 (ix2 (0 : Fin 1) f) (ix1 f) ?_)
  · intro a
    match a with
    | ⟨0, _⟩ => rfl
    | ⟨1, _⟩ => rfl
  · intro a
    match a with
    | ⟨0, _⟩ => rfl

/-- The lane mean of a field of the stack is the specification's, when the stack holds the specification's fields. -/
theorem refZ_spec (w : Spec.W) (r : Spec.Row) (x : FVec Ideal S16384x6x128 .f32) (b : Fin 16384)
    (hx : ∀ f e, x (ix3 b f e) = Spec.field w r f e) (f : Fin 6) : refZ x (ix2 b f) = Spec.z w r f := by
  rw [refZ_apply]
  unfold Spec.z
  exact congrArg Spec.mean128 (funext (hx f))

/-- The hidden layer of the gate at row `b`. -/
theorem refHid_apply (w : Spec.W) (r : Spec.Row) (x : FVec Ideal S16384x6x128 .f32) (a11 : FVec Ideal S6x3 .f32)
    (a12 : FVec Ideal S3 .f32) (hW1 : w.seW1 = a11) (hb1 : w.seb1 = a12) (b : Fin 16384)
    (hx : ∀ f e, x (ix3 b f e) = Spec.field w r f e) (j : Fin 3) :
    refHid x a11 a12 (ix2 b j) = Spec.hid w r j := by
  subst hW1 hb1
  unfold refHid Spec.hid
  rw [maximumf_apply, addf_apply, dot_A_apply, bias3_apply, broadcastInDim_scalar_apply, constant_apply,
    Ideal.ofBits_zero_f32]
  simp only [refZ_spec w r x b hx]

/-- The argument of the gate's logistic at row `b`, field `f`. -/
theorem refPre_apply (w : Spec.W) (r : Spec.Row) (x : FVec Ideal S16384x6x128 .f32) (a11 : FVec Ideal S6x3 .f32)
    (a12 : FVec Ideal S3 .f32) (a13 : FVec Ideal S3x6 .f32) (a14 : FVec Ideal S6 .f32)
    (hW1 : w.seW1 = a11) (hb1 : w.seb1 = a12) (hW2 : w.seW2 = a13) (hb2 : w.seb2 = a14) (b : Fin 16384)
    (hx : ∀ f e, x (ix3 b f e) = Spec.field w r f e) (f : Fin 6) :
    refPre x a11 a12 a13 a14 (ix2 b f) = (∑ j : Fin 3, Spec.hid w r j * w.seW2 (ix2 j f)) + w.seb2 (ix1 f) := by
  subst hW2 hb2
  unfold refPre
  rw [addf_apply, dot_B_apply, bias6_apply]
  simp only [refHid_apply w r x a11 a12 hW1 hb1 b hx]

/-- The exponential of a negated array at an index. -/
theorem hostExp_negf_apply {s : Shape} (y : FVec Ideal s .f32) (i : s.Idx) :
    Host.exp (Host.negf y) i = Ideal.exp (-(y i)) := rfl

/-- The gate at row `b`, field `f` is the specification's gate of the row, when the stack holds the specification's
    fields: one over one plus the exponential of the negated argument is the logistic of the argument. -/
theorem refGate_apply (w : Spec.W) (r : Spec.Row) (x : FVec Ideal S16384x6x128 .f32) (a11 : FVec Ideal S6x3 .f32)
    (a12 : FVec Ideal S3 .f32) (a13 : FVec Ideal S3x6 .f32) (a14 : FVec Ideal S6 .f32)
    (hW1 : w.seW1 = a11) (hb1 : w.seb1 = a12) (hW2 : w.seW2 = a13) (hb2 : w.seb2 = a14) (b : Fin 16384)
    (hx : ∀ f e, x (ix3 b f e) = Spec.field w r f e) (f : Fin 6) :
    refGate x a11 a12 a13 a14 (ix2 b f) = Spec.gate w r f := by
  unfold refGate Spec.gate Ideal.logistic
  rw [hostDivf_apply, addf_apply, hostExp_negf_apply, broadcastInDim_scalar_apply, constant_apply,
    Ideal.ofBits_one_f32, refPre_apply w r x a11 a12 a13 a14 hW1 hb1 hW2 hb2 b hx]

/-! ## The gated fields at an index -/

/-- A per-field value broadcast along the lanes, read at `(b, f, e)`, is the value at `(b, f)`. -/
theorem lanes_apply (g : FVec Ideal S16384x6 .f32) (b : Fin 16384) (f : Fin 6) (e : Fin 128) :
    broadcastInDim S16384x6x128 ![0, 1, 2] bcast_S16384x6x1_S16384x6x128_0_1_2
      (broadcastInDim S16384x6x1 ![0, 1] bcast_S16384x6_S16384x6x1_0_1 g) (ix3 b f e) = g (ix2 b f) := by
  refine (broadcastInDim_apply _ _ _ (ix3 b f e) (ix3 b f (0 : Fin 1)) ?_).trans
    (broadcastInDim_apply _ _ g (ix3 b f (0 : Fin 1)) (ix2 b f) ?_)
  · intro a
    match a with
    | ⟨0, _⟩ => rfl
    | ⟨1, _⟩ => rfl
    | ⟨2, _⟩ => rfl
  · intro a
    match a with
    | ⟨0, _⟩ => rfl
    | ⟨1, _⟩ => rfl

/-- The gated field `f` of row `b` at lane `e` is the specification's, when the stack holds the specification's fields
    and the gates are the specification's gates. -/
theorem refXs_apply (w : Spec.W) (r : Spec.Row) (x : FVec Ideal S16384x6x128 .f32) (g : FVec Ideal S16384x6 .f32)
    (b : Fin 16384) (hx : ∀ f e, x (ix3 b f e) = Spec.field w r f e) (hg : ∀ f, g (ix2 b f) = Spec.gate w r f)
    (f : Fin 6) (e : Fin 128) : refXs x g (ix3 b f e) = Spec.xs w r f e := by
  unfold refXs Spec.xs
  rw [mulf_apply, lanes_apply, hx, hg]

end Cert.ReferenceIdeal.RV

end
-- ==== Proof.RefPairs.lean ====
/-
  The reference's pair stage as one function of the gated fields and the bilinear weight.

  The gated fields of a row, an array of six fields by 128 lanes, are taken through the bilinear weight field by
  field; for each of the fifteen pairs i < j, in the order (0,1), (0,2), …, (4,5), the first table selects gated
  field i and the second the bilinear image of field j, and the two are multiplied lane by lane; the six gated
  fields flattened to 768 columns and the fifteen products flattened to 1920 columns are laid side by side.

  At the extended reals this is the specification's 2688 columns: the first 768 columns are the six gated fields
  in order; the five pairs whose first field is the zero field give zero blocks, since zero times anything is
  zero; the remaining ten blocks are the products of a gated field with the bilinear image of a later one.
-/
import proofs.«429925_j71167608094992_2_alg».proof.Proof.Gen.ReferenceIdeal
import proofs.«429925_j71167608094992_2_alg».proof.Proof.Spec
import Idealize.ShloMosaic.Lib.ValueIdx
import Idealize.ShloMosaic.Lib.Pipeline.Value
import Idealize.ShloMosaic.Lib.IdealHost
import Idealize.ShloMosaic.PureOps.Ideal.Laws

set_option synthInstance.maxSize 4096

noncomputable section

namespace Cert.ReferenceIdeal.RV

open Idealize.ShloMosaic Idealize.SL.Sem Cert.ReferenceIdeal
open Idealize.ShloMosaic.ValueIdx
open Cert.ReferenceIdeal.Facts₀
open scoped BigOperators

section defs
variable {F : FTy → Type} [FloatOps F]

/-- A table of fifteen field numbers as the column of start indices a selection along the field axis reads:
    six is added where the entry is negative (nowhere: the condition is the constant false), and the
    fifteen entries are stood up as a 15 × 1 column. -/
def refPairTab (lit : Fin 15 → BitVec 32) : IVec S15x1 32 :=
  broadcastInDim S15x1 ![0] bcast_S15_S15x1_0
    (select (constantI S15 1 0#1)
      (addi (fun i => lit (S15.rowMajor i)) (broadcastInDim S15 ![] bcast_S_S15 (constantI S_ 32 6#32)))
      (fun i => lit (S15.rowMajor i)))

/-- The bilinear image of every gated field: the contraction of the lane axis with the weight's first axis. -/
def refBil (xs : FVec F S16384x6x128 .f32) (a15 : FVec F S128x128 .f32) : FVec F S16384x6x128 .f32 :=
  Host.dotGeneral dot_S16384x6x128_S128x128_S16384x6x128_2_0_01_1_n_n none xs a15

/-- The first fields of the fifteen pairs, selected from the gated fields. -/
def refLeft (xs : FVec F S16384x6x128 .f32) : FVec F S16384x15x128 .f32 :=
  Host.gather gather_S16384x6x128_S15x1_S16384x15x128_02_1_n_n_1_1_163841128 xs (refPairTab lit0)

/-- The second fields of the fifteen pairs, selected from the bilinear images. -/
def refRight (xs : FVec F S16384x6x128 .f32) (a15 : FVec F S128x128 .f32) : FVec F S16384x15x128 .f32 :=
  Host.gather gather_S16384x6x128_S15x1_S16384x15x128_02_1_n_n_1_1_163841128 (refBil xs a15) (refPairTab lit1)

/-- The fifteen lane-wise products. -/
def refProd (xs : FVec F S16384x6x128 .f32) (a15 : FVec F S128x128 .f32) : FVec F S16384x15x128 .f32 :=
  mulf (refLeft xs) (refRight xs a15)

/-- The 2688 columns: the gated fields flattened, then the products flattened. -/
def refC (xs : FVec F S16384x6x128 .f32) (a15 : FVec F S128x128 .f32) : FVec F S16384x2688 .f32 :=
  concatenate S16384x2688 1
    [⟨S16384x768, shapeCast S16384x768 xs shapeCasts_S16384x6x128_S16384x768⟩,
     ⟨S16384x1920, shapeCast S16384x1920 (refProd xs a15) shapeCasts_S16384x15x128_S16384x1920⟩]
    concatenates_S16384x768_S16384x1920_S16384x2688_d1

end defs

section ideal

/-! ## The index tables -/

/-- The column of start indices holds the table's entry: the constant-false condition keeps the entry as it is. -/
theorem refPairTab_apply (lit : Fin 15 → BitVec 32) (p : Fin 15) :
    refPairTab lit (ix2 p (0 : Fin 1)) = lit p := by
  unfold refPairTab
  refine (broadcastInDim_apply (![0]) bcast_S15_S15x1_0 _ (ix2 p (0 : Fin 1)) (ix1 p)
    (fun a => by match a with | ⟨0, _⟩ => rfl)).trans ?_
  rw [select_apply]
  refine (select_zero _ _).trans ?_
  exact congrArg lit (Fin.ext (Shape.rowMajor_val_one _))

/-- The first table's entries, clamped to the six fields, are the pairs' first fields. -/
theorem lit0_pairI : ∀ p : Fin 15, min (lit0 p).toInt.toNat 5 = (Spec.pairI p).val := by decide

/-- The second table's entries, clamped to the six fields, are the pairs' second fields. -/
theorem lit1_pairJ : ∀ p : Fin 15, min (lit1 p).toInt.toNat 5 = (Spec.pairJ p).val := by decide

/-- The first five pairs have the zero field first. -/
theorem pairI_lt5 : ∀ p : Fin 15, p.val < 5 → Spec.pairI p = 0 := by decide

/-! ## A selection along the field axis, read at an index

The operand index of result index (b, p, e): the row and the lane are the result's own, the field is the p-th
start index read as a signed integer and clamped to the six fields. -/

theorem gath_coord0 {w : Nat} (tab : IVec S15x1 w) (b : Fin 16384) (p : Fin 15) (e : Fin 128) :
    gather_S16384x6x128_S15x1_S16384x15x128_02_1_n_n_1_1_163841128.start (ix3 b p e) tab 0
      + gather_S16384x6x128_S15x1_S16384x15x128_02_1_n_n_1_1_163841128.batchCoord (ix3 b p e) 0
      + gather_S16384x6x128_S15x1_S16384x15x128_02_1_n_n_1_1_163841128.offCoord (ix3 b p e) 0 = b.val := by
  rw [GatherDims.batchCoord_eq_zero _ _ _ List.not_mem_nil]
  have hs : gather_S16384x6x128_S15x1_S16384x15x128_02_1_n_n_1_1_163841128.start (ix3 b p e) tab 0 = 0 := by
    unfold GatherDims.start
    exact dif_neg (by decide)
  have ho : gather_S16384x6x128_S15x1_S16384x15x128_02_1_n_n_1_1_163841128.offCoord (ix3 b p e) 0 = b.val := by
    unfold GatherDims.offCoord
    refine (dif_pos (by decide)).trans ?_
    rfl
  rw [hs, ho]
  omega

theorem gath_coord2 {w : Nat} (tab : IVec S15x1 w) (b : Fin 16384) (p : Fin 15) (e : Fin 128) :
    gather_S16384x6x128_S15x1_S16384x15x128_02_1_n_n_1_1_163841128.start (ix3 b p e) tab 2
      + gather_S16384x6x128_S15x1_S16384x15x128_02_1_n_n_1_1_163841128.batchCoord (ix3 b p e) 2
      + gather_S16384x6x128_S15x1_S16384x15x128_02_1_n_n_1_1_163841128.offCoord (ix3 b p e) 2 = e.val := by
  rw [GatherDims.batchCoord_eq_zero _ _ _ List.not_mem_nil]
  have hs : gather_S16384x6x128_S15x1_S16384x15x128_02_1_n_n_1_1_163841128.start (ix3 b p e) tab 2 = 0 := by
    unfold GatherDims.start
    exact dif_neg (by decide)
  have ho : gather_S16384x6x128_S15x1_S16384x15x128_02_1_n_n_1_1_163841128.offCoord (ix3 b p e) 2 = e.val := by
    unfold GatherDims.offCoord
    refine (dif_pos (by decide)).trans ?_
    rfl
  rw [hs, ho]
  omega

theorem gath_coord1 {w : Nat} (tab : IVec S15x1 w) (b : Fin 16384) (p : Fin 15) (e : Fin 128) :
    gather_S16384x6x128_S15x1_S16384x15x128_02_1_n_n_1_1_163841128.start (ix3 b p e) tab 1
      + gather_S16384x6x128_S15x1_S16384x15x128_02_1_n_n_1_1_163841128.batchCoord (ix3 b p e) 1
      + gather_S16384x6x128_S15x1_S16384x15x128_02_1_n_n_1_1_163841128.offCoord (ix3 b p e) 1
      = min (tab (ix2 p (0 : Fin 1))).toInt.toNat 5 := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (1 : Fin S16384x6x128.rank) ∈
    gather_S16384x6x128_S15x1_S16384x15x128_02_1_n_n_1_1_163841128.startIndexMap from List.mem_singleton.mpr rfl)]
  have hsi : gather_S16384x6x128_S15x1_S16384x15x128_02_1_n_n_1_1_163841128.siIdx (ix3 b p e)
      ⟨List.idxOf (1 : Fin S16384x6x128.rank) gather_S16384x6x128_S15x1_S16384x15x128_02_1_n_n_1_1_163841128.startIndexMap,
        List.idxOf_lt_length_iff.2 (List.mem_singleton.mpr rfl)⟩ = ix2 p (0 : Fin 1) := by
    funext c; refine Fin.ext ?_
    match c with
    | ⟨0, _⟩ => rfl
    | ⟨1, _⟩ => rfl
  rw [hsi]
  rfl

/-- The selection read at (b, p, e) is the operand at (b, n, e), n the clamped p-th start index. -/
theorem pairGather_apply {α : Type} (x : S16384x6x128.Idx → α) (tab : IVec S15x1 32)
    (b : Fin 16384) (p : Fin 15) (e : Fin 128) (n : Fin 6)
    (hn : min (tab (ix2 p (0 : Fin 1))).toInt.toNat 5 = n.val) :
    Host.gather gather_S16384x6x128_S15x1_S16384x15x128_02_1_n_n_1_1_163841128 x tab (ix3 b p e) = x (ix3 b n e) := by
  unfold Host.gather
  refine congrArg x (funext fun a => Fin.ext ?_)
  match a with
  | ⟨0, _⟩ => exact gath_coord0 tab b p e
  | ⟨1, _⟩ => exact (gath_coord1 tab b p e).trans hn
  | ⟨2, _⟩ => exact gath_coord2 tab b p e

/-! ## The bilinear image, read at an index -/

theorem lhs_bil_0 (i : S16384x6x128.Idx) (q : dot_S16384x6x128_S128x128_S16384x6x128_2_0_01_1_n_n.contr.Idx) :
    (dot_S16384x6x128_S128x128_S16384x6x128_2_0_01_1_n_n.lhsIdx i q 0).val = (i 0).val := by
  unfold DotDims.lhsIdx
  rw [dif_neg (show ¬(0 : Fin S16384x6x128.rank) ∈ dot_S16384x6x128_S128x128_S16384x6x128_2_0_01_1_n_n.lhsBatch by decide),
    dif_pos (show (0 : Fin S16384x6x128.rank) ∈ dot_S16384x6x128_S128x128_S16384x6x128_2_0_01_1_n_n.lhsNonContracting by decide)]
  rfl

theorem lhs_bil_1 (i : S16384x6x128.Idx) (q : dot_S16384x6x128_S128x128_S16384x6x128_2_0_01_1_n_n.contr.Idx) :
    (dot_S16384x6x128_S128x128_S16384x6x128_2_0_01_1_n_n.lhsIdx i q 1).val = (i 1).val := by
  unfold DotDims.lhsIdx
  rw [dif_neg (show ¬(1 : Fin S16384x6x128.rank) ∈ dot_S16384x6x128_S128x128_S16384x6x128_2_0_01_1_n_n.lhsBatch by decide),
    dif_pos (show (1 : Fin S16384x6x128.rank) ∈ dot_S16384x6x128_S128x128_S16384x6x128_2_0_01_1_n_n.lhsNonContracting by decide)]
  rfl

theorem lhs_bil_2 (i : S16384x6x128.Idx) (q : dot_S16384x6x128_S128x128_S16384x6x128_2_0_01_1_n_n.contr.Idx) :
    (dot_S16384x6x128_S128x128_S16384x6x128_2_0_01_1_n_n.lhsIdx i q 2).val = (q ⟨0, by decide⟩).val :=
  dot_S16384x6x128_S128x128_S16384x6x128_2_0_01_1_n_n.lhsIdx_val_of_single rfl i q

theorem rhs_bil_0 (i : S16384x6x128.Idx) (q : dot_S16384x6x128_S128x128_S16384x6x128_2_0_01_1_n_n.contr.Idx) :
    (dot_S16384x6x128_S128x128_S16384x6x128_2_0_01_1_n_n.rhsIdx i q 0).val = (q ⟨0, by decide⟩).val :=
  dot_S16384x6x128_S128x128_S16384x6x128_2_0_01_1_n_n.rhsIdx_val_of_single rfl i q

theorem rhs_bil_1 (i : S16384x6x128.Idx) (q : dot_S16384x6x128_S128x128_S16384x6x128_2_0_01_1_n_n.contr.Idx) :
    (dot_S16384x6x128_S128x128_S16384x6x128_2_0_01_1_n_n.rhsIdx i q 1).val = (i 2).val := by
  unfold DotDims.rhsIdx
  rw [dif_neg (show ¬(1 : Fin S128x128.rank) ∈ dot_S16384x6x128_S128x128_S16384x6x128_2_0_01_1_n_n.rhsBatch by decide),
    dif_pos (show (1 : Fin S128x128.rank) ∈ dot_S16384x6x128_S128x128_S16384x6x128_2_0_01_1_n_n.rhsNonContracting by decide)]
  rfl

/-- The bilinear image of field f at lane d is the sum over the lanes e of the field's lane e times the weight at (e, d). -/
theorem refBil_apply (xs : FVec Ideal S16384x6x128 .f32) (a15 : FVec Ideal S128x128 .f32)
    (b : Fin 16384) (f : Fin 6) (d : Fin 128) :
    refBil xs a15 (ix3 b f d) = ∑ e : Fin 128, xs (ix3 b f e) * a15 (ix2 e d) := by
  unfold refBil
  simp only [Host.dotGeneral]
  rw [Ideal.dotGeneral_apply,
    ← Equiv.sum_comp (contrEquiv1 dot_S16384x6x128_S128x128_S16384x6x128_2_0_01_1_n_n 128 rfl rfl).symm]
  refine Finset.sum_congr rfl fun k _ => ?_
  have hk := contrEquiv1_symm_val dot_S16384x6x128_S128x128_S16384x6x128_2_0_01_1_n_n 128 rfl rfl k
  have el : dot_S16384x6x128_S128x128_S16384x6x128_2_0_01_1_n_n.lhsIdx (ix3 b f d)
      ((contrEquiv1 dot_S16384x6x128_S128x128_S16384x6x128_2_0_01_1_n_n 128 rfl rfl).symm k) = ix3 b f k :=
    funext fun a => Fin.ext (by
      match a with
      | ⟨0, _⟩ => exact lhs_bil_0 _ _
      | ⟨1, _⟩ => exact lhs_bil_1 _ _
      | ⟨2, _⟩ => exact (lhs_bil_2 _ _).trans hk)
  have er : dot_S16384x6x128_S128x128_S16384x6x128_2_0_01_1_n_n.rhsIdx (ix3 b f d)
      ((contrEquiv1 dot_S16384x6x128_S128x128_S16384x6x128_2_0_01_1_n_n 128 rfl rfl).symm k) = ix2 k d :=
    funext fun a => Fin.ext (by
      match a with
      | ⟨0, _⟩ => exact (rhs_bil_0 _ _).trans hk
      | ⟨1, _⟩ => exact rhs_bil_1 _ _)
  rw [el, er]

/-! ## The fifteen products, read at an index -/

theorem refLeft_apply (xs : FVec Ideal S16384x6x128 .f32) (b : Fin 16384) (p : Fin 15) (e : Fin 128) :
    refLeft xs (ix3 b p e) = xs (ix3 b (Spec.pairI p) e) := by
  unfold refLeft
  exact pairGather_apply xs _ b p e (Spec.pairI p) (by rw [refPairTab_apply]; exact lit0_pairI p)

theorem refRight_apply (xs : FVec Ideal S16384x6x128 .f32) (a15 : FVec Ideal S128x128 .f32)
    (b : Fin 16384) (p : Fin 15) (e : Fin 128) :
    refRight xs a15 (ix3 b p e) = refBil xs a15 (ix3 b (Spec.pairJ p) e) := by
  unfold refRight
  exact pairGather_apply _ _ b p e (Spec.pairJ p) (by rw [refPairTab_apply]; exact lit1_pairJ p)

theorem refProd_apply (xs : FVec Ideal S16384x6x128 .f32) (a15 : FVec Ideal S128x128 .f32)
    (b : Fin 16384) (p : Fin 15) (e : Fin 128) :
    refProd xs a15 (ix3 b p e)
      = xs (ix3 b (Spec.pairI p) e) * ∑ k : Fin 128, xs (ix3 b (Spec.pairJ p) k) * a15 (ix2 k e) := by
  unfold refProd
  rw [mulf_apply, refLeft_apply, refRight_apply, refBil_apply]

/-! ## The specification's columns by block -/

/-- The gated zero field is zero. -/
theorem xs_zero_field (w : Spec.W) (r : Spec.Row) (e : Fin 128) : Spec.xs w r 0 e = 0 := by
  show (0 : EReal) * _ = 0
  exact zero_mul _

theorem cvec_low (w : Spec.W) (r : Spec.Row) (col : Fin 2688) (h : col.val / 128 < 6) :
    Spec.cvec w r col = Spec.xs w r ⟨col.val / 128, h⟩ ⟨col.val % 128, Nat.mod_lt _ (by norm_num)⟩ := by
  unfold Spec.cvec Spec.cblk
  exact dif_pos h

theorem cvec_mid (w : Spec.W) (r : Spec.Row) (col : Fin 2688) (h6 : ¬ col.val / 128 < 6) (h11 : col.val / 128 < 11) :
    Spec.cvec w r col = 0 := by
  unfold Spec.cvec Spec.cblk
  exact (dif_neg h6).trans (if_pos h11)

theorem cvec_high (w : Spec.W) (r : Spec.Row) (col : Fin 2688) (h6 : ¬ col.val / 128 < 6) (h11 : ¬ col.val / 128 < 11) :
    Spec.cvec w r col
      = Spec.xs w r (Spec.pairI ⟨col.val / 128 - 6, by omega⟩) ⟨col.val % 128, Nat.mod_lt _ (by norm_num)⟩
        * Spec.xw w r (Spec.pairJ ⟨col.val / 128 - 6, by omega⟩) ⟨col.val % 128, Nat.mod_lt _ (by norm_num)⟩ := by
  unfold Spec.cvec Spec.cblk
  exact (dif_neg h6).trans (if_neg h11)

/-! ## The 2688 columns -/

/-- The reference's pair stage computes the specification's columns. -/
theorem refC_apply (w : Spec.W) (r : Spec.Row) (xs : FVec Ideal S16384x6x128 .f32) (a15 : FVec Ideal S128x128 .f32)
    (b : Fin 16384) (hB : w.biW = a15) (hxs : ∀ (f : Fin 6) (e : Fin 128), xs (ix3 b f e) = Spec.xs w r f e)
    (col : Fin 2688) : refC xs a15 (ix2 b col) = Spec.cvec w r col := by
  subst hB
  unfold refC
  by_cases hc : col.val < 768
  · -- a column of the flattened gated fields
    have hq : col.val / 128 < 6 := by omega
    have hm : col.val % 128 < 128 := Nat.mod_lt _ (by norm_num)
    refine (concatenate_pair_apply_left _ _ _ concatenates_S16384x768_S16384x1920_S16384x2688_d1 (ix2 b col) rfl
      (ix2 b (⟨col.val, hc⟩ : Fin 768)) (fun c => by match c with | ⟨0, _⟩ => rfl | ⟨1, _⟩ => rfl)).trans ?_
    refine (shapeCast_apply xs shapeCasts_S16384x6x128_S16384x768 (ix2 b (⟨col.val, hc⟩ : Fin 768))
      (ix3 b (⟨col.val / 128, hq⟩ : Fin 6) (⟨col.val % 128, hm⟩ : Fin 128)) ?_).trans ?_
    · rw [Shape.rowMajor_val_three, Shape.rowMajor_val_two]
      show (b.val * 6 + col.val / 128) * 128 + col.val % 128 = b.val * 768 + col.val
      omega
    · rw [hxs, cvec_low w r col hq]
  · -- a column of the flattened products
    have hlt : col.val - 768 < 1920 := by have := col.isLt; omega
    have hp : (col.val - 768) / 128 < 15 := by omega
    have hm : (col.val - 768) % 128 < 128 := Nat.mod_lt _ (by norm_num)
    have h6 : ¬ col.val / 128 < 6 := by omega
    refine (concatenate_pair_apply_right _ _ _ concatenates_S16384x768_S16384x1920_S16384x2688_d1 (ix2 b col) rfl rfl
      (ix2 b (⟨col.val - 768, hlt⟩ : Fin 1920))
      (fun c => by match c with | ⟨0, _⟩ => exact fun _ => rfl | ⟨1, _⟩ => exact fun h => absurd rfl h)
      (by show col.val - 768 + 768 = col.val; omega)).trans ?_
    refine (shapeCast_apply (refProd xs w.biW) shapeCasts_S16384x15x128_S16384x1920 (ix2 b (⟨col.val - 768, hlt⟩ : Fin 1920))
      (ix3 b (⟨(col.val - 768) / 128, hp⟩ : Fin 15) (⟨(col.val - 768) % 128, hm⟩ : Fin 128)) ?_).trans ?_
    · rw [Shape.rowMajor_val_three, Shape.rowMajor_val_two]
      show (b.val * 15 + (col.val - 768) / 128) * 128 + (col.val - 768) % 128 = b.val * 1920 + (col.val - 768)
      omega
    · rw [refProd_apply]
      simp only [hxs]
      have hP : (⟨(col.val - 768) / 128, hp⟩ : Fin 15) = ⟨col.val / 128 - 6, by omega⟩ := Fin.ext (by show (col.val - 768) / 128 = col.val / 128 - 6; omega)
      have hM : (⟨(col.val - 768) % 128, hm⟩ : Fin 128) = ⟨col.val % 128, Nat.mod_lt _ (by norm_num)⟩ := Fin.ext (by show (col.val - 768) % 128 = col.val % 128; omega)
      by_cases h11 : col.val / 128 < 11
      · rw [cvec_mid w r col h6 h11, pairI_lt5 _ (by show (col.val - 768) / 128 < 5; omega), xs_zero_field, zero_mul]
      · rw [cvec_high w r col h6 h11, hP, hM]
        rfl

end ideal

end Cert.ReferenceIdeal.RV

end
-- ==== Proof.RefHead.lean ====
/-
  The reference's three-layer head, as one function of the 2688 columns of every batch row and of the
  fourteen head parameters: a linear layer with bias, a normalisation with running statistics (subtract the
  running mean, divide by the square root of the running variance plus the stabiliser, scale, shift) and a
  clamp at zero, twice; then a linear layer onto one column, with bias, and the logistic written as
  1 / (1 + exp (−x)); last the one-column matrix read as a vector.  At the extended reals its value at a
  batch row is the row function's result, given that the columns are the row function's columns and that
  the running variances are not negative: then variance plus stabiliser is positive, and dividing by its
  square root is multiplying by its reciprocal square root.
-/
import proofs.«429925_j71167608094992_2_alg».proof.Proof.Gen.ReferenceIdeal
import proofs.«429925_j71167608094992_2_alg».proof.Proof.Spec
import Idealize.ShloMosaic.Lib.IdealHost
import Idealize.ShloMosaic.Lib.KernelVsHost
import Idealize.ShloMosaic.Lib.Pipeline.Value

set_option synthInstance.maxSize 4096

noncomputable section

namespace Cert.ReferenceIdeal.RV

open Idealize.ShloMosaic Idealize.SL.Sem Idealize.ShloMosaic.ValueIdx Cert.ReferenceIdeal
open scoped BigOperators

variable {F : FTy → Type} [FloatOps F]

namespace Head

/-! ## The head as the reference writes it -/

/-- A vector of 512 laid along every batch row. -/
def rows512 (v : FVec F S512 .f32) : FVec F S16384x512 .f32 :=
  broadcastInDim S16384x512 ![0, 1] Gen.bcast_S1x512_S16384x512_0_1 (broadcastInDim S1x512 ![1] Gen.bcast_S512_S1x512_1 v)

/-- A vector of 256 laid along every batch row. -/
def rows256 (v : FVec F S256 .f32) : FVec F S16384x256 .f32 :=
  broadcastInDim S16384x256 ![0, 1] Gen.bcast_S1x256_S16384x256_0_1 (broadcastInDim S1x256 ![1] Gen.bcast_S256_S1x256_1 v)

/-- A vector of one laid along every batch row. -/
def rows1 (v : FVec F S1 .f32) : FVec F S16384x1 .f32 :=
  broadcastInDim S16384x1 ![0, 1] Gen.bcast_S1x1_S16384x1_0_1 (broadcastInDim S1x1 ![1] Gen.bcast_S1_S1x1_1 v)

/-- The first linear layer with its bias. -/
def lin1 (c : FVec F S16384x2688 .f32) (a16 : FVec F S2688x512 .f32) (a17 : FVec F S512 .f32) : FVec F S16384x512 .f32 :=
  addf (Host.dotGeneral dot_S16384x2688_S2688x512_S16384x512_1_0_0_1_n_n none c a16) (rows512 a17)

/-- The first normalisation with running statistics, and the clamp at zero. -/
def bn512 (x : FVec F S16384x512 .f32) (g be rm rv : FVec F S512 .f32) : FVec F S16384x512 .f32 :=
  maximumf
    (addf
      (mulf
        (Host.divf (subf x (rows512 rm))
          (rows512 (Host.sqrt (addf rv (broadcastInDim S512 ![] Gen.bcast_S_S512 (constant S_ .f32 0x3727C5AC#32))))))
        (rows512 g))
      (rows512 be))
    (broadcastInDim S16384x512 ![] Gen.bcast_S_S16384x512 (constant S_ .f32 0x00000000#32))

/-- The second linear layer with its bias. -/
def lin2 (x : FVec F S16384x512 .f32) (a22 : FVec F S512x256 .f32) (a23 : FVec F S256 .f32) : FVec F S16384x256 .f32 :=
  addf (Host.dotGeneral dot_S16384x512_S512x256_S16384x256_1_0_0_1_n_n none x a22) (rows256 a23)

/-- The second normalisation with running statistics, and the clamp at zero. -/
def bn256 (x : FVec F S16384x256 .f32) (g be rm rv : FVec F S256 .f32) : FVec F S16384x256 .f32 :=
  maximumf
    (addf
      (mulf
        (Host.divf (subf x (rows256 rm))
          (rows256 (Host.sqrt (addf rv (broadcastInDim S256 ![] Gen.bcast_S_S256 (constant S_ .f32 0x3727C5AC#32))))))
        (rows256 g))
      (rows256 be))
    (broadcastInDim S16384x256 ![] Gen.bcast_S_S16384x256 (constant S_ .f32 0x00000000#32))

/-- The last linear layer with its bias. -/
def lin3 (x : FVec F S16384x256 .f32) (a28 : FVec F S256x1 .f32) (a29 : FVec F S1 .f32) : FVec F S16384x1 .f32 :=
  addf (Host.dotGeneral dot_S16384x256_S256x1_S16384x1_1_0_0_1_n_n none x a28) (rows1 a29)

/-- The logistic, written as one over one plus the exponential of the negation. -/
def sigm (x : FVec F S16384x1 .f32) : FVec F S16384x1 .f32 :=
  Host.divf (broadcastInDim S16384x1 ![] Gen.bcast_S_S16384x1 (constant S_ .f32 0x3F800000#32))
    (addf (broadcastInDim S16384x1 ![] Gen.bcast_S_S16384x1 (constant S_ .f32 0x3F800000#32)) (Host.exp (Host.negf x)))

/-! ## Facts over the extended reals -/

/-- The stabiliser is a positive real. -/
theorem eps_pos : (0 : EReal) < Spec.eps := by
  unfold Spec.eps
  have h : Ideal.ofBits .f32 0x3727C5AC#32 = (((10995116 : ℝ) * (2 : ℝ) ^ (-40 : ℤ) : ℝ) : EReal) := by
    simp [Ideal.ofBits, Ideal.ieee, -EReal.coe_mul]
  rw [h]
  exact EReal.coe_pos.mpr (by positivity)

/-- A quantity that is not negative, plus the stabiliser, is positive. -/
theorem add_eps_pos {v : EReal} (h : 0 ≤ v) : 0 < v + Spec.eps :=
  lt_of_lt_of_le eps_pos (le_add_of_nonneg_left h)

/-- For a positive v, multiplying by the reciprocal square root of v is dividing by its square root. -/
theorem mul_rsqrt_eq_div_sqrt (x : EReal) {v : EReal} (hv : 0 < v) : x * Ideal.rsqrt v = Ideal.div x (Ideal.sqrt v) := by
  induction v using EReal.rec with
  | bot => exact absurd hv (by simp)
  | top =>
    show x * 0 = Ideal.div x ⊤
    unfold Ideal.div
    rw [if_neg (by simp), EReal.inv_top]
  | coe t =>
    have ht : 0 < t := EReal.coe_pos.mp hv
    have hs : 0 < Real.sqrt t := Real.sqrt_pos.mpr ht
    have h1 : Ideal.rsqrt (t : EReal) = (((Real.sqrt t)⁻¹ : ℝ) : EReal) := by
      show (if t < 0 then ⊥ else if t = 0 then ⊤ else (((Real.sqrt t)⁻¹ : ℝ) : EReal)) = _
      rw [if_neg (not_lt.mpr ht.le), if_neg ht.ne']
    have h2 : Ideal.sqrt (t : EReal) = ((Real.sqrt t : ℝ) : EReal) := by
      show (if t < 0 then ⊥ else ((Real.sqrt t : ℝ) : EReal)) = _
      rw [if_neg (not_lt.mpr ht.le)]
    rw [h1, h2]
    unfold Ideal.div
    rw [if_neg (by exact_mod_cast hs.ne'), EReal.coe_inv]

/-- One over one plus the exponential of the negation is the logistic. -/
theorem logistic_eq (x : EReal) :
    Ideal.div (Ideal.ofBits .f32 0x3F800000#32) (Ideal.ofBits .f32 0x3F800000#32 + Ideal.exp (-x)) = Ideal.logistic x := by
  rw [Ideal.ofBits_one_f32]; rfl

/-! ## Layout operations at an index -/

/-- A vector read as a one-row matrix. -/
theorem bcast_row_apply {α : Type} {n : Nat} (h : (⟨1, ![n]⟩ : Shape).BroadcastsInDim ⟨2, ![1, n]⟩ ![1])
    (v : (⟨1, ![n]⟩ : Shape).Idx → α) (t : Fin n) :
    broadcastInDim ⟨2, ![1, n]⟩ ![1] h v (ix2 (0 : Fin 1) t) = v (ix1 t) := by
  refine broadcastInDim_apply ![1] h v (ix2 (0 : Fin 1) t) (ix1 t) ?_
  intro a
  match a with
  | ⟨0, _⟩ =>
    show t.val = if n = 1 then 0 else t.val
    split_ifs with hn
    · have := t.isLt; omega
    · rfl

/-- A one-column matrix read as a vector. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

theorem rows512_apply (v : FVec F S512 .f32) (b : Fin 16384) (n : Fin 512) : rows512 v (ix2 b n) = v (ix1 n) := by
  unfold rows512
  rw [broadcastInDim_oneRow_apply, bcast_row_apply]

theorem rows256_apply (v : FVec F S256 .f32) (b : Fin 16384) (n : Fin 256) : rows256 v (ix2 b n) = v (ix1 n) := by
  unfold rows256
  rw [broadcastInDim_oneRow_apply, bcast_row_apply]

theorem rows1_apply (v : FVec F S1 .f32) (b : Fin 16384) (n : Fin 1) : rows1 v (ix2 b n) = v (ix1 n) := by
  unfold rows1
  rw [broadcastInDim_oneRow_apply, bcast_row_apply]

/-! ## The three products at an index -/

theorem lhs1_0 (i : S16384x512.Idx) (q : dot_S16384x2688_S2688x512_S16384x512_1_0_0_1_n_n.contr.Idx) :
    (dot_S16384x2688_S2688x512_S16384x512_1_0_0_1_n_n.lhsIdx i q 0).val = (i 0).val := by
  unfold DotDims.lhsIdx
  rw [dif_neg (show ¬(0 : Fin S16384x2688.rank) ∈ dot_S16384x2688_S2688x512_S16384x512_1_0_0_1_n_n.lhsBatch by decide),
    dif_pos (show (0 : Fin S16384x2688.rank) ∈ dot_S16384x2688_S2688x512_S16384x512_1_0_0_1_n_n.lhsNonContracting by decide)]
  rfl
theorem lhs1_1 (i : S16384x512.Idx) (q : dot_S16384x2688_S2688x512_S16384x512_1_0_0_1_n_n.contr.Idx) :
    (dot_S16384x2688_S2688x512_S16384x512_1_0_0_1_n_n.lhsIdx i q 1).val = (q ⟨0, by decide⟩).val :=
  dot_S16384x2688_S2688x512_S16384x512_1_0_0_1_n_n.lhsIdx_val_of_single rfl i q
theorem rhs1_0 (i : S16384x512.Idx) (q : dot_S16384x2688_S2688x512_S16384x512_1_0_0_1_n_n.contr.Idx) :
    (dot_S16384x2688_S2688x512_S16384x512_1_0_0_1_n_n.rhsIdx i q 0).val = (q ⟨0, by decide⟩).val :=
  dot_S16384x2688_S2688x512_S16384x512_1_0_0_1_n_n.rhsIdx_val_of_single rfl i q
theorem rhs1_1 (i : S16384x512.Idx) (q : dot_S16384x2688_S2688x512_S16384x512_1_0_0_1_n_n.contr.Idx) :
    (dot_S16384x2688_S2688x512_S16384x512_1_0_0_1_n_n.rhsIdx i q 1).val = (i 1).val := by
  unfold DotDims.rhsIdx
  rw [dif_neg (show ¬(1 : Fin S2688x512.rank) ∈ dot_S16384x2688_S2688x512_S16384x512_1_0_0_1_n_n.rhsBatch by decide),
    dif_pos (show (1 : Fin S2688x512.rank) ∈ dot_S16384x2688_S2688x512_S16384x512_1_0_0_1_n_n.rhsNonContracting by decide)]
  rfl

/-- The product of a [16384, 2688] by a [2688, 512] matrix at (b, n) is the sum over the 2688 inner positions. -/
theorem dot1_apply (l : FVec Ideal S16384x2688 .f32) (r : FVec Ideal S2688x512 .f32) (b : Fin 16384) (n : Fin 512) :
    Host.dotGeneral dot_S16384x2688_S2688x512_S16384x512_1_0_0_1_n_n none l r (ix2 b n) = ∑ k : Fin 2688, l (ix2 b k) * r (ix2 k n) := by
  simp only [Host.dotGeneral]
  rw [Ideal.dotGeneral_apply, ← Equiv.sum_comp (contrEquiv1 dot_S16384x2688_S2688x512_S16384x512_1_0_0_1_n_n 2688 rfl rfl).symm]
  refine Finset.sum_congr rfl fun k _ => ?_
  have hk := contrEquiv1_symm_val dot_S16384x2688_S2688x512_S16384x512_1_0_0_1_n_n 2688 rfl rfl k
  have el : dot_S16384x2688_S2688x512_S16384x512_1_0_0_1_n_n.lhsIdx (ix2 b n) ((contrEquiv1 dot_S16384x2688_S2688x512_S16384x512_1_0_0_1_n_n 2688 rfl rfl).symm k) = ix2 b k :=
    funext fun a => Fin.ext (by
      match a with
      | ⟨0, _⟩ => exact lhs1_0 _ _
      | ⟨1, _⟩ => exact (lhs1_1 _ _).trans hk)
  have er : dot_S16384x2688_S2688x512_S16384x512_1_0_0_1_n_n.rhsIdx (ix2 b n) ((contrEquiv1 dot_S16384x2688_S2688x512_S16384x512_1_0_0_1_n_n 2688 rfl rfl).symm k) = ix2 k n :=
    funext fun a => Fin.ext (by
      match a with
      | ⟨0, _⟩ => exact (rhs1_0 _ _).trans hk
      | ⟨1, _⟩ => exact rhs1_1 _ _)
  rw [el, er]

theorem lhs2_0 (i : S16384x256.Idx) (q : dot_S16384x512_S512x256_S16384x256_1_0_0_1_n_n.contr.Idx) :
    (dot_S16384x512_S512x256_S16384x256_1_0_0_1_n_n.lhsIdx i q 0).val = (i 0).val := by
  unfold DotDims.lhsIdx
  rw [dif_neg (show ¬(0 : Fin S16384x512.rank) ∈ dot_S16384x512_S512x256_S16384x256_1_0_0_1_n_n.lhsBatch by decide),
    dif_pos (show (0 : Fin S16384x512.rank) ∈ dot_S16384x512_S512x256_S16384x256_1_0_0_1_n_n.lhsNonContracting by decide)]
  rfl
theorem lhs2_1 (i : S16384x256.Idx) (q : dot_S16384x512_S512x256_S16384x256_1_0_0_1_n_n.contr.Idx) :
    (dot_S16384x512_S512x256_S16384x256_1_0_0_1_n_n.lhsIdx i q 1).val = (q ⟨0, by decide⟩).val :=
  dot_S16384x512_S512x256_S16384x256_1_0_0_1_n_n.lhsIdx_val_of_single rfl i q
theorem rhs2_0 (i : S16384x256.Idx) (q : dot_S16384x512_S512x256_S16384x256_1_0_0_1_n_n.contr.Idx) :
    (dot_S16384x512_S512x256_S16384x256_1_0_0_1_n_n.rhsIdx i q 0).val = (q ⟨0, by decide⟩).val :=
  dot_S16384x512_S512x256_S16384x256_1_0_0_1_n_n.rhsIdx_val_of_single rfl i q
theorem rhs2_1 (i : S16384x256.Idx) (q : dot_S16384x512_S512x256_S16384x256_1_0_0_1_n_n.contr.Idx) :
    (dot_S16384x512_S512x256_S16384x256_1_0_0_1_n_n.rhsIdx i q 1).val = (i 1).val := by
  unfold DotDims.rhsIdx
  rw [dif_neg (show ¬(1 : Fin S512x256.rank) ∈ dot_S16384x512_S512x256_S16384x256_1_0_0_1_n_n.rhsBatch by decide),
    dif_pos (show (1 : Fin S512x256.rank) ∈ dot_S16384x512_S512x256_S16384x256_1_0_0_1_n_n.rhsNonContracting by decide)]
  rfl

/-- The product of a [16384, 512] by a [512, 256] matrix at (b, n) is the sum over the 512 inner positions. -/
theorem dot2_apply (l : FVec Ideal S16384x512 .f32) (r : FVec Ideal S512x256 .f32) (b : Fin 16384) (n : Fin 256) :
    Host.dotGeneral dot_S16384x512_S512x256_S16384x256_1_0_0_1_n_n none l r (ix2 b n) = ∑ k : Fin 512, l (ix2 b k) * r (ix2 k n) := by
  simp only [Host.dotGeneral]
  rw [Ideal.dotGeneral_apply, ← Equiv.sum_comp (contrEquiv1 dot_S16384x512_S512x256_S16384x256_1_0_0_1_n_n 512 rfl rfl).symm]
  refine Finset.sum_congr rfl fun k _ => ?_
  have hk := contrEquiv1_symm_val dot_S16384x512_S512x256_S16384x256_1_0_0_1_n_n 512 rfl rfl k
  have el : dot_S16384x512_S512x256_S16384x256_1_0_0_1_n_n.lhsIdx (ix2 b n) ((contrEquiv1 dot_S16384x512_S512x256_S16384x256_1_0_0_1_n_n 512 rfl rfl).symm k) = ix2 b k :=
    funext fun a => Fin.ext (by
      match a with
      | ⟨0, _⟩ => exact lhs2_0 _ _
      | ⟨1, _⟩ => exact (lhs2_1 _ _).trans hk)
  have er : dot_S16384x512_S512x256_S16384x256_1_0_0_1_n_n.rhsIdx (ix2 b n) ((contrEquiv1 dot_S16384x512_S512x256_S16384x256_1_0_0_1_n_n 512 rfl rfl).symm k) = ix2 k n :=
    funext fun a => Fin.ext (by
      match a with
      | ⟨0, _⟩ => exact (rhs2_0 _ _).trans hk
      | ⟨1, _⟩ => exact rhs2_1 _ _)
  rw [el, er]

theorem lhs3_0 (i : S16384x1.Idx) (q : dot_S16384x256_S256x1_S16384x1_1_0_0_1_n_n.contr.Idx) :
    (dot_S16384x256_S256x1_S16384x1_1_0_0_1_n_n.lhsIdx i q 0).val = (i 0).val := by
  unfold DotDims.lhsIdx
  rw [dif_neg (show ¬(0 : Fin S16384x256.rank) ∈ dot_S16384x256_S256x1_S16384x1_1_0_0_1_n_n.lhsBatch by decide),
    dif_pos (show (0 : Fin S16384x256.rank) ∈ dot_S16384x256_S256x1_S16384x1_1_0_0_1_n_n.lhsNonContracting by decide)]
  rfl
theorem lhs3_1 (i : S16384x1.Idx) (q : dot_S16384x256_S256x1_S16384x1_1_0_0_1_n_n.contr.Idx) :
    (dot_S16384x256_S256x1_S16384x1_1_0_0_1_n_n.lhsIdx i q 1).val = (q ⟨0, by decide⟩).val :=
  dot_S16384x256_S256x1_S16384x1_1_0_0_1_n_n.lhsIdx_val_of_single rfl i q
theorem rhs3_0 (i : S16384x1.Idx) (q : dot_S16384x256_S256x1_S16384x1_1_0_0_1_n_n.contr.Idx) :
    (dot_S16384x256_S256x1_S16384x1_1_0_0_1_n_n.rhsIdx i q 0).val = (q ⟨0, by decide⟩).val :=
  dot_S16384x256_S256x1_S16384x1_1_0_0_1_n_n.rhsIdx_val_of_single rfl i q
theorem rhs3_1 (i : S16384x1.Idx) (q : dot_S16384x256_S256x1_S16384x1_1_0_0_1_n_n.contr.Idx) :
    (dot_S16384x256_S256x1_S16384x1_1_0_0_1_n_n.rhsIdx i q 1).val = (i 1).val := by
  unfold DotDims.rhsIdx
  rw [dif_neg (show ¬(1 : Fin S256x1.rank) ∈ dot_S16384x256_S256x1_S16384x1_1_0_0_1_n_n.rhsBatch by decide),
    dif_pos (show (1 : Fin S256x1.rank) ∈ dot_S16384x256_S256x1_S16384x1_1_0_0_1_n_n.rhsNonContracting by decide)]
  rfl

/-- The product of a [16384, 256] by a [256, 1] matrix at (b, n) is the sum over the 256 inner positions. -/
theorem dot3_apply (l : FVec Ideal S16384x256 .f32) (r : FVec Ideal S256x1 .f32) (b : Fin 16384) (n : Fin 1) :
    Host.dotGeneral dot_S16384x256_S256x1_S16384x1_1_0_0_1_n_n none l r (ix2 b n) = ∑ k : Fin 256, l (ix2 b k) * r (ix2 k n) := by
  simp only [Host.dotGeneral]
  rw [Ideal.dotGeneral_apply, ← Equiv.sum_comp (contrEquiv1 dot_S16384x256_S256x1_S16384x1_1_0_0_1_n_n 256 rfl rfl).symm]
  refine Finset.sum_congr rfl fun k _ => ?_
  have hk := contrEquiv1_symm_val dot_S16384x256_S256x1_S16384x1_1_0_0_1_n_n 256 rfl rfl k
  have el : dot_S16384x256_S256x1_S16384x1_1_0_0_1_n_n.lhsIdx (ix2 b n) ((contrEquiv1 dot_S16384x256_S256x1_S16384x1_1_0_0_1_n_n 256 rfl rfl).symm k) = ix2 b k :=
    funext fun a => Fin.ext (by
      match a with
      | ⟨0, _⟩ => exact lhs3_0 _ _
      | ⟨1, _⟩ => exact (lhs3_1 _ _).trans hk)
  have er : dot_S16384x256_S256x1_S16384x1_1_0_0_1_n_n.rhsIdx (ix2 b n) ((contrEquiv1 dot_S16384x256_S256x1_S16384x1_1_0_0_1_n_n 256 rfl rfl).symm k) = ix2 k n :=
    funext fun a => Fin.ext (by
      match a with
      | ⟨0, _⟩ => exact (rhs3_0 _ _).trans hk
      | ⟨1, _⟩ => exact rhs3_1 _ _)
  rw [el, er]

/-! ## The stages at an index -/

theorem lin1_apply (c : FVec Ideal S16384x2688 .f32) (a16 : FVec Ideal S2688x512 .f32) (a17 : FVec Ideal S512 .f32)
    (b : Fin 16384) (n : Fin 512) :
    lin1 c a16 a17 (ix2 b n) = (∑ k : Fin 2688, c (ix2 b k) * a16 (ix2 k n)) + a17 (ix1 n) := by
  unfold lin1
  rw [addf_apply, dot1_apply, rows512_apply]

theorem lin2_apply (x : FVec Ideal S16384x512 .f32) (a22 : FVec Ideal S512x256 .f32) (a23 : FVec Ideal S256 .f32)
    (b : Fin 16384) (n : Fin 256) :
    lin2 x a22 a23 (ix2 b n) = (∑ k : Fin 512, x (ix2 b k) * a22 (ix2 k n)) + a23 (ix1 n) := by
  unfold lin2
  rw [addf_apply, dot2_apply, rows256_apply]

theorem lin3_apply (x : FVec Ideal S16384x256 .f32) (a28 : FVec Ideal S256x1 .f32) (a29 : FVec Ideal S1 .f32)
    (b : Fin 16384) (n : Fin 1) :
    lin3 x a28 a29 (ix2 b n) = (∑ k : Fin 256, x (ix2 b k) * a28 (ix2 k n)) + a29 (ix1 n) := by
  unfold lin3
  rw [addf_apply, dot3_apply, rows1_apply]

/-- The first normalisation at (b, n): the running variance not negative, the quotient by the square root is the product
    with the reciprocal square root. -/
theorem bn512_apply (x : FVec Ideal S16384x512 .f32) (g be rm rv : FVec Ideal S512 .f32) (b : Fin 16384) (n : Fin 512)
    (hrv : 0 ≤ rv (ix1 n)) :
    bn512 x g be rm rv (ix2 b n) = Spec.bn (x (ix2 b n)) (rm (ix1 n)) (rv (ix1 n)) (g (ix1 n)) (be (ix1 n)) := by
  unfold bn512 Spec.bn
  rw [maximumf_apply, addf_apply, mulf_apply, hostDivf_apply, subf_apply, rows512_apply, rows512_apply, rows512_apply,
    rows512_apply, broadcastInDim_scalar_apply, constant_apply, Ideal.ofBits_zero_f32]
  show max (Ideal.div (x (ix2 b n) - rm (ix1 n)) (Ideal.sqrt (rv (ix1 n) + Spec.eps)) * g (ix1 n) + be (ix1 n)) 0 = _
  rw [mul_rsqrt_eq_div_sqrt _ (add_eps_pos hrv)]

/-- The second normalisation at (b, n). -/
theorem bn256_apply (x : FVec Ideal S16384x256 .f32) (g be rm rv : FVec Ideal S256 .f32) (b : Fin 16384) (n : Fin 256)
    (hrv : 0 ≤ rv (ix1 n)) :
    bn256 x g be rm rv (ix2 b n) = Spec.bn (x (ix2 b n)) (rm (ix1 n)) (rv (ix1 n)) (g (ix1 n)) (be (ix1 n)) := by
  unfold bn256 Spec.bn
  rw [maximumf_apply, addf_apply, mulf_apply, hostDivf_apply, subf_apply, rows256_apply, rows256_apply, rows256_apply,
    rows256_apply, broadcastInDim_scalar_apply, constant_apply, Ideal.ofBits_zero_f32]
  show max (Ideal.div (x (ix2 b n) - rm (ix1 n)) (Ideal.sqrt (rv (ix1 n) + Spec.eps)) * g (ix1 n) + be (ix1 n)) 0 = _
  rw [mul_rsqrt_eq_div_sqrt _ (add_eps_pos hrv)]

/-- The written-out logistic at an index. -/
theorem sigm_apply (x : FVec Ideal S16384x1 .f32) (j : S16384x1.Idx) : sigm x j = Ideal.logistic (x j) := by
  unfold sigm
  rw [hostDivf_apply, addf_apply, broadcastInDim_scalar_apply, constant_apply]
  exact logistic_eq (x j)

end Head

open Head

/-- The head: the three layers, and the one-column result read as a vector. -/
def refHead (c : FVec F S16384x2688 .f32) (a16 : FVec F S2688x512 .f32) (a17 a18 a19 a20 a21 : FVec F S512 .f32)
    (a22 : FVec F S512x256 .f32) (a23 a24 a25 a26 a27 : FVec F S256 .f32) (a28 : FVec F S256x1 .f32) (a29 : FVec F S1 .f32) :
    FVec F S16384 .f32 :=
  shapeCast S16384
    (sigm (lin3 (bn256 (lin2 (bn512 (lin1 c a16 a17) a18 a19 a20 a21) a22 a23) a24 a25 a26 a27) a28 a29))
    Gen.shapeCasts_S16384x1_S16384

/-! ## The head at a batch row -/

/-- With the row function's columns at batch row b, its parameters, and running variances that are not negative, the head's
    value at b is the row function's result. -/
theorem refHead_apply (w : Spec.W) (r : Spec.Row) (c : FVec Ideal S16384x2688 .f32) (a16 : FVec Ideal S2688x512 .f32)
    (a17 a18 a19 a20 a21 : FVec Ideal S512 .f32) (a22 : FVec Ideal S512x256 .f32) (a23 a24 a25 a26 a27 : FVec Ideal S256 .f32)
    (a28 : FVec Ideal S256x1 .f32) (a29 : FVec Ideal S1 .f32)
    (hW1 : w.W1 = a16) (hb1 : w.b1 = a17) (hg1 : w.g1 = a18) (hbe1 : w.be1 = a19) (hrm1 : w.rm1 = a20) (hv1 : w.rv1 = a21)
    (hW2 : w.W2 = a22) (hb2 : w.b2 = a23) (hg2 : w.g2 = a24) (hbe2 : w.be2 = a25) (hrm2 : w.rm2 = a26) (hv2 : w.rv2 = a27)
    (hW3 : w.W3 = a28) (hb3 : w.b3 = a29)
    (hrv1 : ∀ n : Fin 512, 0 ≤ w.rv1 (ix1 n)) (hrv2 : ∀ n : Fin 256, 0 ≤ w.rv2 (ix1 n))
    (b : Fin 16384) (hc : ∀ col : Fin 2688, c (ix2 b col) = Spec.cvec w r col) :
    refHead (F := Ideal) c a16 a17 a18 a19 a20 a21 a22 a23 a24 a25 a26 a27 a28 a29 (ix1 b) = Spec.out w r := by
  subst hW1 hb1 hg1 hbe1 hrm1 hv1 hW2 hb2 hg2 hbe2 hrm2 hv2 hW3 hb3
  have e1 : ∀ n : Fin 512, bn512 (lin1 c w.W1 w.b1) w.g1 w.be1 w.rm1 w.rv1 (ix2 b n) = Spec.h1 w r n := by
    intro n
    rw [bn512_apply _ _ _ _ _ b n (hrv1 n), lin1_apply]
    unfold Spec.h1
    simp only [hc]
  have e2 : ∀ n : Fin 256,
      bn256 (lin2 (bn512 (lin1 c w.W1 w.b1) w.g1 w.be1 w.rm1 w.rv1) w.W2 w.b2) w.g2 w.be2 w.rm2 w.rv2 (ix2 b n) = Spec.h2 w r n := by
    intro n
    rw [bn256_apply _ _ _ _ _ b n (hrv2 n), lin2_apply]
    unfold Spec.h2
    simp only [e1]
  unfold refHead
  rw [shapeCast_a1_a_apply, sigm_apply, lin3_apply]
  unfold Spec.out
  simp only [e2]

end Cert.ReferenceIdeal.RV

end
-- ==== Proof.RefAll.lean ====
/-
  The reference's whole row computation as one function of its arguments, and its value at a batch row.

  The two category indices select rows of the category table; the dense features are projected, normalised over
  their lanes, scaled, shifted and clamped; with the item row and the pooled history row these are the five fields
  that follow the zero field.  The six fields are gated, the gated fields and their pairwise products are laid
  side by side, and the three-layer head maps the columns to the row's result.

  At the extended reals, for category indices in range and running variances that are not negative, the value
  at batch row b is the row function of the specification at the parameters read off the arguments and the row
  data read off row b.
-/
import proofs.«429925_j71167608094992_2_alg».proof.Proof.RefCat
import proofs.«429925_j71167608094992_2_alg».proof.Proof.RefMm
import proofs.«429925_j71167608094992_2_alg».proof.Proof.RefGate
import proofs.«429925_j71167608094992_2_alg».proof.Proof.RefPairs
import proofs.«429925_j71167608094992_2_alg».proof.Proof.RefHead
import proofs.«429925_j71167608094992_2_alg».proof.Proof.Spec

set_option synthInstance.maxSize 4096

noncomputable section

namespace Cert.ReferenceIdeal.RV

open Idealize.ShloMosaic Idealize.SL.Sem Cert.ReferenceIdeal
open Idealize.ShloMosaic.ValueIdx
open scoped BigOperators

/-- The specification's parameters read off the reference's arguments, in the reference's argument order. -/
def RWof (a6 : FVec Ideal S11x128 .f32) (a7 : FVec Ideal S128x128 .f32) (a8 a9 a10 : FVec Ideal S128 .f32)
    (a11 : FVec Ideal S6x3 .f32) (a12 : FVec Ideal S3 .f32) (a13 : FVec Ideal S3x6 .f32) (a14 : FVec Ideal S6 .f32)
    (a15 : FVec Ideal S128x128 .f32) (a16 : FVec Ideal S2688x512 .f32) (a17 a18 a19 a20 a21 : FVec Ideal S512 .f32)
    (a22 : FVec Ideal S512x256 .f32) (a23 a24 a25 a26 a27 : FVec Ideal S256 .f32) (a28 : FVec Ideal S256x1 .f32)
    (a29 : FVec Ideal S1 .f32) : Cert.Spec.W where
  cate := a6
  mmW := a7
  mmb := a8
  lng := a9
  lnb := a10
  seW1 := a11
  seb1 := a12
  seW2 := a13
  seb2 := a14
  biW := a15
  W1 := a16
  b1 := a17
  g1 := a18
  be1 := a19
  rm1 := a20
  rv1 := a21
  W2 := a22
  b2 := a23
  g2 := a24
  be2 := a25
  rm2 := a26
  rv2 := a27
  W3 := a28
  b3 := a29

section defs
variable {F : FTy → Type} [FloatOps F]

/-- The six fields of every row: the zero field, the two category rows, the item row, the normalised projection
    and the history row. -/
def refFields (item hist a1 : FVec F S16384x128 .f32) (a2 a3 : IVec S16384 32) (a6 : FVec F S11x128 .f32)
    (a7 : FVec F S128x128 .f32) (a8 a9 a10 : FVec F S128 .f32) : FVec F S16384x6x128 .f32 :=
  refX (refCat a6 a2) (refCat a6 a3) item (refMM a1 a7 a8 a9 a10) hist

/-- The reference's result for every row, from the item rows, the history rows and the reference's arguments. -/
def refAll (item hist a1 : FVec F S16384x128 .f32) (a2 a3 : IVec S16384 32) (a6 : FVec F S11x128 .f32)
    (a7 : FVec F S128x128 .f32) (a8 a9 a10 : FVec F S128 .f32)
    (a11 : FVec F S6x3 .f32) (a12 : FVec F S3 .f32) (a13 : FVec F S3x6 .f32) (a14 : FVec F S6 .f32)
    (a15 : FVec F S128x128 .f32) (a16 : FVec F S2688x512 .f32) (a17 a18 a19 a20 a21 : FVec F S512 .f32)
    (a22 : FVec F S512x256 .f32) (a23 a24 a25 a26 a27 : FVec F S256 .f32) (a28 : FVec F S256x1 .f32)
    (a29 : FVec F S1 .f32) : FVec F S16384 .f32 :=
  refHead
    (refC
      (refXs (refFields item hist a1 a2 a3 a6 a7 a8 a9 a10)
        (refGate (refFields item hist a1 a2 a3 a6 a7 a8 a9 a10) a11 a12 a13 a14))
      a15)
    a16 a17 a18 a19 a20 a21 a22 a23 a24 a25 a26 a27 a28 a29

end defs

/-- The reference's result at batch row b, given the normalised projection at row b as the row function's: for category
    indices in range at b and running variances that are not negative it is the row function at the parameters and the row
    data read off the arguments. -/
theorem refAll_apply_of (item hist a1 : FVec Ideal S16384x128 .f32) (a2 a3 : IVec S16384 32) (a6 : FVec Ideal S11x128 .f32)
    (a7 : FVec Ideal S128x128 .f32) (a8 a9 a10 : FVec Ideal S128 .f32)
    (a11 : FVec Ideal S6x3 .f32) (a12 : FVec Ideal S3 .f32) (a13 : FVec Ideal S3x6 .f32) (a14 : FVec Ideal S6 .f32)
    (a15 : FVec Ideal S128x128 .f32) (a16 : FVec Ideal S2688x512 .f32) (a17 a18 a19 a20 a21 : FVec Ideal S512 .f32)
    (a22 : FVec Ideal S512x256 .f32) (a23 a24 a25 a26 a27 : FVec Ideal S256 .f32) (a28 : FVec Ideal S256x1 .f32)
    (a29 : FVec Ideal S1 .f32) (b : Fin 16384)
    (h2 : (a2 (ix1 b)).toNat < 11) (h3 : (a3 (ix1 b)).toNat < 11)
    (hrv1 : ∀ n : Fin 512, 0 ≤ a21 (ix1 n)) (hrv2 : ∀ n : Fin 256, 0 ≤ a27 (ix1 n))
    (hMM : ∀ e : Fin 128, refMM a1 a7 a8 a9 a10 (ix2 b e)
      = Spec.mmRow (RWof a6 a7 a8 a9 a10 a11 a12 a13 a14 a15 a16 a17 a18 a19 a20 a21 a22 a23 a24 a25 a26 a27 a28 a29) (fun k => a1 (ix2 b k)) e) :
    refAll item hist a1 a2 a3 a6 a7 a8 a9 a10 a11 a12 a13 a14 a15 a16 a17 a18 a19 a20 a21 a22 a23 a24 a25 a26 a27 a28 a29 (ix1 b)
      = Spec.out (RWof a6 a7 a8 a9 a10 a11 a12 a13 a14 a15 a16 a17 a18 a19 a20 a21 a22 a23 a24 a25 a26 a27 a28 a29)
          ⟨fun k => a1 (ix2 b k), a2 (ix1 b), a3 (ix1 b), fun k => item (ix2 b k), fun k => hist (ix2 b k)⟩ := by
  generalize hW : RWof a6 a7 a8 a9 a10 a11 a12 a13 a14 a15 a16 a17 a18 a19 a20 a21 a22 a23 a24 a25 a26 a27 a28 a29 = W at hMM ⊢
  generalize hR : (⟨fun k => a1 (ix2 b k), a2 (ix1 b), a3 (ix1 b), fun k => item (ix2 b k), fun k => hist (ix2 b k)⟩ : Spec.Row) = R
  -- the parameters and the row data, field by field
  have ecate : W.cate = a6 := by rw [← hW]; rfl
  have emmW : W.mmW = a7 := by rw [← hW]; rfl
  have emmb : W.mmb = a8 := by rw [← hW]; rfl
  have elng : W.lng = a9 := by rw [← hW]; rfl
  have elnb : W.lnb = a10 := by rw [← hW]; rfl
  have eseW1 : W.seW1 = a11 := by rw [← hW]; rfl
  have eseb1 : W.seb1 = a12 := by rw [← hW]; rfl
  have eseW2 : W.seW2 = a13 := by rw [← hW]; rfl
  have eseb2 : W.seb2 = a14 := by rw [← hW]; rfl
  have ebiW : W.biW = a15 := by rw [← hW]; rfl
  have eW1 : W.W1 = a16 := by rw [← hW]; rfl
  have eb1 : W.b1 = a17 := by rw [← hW]; rfl
  have eg1 : W.g1 = a18 := by rw [← hW]; rfl
  have ebe1 : W.be1 = a19 := by rw [← hW]; rfl
  have erm1 : W.rm1 = a20 := by rw [← hW]; rfl
  have erv1 : W.rv1 = a21 := by rw [← hW]; rfl
  have eW2 : W.W2 = a22 := by rw [← hW]; rfl
  have eb2 : W.b2 = a23 := by rw [← hW]; rfl
  have eg2 : W.g2 = a24 := by rw [← hW]; rfl
  have ebe2 : W.be2 = a25 := by rw [← hW]; rfl
  have erm2 : W.rm2 = a26 := by rw [← hW]; rfl
  have erv2 : W.rv2 = a27 := by rw [← hW]; rfl
  have eW3 : W.W3 = a28 := by rw [← hW]; rfl
  have eb3 : W.b3 = a29 := by rw [← hW]; rfl
  have elike : R.like = a2 (ix1 b) := by rw [← hR]
  have eview : R.view = a3 (ix1 b) := by rw [← hR]
  have ex0 : R.x0 = fun k => a1 (ix2 b k) := by rw [← hR]
  have eitem : R.item = fun k => item (ix2 b k) := by rw [← hR]
  have ehist : R.hist = fun k => hist (ix2 b k) := by rw [← hR]
  -- the five fields after the zero field, at row b
  have f1 : ∀ e, refCat a6 a2 (ix2 b e) = Spec.field W R 1 e := fun e =>
    (refCat_apply W (cate := a6) (idx := a2) (hc := ecate) (b := b) (e := e) (h := h2)).trans
      (show Spec.catRow W (a2 (ix1 b)) e = Spec.catRow W R.like e from by rw [elike])
  have f2 : ∀ e, refCat a6 a3 (ix2 b e) = Spec.field W R 2 e := fun e =>
    (refCat_apply W (cate := a6) (idx := a3) (hc := ecate) (b := b) (e := e) (h := h3)).trans
      (show Spec.catRow W (a3 (ix1 b)) e = Spec.catRow W R.view e from by rw [eview])
  have f3 : ∀ e, item (ix2 b e) = Spec.field W R 3 e := fun e => by
    show item (ix2 b e) = R.item e
    rw [eitem]
  have f4 : ∀ e, refMM a1 a7 a8 a9 a10 (ix2 b e) = Spec.field W R 4 e := fun e =>
    (hMM e).trans
      (show Spec.mmRow W (fun k => a1 (ix2 b k)) e = Spec.mmRow W R.x0 e from by rw [ex0])
  have f5 : ∀ e, hist (ix2 b e) = Spec.field W R 5 e := fun e => by
    show hist (ix2 b e) = R.hist e
    rw [ehist]
  -- the six fields, the gates, the gated fields, the columns
  have hF : ∀ f e, refFields item hist a1 a2 a3 a6 a7 a8 a9 a10 (ix3 b f e) = Spec.field W R f e := fun f e =>
    refX_apply W R _ _ _ _ _ b f1 f2 f3 f4 f5 f e
  have hG : ∀ f, refGate (refFields item hist a1 a2 a3 a6 a7 a8 a9 a10) a11 a12 a13 a14 (ix2 b f) = Spec.gate W R f := fun f =>
    refGate_apply W R _ a11 a12 a13 a14 eseW1 eseb1 eseW2 eseb2 b hF f
  have hXs : ∀ f e, refXs (refFields item hist a1 a2 a3 a6 a7 a8 a9 a10)
      (refGate (refFields item hist a1 a2 a3 a6 a7 a8 a9 a10) a11 a12 a13 a14) (ix3 b f e) = Spec.xs W R f e := fun f e =>
    refXs_apply W R _ _ b hF hG f e
  have hC : ∀ col, refC (refXs (refFields item hist a1 a2 a3 a6 a7 a8 a9 a10)
      (refGate (refFields item hist a1 a2 a3 a6 a7 a8 a9 a10) a11 a12 a13 a14)) a15 (ix2 b col) = Spec.cvec W R col := fun col =>
    refC_apply W R _ a15 b ebiW hXs col
  unfold refAll
  exact refHead_apply W R _ a16 a17 a18 a19 a20 a21 a22 a23 a24 a25 a26 a27 a28 a29
    eW1 eb1 eg1 ebe1 erm1 erv1 eW2 eb2 eg2 ebe2 erm2 erv2 eW3 eb3
    (fun n => by rw [erv1]; exact hrv1 n) (fun n => by rw [erv2]; exact hrv2 n) b hC

/-- For category indices in range at batch row b and running variances that are not negative, the reference's result at
    b is the row function at the parameters and the row data read off the arguments. -/
theorem refAll_apply (item hist a1 : FVec Ideal S16384x128 .f32) (a2 a3 : IVec S16384 32) (a6 : FVec Ideal S11x128 .f32)
    (a7 : FVec Ideal S128x128 .f32) (a8 a9 a10 : FVec Ideal S128 .f32)
    (a11 : FVec Ideal S6x3 .f32) (a12 : FVec Ideal S3 .f32) (a13 : FVec Ideal S3x6 .f32) (a14 : FVec Ideal S6 .f32)
    (a15 : FVec Ideal S128x128 .f32) (a16 : FVec Ideal S2688x512 .f32) (a17 a18 a19 a20 a21 : FVec Ideal S512 .f32)
    (a22 : FVec Ideal S512x256 .f32) (a23 a24 a25 a26 a27 : FVec Ideal S256 .f32) (a28 : FVec Ideal S256x1 .f32)
    (a29 : FVec Ideal S1 .f32) (b : Fin 16384)
    (h2 : (a2 (ix1 b)).toNat < 11) (h3 : (a3 (ix1 b)).toNat < 11)
    (hrv1 : ∀ n : Fin 512, 0 ≤ a21 (ix1 n)) (hrv2 : ∀ n : Fin 256, 0 ≤ a27 (ix1 n)) :
    refAll item hist a1 a2 a3 a6 a7 a8 a9 a10 a11 a12 a13 a14 a15 a16 a17 a18 a19 a20 a21 a22 a23 a24 a25 a26 a27 a28 a29 (ix1 b)
      = Spec.out (RWof a6 a7 a8 a9 a10 a11 a12 a13 a14 a15 a16 a17 a18 a19 a20 a21 a22 a23 a24 a25 a26 a27 a28 a29)
          ⟨fun k => a1 (ix2 b k), a2 (ix1 b), a3 (ix1 b), fun k => item (ix2 b k), fun k => hist (ix2 b k)⟩ :=
  refAll_apply_of item hist a1 a2 a3 a6 a7 a8 a9 a10 a11 a12 a13 a14 a15 a16 a17 a18 a19 a20 a21 a22 a23 a24 a25 a26 a27 a28 a29 b h2 h3 hrv1 hrv2
    (fun e => refMM_apply (RWof a6 a7 a8 a9 a10 a11 a12 a13 a14 a15 a16 a17 a18 a19 a20 a21 a22 a23 a24 a25 a26 a27 a28 a29) (x := a1) (a7 := a7) (a8 := a8) (a9 := a9) (a10 := a10)
      (hW := rfl) (hb := rfl) (hg := rfl) (hbe := rfl) (b := b) (e := e))

end Cert.ReferenceIdeal.RV

end
-- ==== Proof.RefRun.lean ====
import proofs.«429925_j71167608094992_2_alg».proof.Proof.Gen.ReferenceIdeal
import Idealize.ShloMosaic.Lib.StableHlo.Run
import Mathlib.Data.List.Basic

/-! The reference program's @main as a straight line of host operations.

Each function the program calls is listed at its call site, operation by operation, over the buffers
of that call. The line is cut in seven stretches `ops0 … ops6` (a cut stands before each of the two
concatenations, so that a concatenation reads named buffers); `ops` is their concatenation, @main is
`seq ops`, and every fair run of @main ends with each buffer at the fold of `ops` over the launch
contents. -/

noncomputable section

namespace Cert.ReferenceIdeal.RV

open Cert.ReferenceIdeal Cert.ReferenceIdeal.Facts₀ Idealize.ShloMosaic Idealize.ShloMosaic.TcCoe Idealize.SL.Sem
  Idealize.ShloMosaic.StableHlo

variable {F : FTy → Type} [FloatOps F]

/-- Statements 1 … 36: the two index tables and their masks, the embedding table with row 0 zeroed,
    the two category rows gathered (a negative index shifted by 11), the item row gathered (a negative
    index shifted by 91718). -/
abbrev ops0 : List (HloOp τ sig (Elt F)) :=
  [ nullary main_c (fun i => lit0 (S15.rowMajor i)),
    nullary main_c_0 (constantI S15 1 0#1),
    nullary main_c_1 (fun i => lit1 (S15.rowMajor i)),
    nullary main_c_2 (constantI S15 1 0#1),
    nullary main_c_3 (constantI S_ 32 0#32),
    unary main_c_3 main_v0 (broadcastInDim S1 ![] bcast_S_S1),
    nullary main_cst (constant S_ .f32 0x00000000#32),
    unary main_cst main_v1 (broadcastInDim S128 ![] bcast_S_S128),
    ternary main_arg5 main_v0 main_v1 main_v2 (fun x i u => Host.scatter scatter_S91718x128_S1_S128_0_0_0_0 (fun _ b => b) x i u),
    nullary main_c_4 (constantI S_ 32 0#32),
    unary main_c_4 main_v3 (broadcastInDim S16384 ![] bcast_S_S16384),
    binary main_arg2 main_v3 main_v4 (cmpi .slt),
    nullary main_c_5 (constantI S_ 32 11#32),
    unary main_c_5 main_v5 (broadcastInDim S16384 ![] bcast_S_S16384),
    binary main_arg2 main_v5 main_v6 addi,
    ternary main_v4 main_v6 main_arg2 main_v7 select,
    unary main_v7 main_v8 (broadcastInDim S16384x1 ![0] bcast_S16384_S16384x1_0),
    binary main_arg6 main_v8 main_v9 (fun x i => Host.gather gather_S11x128_S16384x1_S16384x128_1_0_n_n_0_1_1128 x i),
    nullary main_c_6 (constantI S_ 32 0#32),
    unary main_c_6 main_v10 (broadcastInDim S16384 ![] bcast_S_S16384),
    binary main_arg3 main_v10 main_v11 (cmpi .slt),
    nullary main_c_7 (constantI S_ 32 11#32),
    unary main_c_7 main_v12 (broadcastInDim S16384 ![] bcast_S_S16384),
    binary main_arg3 main_v12 main_v13 addi,
    ternary main_v11 main_v13 main_arg3 main_v14 select,
    unary main_v14 main_v15 (broadcastInDim S16384x1 ![0] bcast_S16384_S16384x1_0),
    binary main_arg6 main_v15 main_v16 (fun x i => Host.gather gather_S11x128_S16384x1_S16384x128_1_0_n_n_0_1_1128 x i),
    nullary main_c_8 (constantI S_ 32 0#32),
    unary main_c_8 main_v17 (broadcastInDim S16384 ![] bcast_S_S16384),
    binary main_arg0 main_v17 main_v18 (cmpi .slt),
    nullary main_c_9 (constantI S_ 32 91718#32),
    unary main_c_9 main_v19 (broadcastInDim S16384 ![] bcast_S_S16384),
    binary main_arg0 main_v19 main_v20 addi,
    ternary main_v18 main_v20 main_arg0 main_v21 select,
    unary main_v21 main_v22 (broadcastInDim S16384x1 ![0] bcast_S16384_S16384x1_0),
    binary main_v2 main_v22 main_v23 (fun x i => Host.gather gather_S91718x128_S16384x1_S16384x128_1_0_n_n_0_1_1128 x i) ]

/-- Statements 37 … 60: the dense layer on the multimodal row, its mean over the 128 lanes, its
    variance (the called function's twenty operations and the three of the selection it calls, at the
    call), the centred row over the root of variance plus epsilon, the scale, the offset's row. -/
abbrev ops1 : List (HloOp τ sig (Elt F)) :=
  [ binary main_arg1 main_arg7 main_v24 (fun l r => Host.dotGeneral dot_S16384x128_S128x128_S16384x128_1_0_0_1_n_n none l r),
    unary main_arg8 main_v25 (broadcastInDim S1x128 ![1] bcast_S128_S1x128_1),
    unary main_v25 main_v26 (broadcastInDim S16384x128 ![0, 1] bcast_S1x128_S16384x128_0_1),
    binary main_v24 main_v26 main_v27 addf,
    nullary main_cst_10 (constant S_ .f32 0x00000000#32),
    binary main_v27 main_cst_10 main_v28 (fun x v => Host.reduceAdd x v reducesTo_S16384x128_S16384_d1 h_S_),
    unary main_v28 main_v29 (broadcastInDim S16384x1 ![0] bcast_S16384_S16384x1_0),
    nullary main_cst_11 (constant S_ .f32 0x43000000#32),
    unary main_cst_11 main_v30 (broadcastInDim S16384x1 ![] bcast_S_S16384x1),
    binary main_v29 main_v30 main_v31 Host.divf,
    nullary main_c_12 (constantI S_ 32 0#32),
    TRef.nullary main_call0.cst (constant S_ .f32 0x00000000#32),
    TRef.binary (.of main_v27) main_call0.cst main_call0.v0 (fun x v => Host.reduceAdd x v reducesTo_S16384x128_S16384_d1 h_S_),
    TRef.unary main_call0.v0 main_call0.v1 (broadcastInDim S16384x1 ![0] bcast_S16384_S16384x1_0),
    TRef.nullary main_call0.cst_0 (constant S_ .f32 0x43000000#32),
    TRef.unary main_call0.cst_0 main_call0.v2 (broadcastInDim S16384x1 ![] bcast_S_S16384x1),
    TRef.binary main_call0.v1 main_call0.v2 main_call0.v3 Host.divf,
    TRef.unary main_call0.v3 main_call0.v4 (broadcastInDim S16384x128 ![0, 1] bcast_S16384x1_S16384x128_0_1),
    TRef.binary (.of main_v27) main_call0.v4 main_call0.v5 subf,
    TRef.binary main_call0.v5 main_call0.v5 main_call0.v6 mulf,
    TRef.unary (.of main_c_12) main_call0.v7 (sitofp .f32),
    TRef.nullary main_call0.cst_1 (constant S_ .f32 0x43000000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S16384x128_S16384_d1 h_S_),
    TRef.unary main_call0.v9 main_call0.v10 (broadcastInDim S16384x1 ![0] bcast_S16384_S16384x1_0),
    TRef.unary main_call0.v8 main_call0.v11 (broadcastInDim S16384x1 ![] bcast_S_S16384x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S16384x1 ![] bcast_S_S16384x1),
    TRef.ternary main_call0.v13 main_call0.v12 main_call0.call0.v1 main_call0.call0.v2 (fun p a b => select (broadcastInDim S16384x1 ![] bcast_S_S16384x1 p) a b),
    unary main_v31 main_v33 (broadcastInDim S16384x128 ![0, 1] bcast_S16384x1_S16384x128_0_1),
    binary main_v27 main_v33 main_v34 subf,
    nullary main_cst_13 (constant S_ .f32 0x3727C5AC#32),
    unary main_cst_13 main_v35 (broadcastInDim S16384x1 ![] bcast_S_S16384x1),
    binary main_v32 main_v35 main_v36 addf,
    unary main_v36 main_v37 Host.sqrt,
    unary main_v37 main_v38 (broadcastInDim S16384x128 ![0, 1] bcast_S16384x1_S16384x128_0_1),
    binary main_v34 main_v38 main_v39 Host.divf,
    unary main_arg9 main_v40 (broadcastInDim S1x128 ![1] bcast_S128_S1x128_1),
    unary main_v40 main_v41 (broadcastInDim S16384x128 ![0, 1] bcast_S1x128_S16384x128_0_1),
    binary main_v39 main_v41 main_v42 mulf,
    unary main_arg10 main_v43 (broadcastInDim S1x128 ![1] bcast_S128_S1x128_1) ]

/-- Statements 61 … 96: the offset added and the maximum with zero (the multimodal field); the
    history rows gathered, masked where the index is zero, summed over the 50 positions and divided by
    the count of nonzero indices (at least one); the zero field and the five fields, each as a row of
    a one-field block. -/
abbrev ops2 : List (HloOp τ sig (Elt F)) :=
  [ unary main_v43 main_v44 (broadcastInDim S16384x128 ![0, 1] bcast_S1x128_S16384x128_0_1),
    binary main_v42 main_v44 main_v45 addf,
    TRef.nullary main_call1.cst (constant S_ .f32 0x00000000#32),
    TRef.unary main_call1.cst main_call1.v0 (broadcastInDim S16384x128 ![] bcast_S_S16384x128),
    TRef.binary (.of main_v45) main_call1.v0 main_call1.v1 maximumf,
    nullary main_c_14 (constantI S_ 32 0#32),
    unary main_c_14 main_v47 (broadcastInDim S16384x50 ![] bcast_S_S16384x50),
    binary main_arg4 main_v47 main_v48 (cmpi .slt),
    nullary main_c_15 (constantI S_ 32 91718#32),
    unary main_c_15 main_v49 (broadcastInDim S16384x50 ![] bcast_S_S16384x50),
    binary main_arg4 main_v49 main_v50 addi,
    ternary main_v48 main_v50 main_arg4 main_v51 select,
    unary main_v51 main_v52 (broadcastInDim S16384x50x1 ![0, 1] bcast_S16384x50_S16384x50x1_0_1),
    binary main_v2 main_v52 main_v53 (fun x i => Host.gather gather_S91718x128_S16384x50x1_S16384x50x128_2_0_n_n_0_2_1128 x i),
    nullary main_c_16 (constantI S_ 32 0#32),
    unary main_c_16 main_v54 (broadcastInDim S16384x50 ![] bcast_S_S16384x50),
    binary main_arg4 main_v54 main_v55 (cmpi .ne),
    unary main_v55 main_v56 (uitofp .f32),
    unary main_v56 main_v57 (broadcastInDim S16384x50x1 ![0, 1] bcast_S16384x50_S16384x50x1_0_1),
    unary main_v57 main_v58 (broadcastInDim S16384x50x128 ![0, 1, 2] bcast_S16384x50x1_S16384x50x128_0_1_2),
    binary main_v53 main_v58 main_v59 mulf,
    nullary main_cst_17 (constant S_ .f32 0x00000000#32),
    binary main_v59 main_cst_17 main_v60 (fun x v => Host.reduceAdd x v reducesTo_S16384x50x128_S16384x128_d1 h_S_),
    nullary main_cst_18 (constant S_ .f32 0x00000000#32),
    binary main_v56 main_cst_18 main_v61 (fun x v => Host.reduceAdd x v reducesTo_S16384x50_S16384_d1 h_S_),
    unary main_v61 main_v62 (broadcastInDim S16384x1 ![0] bcast_S16384_S16384x1_0),
    nullary main_cst_19 (constant S_ .f32 0x3F800000#32),
    TRef.unary (.of main_cst_19) main_call2.v0 id,
    TRef.unary main_call2.v0 main_call2.v1 (broadcastInDim S16384x1 ![] bcast_S_S16384x1),
    TRef.binary main_call2.v1 (.of main_v62) main_call2.v2 maximumf,
    unary main_v63 main_v64 (broadcastInDim S16384x128 ![0, 1] bcast_S16384x1_S16384x128_0_1),
    binary main_v60 main_v64 main_v65 Host.divf,
    nullary main_cst_20 (constant S_ .f32 0x00000000#32),
    unary main_cst_20 main_v66 (broadcastInDim S16384x128 ![] bcast_S_S16384x128),
    unary main_v66 main_v67 (broadcastInDim S16384x1x128 ![0, 2] bcast_S16384x128_S16384x1x128_0_2),
    unary main_v9 main_v68 (broadcastInDim S16384x1x128 ![0, 2] bcast_S16384x128_S16384x1x128_0_2),
    unary main_v16 main_v69 (broadcastInDim S16384x1x128 ![0, 2] bcast_S16384x128_S16384x1x128_0_2),
    unary main_v23 main_v70 (broadcastInDim S16384x1x128 ![0, 2] bcast_S16384x128_S16384x1x128_0_2),
    unary main_v46 main_v71 (broadcastInDim S16384x1x128 ![0, 2] bcast_S16384x128_S16384x1x128_0_2),
    unary main_v65 main_v72 (broadcastInDim S16384x1x128 ![0, 2] bcast_S16384x128_S16384x1x128_0_2) ]

/-- Statements 97 … 120: the six one-field blocks concatenated along the field axis; each field's
    mean over the lanes; the two small dense layers with the maximum with zero between them; one over
    one plus the exponential of the negation (the gate), as a column. -/
abbrev ops3 : List (HloOp τ sig (Elt F)) :=
  [ nary ![main_v67, main_v68, main_v69, main_v70, main_v71, main_v72] main_v73 (fun u => concatenate S16384x6x128 1 [⟨S16384x1x128, u 0⟩, ⟨S16384x1x128, u 1⟩, ⟨S16384x1x128, u 2⟩, ⟨S16384x1x128, u 3⟩, ⟨S16384x1x128, u 4⟩, ⟨S16384x1x128, u 5⟩] concatenates_S16384x1x128_S16384x1x128_S16384x1x128_S16384x1x128_S16384x1x128_S16384x1x128_S16384x6x128_d1),
    nullary main_cst_21 (constant S_ .f32 0x00000000#32),
    binary main_v73 main_cst_21 main_v74 (fun x v => Host.reduceAdd x v reducesTo_S16384x6x128_S16384x6_d2 h_S_),
    nullary main_cst_22 (constant S_ .f32 0x43000000#32),
    unary main_cst_22 main_v75 (broadcastInDim S16384x6 ![] bcast_S_S16384x6),
    binary main_v74 main_v75 main_v76 Host.divf,
    binary main_v76 main_arg11 main_v77 (fun l r => Host.dotGeneral dot_S16384x6_S6x3_S16384x3_1_0_0_1_n_n none l r),
    unary main_arg12 main_v78 (broadcastInDim S1x3 ![1] bcast_S3_S1x3_1),
    unary main_v78 main_v79 (broadcastInDim S16384x3 ![0, 1] bcast_S1x3_S16384x3_0_1),
    binary main_v77 main_v79 main_v80 addf,
    TRef.nullary main_call3.cst (constant S_ .f32 0x00000000#32),
    TRef.unary main_call3.cst main_call3.v0 (broadcastInDim S16384x3 ![] bcast_S_S16384x3),
    TRef.binary (.of main_v80) main_call3.v0 main_call3.v1 maximumf,
    binary main_v81 main_arg13 main_v82 (fun l r => Host.dotGeneral dot_S16384x3_S3x6_S16384x6_1_0_0_1_n_n none l r),
    unary main_arg14 main_v83 (broadcastInDim S1x6 ![1] bcast_S6_S1x6_1),
    unary main_v83 main_v84 (broadcastInDim S16384x6 ![0, 1] bcast_S1x6_S16384x6_0_1),
    binary main_v82 main_v84 main_v85 addf,
    unary main_v85 main_v86 Host.negf,
    unary main_v86 main_v87 Host.exp,
    nullary main_cst_23 (constant S_ .f32 0x3F800000#32),
    unary main_cst_23 main_v88 (broadcastInDim S16384x6 ![] bcast_S_S16384x6),
    binary main_v88 main_v87 main_v89 addf,
    nullary main_cst_24 (constant S_ .f32 0x3F800000#32),
    unary main_cst_24 main_v90 (broadcastInDim S16384x6 ![] bcast_S_S16384x6),
    binary main_v90 main_v89 main_v91 Host.divf,
    unary main_v91 main_v92 (broadcastInDim S16384x6x1 ![0, 1] bcast_S16384x6_S16384x6x1_0_1) ]

/-- Statements 121 … 138: the gated fields; their images under the bilinear matrix; the fifteen
    pairs' first members gathered from the gated fields and second members from the images, multiplied;
    the gated fields and the products each flattened to rows. -/
abbrev ops4 : List (HloOp τ sig (Elt F)) :=
  [ unary main_v92 main_v93 (broadcastInDim S16384x6x128 ![0, 1, 2] bcast_S16384x6x1_S16384x6x128_0_1_2),
    binary main_v73 main_v93 main_v94 mulf,
    binary main_v94 main_arg15 main_v95 (fun l r => Host.dotGeneral dot_S16384x6x128_S128x128_S16384x6x128_2_0_01_1_n_n none l r),
    nullary main_c_25 (constantI S_ 32 6#32),
    unary main_c_25 main_v96 (broadcastInDim S15 ![] bcast_S_S15),
    binary main_c main_v96 main_v97 addi,
    ternary main_c_0 main_v97 main_c main_v98 select,
    unary main_v98 main_v99 (broadcastInDim S15x1 ![0] bcast_S15_S15x1_0),
    binary main_v94 main_v99 main_v100 (fun x i => Host.gather gather_S16384x6x128_S15x1_S16384x15x128_02_1_n_n_1_1_163841128 x i),
    nullary main_c_26 (constantI S_ 32 6#32),
    unary main_c_26 main_v101 (broadcastInDim S15 ![] bcast_S_S15),
    binary main_c_1 main_v101 main_v102 addi,
    ternary main_c_2 main_v102 main_c_1 main_v103 select,
    unary main_v103 main_v104 (broadcastInDim S15x1 ![0] bcast_S15_S15x1_0),
    binary main_v95 main_v104 main_v105 (fun x i => Host.gather gather_S16384x6x128_S15x1_S16384x15x128_02_1_n_n_1_1_163841128 x i),
    binary main_v100 main_v105 main_v106 mulf,
    reshape main_v94 main_v107 rfl shapeCasts_S16384x6x128_S16384x768,
    reshape main_v106 main_v108 rfl shapeCasts_S16384x15x128_S16384x1920 ]

/-- Statements 139 … 180: the two flattened blocks concatenated into the 2688 columns; the first
    dense layer, its normalisation by the running mean and the root of the running variance plus
    epsilon, scale, offset, maximum with zero; the second dense layer and its normalisation likewise. -/
abbrev ops5 : List (HloOp τ sig (Elt F)) :=
  [ binary main_v107 main_v108 main_v109 (fun a b => concatenate S16384x2688 1 [⟨S16384x768, a⟩, ⟨S16384x1920, b⟩] concatenates_S16384x768_S16384x1920_S16384x2688_d1),
    binary main_v109 main_arg16 main_v110 (fun l r => Host.dotGeneral dot_S16384x2688_S2688x512_S16384x512_1_0_0_1_n_n none l r),
    unary main_arg17 main_v111 (broadcastInDim S1x512 ![1] bcast_S512_S1x512_1),
    unary main_v111 main_v112 (broadcastInDim S16384x512 ![0, 1] bcast_S1x512_S16384x512_0_1),
    binary main_v110 main_v112 main_v113 addf,
    unary main_arg20 main_v114 (broadcastInDim S1x512 ![1] bcast_S512_S1x512_1),
    unary main_v114 main_v115 (broadcastInDim S16384x512 ![0, 1] bcast_S1x512_S16384x512_0_1),
    binary main_v113 main_v115 main_v116 subf,
    nullary main_cst_27 (constant S_ .f32 0x3727C5AC#32),
    unary main_cst_27 main_v117 (broadcastInDim S512 ![] bcast_S_S512),
    binary main_arg21 main_v117 main_v118 addf,
    unary main_v118 main_v119 Host.sqrt,
    unary main_v119 main_v120 (broadcastInDim S1x512 ![1] bcast_S512_S1x512_1),
    unary main_v120 main_v121 (broadcastInDim S16384x512 ![0, 1] bcast_S1x512_S16384x512_0_1),
    binary main_v116 main_v121 main_v122 Host.divf,
    unary main_arg18 main_v123 (broadcastInDim S1x512 ![1] bcast_S512_S1x512_1),
    unary main_v123 main_v124 (broadcastInDim S16384x512 ![0, 1] bcast_S1x512_S16384x512_0_1),
    binary main_v122 main_v124 main_v125 mulf,
    unary main_arg19 main_v126 (broadcastInDim S1x512 ![1] bcast_S512_S1x512_1),
    unary main_v126 main_v127 (broadcastInDim S16384x512 ![0, 1] bcast_S1x512_S16384x512_0_1),
    binary main_v125 main_v127 main_v128 addf,
    TRef.nullary main_call4.cst (constant S_ .f32 0x00000000#32),
    TRef.unary main_call4.cst main_call4.v0 (broadcastInDim S16384x512 ![] bcast_S_S16384x512),
    TRef.binary (.of main_v128) main_call4.v0 main_call4.v1 maximumf,
    binary main_v129 main_arg22 main_v130 (fun l r => Host.dotGeneral dot_S16384x512_S512x256_S16384x256_1_0_0_1_n_n none l r),
    unary main_arg23 main_v131 (broadcastInDim S1x256 ![1] bcast_S256_S1x256_1),
    unary main_v131 main_v132 (broadcastInDim S16384x256 ![0, 1] bcast_S1x256_S16384x256_0_1),
    binary main_v130 main_v132 main_v133 addf,
    unary main_arg26 main_v134 (broadcastInDim S1x256 ![1] bcast_S256_S1x256_1),
    unary main_v134 main_v135 (broadcastInDim S16384x256 ![0, 1] bcast_S1x256_S16384x256_0_1),
    binary main_v133 main_v135 main_v136 subf,
    nullary main_cst_28 (constant S_ .f32 0x3727C5AC#32),
    unary main_cst_28 main_v137 (broadcastInDim S256 ![] bcast_S_S256),
    binary main_arg27 main_v137 main_v138 addf,
    unary main_v138 main_v139 Host.sqrt,
    unary main_v139 main_v140 (broadcastInDim S1x256 ![1] bcast_S256_S1x256_1),
    unary main_v140 main_v141 (broadcastInDim S16384x256 ![0, 1] bcast_S1x256_S16384x256_0_1),
    binary main_v136 main_v141 main_v142 Host.divf,
    unary main_arg24 main_v143 (broadcastInDim S1x256 ![1] bcast_S256_S1x256_1),
    unary main_v143 main_v144 (broadcastInDim S16384x256 ![0, 1] bcast_S1x256_S16384x256_0_1),
    binary main_v142 main_v144 main_v145 mulf,
    unary main_arg25 main_v146 (broadcastInDim S1x256 ![1] bcast_S256_S1x256_1),
    unary main_v146 main_v147 (broadcastInDim S16384x256 ![0, 1] bcast_S1x256_S16384x256_0_1),
    binary main_v145 main_v147 main_v148 addf ]

/-- Statements 181 … 194: the maximum with zero, the last dense layer and its offset, one over one
    plus the exponential of the negation, and the column read as a vector. -/
abbrev ops6 : List (HloOp τ sig (Elt F)) :=
  [ TRef.nullary main_call5.cst (constant S_ .f32 0x00000000#32),
    TRef.unary main_call5.cst main_call5.v0 (broadcastInDim S16384x256 ![] bcast_S_S16384x256),
    TRef.binary (.of main_v148) main_call5.v0 main_call5.v1 maximumf,
    binary main_v149 main_arg28 main_v150 (fun l r => Host.dotGeneral dot_S16384x256_S256x1_S16384x1_1_0_0_1_n_n none l r),
    unary main_arg29 main_v151 (broadcastInDim S1x1 ![1] bcast_S1_S1x1_1),
    unary main_v151 main_v152 (broadcastInDim S16384x1 ![0, 1] bcast_S1x1_S16384x1_0_1),
    binary main_v150 main_v152 main_v153 addf,
    unary main_v153 main_v154 Host.negf,
    unary main_v154 main_v155 Host.exp,
    nullary main_cst_29 (constant S_ .f32 0x3F800000#32),
    unary main_cst_29 main_v156 (broadcastInDim S16384x1 ![] bcast_S_S16384x1),
    binary main_v156 main_v155 main_v157 addf,
    nullary main_cst_30 (constant S_ .f32 0x3F800000#32),
    unary main_cst_30 main_v158 (broadcastInDim S16384x1 ![] bcast_S_S16384x1),
    binary main_v158 main_v157 main_v159 Host.divf,
    reshape main_v159 main_v160 rfl shapeCasts_S16384x1_S16384 ]

/-- @main's 226 operations, in order. -/
abbrev ops : List (HloOp τ sig (Elt F)) :=
  ops0 ++ (ops1 ++ (ops2 ++ (ops3 ++ (ops4 ++ (ops5 ++ ops6)))))

/-! ## @main is the line -/

set_option maxRecDepth 16384 in
/-- Statements 1 … 60 are the first two stretches: the variance function and the selection it calls
    unfolded at the call, sequencing re-associated. -/
theorem main_part0_eq (c : Dev nD) : main_part0 (F := F) c = seq (ops0 ++ ops1) := by
  simp only [main_part0, fn_var.body, fn_where.body, List.cons_append, List.nil_append, seq, bind_assoc, pure_bind]
  rfl

set_option maxRecDepth 16384 in
/-- Statements 61 … 120 are the third and fourth stretches. -/
theorem main_part1_eq (c : Dev nD) : main_part1 (F := F) c = seq (ops2 ++ ops3) := by
  simp only [main_part1, fn_relu.body, fn_clip.body, fn_relu_0.body, List.cons_append, List.nil_append, seq, bind_assoc, pure_bind]
  rfl

set_option maxRecDepth 16384 in
/-- Statements 121 … 180 are the fifth and sixth stretches. -/
theorem main_part2_eq (c : Dev nD) : main_part2 (F := F) c = seq (ops4 ++ ops5) := by
  simp only [main_part2, fn_relu_1.body, List.cons_append, List.nil_append, seq, bind_assoc, pure_bind]
  rfl

set_option maxRecDepth 16384 in
/-- Statements 181 … 195 are the last stretch. -/
theorem main_part3_eq (c : Dev nD) : main_part3 (F := F) c = seq ops6 := by
  simp only [main_part3, fn_relu_2.body, seq, bind_assoc, pure_bind]
  rfl

/-- @main runs its four windows in order, and a concatenation runs as its parts in order. -/
theorem main_eq (c : Dev nD) : main (F := F) c = seq ops := by
  simp only [main, main_part0_eq, main_part1_eq, main_part2_eq, main_part3_eq, ops, seq_append, bind_assoc]

/-! ## Side conditions of the run -/

theorem scopedRefs_eq : (Finset.univ.filter fun b : Ref sig .tc => b.isScoped) = ∅ := by decide
theorem scopedSems_eq : (Finset.univ.filter fun sm : SemLoc sig => sm.isScoped .tc) = ∅ := by decide

/-! Each operation is one of six builders, and each builder's buffers are TensorCore buffers: the
    containment holds operation by operation, whatever the operation's kind. -/

theorem ops0_sub : (ops0 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

theorem ops1_sub : (ops1 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

theorem ops2_sub : (ops2 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

theorem ops3_sub : (ops3 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

theorem ops4_sub : (ops4 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

theorem ops5_sub : (ops5 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

theorem ops6_sub : (ops6 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

/-- Every operation of the line touches TensorCore buffers only. -/
theorem ops_sub : (ops : List (HloOp τ sig (Elt F))).Forall fun op => op.bufs ⊆ tcRefs τ sig :=
  List.forall_append.mpr ⟨ops0_sub, List.forall_append.mpr ⟨ops1_sub, List.forall_append.mpr ⟨ops2_sub,
    List.forall_append.mpr ⟨ops3_sub, List.forall_append.mpr ⟨ops4_sub, List.forall_append.mpr ⟨ops5_sub, ops6_sub⟩⟩⟩⟩⟩⟩

/-! No operation of the line leaves a result undetermined: membership in a literal list is a finite
    case split, and in each case the set of undetermined results is empty by definition. -/

theorem ops0_fresh : ∀ op ∈ (ops0 : List (HloOp τ sig (Elt F))), op.fresh = ∅ := by
  intro _ h; (repeat (cases h with | head => rfl | tail _ h => ?_)); exact nomatch h

theorem ops1_fresh : ∀ op ∈ (ops1 : List (HloOp τ sig (Elt F))), op.fresh = ∅ := by
  intro _ h; (repeat (cases h with | head => rfl | tail _ h => ?_)); exact nomatch h

theorem ops2_fresh : ∀ op ∈ (ops2 : List (HloOp τ sig (Elt F))), op.fresh = ∅ := by
  intro _ h; (repeat (cases h with | head => rfl | tail _ h => ?_)); exact nomatch h

theorem ops3_fresh : ∀ op ∈ (ops3 : List (HloOp τ sig (Elt F))), op.fresh = ∅ := by
  intro _ h; (repeat (cases h with | head => rfl | tail _ h => ?_)); exact nomatch h

theorem ops4_fresh : ∀ op ∈ (ops4 : List (HloOp τ sig (Elt F))), op.fresh = ∅ := by
  intro _ h; (repeat (cases h with | head => rfl | tail _ h => ?_)); exact nomatch h

theorem ops5_fresh : ∀ op ∈ (ops5 : List (HloOp τ sig (Elt F))), op.fresh = ∅ := by
  intro _ h; (repeat (cases h with | head => rfl | tail _ h => ?_)); exact nomatch h

theorem ops6_fresh : ∀ op ∈ (ops6 : List (HloOp τ sig (Elt F))), op.fresh = ∅ := by
  intro _ h; (repeat (cases h with | head => rfl | tail _ h => ?_)); exact nomatch h

/-- Every operation of the line determines its results. -/
theorem ops_fresh : ∀ op ∈ (ops : List (HloOp τ sig (Elt F))), op.fresh = ∅ := by
  intro op h
  simp only [ops, List.mem_append] at h
  rcases h with h | h | h | h | h | h | h
  exacts [ops0_fresh op h, ops1_fresh op h, ops2_fresh op h, ops3_fresh op h, ops4_fresh op h, ops5_fresh op h, ops6_fresh op h]

/-! ## The run -/

/-- At the compiled mesh, for any float values, from any memory with zero counters: every weakly fair
    execution of @main terminates, and every final state has each buffer at the fold of the line's
    operations over the launch contents. -/
theorem ref_run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RV

end
-- ==== Proof.RefAfter.lean ====
import proofs.«429925_j71167608094992_2_alg».proof.Proof.RefRun
import proofs.«429925_j71167608094992_2_alg».proof.Proof.RefAll
import proofs.«429925_j71167608094992_2_alg».proof.Proof.HostShared

/-! The reference line's fold, read back.

The fold over the whole line is the composition of the folds over its seven stretches. A stretch
leaves every buffer it does not write as it found it, and puts at each buffer a later stretch reads
a pure term of the buffers it reads itself. Composed, the result buffer holds the row function of
the whole reference applied to the arguments' contents, and every argument is unchanged. -/

noncomputable section

namespace Cert.ReferenceIdeal.RV

open Cert.ReferenceIdeal Cert.ReferenceIdeal.Facts₀ Idealize.ShloMosaic Idealize.ShloMosaic.TcCoe Idealize.SL.Sem
  Idealize.ShloMosaic.StableHlo

variable {F : FTy → Type} [FloatOps F]

/-- The fold over a concatenation is the fold over the second part after the fold over the first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-! ## What each stretch writes -/

abbrev wr0 : List (Ref sig .tc) :=
  [main_c, main_c_0, main_c_1, main_c_2, main_c_3, main_v0, main_cst, main_v1, main_v2, main_c_4, main_v3, main_v4,
   main_c_5, main_v5, main_v6, main_v7, main_v8, main_v9, main_c_6, main_v10, main_v11, main_c_7, main_v12, main_v13,
   main_v14, main_v15, main_v16, main_c_8, main_v17, main_v18, main_c_9, main_v19, main_v20, main_v21, main_v22, main_v23]

abbrev wr1 : List (Ref sig .tc) :=
  [main_v24, main_v25, main_v26, main_v27, main_cst_10, main_v28, main_v29, main_cst_11, main_v30, main_v31, main_c_12,
   main_call0_cst, main_call0_v0, main_call0_v1, main_call0_cst_0, main_call0_v2, main_call0_v3, main_call0_v4,
   main_call0_v5, main_call0_v6, main_call0_v7, main_call0_cst_1, main_call0_v8, main_call0_cst_2, main_call0_v9,
   main_call0_v10, main_call0_v11, main_call0_v12, main_call0_cst_3, main_call0_v13, main_call0_cst_4,
   main_call0_call0_v0, main_call0_call0_v1, main_v32, main_v33, main_v34, main_cst_13, main_v35, main_v36, main_v37,
   main_v38, main_v39, main_v40, main_v41, main_v42, main_v43]

abbrev wr2 : List (Ref sig .tc) :=
  [main_v44, main_v45, main_call1_cst, main_call1_v0, main_v46, main_c_14, main_v47, main_v48, main_c_15, main_v49,
   main_v50, main_v51, main_v52, main_v53, main_c_16, main_v54, main_v55, main_v56, main_v57, main_v58, main_v59,
   main_cst_17, main_v60, main_cst_18, main_v61, main_v62, main_cst_19, main_call2_v0, main_call2_v1, main_v63,
   main_v64, main_v65, main_cst_20, main_v66, main_v67, main_v68, main_v69, main_v70, main_v71, main_v72]

abbrev wr3 : List (Ref sig .tc) :=
  [main_v73, main_cst_21, main_v74, main_cst_22, main_v75, main_v76, main_v77, main_v78, main_v79, main_v80,
   main_call3_cst, main_call3_v0, main_v81, main_v82, main_v83, main_v84, main_v85, main_v86, main_v87, main_cst_23,
   main_v88, main_v89, main_cst_24, main_v90, main_v91, main_v92]

abbrev wr4 : List (Ref sig .tc) :=
  [main_v93, main_v94, main_v95, main_c_25, main_v96, main_v97, main_v98, main_v99, main_v100, main_c_26, main_v101,
   main_v102, main_v103, main_v104, main_v105, main_v106, main_v107, main_v108]

abbrev wr5 : List (Ref sig .tc) :=
  [main_v109, main_v110, main_v111, main_v112, main_v113, main_v114, main_v115, main_v116, main_cst_27, main_v117,
   main_v118, main_v119, main_v120, main_v121, main_v122, main_v123, main_v124, main_v125, main_v126, main_v127,
   main_v128, main_call4_cst, main_call4_v0, main_v129, main_v130, main_v131, main_v132, main_v133, main_v134,
   main_v135, main_v136, main_cst_28, main_v137, main_v138, main_v139, main_v140, main_v141, main_v142, main_v143,
   main_v144, main_v145, main_v146, main_v147, main_v148]

abbrev wr6 : List (Ref sig .tc) :=
  [main_call5_cst, main_call5_v0, main_v149, main_v150, main_v151, main_v152, main_v153, main_v154, main_v155,
   main_cst_29, main_v156, main_v157, main_cst_30, main_v158, main_v159, main_v160]

/-- Every buffer the line writes. -/
abbrev wr : List (Ref sig .tc) := wr0 ++ (wr1 ++ (wr2 ++ (wr3 ++ (wr4 ++ (wr5 ++ wr6)))))

/-- A single buffer of a list is among the list's buffers. -/
theorem sub_wr {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

theorem ops0_writes : (ops0 : List (HloOp τ sig (Elt F))).Forall fun op =>
    op.writes ⊆ (wr0.map (Proc.devRef (τ := τ) .tc)).toFinset := by
  rw [List.forall_iff_forall_mem]
  intro _ h; (repeat (cases h with | head => exact sub_wr (by decide) | tail _ h => ?_)); exact nomatch h

theorem ops1_writes : (ops1 : List (HloOp τ sig (Elt F))).Forall fun op =>
    op.writes ⊆ (wr1.map (Proc.devRef (τ := τ) .tc)).toFinset := by
  rw [List.forall_iff_forall_mem]
  intro _ h; (repeat (cases h with | head => exact sub_wr (by decide) | tail _ h => ?_)); exact nomatch h

theorem ops2_writes : (ops2 : List (HloOp τ sig (Elt F))).Forall fun op =>
    op.writes ⊆ (wr2.map (Proc.devRef (τ := τ) .tc)).toFinset := by
  rw [List.forall_iff_forall_mem]
  intro _ h; (repeat (cases h with | head => exact sub_wr (by decide) | tail _ h => ?_)); exact nomatch h

theorem ops3_writes : (ops3 : List (HloOp τ sig (Elt F))).Forall fun op =>
    op.writes ⊆ (wr3.map (Proc.devRef (τ := τ) .tc)).toFinset := by
  rw [List.forall_iff_forall_mem]
  intro _ h; (repeat (cases h with | head => exact sub_wr (by decide) | tail _ h => ?_)); exact nomatch h

theorem ops4_writes : (ops4 : List (HloOp τ sig (Elt F))).Forall fun op =>
    op.writes ⊆ (wr4.map (Proc.devRef (τ := τ) .tc)).toFinset := by
  rw [List.forall_iff_forall_mem]
  intro _ h; (repeat (cases h with | head => exact sub_wr (by decide) | tail _ h => ?_)); exact nomatch h

theorem ops5_writes : (ops5 : List (HloOp τ sig (Elt F))).Forall fun op =>
    op.writes ⊆ (wr5.map (Proc.devRef (τ := τ) .tc)).toFinset := by
  rw [List.forall_iff_forall_mem]
  intro _ h; (repeat (cases h with | head => exact sub_wr (by decide) | tail _ h => ?_)); exact nomatch h

theorem ops6_writes : (ops6 : List (HloOp τ sig (Elt F))).Forall fun op =>
    op.writes ⊆ (wr6.map (Proc.devRef (τ := τ) .tc)).toFinset := by
  rw [List.forall_iff_forall_mem]
  intro _ h; (repeat (cases h with | head => exact sub_wr (by decide) | tail _ h => ?_)); exact nomatch h

/-! ## The stages -/

/-- The contents after the first stretch, after the second, …: the fold stretch by stretch. -/
def st0 (W : Valuation τ sig (Elt F)) : Valuation τ sig (Elt F) := after ops0 W
def st1 (W : Valuation τ sig (Elt F)) : Valuation τ sig (Elt F) := after ops1 W
def st2 (W : Valuation τ sig (Elt F)) : Valuation τ sig (Elt F) := after ops2 W
def st3 (W : Valuation τ sig (Elt F)) : Valuation τ sig (Elt F) := after ops3 W
def st4 (W : Valuation τ sig (Elt F)) : Valuation τ sig (Elt F) := after ops4 W
def st5 (W : Valuation τ sig (Elt F)) : Valuation τ sig (Elt F) := after ops5 W
def st6 (W : Valuation τ sig (Elt F)) : Valuation τ sig (Elt F) := after ops6 W

/-- The fold over the line is the seven stages in order. -/
theorem after_ops (V : Valuation τ sig (Elt F)) :
    after ops V = st6 (st5 (st4 (st3 (st2 (st1 (st0 V)))))) := by
  simp only [ops, after_app]
  rfl

/-! A stage leaves a buffer its stretch does not write as it found it. -/

theorem st0_frame (W : Valuation τ sig (Elt F)) (r : Ref sig .tc) (hr : r ∉ wr0) :
    st0 W (no_index (Proc.devRef .tc r)) = W (Proc.devRef .tc r) := after_of_writes_sub ops0 W ops0_writes hr
theorem st1_frame (W : Valuation τ sig (Elt F)) (r : Ref sig .tc) (hr : r ∉ wr1) :
    st1 W (no_index (Proc.devRef .tc r)) = W (Proc.devRef .tc r) := after_of_writes_sub ops1 W ops1_writes hr
theorem st2_frame (W : Valuation τ sig (Elt F)) (r : Ref sig .tc) (hr : r ∉ wr2) :
    st2 W (no_index (Proc.devRef .tc r)) = W (Proc.devRef .tc r) := after_of_writes_sub ops2 W ops2_writes hr
theorem st3_frame (W : Valuation τ sig (Elt F)) (r : Ref sig .tc) (hr : r ∉ wr3) :
    st3 W (no_index (Proc.devRef .tc r)) = W (Proc.devRef .tc r) := after_of_writes_sub ops3 W ops3_writes hr
theorem st4_frame (W : Valuation τ sig (Elt F)) (r : Ref sig .tc) (hr : r ∉ wr4) :
    st4 W (no_index (Proc.devRef .tc r)) = W (Proc.devRef .tc r) := after_of_writes_sub ops4 W ops4_writes hr
theorem st5_frame (W : Valuation τ sig (Elt F)) (r : Ref sig .tc) (hr : r ∉ wr5) :
    st5 W (no_index (Proc.devRef .tc r)) = W (Proc.devRef .tc r) := after_of_writes_sub ops5 W ops5_writes hr
theorem st6_frame (W : Valuation τ sig (Elt F)) (r : Ref sig .tc) (hr : r ∉ wr6) :
    st6 W (no_index (Proc.devRef .tc r)) = W (Proc.devRef .tc r) := after_of_writes_sub ops6 W ops6_writes hr

/-- A buffer the line does not write holds after the line what it held before: every argument does. -/
theorem after_ops_frame (V : Valuation τ sig (Elt F)) (r : Ref sig .tc) (hr : r ∉ wr) :
    after ops V (Proc.devRef .tc r) = V (Proc.devRef .tc r) := by
  simp only [wr, List.mem_append, not_or] at hr
  obtain ⟨h0, h1, h2, h3, h4, h5, h6⟩ := hr
  rw [after_ops]
  exact (st6_frame _ r h6).trans ((st5_frame _ r h5).trans ((st4_frame _ r h4).trans ((st3_frame _ r h3).trans
    ((st2_frame _ r h2).trans ((st1_frame _ r h1).trans (st0_frame _ r h0))))))

/-! ## The terms at the stretch boundaries

The named row functions of the reference, cut where the stretches are cut. Each named function is
one of these with its last step applied, by definition. -/

/-- The normalised and scaled projection, before the offset and the maximum with zero. -/
def mmPre (x : FVec F S16384x128 .f32) (a7 : FVec F S128x128 .f32) (a8 a9 : FVec F S128 .f32) : FVec F S16384x128 .f32 :=
  mulf
    (Host.divf
      (subf (refLin x a7 a8) (broadcastInDim S16384x128 ![0, 1] bcast_S16384x1_S16384x128_0_1 (refMean (refLin x a7 a8))))
      (broadcastInDim S16384x128 ![0, 1] bcast_S16384x1_S16384x128_0_1
        (Host.sqrt (addf (refVar (refLin x a7 a8) (constantI S_ 32 0#32))
          (broadcastInDim S16384x1 ![] bcast_S_S16384x1 (constant S_ .f32 0x3727C5AC#32))))))
    (refRow128 a9)

/-- The multimodal field from the scaled projection and the offset's row. -/
def mmPost (p : FVec F S16384x128 .f32) (o : FVec F S1x128 .f32) : FVec F S16384x128 .f32 :=
  maximumf (addf p (broadcastInDim S16384x128 ![0, 1] bcast_S1x128_S16384x128_0_1 o))
    (broadcastInDim S16384x128 ![] bcast_S_S16384x128 (constant S_ .f32 0x00000000#32))

theorem refMM_cut (x : FVec F S16384x128 .f32) (a7 : FVec F S128x128 .f32) (a8 a9 a10 : FVec F S128 .f32) :
    mmPost (mmPre x a7 a8 a9) (broadcastInDim S1x128 ![1] bcast_S128_S1x128_1 a10) = refMM x a7 a8 a9 a10 := rfl

/-- The pooled history row from the table with its first row zeroed. -/
def histOf (ez : FVec F S91718x128 .f32) (seq : IVec S16384x50 32) : FVec F S16384x128 .f32 :=
  Host.divf
    (Host.reduceAdd
      (mulf
        (Host.gather gather_S91718x128_S16384x50x1_S16384x50x128_2_0_n_n_0_2_1128 ez
          (broadcastInDim S16384x50x1 ![0, 1] bcast_S16384x50_S16384x50x1_0_1
            (select (cmpi .slt seq (broadcastInDim S16384x50 ![] bcast_S_S16384x50 (constantI S_ 32 0#32)))
              (addi seq (broadcastInDim S16384x50 ![] bcast_S_S16384x50 (constantI S_ 32 91718#32))) seq)))
        (broadcastInDim S16384x50x128 ![0, 1, 2] bcast_S16384x50x1_S16384x50x128_0_1_2
          (broadcastInDim S16384x50x1 ![0, 1] bcast_S16384x50_S16384x50x1_0_1 (histMask seq))))
      (constant S_ .f32 0x00000000#32) reducesTo_S16384x50x128_S16384x128_d1 h_S_)
    (broadcastInDim S16384x128 ![0, 1] bcast_S16384x1_S16384x128_0_1
      (maximumf (broadcastInDim S16384x1 ![] bcast_S_S16384x1 (constant S_ .f32 0x3F800000#32))
        (broadcastInDim S16384x1 ![0] bcast_S16384_S16384x1_0 (histCnt seq))))

theorem histR_cut (emb : FVec F S91718x128 .f32) (seq : IVec S16384x50 32) : histOf (embZ emb) seq = histR emb seq := rfl

/-- Six one-field blocks side by side along the field axis. -/
def cat6 (u0 u1 u2 u3 u4 u5 : FVec F S16384x1x128 .f32) : FVec F S16384x6x128 .f32 :=
  concatenate S16384x6x128 1
    [⟨S16384x1x128, u0⟩, ⟨S16384x1x128, u1⟩, ⟨S16384x1x128, u2⟩, ⟨S16384x1x128, u3⟩, ⟨S16384x1x128, u4⟩, ⟨S16384x1x128, u5⟩]
    concatenates_S16384x1x128_S16384x1x128_S16384x1x128_S16384x1x128_S16384x1x128_S16384x1x128_S16384x6x128_d1

theorem refX_cut (f1 f2 f3 f4 f5 : FVec F S16384x128 .f32) :
    cat6 (refLift (refZero (F := F))) (refLift f1) (refLift f2) (refLift f3) (refLift f4) (refLift f5) = refX f1 f2 f3 f4 f5 := rfl

/-- A pair table as the gather reads it: shifted by 6 where the mask holds, as a column. -/
def pairTab (m : IVec S15 1) (t : IVec S15 32) : IVec S15x1 32 :=
  broadcastInDim S15x1 ![0] bcast_S15_S15x1_0
    (select m (addi t (broadcastInDim S15 ![] bcast_S_S15 (constantI S_ 32 6#32))) t)

/-- The fifteen products: first members from the gated fields, second members from their images. -/
def prodOf (xs : FVec F S16384x6x128 .f32) (a15 : FVec F S128x128 .f32) (m0 : IVec S15 1) (t0 : IVec S15 32)
    (m1 : IVec S15 1) (t1 : IVec S15 32) : FVec F S16384x15x128 .f32 :=
  mulf (Host.gather gather_S16384x6x128_S15x1_S16384x15x128_02_1_n_n_1_1_163841128 xs (pairTab m0 t0))
    (Host.gather gather_S16384x6x128_S15x1_S16384x15x128_02_1_n_n_1_1_163841128 (refBil xs a15) (pairTab m1 t1))

/-- The two flattened blocks side by side. -/
def cat2 (a : FVec F S16384x768 .f32) (b : FVec F S16384x1920 .f32) : FVec F S16384x2688 .f32 :=
  concatenate S16384x2688 1 [⟨S16384x768, a⟩, ⟨S16384x1920, b⟩] concatenates_S16384x768_S16384x1920_S16384x2688_d1

theorem refC_cut (xs : FVec F S16384x6x128 .f32) (a15 : FVec F S128x128 .f32) :
    cat2 (shapeCast S16384x768 xs shapeCasts_S16384x6x128_S16384x768)
      (shapeCast S16384x1920
        (prodOf xs a15 (constantI S15 1 0#1) (fun i => lit0 (S15.rowMajor i)) (constantI S15 1 0#1) (fun i => lit1 (S15.rowMajor i)))
        shapeCasts_S16384x15x128_S16384x1920) = refC xs a15 := rfl

/-- The second normalisation before its maximum with zero. -/
def pre256 (x : FVec F S16384x256 .f32) (g be rm rv : FVec F S256 .f32) : FVec F S16384x256 .f32 :=
  addf
    (mulf
      (Host.divf (subf x (Head.rows256 rm))
        (Head.rows256 (Host.sqrt (addf rv (broadcastInDim S256 ![] bcast_S_S256 (constant S_ .f32 0x3727C5AC#32))))))
      (Head.rows256 g))
    (Head.rows256 be)

/-- The head up to the second normalisation's sum, from the two flattened blocks. -/
def headPre (p : FVec F S16384x768 .f32) (q : FVec F S16384x1920 .f32) (a16 : FVec F S2688x512 .f32)
    (a17 a18 a19 a20 a21 : FVec F S512 .f32) (a22 : FVec F S512x256 .f32) (a23 a24 a25 a26 a27 : FVec F S256 .f32) :
    FVec F S16384x256 .f32 :=
  pre256 (Head.lin2 (Head.bn512 (Head.lin1 (cat2 p q) a16 a17) a18 a19 a20 a21) a22 a23) a24 a25 a26 a27

/-- The head's last steps from that sum. -/
def headPost (y : FVec F S16384x256 .f32) (a28 : FVec F S256x1 .f32) (a29 : FVec F S1 .f32) : FVec F S16384 .f32 :=
  shapeCast S16384
    (Head.sigm (Head.lin3 (maximumf y (broadcastInDim S16384x256 ![] bcast_S_S16384x256 (constant S_ .f32 0x00000000#32))) a28 a29))
    shapeCasts_S16384x1_S16384

theorem refHead_cut (p : FVec F S16384x768 .f32) (q : FVec F S16384x1920 .f32) (a16 : FVec F S2688x512 .f32)
    (a17 a18 a19 a20 a21 : FVec F S512 .f32) (a22 : FVec F S512x256 .f32) (a23 a24 a25 a26 a27 : FVec F S256 .f32)
    (a28 : FVec F S256x1 .f32) (a29 : FVec F S1 .f32) :
    headPost (headPre p q a16 a17 a18 a19 a20 a21 a22 a23 a24 a25 a26 a27) a28 a29
      = refHead (cat2 p q) a16 a17 a18 a19 a20 a21 a22 a23 a24 a25 a26 a27 a28 a29 := rfl

/-! ## What each stage puts at the buffers read later -/

section stages
variable (W : Valuation τ sig (Elt F))

theorem st0_c : st0 W (no_index (main_c : DevRef τ sig)) = fun i => lit0 (S15.rowMajor i) := by
  show after ops0 W _ = _; after_results_simp <;> rfl
theorem st0_c_0 : st0 W (no_index (main_c_0 : DevRef τ sig)) = constantI S15 1 0#1 := by
  show after ops0 W _ = _; after_results_simp <;> rfl
theorem st0_c_1 : st0 W (no_index (main_c_1 : DevRef τ sig)) = fun i => lit1 (S15.rowMajor i) := by
  show after ops0 W _ = _; after_results_simp <;> rfl
theorem st0_c_2 : st0 W (no_index (main_c_2 : DevRef τ sig)) = constantI S15 1 0#1 := by
  show after ops0 W _ = _; after_results_simp <;> rfl
theorem st0_v2 : st0 W (no_index (main_v2 : DevRef τ sig)) = embZ (W (main_arg5 : DevRef τ sig)) := by
  show after ops0 W _ = _; after_results_simp <;> rfl
theorem st0_v9 : st0 W (no_index (main_v9 : DevRef τ sig))
    = refCat (W (main_arg6 : DevRef τ sig)) (W (main_arg2 : DevRef τ sig)) := by
  show after ops0 W _ = _; after_results_simp <;> rfl
theorem st0_v16 : st0 W (no_index (main_v16 : DevRef τ sig))
    = refCat (W (main_arg6 : DevRef τ sig)) (W (main_arg3 : DevRef τ sig)) := by
  show after ops0 W _ = _; after_results_simp <;> rfl
theorem st0_v23 : st0 W (no_index (main_v23 : DevRef τ sig))
    = itemR (W (main_arg5 : DevRef τ sig)) (W (main_arg0 : DevRef τ sig)) := by
  show after ops0 W _ = _; after_results_simp <;> rfl

theorem st1_v42 : st1 W (no_index (main_v42 : DevRef τ sig))
    = mmPre (W (main_arg1 : DevRef τ sig)) (W (main_arg7 : DevRef τ sig)) (W (main_arg8 : DevRef τ sig))
        (W (main_arg9 : DevRef τ sig)) := by
  show after ops1 W _ = _; after_results_simp <;> rfl
theorem st1_v43 : st1 W (no_index (main_v43 : DevRef τ sig))
    = broadcastInDim S1x128 ![1] bcast_S128_S1x128_1 (W (main_arg10 : DevRef τ sig)) := by
  show after ops1 W _ = _; after_results_simp <;> rfl

theorem st2_v67 : st2 W (no_index (main_v67 : DevRef τ sig)) = refLift (refZero (F := F)) := by
  show after ops2 W _ = _; after_results_simp <;> rfl
theorem st2_v68 : st2 W (no_index (main_v68 : DevRef τ sig)) = refLift (W (main_v9 : DevRef τ sig)) := by
  show after ops2 W _ = _; after_results_simp <;> rfl
theorem st2_v69 : st2 W (no_index (main_v69 : DevRef τ sig)) = refLift (W (main_v16 : DevRef τ sig)) := by
  show after ops2 W _ = _; after_results_simp <;> rfl
theorem st2_v70 : st2 W (no_index (main_v70 : DevRef τ sig)) = refLift (W (main_v23 : DevRef τ sig)) := by
  show after ops2 W _ = _; after_results_simp <;> rfl
theorem st2_v71 : st2 W (no_index (main_v71 : DevRef τ sig))
    = refLift (mmPost (W (main_v42 : DevRef τ sig)) (W (main_v43 : DevRef τ sig))) := by
  show after ops2 W _ = _; after_results_simp <;> rfl
theorem st2_v72 : st2 W (no_index (main_v72 : DevRef τ sig))
    = refLift (histOf (W (main_v2 : DevRef τ sig)) (W (main_arg4 : DevRef τ sig))) := by
  show after ops2 W _ = _; after_results_simp <;> rfl

theorem st3_v73 : st3 W (no_index (main_v73 : DevRef τ sig))
    = cat6 (W (main_v67 : DevRef τ sig)) (W (main_v68 : DevRef τ sig)) (W (main_v69 : DevRef τ sig))
        (W (main_v70 : DevRef τ sig)) (W (main_v71 : DevRef τ sig)) (W (main_v72 : DevRef τ sig)) := by
  show after ops3 W _ = _; after_results_simp <;> rfl
theorem st3_v92 : st3 W (no_index (main_v92 : DevRef τ sig))
    = broadcastInDim S16384x6x1 ![0, 1] bcast_S16384x6_S16384x6x1_0_1
        (refGate
          (cat6 (W (main_v67 : DevRef τ sig)) (W (main_v68 : DevRef τ sig)) (W (main_v69 : DevRef τ sig))
            (W (main_v70 : DevRef τ sig)) (W (main_v71 : DevRef τ sig)) (W (main_v72 : DevRef τ sig)))
          (W (main_arg11 : DevRef τ sig)) (W (main_arg12 : DevRef τ sig)) (W (main_arg13 : DevRef τ sig))
          (W (main_arg14 : DevRef τ sig))) := by
  show after ops3 W _ = _; after_results_simp <;> rfl

/-- The gated fields from the fields and the gate's column. -/
def xsOf (x : FVec F S16384x6x128 .f32) (g : FVec F S16384x6x1 .f32) : FVec F S16384x6x128 .f32 :=
  mulf x (broadcastInDim S16384x6x128 ![0, 1, 2] bcast_S16384x6x1_S16384x6x128_0_1_2 g)

theorem refXs_cut (x : FVec F S16384x6x128 .f32) (g : FVec F S16384x6 .f32) :
    xsOf x (broadcastInDim S16384x6x1 ![0, 1] bcast_S16384x6_S16384x6x1_0_1 g) = refXs x g := rfl

theorem st4_v107 : st4 W (no_index (main_v107 : DevRef τ sig))
    = shapeCast S16384x768 (xsOf (W (main_v73 : DevRef τ sig)) (W (main_v92 : DevRef τ sig)))
        shapeCasts_S16384x6x128_S16384x768 := by
  show after ops4 W _ = _; after_results_simp <;> rfl
theorem st4_v108 : st4 W (no_index (main_v108 : DevRef τ sig))
    = shapeCast S16384x1920
        (prodOf (xsOf (W (main_v73 : DevRef τ sig)) (W (main_v92 : DevRef τ sig))) (W (main_arg15 : DevRef τ sig))
          (W (main_c_0 : DevRef τ sig)) (W (main_c : DevRef τ sig)) (W (main_c_2 : DevRef τ sig)) (W (main_c_1 : DevRef τ sig)))
        shapeCasts_S16384x15x128_S16384x1920 := by
  show after ops4 W _ = _; after_results_simp <;> rfl

theorem st5_v148 : st5 W (no_index (main_v148 : DevRef τ sig))
    = headPre (W (main_v107 : DevRef τ sig)) (W (main_v108 : DevRef τ sig)) (W (main_arg16 : DevRef τ sig))
        (W (main_arg17 : DevRef τ sig)) (W (main_arg18 : DevRef τ sig)) (W (main_arg19 : DevRef τ sig))
        (W (main_arg20 : DevRef τ sig)) (W (main_arg21 : DevRef τ sig)) (W (main_arg22 : DevRef τ sig))
        (W (main_arg23 : DevRef τ sig)) (W (main_arg24 : DevRef τ sig)) (W (main_arg25 : DevRef τ sig))
        (W (main_arg26 : DevRef τ sig)) (W (main_arg27 : DevRef τ sig)) := by
  show after ops5 W _ = _; after_results_simp <;> rfl

theorem st6_v160 : st6 W (no_index (main_v160 : DevRef τ sig))
    = headPost (W (main_v148 : DevRef τ sig)) (W (main_arg28 : DevRef τ sig)) (W (main_arg29 : DevRef τ sig)) := by
  show after ops6 W _ = _; after_results_simp <;> rfl

end stages

/-! ## The line's result -/

/-- After the line the result buffer holds the reference's row function of the arguments' contents,
    the item rows and the pooled history rows being those of the embedding table and the indices. -/
theorem after_v160 (V : Valuation τ sig (Elt F)) :
    after ops V (main_v160 : DevRef τ sig)
      = refAll (itemR (V (main_arg5 : DevRef τ sig)) (V (main_arg0 : DevRef τ sig)))
          (histR (V (main_arg5 : DevRef τ sig)) (V (main_arg4 : DevRef τ sig)))
          (V (main_arg1 : DevRef τ sig)) (V (main_arg2 : DevRef τ sig)) (V (main_arg3 : DevRef τ sig))
          (V (main_arg6 : DevRef τ sig)) (V (main_arg7 : DevRef τ sig)) (V (main_arg8 : DevRef τ sig))
          (V (main_arg9 : DevRef τ sig)) (V (main_arg10 : DevRef τ sig)) (V (main_arg11 : DevRef τ sig))
          (V (main_arg12 : DevRef τ sig)) (V (main_arg13 : DevRef τ sig)) (V (main_arg14 : DevRef τ sig))
          (V (main_arg15 : DevRef τ sig)) (V (main_arg16 : DevRef τ sig)) (V (main_arg17 : DevRef τ sig))
          (V (main_arg18 : DevRef τ sig)) (V (main_arg19 : DevRef τ sig)) (V (main_arg20 : DevRef τ sig))
          (V (main_arg21 : DevRef τ sig)) (V (main_arg22 : DevRef τ sig)) (V (main_arg23 : DevRef τ sig))
          (V (main_arg24 : DevRef τ sig)) (V (main_arg25 : DevRef τ sig)) (V (main_arg26 : DevRef τ sig))
          (V (main_arg27 : DevRef τ sig)) (V (main_arg28 : DevRef τ sig)) (V (main_arg29 : DevRef τ sig)) := by
  rw [after_ops]
  simp (disch := decide) only [st6_v160, st5_v148, st4_v107, st4_v108, st3_v73, st3_v92, st2_v67, st2_v68, st2_v69,
    st2_v70, st2_v71, st2_v72, st1_v42, st1_v43, st0_c, st0_c_0, st0_c_1, st0_c_2, st0_v2, st0_v9, st0_v16, st0_v23,
    st6_frame, st5_frame, st4_frame, st3_frame, st2_frame, st1_frame, st0_frame]
  simp only [refMM_cut, histR_cut, refX_cut, refXs_cut, refC_cut, refHead_cut]
  rfl

/-! ## The run, read back -/

/-- For any float values, from any memory with zero counters: every weakly fair execution of @main
    terminates with the result buffer at the reference's row function of the arguments and every
    argument unchanged. -/
theorem ref_value (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v160)
        = refAll (itemR (m ((c.tc : Thread nD τ).loc main_arg5)) (m ((c.tc : Thread nD τ).loc main_arg0)))
            (histR (m ((c.tc : Thread nD τ).loc main_arg5)) (m ((c.tc : Thread nD τ).loc main_arg4)))
            (m ((c.tc : Thread nD τ).loc main_arg1)) (m ((c.tc : Thread nD τ).loc main_arg2))
            (m ((c.tc : Thread nD τ).loc main_arg3)) (m ((c.tc : Thread nD τ).loc main_arg6))
            (m ((c.tc : Thread nD τ).loc main_arg7)) (m ((c.tc : Thread nD τ).loc main_arg8))
            (m ((c.tc : Thread nD τ).loc main_arg9)) (m ((c.tc : Thread nD τ).loc main_arg10))
            (m ((c.tc : Thread nD τ).loc main_arg11)) (m ((c.tc : Thread nD τ).loc main_arg12))
            (m ((c.tc : Thread nD τ).loc main_arg13)) (m ((c.tc : Thread nD τ).loc main_arg14))
            (m ((c.tc : Thread nD τ).loc main_arg15)) (m ((c.tc : Thread nD τ).loc main_arg16))
            (m ((c.tc : Thread nD τ).loc main_arg17)) (m ((c.tc : Thread nD τ).loc main_arg18))
            (m ((c.tc : Thread nD τ).loc main_arg19)) (m ((c.tc : Thread nD τ).loc main_arg20))
            (m ((c.tc : Thread nD τ).loc main_arg21)) (m ((c.tc : Thread nD τ).loc main_arg22))
            (m ((c.tc : Thread nD τ).loc main_arg23)) (m ((c.tc : Thread nD τ).loc main_arg24))
            (m ((c.tc : Thread nD τ).loc main_arg25)) (m ((c.tc : Thread nD τ).loc main_arg26))
            (m ((c.tc : Thread nD τ).loc main_arg27)) (m ((c.tc : Thread nD τ).loc main_arg28))
            (m ((c.tc : Thread nD τ).loc main_arg29))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29) :=
  (θ_run defs _ _).mono (fun _ h c =>
    ⟨(h c main_v160).trans (after_v160 _),
      (h c main_arg0).trans (after_ops_frame _ main_arg0 (by decide)),
      (h c main_arg1).trans (after_ops_frame _ main_arg1 (by decide)),
      (h c main_arg2).trans (after_ops_frame _ main_arg2 (by decide)),
      (h c main_arg3).trans (after_ops_frame _ main_arg3 (by decide)),
      (h c main_arg4).trans (after_ops_frame _ main_arg4 (by decide)),
      (h c main_arg5).trans (after_ops_frame _ main_arg5 (by decide)),
      (h c main_arg6).trans (after_ops_frame _ main_arg6 (by decide)),
      (h c main_arg7).trans (after_ops_frame _ main_arg7 (by decide)),
      (h c main_arg8).trans (after_ops_frame _ main_arg8 (by decide)),
      (h c main_arg9).trans (after_ops_frame _ main_arg9 (by decide)),
      (h c main_arg10).trans (after_ops_frame _ main_arg10 (by decide)),
      (h c main_arg11).trans (after_ops_frame _ main_arg11 (by decide)),
      (h c main_arg12).trans (after_ops_frame _ main_arg12 (by decide)),
      (h c main_arg13).trans (after_ops_frame _ main_arg13 (by decide)),
      (h c main_arg14).trans (after_ops_frame _ main_arg14 (by decide)),
      (h c main_arg15).trans (after_ops_frame _ main_arg15 (by decide)),
      (h c main_arg16).trans (after_ops_frame _ main_arg16 (by decide)),
      (h c main_arg17).trans (after_ops_frame _ main_arg17 (by decide)),
      (h c main_arg18).trans (after_ops_frame _ main_arg18 (by decide)),
      (h c main_arg19).trans (after_ops_frame _ main_arg19 (by decide)),
      (h c main_arg20).trans (after_ops_frame _ main_arg20 (by decide)),
      (h c main_arg21).trans (after_ops_frame _ main_arg21 (by decide)),
      (h c main_arg22).trans (after_ops_frame _ main_arg22 (by decide)),
      (h c main_arg23).trans (after_ops_frame _ main_arg23 (by decide)),
      (h c main_arg24).trans (after_ops_frame _ main_arg24 (by decide)),
      (h c main_arg25).trans (after_ops_frame _ main_arg25 (by decide)),
      (h c main_arg26).trans (after_ops_frame _ main_arg26 (by decide)),
      (h c main_arg27).trans (after_ops_frame _ main_arg27 (by decide)),
      (h c main_arg28).trans (after_ops_frame _ main_arg28 (by decide)),
      (h c main_arg29).trans (after_ops_frame _ main_arg29 (by decide))⟩)
    (ref_run m ρ)

end Cert.ReferenceIdeal.RV

end
-- ==== Proof.lean ====
/-
  The kernel's head over a batch row and the reference's are one function of the row (Proof/Spec.lean): the
  kernel stores it at every row of every block (Proof/KFinal.lean), the reference returns it at every row
  (Proof/RefAfter.lean over Proof/RefAll.lean) wherever the two category indices lie in the table's range and
  the running variances are not negative, which the precondition says (Proof/PreFacts.lean).  Both programs
  terminate without a fault with their arguments unchanged; from memories that agree on the arguments they end
  with equal results, element by element, over the extended reals.  The two programs' parameters are the same
  arrays, the gathered item rows are the same term, and the pooled history rows differ by the order of the two
  arguments of a maximum (Proof/HostShared.lean).
-/
import proofs.«429925_j71167608094992_2_alg».proof.Defs
import proofs.«429925_j71167608094992_2_alg».proof.Proof.Gen.Kernel
import proofs.«429925_j71167608094992_2_alg».proof.Proof.Gen.KernelIdeal
import proofs.«429925_j71167608094992_2_alg».proof.Proof.Gen.ReferenceIdeal
import proofs.«429925_j71167608094992_2_alg».proof.Proof.Gen.Pre_finite_inputs
import proofs.«429925_j71167608094992_2_alg».proof.Proof.KernelFrame
import proofs.«429925_j71167608094992_2_alg».proof.Proof.KernelIdealFrame
import proofs.«429925_j71167608094992_2_alg».proof.Proof.KFinal
import proofs.«429925_j71167608094992_2_alg».proof.Proof.HostShared
import proofs.«429925_j71167608094992_2_alg».proof.Proof.PreFacts
import proofs.«429925_j71167608094992_2_alg».proof.Proof.RefAll
import proofs.«429925_j71167608094992_2_alg».proof.Proof.RefAfter
import Idealize.ShloMosaic.Adequacy
import Idealize.ShloMosaic.Init

noncomputable section

namespace Cert.Proof

open Idealize.ShloMosaic Idealize.ShloMosaic.ValueIdx Idealize.SL.Sem

/-- The word-level kernel program terminates, faults nowhere and leaves its arguments as they were. -/
theorem frame_K : Cert.frame_Kernel := fun m ρ _ => Cert.Kernel.GenP.frame m ρ

/-- The same of the kernel program read over the extended reals. -/
theorem frame_KI : Cert.frame_KernelIdeal := fun m ρ _ => Cert.KernelIdeal.GenP.frame m ρ

/-- The reference is a straight line of host operations: it terminates and writes none of its arguments. -/
theorem frame_RI : Cert.frame_ReferenceIdeal := fun m ρ _ =>
  (θ_run Cert.ReferenceIdeal.defs _ _).mono (fun _ h c => (h c).2) (Cert.ReferenceIdeal.RV.ref_value m ρ)

set_option maxHeartbeats 1000000 in
/-- From memories that agree on the thirty arguments, under the precondition, the two programs end with the same
    16384 results: at row `b` both hold the row function of the shared parameters and of row `b`'s data. -/
theorem algebraic : Cert.algebraic_KernelIdeal_ReferenceIdeal := by
  intro m g m' g' hpre hagree
  refine ⟨fun c j => Cert.Spec.out (Cert.KW m c) (Cert.KRow m c (j 0)), Cert.KernelIdeal.KV.kernel_final m g, ?_⟩
  refine (θ_run Cert.ReferenceIdeal.defs _ _).mono (fun r h c => ⟨(h c).1.trans ?_, (h c).2⟩)
    (Cert.ReferenceIdeal.RV.ref_value m' g')
  obtain ⟨h0, h1, h2, h3, h4, h5, h6, h7, h8, h9, h10, h11, h12, h13, h14, h15, h16, h17, h18, h19, h20, h21, h22, h23, h24, h25, h26, h27, h28, h29⟩ := hagree c
  obtain ⟨hl, hv, hr1, hr2⟩ := Cert.PreFacts.pre_facts _ _ _ _ _ _ _ _ _ _ _ _ _ _ _ _ _ _ _ _ _ _ _ _ _ _ _ _ _ _ (congrFun (hpre c) ix0)
  funext j
  obtain ⟨b, rfl⟩ : ∃ b : Fin 16384, j = ix1 b := ⟨j 0, eq_ix1 j⟩
  rw [h0, h1, h2, h3, h4, h5, h6, h7, h8, h9, h10, h11, h12, h13, h14, h15, h16, h17, h18, h19, h20, h21, h22, h23, h24, h25, h26, h27, h28, h29]
  rw [Cert.ReferenceIdeal.RV.refAll_apply _ _ _ _ _ _ _ _ _ _ _ _ _ _ _ _ _ _ _ _ _ _ _ _ _ _ _ _ _ b (hl b) (hv b) hr1 hr2]
  refine congrArg₂ Cert.Spec.out ?_ ?_
  · unfold Cert.ReferenceIdeal.RV.RWof Cert.KW
    rfl
  · unfold Cert.KRow
    rw [Cert.KernelIdeal.KV.V_main_v9, Cert.KernelIdeal.KV.V_main_v29, Cert.ReferenceIdeal.RV.itemR_eq, Cert.ReferenceIdeal.RV.histR_eq]
    rfl

theorem claim : Cert.Claim :=
  ⟨Cert.Kernel.Gen.facts, Cert.KernelIdeal.Gen.facts, Cert.ReferenceIdeal.Gen.facts, Cert.Pre_finite_inputs.Gen.facts,
    frame_K, frame_KI, frame_RI, trivial, algebraic⟩

end Cert.Proof

end
